-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048 : Shape := ⟨1, ![2048]⟩
abbrev S50000x512 : Shape := ⟨2, ![50000, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg1 : IVec S2048 32) (main_v13 : IVec S_ 1) (main_v15 : IVec S2048 1) (main_c_5 : IVec S_ 1) : IVec S_ 1 :=
  let main_v16 : IVec S_ 1 := (fun x v => Host.reduce IntOp.andi x v reducesTo_S2048_S_d0 h_S_) main_v15 main_c_5
  let main_v17 : IVec S_ 1 := andi main_v13 main_v16
  let main_c_6 : IVec S_ 32 := constantI S_ 32 50000#32
  let main_v18 : IVec S2048 32 := broadcastInDim S2048 ![] bcast_S_S2048 main_c_6
  let main_v19 : IVec S2048 1 := cmpi .slt main_arg1 main_v18
  let main_c_7 : IVec S_ 1 := constantI S_ 1 1#1
  let main_v20 : IVec S_ 1 := (fun x v => Host.reduce IntOp.andi x v reducesTo_S2048_S_d0 h_S_) main_v19 main_c_7
  let main_v21 : IVec S_ 1 := andi main_v17 main_v20
  main_v21

def fn {F : FTy → Type} [FloatOps F] (main_arg0 : FVec F S2048x512 .f32) (main_arg1 : IVec S2048 32) (main_arg2 : FVec F S50000x512 .f32) (main_arg3 : FVec F S50000x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S50000x512 .f32 := Host.absf main_arg2
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S50000x512 .f32 := Host.absf main_arg3
  let main_cst_2 : FVec F S_ .f32 := constant S_ .f32 0x7F800000#32
  let main_v10 : FVec F S50000x512 .f32 := broadcastInDim S50000x512 ![] bcast_S_S50000x512 main_cst_2
  let main_v11 : IVec S50000x512 1 := cmpf .olt main_v9 main_v10
  let main_c_3 : IVec S_ 1 := constantI S_ 1 1#1
  let main_v12 : IVec S_ 1 := (fun x v => Host.reduce IntOp.andi x v reducesTo_S50000x512_S_d0_1 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg1 main_v14
  let main_c_5 : IVec S_ 1 := constantI S_ 1 1#1
  fn_part1 (F := F) main_arg1 main_v13 main_v15 main_c_5
-- ==== Kernel.lean ====
abbrev S2048x512 : Shape := ⟨2, ![2048, 512]⟩
abbrev S2048 : Shape := ⟨1, ![2048]⟩
abbrev S50000x512 : Shape := ⟨2, ![50000, 512]⟩
abbrev S2048x1 : Shape := ⟨2, ![2048, 1]⟩
abbrev S_ : Shape := ⟨0, ![]⟩
abbrev S1x2048 : Shape := ⟨2, ![1, 2048]⟩
abbrev S256x512 : Shape := ⟨2, ![256, 512]⟩
abbrev S256x1 : Shape := ⟨2, ![256, 1]⟩
abbrev S256x2048 : Shape := ⟨2, ![256, 2048]⟩
abbrev S256 : Shape := ⟨1, ![256]⟩
abbrev S50000 : Shape := ⟨1, ![50000]⟩
abbrev S50000x1 : Shape := ⟨2, ![50000, 1]⟩
abbrev S50176x512 : Shape := ⟨2, ![50176, 512]⟩
abbrev S1024x512 : Shape := ⟨2, ![1024, 512]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 123
  | .vmem => 21
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S50000x512, .f32⟩
  | .hbm, ⟨3, _⟩ => ⟨S50000x512, .f32⟩
  | .hbm, ⟨4, _⟩ => ⟨S2048x1, .i32⟩
  | .hbm, ⟨5, _⟩ => ⟨S2048x512, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x512, .bf16⟩
  | .hbm, ⟨10, _⟩ => ⟨S1x2048, .f32⟩
  | .hbm, ⟨11, _⟩ => ⟨S1x2048, .i32⟩
  | .hbm, ⟨12, _⟩ => ⟨S2048x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048x512, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1, .f32⟩
  | .hbm, ⟨39, _⟩ => ⟨S2048x512, .f32⟩
  | .hbm, ⟨40, _⟩ => ⟨S2048x512, .f32⟩
  | .hbm, ⟨41, _⟩ => ⟨S2048x512, .bf16⟩
  | .hbm, ⟨42, _⟩ => ⟨S50000x512, .f32⟩
  | .hbm, ⟨43, _⟩ => ⟨S_, .f32⟩
  | .hbm, ⟨44, _⟩ => ⟨S50000, .f32⟩
  | .hbm, ⟨45, _⟩ => ⟨S50000x1, .f32⟩
  | .hbm, ⟨46, _⟩ => ⟨S50000x1, .f32⟩
  | .hbm, ⟨47, _⟩ => ⟨S50000x512, .f32⟩
  | .hbm, ⟨48, _⟩ => ⟨S50000x512, .f32⟩
  | .hbm, ⟨49, _⟩ => ⟨S50000x512, .bf16⟩
  | .hbm, ⟨50, _⟩ => ⟨S_, .f32⟩
  | .hbm, ⟨51, _⟩ => ⟨S_, .bf16⟩
  | .hbm, ⟨52, _⟩ => ⟨S50176x512, .bf16⟩
  | .hbm, ⟨53, _⟩ => ⟨S2048x1, .f32⟩
  | .hbm, ⟨54, _⟩ => ⟨S2048x1, .f32⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S2048x512, .bf16⟩
  | .hbm, ⟨64, _⟩ => ⟨S2048x512, .f32⟩
  | .hbm, ⟨65, _⟩ => ⟨S2048x512, .f32⟩
  | .hbm, ⟨66, _⟩ => ⟨S2048x512, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048x1, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S2048x1, .f32⟩
  | .hbm, ⟨99, _⟩ => ⟨S_, .f32⟩
  | .hbm, ⟨100, _⟩ => ⟨S2048x1, .f32⟩
  | .hbm, ⟨101, _⟩ => ⟨S2048x1, .f32⟩
  | .hbm, ⟨102, _⟩ => ⟨S2048x1, .f32⟩
  | .hbm, ⟨103, _⟩ => ⟨S2048x1, .f32⟩
  | .hbm, ⟨104, _⟩ => ⟨S2048x1, .f32⟩
  | .hbm, ⟨105, _⟩ => ⟨S2048x1, .f32⟩
  | .hbm, ⟨106, _⟩ => ⟨S2048x1, .f32⟩
  | .hbm, ⟨107, _⟩ => ⟨S2048x1, .f32⟩
  | .hbm, ⟨108, _⟩ => ⟨S2048x1, .f32⟩
  | .hbm, ⟨109, _⟩ => ⟨S2048x1, .f32⟩
  | .hbm, ⟨110, _⟩ => ⟨S2048x1, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S256x1, .f32⟩
  | .local _ .vmem, ⟨4, _⟩ => ⟨S256x1, .f32⟩
  | .local _ .vmem, ⟨5, _⟩ => ⟨S1x2048, .f32⟩
  | .local _ .vmem, ⟨6, _⟩ => ⟨S256x1, .i32⟩
  | .local _ .vmem, ⟨7, _⟩ => ⟨S256x1, .i32⟩
  | .local _ .vmem, ⟨8, _⟩ => ⟨S1x2048, .i32⟩
  | .local _ .vmem, ⟨9, _⟩ => ⟨S256x1, .f32⟩
  | .local _ .vmem, ⟨10, _⟩ => ⟨S256x1, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_call0_v0 : Ref sig .tc := ⟨.hbm, 34, rfl⟩
abbrev main_call0_cst : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_call2_v0 : Ref sig .tc := ⟨.hbm, 51, rfl⟩
abbrev main_v30 : Ref sig .tc := ⟨.hbm, 52, rfl⟩
abbrev main_v31_0 : Ref sig .tc := ⟨.hbm, 53, rfl⟩
abbrev main_v31_1 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_cst_11 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v44 : Ref sig .tc := ⟨.hbm, 77, rfl⟩
abbrev main_cst_12 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_13 : Ref sig .tc := ⟨.hbm, 82, rfl⟩
abbrev main_v48 : Ref sig .tc := ⟨.hbm, 83, rfl⟩
abbrev main_v49 : Ref sig .tc := ⟨.hbm, 84, rfl⟩
abbrev main_cst_14 : Ref sig .tc := ⟨.hbm, 85, rfl⟩
abbrev main_v50 : Ref sig .tc := ⟨.hbm, 86, rfl⟩
abbrev main_v51 : Ref sig .tc := ⟨.hbm, 87, rfl⟩
abbrev main_cst_15 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_16 : Ref sig .tc := ⟨.hbm, 92, rfl⟩
abbrev main_v55 : Ref sig .tc := ⟨.hbm, 93, rfl⟩
abbrev main_v56 : Ref sig .tc := ⟨.hbm, 94, rfl⟩
abbrev main_cst_17 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_18 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_19 : Ref sig .tc := ⟨.hbm, 111, rfl⟩
abbrev main_v71 : Ref sig .tc := ⟨.hbm, 112, rfl⟩
abbrev main_cst_20 : Ref sig .tc := ⟨.hbm, 113, rfl⟩
abbrev main_v72 : Ref sig .tc := ⟨.hbm, 114, rfl⟩
abbrev main_cst_21 : Ref sig .tc := ⟨.hbm, 115, rfl⟩
abbrev main_v73 : Ref sig .tc := ⟨.hbm, 116, rfl⟩
abbrev main_cst_22 : Ref sig .tc := ⟨.hbm, 117, rfl⟩
abbrev main_v74 : Ref sig .tc := ⟨.hbm, 118, rfl⟩
abbrev main_v75 : Ref sig .tc := ⟨.hbm, 119, rfl⟩
abbrev main_cst_23 : Ref sig .tc := ⟨.hbm, 120, rfl⟩
abbrev main_v76 : Ref sig .tc := ⟨.hbm, 121, rfl⟩
abbrev main_v77 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 49], ![false, false]⟩

def k1_cond2 (i : grid1.Coords) : BitVec 1 :=
  let arg1 : BitVec 32 := BitVec.ofNat 32 (i 1).val
  let c48_i32 : BitVec 32 := 48#32
  let v43 : BitVec 1 := Scalar.cmpi .eq arg1 c48_i32
  let v44 : BitVec 32 := Scalar.extui v43
  let c0_i32_20 : BitVec 32 := 0#32
  let v45 : BitVec 1 := Scalar.cmpi .ne v44 c0_i32_20
  v45

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S2048_S2048x1 : S2048.ShapeCasts S2048x1
  reducesTo_S2048x512_S2048_d1 : S2048x512.ReducesTo [1] S2048
  h_S_ : 0 < S_.numel
  bcast_S2048_S2048x1_0 : S2048.BroadcastsInDim S2048x1 (![0] : Fin 1 → Fin S2048x1.rank)
  bitsLt_bf16_f32 : FTy.bits .bf16 < FTy.bits .f32
  shapeCasts_S2048x1_S1x2048 : S2048x1.ShapeCasts S1x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  iota_S256x2048_d0_w32 : S256x2048.Iotas .tc 32 [0]
  iota_S256x2048_d1_w32 : S256x2048.Iotas .tc 32 [1]
  natLt_1_32 : 1 < 32
  reduces_S256x2048_S256 : S256x2048.Reduces [1] S256
  shapeCasts_S256_S256x1 : S256.ShapeCasts S256x1
  reducesTo_S2048x1_S_d0_1 : S2048x1.ReducesTo [0, 1] S_
  bcast_S_S2048 : S_.BroadcastsInDim S2048 (![] : Fin 0 → Fin S2048.rank)
  reducesTo_S2048_S_d0 : S2048.ReducesTo [0] S_
  bcast_S2048x1_S2048x512_0_1 : S2048x1.BroadcastsInDim S2048x512 (![0, 1] : Fin 2 → Fin S2048x512.rank)
  reducesTo_S50000x512_S50000_d1 : S50000x512.ReducesTo [1] S50000
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  pads_S50000x512_S50176x512_01760_000 : S50000x512.Pads (![0, 0] : Fin 2 → Nat) ![176, 0] ![0, 0] S50176x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  bcast_S_S2048x1 : S_.BroadcastsInDim S2048x1 (![] : Fin 0 → Fin S2048x1.rank)
  dot_S256x512_S2048x512_S256x2048_1_1_0_0_n_n_wf : DotDims.WF S256x512 S2048x512 S256x2048 [1] [1] [0] [0] [] []
  gather_S50000x512_S2048x1_S2048x512_1_0_n_n_0_1_1512_wf : GatherDims.WF S50000x512 S2048x1 S2048x512 [1] [0] [] [0] [] 1 ![1, 512]
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x512.size a
  hwx0_0 : ∀ i : grid0.Coords, EltTy.bits .bf16 = 32 ∨ (Rect.block (s := S2048x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .i32 = 32 ∨ (Rect.block (s := S2048x1) S256x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .i32 = 32 ∨ (Rect.block (s := S1x2048) S1x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S2048x1.size a
  hwx0_6 : ∀ i : grid0.Coords, EltTy.bits .f32 = 32 ∨ (Rect.block (s := S2048x1) S256x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S2048x512.size a
  hwx1_0 : ∀ i : grid1.Coords, EltTy.bits .bf16 = 32 ∨ (Rect.block (s := S2048x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S50176x512.size a
  hwx1_1 : ∀ i : grid1.Coords, EltTy.bits .bf16 = 32 ∨ (Rect.block (s := S50176x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S2048x1.size a
  hwx1_2 : ∀ i : grid1.Coords, EltTy.bits .f32 = 32 ∨ (Rect.block (s := S2048x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S2048x1.size a
  hwx1_3 : ∀ i : grid1.Coords, EltTy.bits .f32 = 32 ∨ (Rect.block (s := S2048x1) S1024x1.size (cc1_transform_3 i) (hinb1_3 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def gather_S50000x512_S2048x1_S2048x512_1_0_n_n_0_1_1512 : GatherDims S50000x512 S2048x1 S2048x512 where
  offsetDims := [1]
  collapsedSliceDims := [0]
  operandBatchingDims := []
  startIndicesBatchingDims := []
  startIndexMap := [0]
  indexVectorDim := 1
  sliceSizes := ![1, 512]
  wf := gather_S50000x512_S2048x1_S2048x512_1_0_n_n_0_1_1512_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v4) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31_0) S1024x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31_1) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2048x512 : Shape := ⟨2, ![2048, 512]⟩
abbrev S2048 : Shape := ⟨1, ![2048]⟩
abbrev S50000x512 : Shape := ⟨2, ![50000, 512]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S512x2048 : Shape := ⟨2, ![512, 2048]⟩
abbrev S50000 : Shape := ⟨1, ![50000]⟩
abbrev S50000x1 : Shape := ⟨2, ![50000, 1]⟩
abbrev S512x50000 : Shape := ⟨2, ![512, 50000]⟩
abbrev S2048x50000 : Shape := ⟨2, ![2048, 50000]⟩
abbrev S1x50000 : Shape := ⟨2, ![1, 50000]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 182
  | .vmem => 0
  | .smem => 0
  | _ => 0

abbrev hbmTy0_0 (i : Nat) : BufTy := match i % 128 with
  | 0 => ⟨S2048x512, .f32⟩
  | 1 => ⟨S2048, .i32⟩
  | 2 => ⟨S50000x512, .f32⟩
  | 3 => ⟨S50000x512, .f32⟩
  | 4 => ⟨S2048x512, .f32⟩
  | 5 => ⟨S_, .f32⟩
  | 6 => ⟨S2048, .f32⟩
  | 7 => ⟨S2048x1, .f32⟩
  | 8 => ⟨S1x2048, .f32⟩
  | 9 => ⟨S2048x2048, .f32⟩
  | 10 => ⟨S2048x2048, .f32⟩
  | 11 => ⟨S2048x2048, .f32⟩
  | 12 => ⟨S512x2048, .f32⟩
  | 13 => ⟨S2048x2048, .f32⟩
  | 14 => ⟨S_, .f32⟩
  | 15 => ⟨S2048x2048, .f32⟩
  | 16 => ⟨S2048x2048, .f32⟩
  | 17 => ⟨S2048x2048, .f32⟩
  | 18 => ⟨S_, .f32⟩
  | 19 => ⟨S2048x2048, .f32⟩
  | 20 => ⟨S2048x2048, .f32⟩
  | 21 => ⟨S_, .f32⟩
  | 22 => ⟨S2048x2048, .f32⟩
  | 23 => ⟨S2048x2048, .i1⟩
  | 24 => ⟨S_, .f32⟩
  | 25 => ⟨S2048x2048, .f32⟩
  | 26 => ⟨S2048x2048, .i1⟩
  | 27 => ⟨S_, .f32⟩
  | 28 => ⟨S_, .f32⟩
  | 29 => ⟨S2048x2048, .f32⟩
  | 30 => ⟨S2048x2048, .f32⟩
  | 31 => ⟨S2048x2048, .f32⟩
  | 32 => ⟨S_, .f32⟩
  | 33 => ⟨S_, .f32⟩
  | 34 => ⟨S2048x2048, .f32⟩
  | 35 => ⟨S2048x2048, .f32⟩
  | 36 => ⟨S2048x1, .i32⟩
  | 37 => ⟨S1x2048, .i32⟩
  | 38 => ⟨S2048x2048, .i32⟩
  | 39 => ⟨S2048x2048, .i32⟩
  | 40 => ⟨S2048x2048, .i1⟩
  | 41 => ⟨S2048x2048, .f32⟩
  | 42 => ⟨S2048x2048, .f32⟩
  | 43 => ⟨S_, .f32⟩
  | 44 => ⟨S2048, .f32⟩
  | 45 => ⟨S_, .f32⟩
  | 46 => ⟨S2048x2048, .f32⟩
  | 47 => ⟨S2048x2048, .f32⟩
  | 48 => ⟨S2048x2048, .f32⟩
  | 49 => ⟨S_, .f32⟩
  | 50 => ⟨S2048, .f32⟩
  | 51 => ⟨S2048, .f32⟩
  | 52 => ⟨S_, .f32⟩
  | 53 => ⟨S2048, .f32⟩
  | 54 => ⟨S2048, .f32⟩
  | 55 => ⟨S_, .f32⟩
  | 56 => ⟨S2048, .f32⟩
  | 57 => ⟨S2048, .f32⟩
  | 58 => ⟨S_, .f32⟩
  | 59 => ⟨S_, .f32⟩
  | 60 => ⟨S_, .f32⟩
  | 61 => ⟨S_, .f32⟩
  | 62 => ⟨S_, .i32⟩
  | 63 => ⟨S2048, .i32⟩
  | 64 => ⟨S2048, .i1⟩
  | 65 => ⟨S_, .i32⟩
  | 66 => ⟨S2048, .i32⟩
  | 67 => ⟨S2048, .i32⟩
  | 68 => ⟨S2048, .i32⟩
  | 69 => ⟨S2048x1, .i32⟩
  | 70 => ⟨S2048x512, .f32⟩
  | 71 => ⟨S2048x512, .f32⟩
  | 72 => ⟨S2048x512, .f32⟩
  | 73 => ⟨S_, .f32⟩
  | 74 => ⟨S2048, .f32⟩
  | 75 => ⟨S_, .f32⟩
  | 76 => ⟨S_, .f32⟩
  | 77 => ⟨S_, .f32⟩
  | 78 => ⟨S_, .f32⟩
  | 79 => ⟨S2048x512, .f32⟩
  | 80 => ⟨S_, .f32⟩
  | 81 => ⟨S2048, .f32⟩
  | 82 => ⟨S2048x1, .f32⟩
  | 83 => ⟨S2048x1, .f32⟩
  | 84 => ⟨S2048x512, .f32⟩
  | 85 => ⟨S2048x512, .f32⟩
  | 86 => ⟨S50000x512, .f32⟩
  | 87 => ⟨S_, .f32⟩
  | 88 => ⟨S50000, .f32⟩
  | 89 => ⟨S50000x1, .f32⟩
  | 90 => ⟨S50000x1, .f32⟩
  | 91 => ⟨S50000x512, .f32⟩
  | 92 => ⟨S50000x512, .f32⟩
  | 93 => ⟨S512x50000, .f32⟩
  | 94 => ⟨S2048x50000, .f32⟩
  | 95 => ⟨S_, .f32⟩
  | 96 => ⟨S_, .f32⟩
  | 97 => ⟨S_, .f32⟩
  | 98 => ⟨S2048x50000, .f32⟩
  | 99 => ⟨S2048x50000, .f32⟩
  | 100 => ⟨S_, .f32⟩
  | 101 => ⟨S2048x50000, .f32⟩
  | 102 => ⟨S2048x50000, .f32⟩
  | 103 => ⟨S2048x50000, .f32⟩
  | 104 => ⟨S_, .f32⟩
  | 105 => ⟨S2048x50000, .f32⟩
  | 106 => ⟨S2048x50000, .f32⟩
  | 107 => ⟨S_, .f32⟩
  | 108 => ⟨S2048x50000, .f32⟩
  | 109 => ⟨S2048x50000, .f32⟩
  | 110 => ⟨S2048x50000, .f32⟩
  | 111 => ⟨S_, .f32⟩
  | 112 => ⟨S2048x50000, .f32⟩
  | 113 => ⟨S2048x50000, .f32⟩
  | 114 => ⟨S_, .f32⟩
  | 115 => ⟨S2048x50000, .f32⟩
  | 116 => ⟨S2048x50000, .f32⟩
  | 117 => ⟨S2048x50000, .f32⟩
  | 118 => ⟨S2048x1, .i32⟩
  | 119 => ⟨S1x50000, .i32⟩
  | 120 => ⟨S2048x50000, .i32⟩
  | 121 => ⟨S2048x50000, .i32⟩
  | 122 => ⟨S2048x50000, .i1⟩
  | 123 => ⟨S2048x50000, .f32⟩
  | 124 => ⟨S_, .f32⟩
  | 125 => ⟨S2048x50000, .f32⟩
  | 126 => ⟨S2048x50000, .i1⟩
  | 127 => ⟨S2048x50000, .f32⟩
  | _ => ⟨S2048x512, .f32⟩

abbrev hbmTy0_1 (i : Nat) : BufTy := match i % 128 with
  | 0 => ⟨S_, .f32⟩
  | 1 => ⟨S2048x50000, .f32⟩
  | 2 => ⟨S2048x50000, .f32⟩
  | 3 => ⟨S_, .f32⟩
  | 4 => ⟨S2048, .f32⟩
  | 5 => ⟨S_, .f32⟩
  | 6 => ⟨S2048, .f32⟩
  | 7 => ⟨S2048, .f32⟩
  | 8 => ⟨S2048x1, .f32⟩
  | 9 => ⟨S2048x50000, .f32⟩
  | 10 => ⟨S2048x50000, .f32⟩
  | 11 => ⟨S2048x50000, .f32⟩
  | 12 => ⟨S_, .f32⟩
  | 13 => ⟨S2048, .f32⟩
  | 14 => ⟨S2048x1, .f32⟩
  | 15 => ⟨S2048x1, .f32⟩
  | 16 => ⟨S2048x50000, .f32⟩
  | 17 => ⟨S2048x50000, .f32⟩
  | 18 => ⟨S2048x1, .i32⟩
  | 19 => ⟨S_, .i32⟩
  | 20 => ⟨S2048x1, .i32⟩
  | 21 => ⟨S2048x1, .i1⟩
  | 22 => ⟨S_, .i32⟩
  | 23 => ⟨S2048x1, .i32⟩
  | 24 => ⟨S2048x1, .i32⟩
  | 25 => ⟨S2048x1, .i32⟩
  | 26 => ⟨S2048x1x1, .i32⟩
  | 27 => ⟨S1, .i32⟩
  | 28 => ⟨S_, .i32⟩
  | 29 => ⟨S2048x1x1, .i32⟩
  | 30 => ⟨S2048x1x1, .i1⟩
  | 31 => ⟨S1x1x1, .i32⟩
  | 32 => ⟨S2048x1x1, .i32⟩
  | 33 => ⟨S2048x1x1, .i1⟩
  | 34 => ⟨S2048x1x1, .i1⟩
  | 35 => ⟨S_, .i1⟩
  | 36 => ⟨S2048x1, .i1⟩
  | 37 => ⟨S2048x1, .f32⟩
  | 38 => ⟨S_, .f32⟩
  | 39 => ⟨S2048x1, .f32⟩
  | 40 => ⟨S2048x1, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_call2_cst : Ref sig .tc := ⟨.hbm, 55, rfl⟩
abbrev main_call2_v0 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_c : Ref sig .tc := ⟨.hbm, 62, rfl⟩
abbrev main_v39 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_cst_14 : Ref sig .tc := ⟨.hbm, 75, rfl⟩
abbrev main_v49 : Ref sig .tc := ⟨.hbm, 76, rfl⟩
abbrev main_cst_15 : Ref sig .tc := ⟨.hbm, 77, rfl⟩
abbrev main_v50 : Ref sig .tc := ⟨.hbm, 78, rfl⟩
abbrev main_call3_v0 : Ref sig .tc := ⟨.hbm, 79, rfl⟩
abbrev main_call3_cst : Ref sig .tc := ⟨.hbm, 80, rfl⟩
abbrev main_call3_v1 : Ref sig .tc := ⟨.hbm, 81, rfl⟩
abbrev main_call3_v2 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call4_v0 : Ref sig .tc := ⟨.hbm, 86, rfl⟩
abbrev main_call4_cst : Ref sig .tc := ⟨.hbm, 87, rfl⟩
abbrev main_call4_v1 : Ref sig .tc := ⟨.hbm, 88, rfl⟩
abbrev main_call4_v2 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_16 : Ref sig .tc := ⟨.hbm, 95, rfl⟩
abbrev main_cst_17 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v59 : Ref sig .tc := ⟨.hbm, 102, rfl⟩
abbrev main_v60 : Ref sig .tc := ⟨.hbm, 103, rfl⟩
abbrev main_cst_18 : Ref sig .tc := ⟨.hbm, 104, rfl⟩
abbrev main_v61 : Ref sig .tc := ⟨.hbm, 105, rfl⟩
abbrev main_v62 : Ref sig .tc := ⟨.hbm, 106, rfl⟩
abbrev main_cst_19 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_20 : Ref sig .tc := ⟨.hbm, 111, rfl⟩
abbrev main_v66 : Ref sig .tc := ⟨.hbm, 112, rfl⟩
abbrev main_v67 : Ref sig .tc := ⟨.hbm, 113, rfl⟩
abbrev main_cst_21 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_v71 : Ref sig .tc := ⟨.hbm, 123, rfl⟩
abbrev main_cst_22 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_23 : Ref sig .tc := ⟨.hbm, 128, rfl⟩
abbrev main_v75 : Ref sig .tc := ⟨.hbm, 129, rfl⟩
abbrev main_v76 : Ref sig .tc := ⟨.hbm, 130, rfl⟩
abbrev main_call8_cst : Ref sig .tc := ⟨.hbm, 131, rfl⟩
abbrev main_call8_v0 : Ref sig .tc := ⟨.hbm, 132, rfl⟩
abbrev main_call8_cst_0 : Ref sig .tc := ⟨.hbm, 133, rfl⟩
abbrev main_call8_v1 : Ref sig .tc := ⟨.hbm, 134, rfl⟩
abbrev main_call8_v2 : Ref sig .tc := ⟨.hbm, 135, rfl⟩
abbrev main_call8_v3 : Ref sig .tc := ⟨.hbm, 136, rfl⟩
abbrev main_call8_v4 : Ref sig .tc := ⟨.hbm, 137, rfl⟩
abbrev main_call8_v5 : Ref sig .tc := ⟨.hbm, 138, rfl⟩
abbrev main_call8_v6 : Ref sig .tc := ⟨.hbm, 139, rfl⟩
abbrev main_call8_cst_1 : Ref sig .tc := ⟨.hbm, 140, rfl⟩
abbrev main_call8_v7 : Ref sig .tc := ⟨.hbm, 141, rfl⟩
abbrev main_call8_v8 : Ref sig .tc := ⟨.hbm, 142, rfl⟩
abbrev main_call8_v9 : Ref sig .tc := ⟨.hbm, 143, rfl⟩
abbrev main_call8_v10 : Ref sig .tc := ⟨.hbm, 144, rfl⟩
abbrev main_v77 : Ref sig .tc := ⟨.hbm, 145, rfl⟩
abbrev main_v78 : Ref sig .tc := ⟨.hbm, 146, rfl⟩
abbrev main_call9_c : Ref sig .tc := ⟨.hbm, 147, rfl⟩
abbrev main_call9_v0 : Ref sig .tc := ⟨.hbm, 148, rfl⟩
abbrev main_call9_v1 : Ref sig .tc := ⟨.hbm, 149, rfl⟩
abbrev main_call9_c_0 : Ref sig .tc := ⟨.hbm, 150, rfl⟩
abbrev main_call9_v2 : Ref sig .tc := ⟨.hbm, 151, rfl⟩
abbrev main_call9_v3 : Ref sig .tc := ⟨.hbm, 152, rfl⟩
abbrev main_call9_v4 : Ref sig .tc := ⟨.hbm, 153, rfl⟩
abbrev main_call9_v5 : Ref sig .tc := ⟨.hbm, 154, rfl⟩
abbrev main_call9_c_1 : Ref sig .tc := ⟨.hbm, 155, rfl⟩
abbrev main_call9_c_2 : Ref sig .tc := ⟨.hbm, 156, rfl⟩
abbrev main_call9_v6 : Ref sig .tc := ⟨.hbm, 157, rfl⟩
abbrev main_call9_v7 : Ref sig .tc := ⟨.hbm, 158, rfl⟩
abbrev main_call9_v8 : Ref sig .tc := ⟨.hbm, 159, rfl⟩
abbrev main_call9_v9 : Ref sig .tc := ⟨.hbm, 160, rfl⟩
abbrev main_call9_v10 : Ref sig .tc := ⟨.hbm, 161, rfl⟩
abbrev main_call9_v11 : Ref sig .tc := ⟨.hbm, 162, rfl⟩
abbrev main_call9_c_3 : Ref sig .tc := ⟨.hbm, 163, rfl⟩
abbrev main_call9_v12 : Ref sig .tc := ⟨.hbm, 164, rfl⟩
abbrev main_call9_v13 : Ref sig .tc := ⟨.hbm, 165, rfl⟩
abbrev main_call9_cst : Ref sig .tc := ⟨.hbm, 166, rfl⟩
abbrev main_call9_v14 : Ref sig .tc := ⟨.hbm, 167, rfl⟩
abbrev main_v79 : Ref sig .tc := ⟨.hbm, 168, rfl⟩
abbrev main_cst_24 : Ref sig .tc := ⟨.hbm, 169, rfl⟩
abbrev main_v80 : Ref sig .tc := ⟨.hbm, 170, rfl⟩
abbrev main_cst_25 : Ref sig .tc := ⟨.hbm, 171, rfl⟩
abbrev main_v81 : Ref sig .tc := ⟨.hbm, 172, rfl⟩
abbrev main_v82 : Ref sig .tc := ⟨.hbm, 173, rfl⟩
abbrev main_cst_26 : Ref sig .tc := ⟨.hbm, 174, rfl⟩
abbrev main_v83 : Ref sig .tc := ⟨.hbm, 175, rfl⟩
abbrev main_cst_27 : Ref sig .tc := ⟨.hbm, 176, rfl⟩
abbrev main_v84 : Ref sig .tc := ⟨.hbm, 177, rfl⟩
abbrev main_v85 : Ref sig .tc := ⟨.hbm, 178, rfl⟩
abbrev main_cst_28 : Ref sig .tc := ⟨.hbm, 179, rfl⟩
abbrev main_v86 : Ref sig .tc := ⟨.hbm, 180, rfl⟩
abbrev main_v87 : Ref sig .tc := ⟨.hbm, 181, rfl⟩

abbrev nD : Nat := 1
abbrev τ : Topo := Topo.v7x

variable {F : FTy → Type} [FloatOps F]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  transposes_S2048x512_S512x2048_1_0 : S2048x512.Transposes [1, 0] S512x2048
  bcast_S_S2048x2048 : S_.BroadcastsInDim S2048x2048 (![] : Fin 0 → Fin S2048x2048.rank)
  reducesTo_S2048x2048_S2048_d1 : S2048x2048.ReducesTo [1] S2048
  bcast_S_S2048 : S_.BroadcastsInDim S2048 (![] : Fin 0 → Fin S2048.rank)
  reducesTo_S2048_S_d0 : S2048.ReducesTo [0] S_
  bcast_S2048x1_S2048x512_0_1 : S2048x1.BroadcastsInDim S2048x512 (![0, 1] : Fin 2 → Fin S2048x512.rank)
  reducesTo_S50000x512_S50000_d1 : S50000x512.ReducesTo [1] S50000
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S50000x512_S512x50000_1_0 : S50000x512.Transposes [1, 0] S512x50000
  bcast_S_S2048x50000 : S_.BroadcastsInDim S2048x50000 (![] : Fin 0 → Fin S2048x50000.rank)
  bcast_S2048x1_S2048x50000_0_1 : S2048x1.BroadcastsInDim S2048x50000 (![0, 1] : Fin 2 → Fin S2048x50000.rank)
  bcast_S1x50000_S2048x50000_0_1 : S1x50000.BroadcastsInDim S2048x50000 (![0, 1] : Fin 2 → Fin S2048x50000.rank)
  reducesTo_S2048x50000_S2048_d1 : S2048x50000.ReducesTo [1] S2048
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  reducesTo_S2048x1_S_d0_1 : S2048x1.ReducesTo [0, 1] S_
  dot_S2048x512_S512x2048_S2048x2048_1_0_0_1_n_n_wf : DotDims.WF S2048x512 S512x2048 S2048x2048 [1] [0] [0] [1] [] []
  gather_S50000x512_S2048x1_S2048x512_1_0_n_n_0_1_1512_wf : GatherDims.WF S50000x512 S2048x1 S2048x512 [1] [0] [] [0] [] 1 ![1, 512]
  dot_S2048x512_S512x50000_S2048x50000_1_0_0_1_n_n_wf : DotDims.WF S2048x512 S512x50000 S2048x50000 [1] [0] [0] [1] [] []
  gather_S2048x50000_S2048x1x1_S2048x1_n_1_0_0_1_2_11_wf : GatherDims.WF S2048x50000 S2048x1x1 S2048x1 [] [1] [0] [1] [0] 2 ![1, 1]

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def gather_S50000x512_S2048x1_S2048x512_1_0_n_n_0_1_1512 : GatherDims S50000x512 S2048x1 S2048x512 where
  offsetDims := [1]
  collapsedSliceDims := [0]
  operandBatchingDims := []
  startIndicesBatchingDims := []
  startIndexMap := [0]
  indexVectorDim := 1
  sliceSizes := ![1, 512]
  wf := gather_S50000x512_S2048x1_S2048x512_1_0_n_n_0_1_1512_wf
def dot_S2048x512_S512x50000_S2048x50000_1_0_0_1_n_n : DotDims S2048x512 S512x50000 S2048x50000 where
  lhsContracting := [1]
  rhsContracting := [0]
  lhsNonContracting := [0]
  rhsNonContracting := [1]
  lhsBatch := []
  rhsBatch := []
  wf := dot_S2048x512_S512x50000_S2048x50000_1_0_0_1_n_n_wf
def gather_S2048x50000_S2048x1x1_S2048x1_n_1_0_0_1_2_11 : GatherDims S2048x50000 S2048x1x1 S2048x1 where
  offsetDims := []
  collapsedSliceDims := [1]
  operandBatchingDims := [0]
  startIndicesBatchingDims := [0]
  startIndexMap := [1]
  indexVectorDim := 2
  sliceSizes := ![1, 1]
  wf := gather_S2048x50000_S2048x1x1_S2048x1_n_1_0_0_1_2_11_wf

class Facts : Prop extends Facts₀ where

variable [Facts]
-- ==== Proof.KI.R0Q.lean ====
import Idealize.SL.RA.TreeShare

/-! # The shares of the first kernel's windows

The first kernel reads one array through two of its input windows (windows 0 and 1) and every other
window has an array of its own.  The array read twice is dealt between its two readers: window 0
holds the left half of the full share, window 1 the right half; the two halves are positive,
disjoint, and compose to the full share.  Every other window holds the full share of its array. -/

namespace Cert.KernelIdeal.Hand

open Idealize.SL.RA
open scoped Idealize.SL.RA.PCS

/-- The share window `w` holds of its array: the two readers of the common array hold the two halves
    of the full share, every other window the full share. -/
def q0 : Fin 7 → PosShare TreeShare
  | 0 => fullShare.left
  | 1 => fullShare.right
  | _ => fullShare

@[simp] theorem q0_zero : q0 0 = fullShare.left := rfl
@[simp] theorem q0_one : q0 1 = fullShare.right := rfl
@[simp] theorem q0_two : q0 2 = fullShare := rfl
@[simp] theorem q0_three : q0 3 = fullShare := rfl
@[simp] theorem q0_four : q0 4 = fullShare := rfl
@[simp] theorem q0_five : q0 5 = fullShare := rfl
@[simp] theorem q0_six : q0 6 = fullShare := rfl

/-- A window other than the two readers of the common array holds the full share. -/
theorem q0_of_ne (w : Fin 7) (h0 : w ≠ 0) (h1 : w ≠ 1) : q0 w = fullShare := by
  match w, h0, h1 with
  | 0, h0, _ => exact absurd rfl h0
  | 1, _, h1 => exact absurd rfl h1
  | 2, _, _ => rfl
  | 3, _, _ => rfl
  | 4, _, _ => rfl
  | 5, _, _ => rfl
  | 6, _, _ => rfl

/-- The two readers' shares compose to the full share. -/
theorem q0_join : fullShare ∈ q0 0 ·? q0 1 := PosShare.mem_left_op_right fullShare

end Cert.KernelIdeal.Hand
-- ==== Proof.KI.R0.lean ====
/- REGION 0 of the kernel program's @main: the pairwise-distance call, which for each block of 256 anchor rows forms
   the distances to all 2048 rows, masks them by label agreement, and keeps per anchor the hardest positive less the
   hardest negative plus the margin, clamped at zero. Everything here is stated at a PARAMETER V — the TensorCore's
   buffer contents when the region is entered — and generically in the float model F.

   Seven windows: the anchor block of the embeddings (0) and all of the embeddings (1), which are the same array; the
   anchor block of the squared norms as a column (2) and all of them as a row (3); the anchor block of the labels as a
   column (4) and all of them as a row (5); the block of per-anchor losses written back (6). The body reads the six
   input buffers whole and writes the loss buffer whole, once. No scratch, no branch: the body is the same function
   of its blocks at every point. -/
import proofs.«420115_j17875653886477_3_alg».proof.Proof.Gen.KernelIdeal.Launch
import proofs.«420115_j17875653886477_3_alg».proof.Proof.Gen.KernelIdeal.Skeleton
import proofs.«420115_j17875653886477_3_alg».proof.Proof.Gen.KernelIdeal.Points
import proofs.«420115_j17875653886477_3_alg».proof.Proof.KI.R0Q
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input's current staging buffer holds its block at every point, for any proof data whose array for the
    window is V's and whose body leaves the block in place. At a point where the window is not fetched (the whole
    embeddings, norm row and label row after the first point) its block index has not moved, so the block the buffer
    still holds is this point's: one argument covers the windows fetched always and those fetched once. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every buffer is read or written whole -/

abbrev rAnchorEmb : Rect S256x512 := Rect.unit (s := S256x512) ![0, 0] S256x512.size inb_S256x512_S256x512_0_0
abbrev rAllEmb : Rect S2048x512 := Rect.unit (s := S2048x512) ![0, 0] S2048x512.size inb_S2048x512_S2048x512_0_0
abbrev rCol : Rect S256x1 := Rect.unit (s := S256x1) ![0, 0] S256x1.size inb_S256x1_S256x1_0_0
abbrev rRow : Rect S1x2048 := Rect.unit (s := S1x2048) ![0, 0] S1x2048.size inb_S1x2048_S1x2048_0_0

/-! ## What the body leaves in the loss buffer -/

/-- The loss buffer after the body, from the six input blocks: the one store, over the whole buffer, of the
    margin loss of the masked distances (the distances from the anchor block and all rows with their squared norms,
    the masks from the anchor and all labels). -/
def out0_6 (i : grid0.Coords) (x0 : Vec F S256x512 .bf16) (x1 : Vec F S2048x512 .bf16) (x2 : Vec F S256x1 .f32) (x3 : Vec F S1x2048 .f32)
    (x4 : Vec F S256x1 .i32) (x5 : Vec F S1x2048 .i32) : Vec F S256x1 .f32 :=
  View.canon [⟨rCol, k0_pay1 (k0_pay2 i (View.ld x0 rAnchorEmb) (View.ld x1 rAllEmb) (View.ld x2 rCol) (View.ld x3 rRow))
    (k0_pay3 (View.ld x4 rCol)) (k0_pay4 (View.ld x5 rRow))⟩]

/-- The one store is over the whole column, so it covers it. -/
theorem cover0_6 (p0 : Vec F S256x1 .f32) (y : S256x1.Idx) :
    ∃ pc ∈ ([⟨rCol, p0⟩] : List (View.Piece (Elt F) S256x1 .f32)), y ∈ pc.1.set :=
  View.cover_of_tiled [⟨rCol, p0⟩] S256x1.size (by rfl) y

/-! ## The body's triple -/

set_option maxHeartbeats 2000000 in
/-- The body on whole staging memrefs, the six inputs' at read contents and the loss buffer at anything, runs to
    the continuation holding the inputs as they were and the loss buffer at out0_6 of them. The loss buffer is
    loaded once before it is stored to; nothing reads what that load returns. -/
theorem sound_kernel0 (c : Dev nD) (E : Set ℕ) (i : grid0.Coords)
    (arg1 : Memref sig .tc .vmem S256x512 .bf16) (harg1 : arg1.IsWhole) (arg2 : Memref sig .tc .vmem S2048x512 .bf16) (harg2 : arg2.IsWhole)
    (arg3 : Memref sig .tc .vmem S256x1 .f32) (harg3 : arg3.IsWhole) (arg4 : Memref sig .tc .vmem S1x2048 .f32) (harg4 : arg4.IsWhole)
    (arg5 : Memref sig .tc .vmem S256x1 .i32) (harg5 : arg5.IsWhole) (arg6 : Memref sig .tc .vmem S1x2048 .i32) (harg6 : arg6.IsWhole)
    (arg7 : Memref sig .tc .vmem S256x1 .f32) (harg7 : arg7.IsWhole)
    (x0 : Vec F S256x512 .bf16) (x1 : Vec F S2048x512 .bf16) (x2 : Vec F S256x1 .f32) (x3 : Vec F S1x2048 .f32)
    (x4 : Vec F S256x1 .i32) (x5 : Vec F S1x2048 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 i x0 x1 x2 x3 x4 x5)) -∗ K ⟨⟩))
      ⊢ wp frame (wpE (defs₀ (F := F)) Variants.none c none) E
          (cc0__triplet_kernel i arg1 harg1 arg2 harg2 arg3 harg3 arg4 harg4 arg5 harg5 arg6 harg6 arg7 harg7) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the region's pipeline on core c: the arrays as the region finds them; after the body at
    point t each input's buffer still at its block and the loss buffer at out0_6 of the six input blocks; the
    invariant that of a body with no state of its own (the scoped rest and the generator register, untouched);
    nothing owed. The embeddings array is read through two windows, which hold its two complementary half shares;
    every other window holds its array whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (grid0.coords t) (iblk0 V c 0 t) (iblk0 V c 1 t) (iblk0 V c 2 t) (iblk0 V c 3 t) (iblk0 V c 4 t) (iblk0 V c 5 t)
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (grid0.coords t) (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the six inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Body.lean ====
import proofs.«420115_j17875653886477_3_alg».proof.Proof.Gen.KernelIdeal.Launch
import proofs.«420115_j17875653886477_3_alg».proof.Proof.Gen.KernelIdeal.Skeleton
import proofs.«420115_j17875653886477_3_alg».proof.Proof.Gen.KernelIdeal.Points
import Idealize.ShloMosaic.Lib.Pipeline.FrameBody
import Idealize.ShloMosaic.Lib.Pipeline.Value
import Idealize.ShloMosaic.Lib.Tactic

/-! # The online log-sum-exp kernel: what one grid point does to its buffers

The second kernel walks a grid of row tiles by class tiles. Along the class axis it keeps, for
each of the 1024 rows of the row tile, a running maximum `m` and a running sum `l` of
exponentials taken relative to that maximum. At the first class tile the pair is reset to
`(−∞, 0)`; at every class tile it is updated from the two operand blocks,
`m ↦ mNext`, `l ↦ lNext`; at the last class tile the updated pair is copied out.
This module states and proves the three Hoare triples (first tile, middle tile, last tile)
of that body over whole buffers, with the new pair named by `mNext` and `lNext`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two branch conditions, in closed form over the grid -/

/-- The body resets the running pair: the class-tile coordinate is zero. -/
def cond1_first (i : grid1.Coords) : Prop :=
  Scalar.cmpi .ne (Scalar.extui (Scalar.cmpi .eq (BitVec.ofNat 32 (i 1).val) 0#32)) 0#32 = 1#1

/-- The body copies the running pair out: the class-tile coordinate is the last one, 48. -/
def cond1_last (i : grid1.Coords) : Prop := k1_cond2 i = 1#1

/-- The reset happens at the points whose class-tile coordinate is 0. -/
theorem hcond1_first : ∀ t : Fin cfg1.N, cond1_first (grid1.coords t) ↔ t.val % 49 = 0 :=
  (by unfold cond1_first; decide +kernel : ∀ t : Fin grid1.N, cond1_first (grid1.coords t) ↔ t.val % 49 = 0)

/-- The copy-out happens at the points whose class-tile coordinate is 48. -/
theorem hcond1_last : ∀ t : Fin cfg1.N, cond1_last (grid1.coords t) ↔ t.val % 49 = 48 :=
  (by unfold cond1_last; decide +kernel : ∀ t : Fin grid1.N, cond1_last (grid1.coords t) ↔ t.val % 49 = 48)

/-! ## The updated running pair -/

/-- The running maximum after a class tile: the old maximum `sm` against the tile's row maxima. -/
def mNext (i : grid1.Coords) (x0 x1 : Vec F S1024x512 .bf16) (sm : Vec F S1024x1 .f32) : Vec F S1024x1 .f32 :=
  k1_pay2 (k1_pay6 i x0 x1 sm)

/-- The running sum after a class tile: the old sum `sl` rescaled to the new maximum, plus the tile's
    row sums of exponentials relative to the new maximum. -/
def lNext (i : grid1.Coords) (x0 x1 : Vec F S1024x512 .bf16) (sm sl : Vec F S1024x1 .f32) : Vec F S1024x1 .f32 :=
  k1_pay1 (k1_pay7 i x0 x1 sm) (k1_pay8 i x0 x1 sm sm sl)

/-- The zero offsets of a whole-buffer access, however spelt. -/
theorem zero_off2 : (![0, 0] : Fin 2 → Nat) = fun _ => 0 := funext fun a => by fin_cases a <;> rfl

/-- One whole-buffer store covers every index of the running pair's shape. -/
theorem one_store_covers (p : Vec F S1024x1 .f32) (y : S1024x1.Idx) :
    ∃ pc ∈ ([⟨Rect.unit (s := S1024x1) ![0, 0] S1024x1.size inb_S1024x1_S1024x1_0_0, p⟩] : List (View.Piece (Elt F) S1024x1 .f32)), y ∈ pc.1.set :=
  ⟨_, List.mem_singleton_self _, View.mem_set_unit_zero zero_off2 inb_S1024x1_S1024x1_0_0 y⟩

/-- So do two, the later of which alone already covers. -/
theorem two_stores_cover (p q : Vec F S1024x1 .f32) (y : S1024x1.Idx) :
    ∃ pc ∈ ([⟨Rect.unit (s := S1024x1) ![0, 0] S1024x1.size inb_S1024x1_S1024x1_0_0, p⟩,
             ⟨Rect.unit (s := S1024x1) ![0, 0] S1024x1.size inb_S1024x1_S1024x1_0_0, q⟩] : List (View.Piece (Elt F) S1024x1 .f32)), y ∈ pc.1.set :=
  ⟨_, List.mem_cons.mpr (Or.inl rfl), View.mem_set_unit_zero zero_off2 inb_S1024x1_S1024x1_0_0 y⟩

/-! ## The body's three triples -/

set_option maxHeartbeats 1000000 in
/-- FIRST class tile (not the last): the running pair is reset to `(−∞, 0)`, then updated from the two operand
    blocks; the output buffers are handed back as they were. -/
theorem sound_kernel1_A (c : Dev nD) (E : Set ℕ) (i : grid1.Coords) (hf : cond1_first i) (hl : ¬ cond1_last i)
    (arg2 : Memref sig .tc .vmem S1024x512 .bf16) (harg2 : arg2.IsWhole) (arg3 : Memref sig .tc .vmem S1024x512 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (x0 x1 : Vec F S1024x512 .bf16) (y4 y5 : Vec F S1024x1 .f32) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare y4 ∗ owns (c : Thread nD τ) arg5 fullShare y5
            ∗ owns (c : Thread nD τ) arg6 fullShare (mNext i x0 x1 k1_pay3)
            ∗ owns (c : Thread nD τ) arg7 fullShare (lNext i x0 x1 k1_pay3 k1_pay4)) -∗ K ⟨⟩))
      ⊢ wp frame (wpE (defs₀ (F := F)) Variants.none c none) E
          (cc1__arcface_kernel i arg2 harg2 arg3 harg3 arg4 harg4 arg5 harg5 arg6 harg6 arg7 harg7) K := by
  have hf' : Scalar.cmpi .ne (Scalar.extui (Scalar.cmpi .eq (BitVec.ofNat 32 (i 1).val) 0#32)) 0#32 = 1#1 := hf
  have hl' : ¬ (k1_cond2 i = 1#1) := hl
  simp only [cc1__arcface_kernel_eq_skeleton]; unfold cc1__arcface_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2; subst hf3; subst hf4; subst hf5
  sl_exec (disch := first | exact hf' | exact hl')
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (two_stores_cover _ _), View.canon_cons_unit_zero zero_off2]
    simp only [View.readAt_eq_ld, View.ld_unit_zero (S := S1024x512) zero_off2, View.ld_unit_zero (S := S1024x1) zero_off2,
      View.readCov_unit_zero (S := S1024x1) _ zero_off2]
    rfl
  iexists _; isplitr
  swap; · iexact H7
  ipureintro
  sl_unfold_run_names
  rw [View.read_writes_eq_canon _ _ _ (two_stores_cover _ _), View.canon_cons_unit_zero zero_off2]
  simp only [View.readAt_eq_ld, View.ld_unit_zero (S := S1024x512) zero_off2, View.ld_unit_zero (S := S1024x1) zero_off2,
    View.readCov_unit_zero (S := S1024x1) _ zero_off2]
  rfl

set_option maxHeartbeats 1000000 in
/-- MIDDLE class tile (neither first nor last): the running pair `(sm, sl)` is updated from the two operand
    blocks; the output buffers are handed back as they were. -/
theorem sound_kernel1_B (c : Dev nD) (E : Set ℕ) (i : grid1.Coords) (hf : ¬ cond1_first i) (hl : ¬ cond1_last i)
    (arg2 : Memref sig .tc .vmem S1024x512 .bf16) (harg2 : arg2.IsWhole) (arg3 : Memref sig .tc .vmem S1024x512 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (x0 x1 : Vec F S1024x512 .bf16) (y4 y5 : Vec F S1024x1 .f32) (sm sl : Vec F S1024x1 .f32) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare sm ∗ owns (c : Thread nD τ) arg7 fullShare sl
        ∗ (iprop(owns (c : Thread nD τ) arg2 fullShare x0 ∗ owns (c : Thread nD τ) arg3 fullShare x1
            ∗ owns (c : Thread nD τ) arg4 fullShare y4 ∗ owns (c : Thread nD τ) arg5 fullShare y5
            ∗ owns (c : Thread nD τ) arg6 fullShare (mNext i x0 x1 sm)
            ∗ owns (c : Thread nD τ) arg7 fullShare (lNext i x0 x1 sm sl)) -∗ K ⟨⟩))
      ⊢ wp frame (wpE (defs₀ (F := F)) Variants.none c none) E
          (cc1__arcface_kernel i arg2 harg2 arg3 harg3 arg4 harg4 arg5 harg5 arg6 harg6 arg7 harg7) K := by
  have hf' : ¬ (Scalar.cmpi .ne (Scalar.extui (Scalar.cmpi .eq (BitVec.ofNat 32 (i 1).val) 0#32)) 0#32 = 1#1) := hf
  have hl' : ¬ (k1_cond2 i = 1#1) := hl
  simp only [cc1__arcface_kernel_eq_skeleton]; unfold cc1__arcface_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hf' | exact hl')
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (one_store_covers _), View.canon_unit_zero zero_off2]
    simp only [View.readAt_eq_ld, View.ld_unit_zero (S := S1024x512) zero_off2, View.ld_unit_zero (S := S1024x1) zero_off2]
    rfl
  iexists _; isplitr
  swap; · iexact H7
  ipureintro
  sl_unfold_run_names
  rw [View.read_writes_eq_canon _ _ _ (one_store_covers _), View.canon_unit_zero zero_off2]
  simp only [View.readAt_eq_ld, View.ld_unit_zero (S := S1024x512) zero_off2, View.ld_unit_zero (S := S1024x1) zero_off2]
  rfl

set_option maxHeartbeats 1000000 in
/-- LAST class tile (not the first): the running pair `(sm, sl)` is updated and the new pair is copied into the
    two output buffers, whatever they held. -/
theorem sound_kernel1_C (c : Dev nD) (E : Set ℕ) (i : grid1.Coords) (hf : ¬ cond1_first i) (hl : cond1_last i)
    (arg2 : Memref sig .tc .vmem S1024x512 .bf16) (harg2 : arg2.IsWhole) (arg3 : Memref sig .tc .vmem S1024x512 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (x0 x1 : Vec F S1024x512 .bf16) (sm sl : Vec F S1024x1 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare sm ∗ owns (c : Thread nD τ) arg7 fullShare sl
        ∗ (iprop(owns (c : Thread nD τ) arg2 fullShare x0 ∗ owns (c : Thread nD τ) arg3 fullShare x1
            ∗ owns (c : Thread nD τ) arg4 fullShare (mNext i x0 x1 sm) ∗ owns (c : Thread nD τ) arg5 fullShare (lNext i x0 x1 sm sl)
            ∗ owns (c : Thread nD τ) arg6 fullShare (mNext i x0 x1 sm)
            ∗ owns (c : Thread nD τ) arg7 fullShare (lNext i x0 x1 sm sl)) -∗ K ⟨⟩))
      ⊢ wp frame (wpE (defs₀ (F := F)) Variants.none c none) E
          (cc1__arcface_kernel i arg2 harg2 arg3 harg3 arg4 harg4 arg5 harg5 arg6 harg6 arg7 harg7) K := by
  have hf' : ¬ (Scalar.cmpi .ne (Scalar.extui (Scalar.cmpi .eq (BitVec.ofNat 32 (i 1).val) 0#32)) 0#32 = 1#1) := hf
  have hl' : k1_cond2 i = 1#1 := hl
  simp only [cc1__arcface_kernel_eq_skeleton]; unfold cc1__arcface_kernel_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf2; subst hf3; subst hf6; subst hf7
  sl_exec (disch := first | exact hf' | exact hl')
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (one_store_covers _), View.canon_unit_zero zero_off2]
    simp only [View.readAt_eq_ld, View.ld_unit_zero (S := S1024x512) zero_off2, View.ld_unit_zero (S := S1024x1) zero_off2,
      View.readCov_unit_zero (S := S1024x1) _ zero_off2]
    rfl
  isplitl [H5]
  · iexists _; isplitr
    swap; · iexact H5
    ipureintro
    sl_unfold_run_names
    rw [View.read_writes_eq_canon _ _ _ (one_store_covers _), View.canon_unit_zero zero_off2]
    simp only [View.readAt_eq_ld, View.ld_unit_zero (S := S1024x512) zero_off2, View.ld_unit_zero (S := S1024x1) zero_off2,
      View.readCov_unit_zero (S := S1024x1) _ zero_off2]
    rfl
  isplitl [H6]
  · iexists _; isplitr
    swap; · iexact H6
    ipureintro
    sl_unfold_run_names
    rw [View.read_writes_eq_canon _ _ _ (one_store_covers _), View.canon_unit_zero zero_off2]
    simp only [View.readAt_eq_ld, View.ld_unit_zero (S := S1024x512) zero_off2, View.ld_unit_zero (S := S1024x1) zero_off2]
    rfl
  iexists _; isplitr
  swap; · iexact H7
  ipureintro
  sl_unfold_run_names
  rw [View.read_writes_eq_canon _ _ _ (one_store_covers _), View.canon_unit_zero zero_off2]
  simp only [View.readAt_eq_ld, View.ld_unit_zero (S := S1024x512) zero_off2, View.ld_unit_zero (S := S1024x1) zero_off2]
  rfl

end Cert.KernelIdeal.Hand

end
-- ==== Proof.KI.R1.lean ====
import proofs.«420115_j17875653886477_3_alg».proof.Proof.KI.R1Body

/-! The second pallas call (running maximum and running sum over 49 class tiles, for each of two row
    halves), as proof data over the contents the region finds: what the two accumulators hold after
    every grid point, the invariant that carries them from point to point, what each window's
    staging buffer holds after the body, and the body obligation at every point by the point's
    position within its row half (first tile, last tile, in between). -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two accumulators, point by point -/

/-- One class tile's step on the pair (running maximum, running sum): the maximum raised to the tile's,
    the sum rescaled to the new maximum and extended by the tile's terms. -/
def step1 (c : Dev nD) (t : Fin cfg1.N) (s : Vec F S1024x1 .f32 × Vec F S1024x1 .f32) : Vec F S1024x1 .f32 × Vec F S1024x1 .f32 :=
  (mNext (grid1.coords t) (iblk1 V c 0 t) (iblk1 V c 1 t) s.1, lNext (grid1.coords t) (iblk1 V c 0 t) (iblk1 V c 1 t) s.1 s.2)

/-- The pair the accumulators are reset to on the first class tile of a row half (−∞, 0). -/
def reset1 : Vec F S1024x1 .f32 × Vec F S1024x1 .f32 := (k1_pay3 (F := F), k1_pay4 (F := F))

/-- THE ACCUMULATION: (running maximum, running sum) after the body at position `n`: on the first class
    tile of a row half one step from the reset pair, elsewhere one step from what position `n - 1` left. -/
def scAt1 (c : Dev nD) : (n : ℕ) → n < cfg1.N → Vec F S1024x1 .f32 × Vec F S1024x1 .f32
  | 0, hn => step1 V c ⟨0, hn⟩ reset1
  | n + 1, hn =>
    if (n + 1) % 49 = 0 then step1 V c ⟨n + 1, hn⟩ reset1
    else step1 V c ⟨n + 1, hn⟩ (scAt1 c n (Nat.lt_of_succ_lt hn))

/-- On the first class tile of a row half: one step from the reset pair. -/
theorem scAt1_first (c : Dev nD) (t : Fin cfg1.N) (h0 : t.val % 49 = 0) :
    scAt1 V c t.val t.isLt
      = (mNext (grid1.coords t) (iblk1 V c 0 t) (iblk1 V c 1 t) (k1_pay3 (F := F)),
         lNext (grid1.coords t) (iblk1 V c 0 t) (iblk1 V c 1 t) (k1_pay3 (F := F)) (k1_pay4 (F := F))) := by
  obtain ⟨n, hn⟩ := t
  cases n with
  | zero => rfl
  | succ n => exact (if_pos h0).trans rfl

/-- On any other tile: one step from what the point before left. -/
theorem scAt1_next (c : Dev nD) (t : Fin cfg1.N) (h0 : ¬t.val % 49 = 0) :
    scAt1 V c t.val t.isLt
      = (mNext (grid1.coords t) (iblk1 V c 0 t) (iblk1 V c 1 t) (scAt1 V c (t.val - 1) (Nat.lt_of_le_of_lt (Nat.sub_le _ _) t.isLt)).1,
         lNext (grid1.coords t) (iblk1 V c 0 t) (iblk1 V c 1 t) (scAt1 V c (t.val - 1) (Nat.lt_of_le_of_lt (Nat.sub_le _ _) t.isLt)).1
           (scAt1 V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## The invariant: the accumulators carried between points -/

/-- The two accumulators: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1

/-- Each window's current staging memref at point `t`, as the pipeline passes it, and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)

/-- The scoped buffers that are neither this call's staging nor its accumulators (the first call's staging
    buffers), each at some contents: carried through every point untouched. -/
def stgOther (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f))

/-- `∗` re-associated, as an equation. -/
theorem sepAssocEq (P Q R : sProp 𝕄) : (iprop((P ∗ Q) ∗ R) : sProp 𝕄) = iprop(P ∗ Q ∗ R) := by
  have h₁ : iprop((P ∗ Q) ∗ R) ⊢ (iprop(P ∗ Q ∗ R) : sProp 𝕄) := by
    iintro ⟨⟨HP, HQ⟩, HR⟩
    isplitl [HP]; · iexact HP
    isplitl [HQ]; · iexact HQ
    iexact HR
  have h₂ : iprop(P ∗ Q ∗ R) ⊢ (iprop((P ∗ Q) ∗ R) : sProp 𝕄) := by
    iintro ⟨HP, HQ, HR⟩
    isplitr [HR]
    · isplitl [HP]; · iexact HP
      iexact HQ
    iexact HR
  exact BI.equiv_iff.mp ⟨h₁, h₂⟩

/-- The class's invariant with the two accumulators as memrefs owned at some contents, apart from the rest. -/
theorem PhiA1_eq (c : Dev nD) :
    (Pipeline.ΦA spec1 c : sProp 𝕄)
      = iprop((stgOther c ∗ (∃ d, owns (c : Thread nD τ) scM1_0 fullShare d) ∗ (∃ d, owns (c : Thread nD τ) scM1_1 fullShare d)) ∗ (∃ r, prngReg c r)) := by
  unfold Pipeline.ΦA stgOther; rw [scopedRest1_eq]; simp only [scM1_0, scM1_1, owns_whole, sepAssocEq]; try rfl

/-- The region invariant before position `n`: before the first point the class's (every scoped buffer at
    anything); afterwards the two accumulators at what the point before left in them, the other scoped buffers
    at anything, the generator register at some state. -/
def PhiS1 (c : Dev nD) : (n : ℕ) → n ≤ cfg1.N → sProp 𝕄
  | 0, _ => Pipeline.ΦA spec1 c
  | n + 1, hn => iprop((stgOther c ∗ owns (c : Thread nD τ) scM1_0 fullShare (scAt1 V c n hn).1
      ∗ owns (c : Thread nD τ) scM1_1 fullShare (scAt1 V c n hn).2) ∗ (∃ r, prngReg c r))

theorem PhiS1_zero (c : Dev nD) (n : ℕ) (h : n ≤ cfg1.N) (hz : n = 0) : PhiS1 V c n h = Pipeline.ΦA spec1 c := by
  subst hz; rfl

/-- After point `n`: the accumulators at that point's contents. -/
theorem PhiS1_succ (c : Dev nD) (n : ℕ) (hn : n < cfg1.N) :
    PhiS1 V c (n + 1) hn = iprop((stgOther c ∗ owns (c : Thread nD τ) scM1_0 fullShare (scAt1 V c n hn).1
      ∗ owns (c : Thread nD τ) scM1_1 fullShare (scAt1 V c n hn).2) ∗ (∃ r, prngReg c r)) := rfl

/-- Before a point that is not the first: the accumulators at what the point before left. -/
theorem PhiS1_pos (c : Dev nD) (n : ℕ) (h : n ≤ cfg1.N) (hz : n ≠ 0) :
    PhiS1 V c n h = iprop((stgOther c ∗ owns (c : Thread nD τ) scM1_0 fullShare (scAt1 V c (n - 1) (by omega)).1
      ∗ owns (c : Thread nD τ) scM1_1 fullShare (scAt1 V c (n - 1) (by omega)).2) ∗ (∃ r, prngReg c r)) := by
  cases n with
  | zero => exact absurd rfl hz
  | succ n => rfl

/-! ## The pipeline's proof data -/

/-- The proof data of the second call's pipeline on core `c`: the arrays as the region finds them; after the
    body at point `t` each input's buffer at its block, the two outputs' at the accumulators' contents there
    (consulted on the last class tile of a row half only: elsewhere the outputs are idle); the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (scAt1 V c t.val t.isLt).1
    | ⟨3, _⟩ => (scAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (scAt1 V c t.val t.isLt).1 := by dsimp only [dat1]
theorem after1_3 (c : Dev nD) (t : Fin cfg1.N) : (dat1 V c).after 3 t = (scAt1 V c t.val t.isLt).2 := by dsimp only [dat1]

/-- Each input's current staging buffer holds its block at every point, fetched there or not: the row-half
    block is fetched on the first class tile only and its index does not move within the row half. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## Where the output windows are idle -/

theorem liveAt1_0 (t : Fin cfg1.N) : cfg1.idle 0 (grid1.coords t) = false := rfl
theorem liveAt1_1 (t : Fin cfg1.N) : cfg1.idle 1 (grid1.coords t) = false := rfl
/-- Off the last class tile of a row half the outputs are idle, -/
theorem idleAt1_2 (t : Fin cfg1.N) (hl : ¬t.val % 49 = 48) : cfg1.idle 2 (grid1.coords t) = true := by
  have h : ¬k1_cond2 (grid1.coords t) = 1#1 := fun h => hl ((hcond1_last t).mp h)
  show (!(k1_cond2 (grid1.coords t) == 1#1)) = true
  simp only [Bool.not_eq_true', beq_eq_false_iff_ne, ne_eq]; exact h
theorem idleAt1_3 (t : Fin cfg1.N) (hl : ¬t.val % 49 = 48) : cfg1.idle 3 (grid1.coords t) = true := by
  have h : ¬k1_cond2 (grid1.coords t) = 1#1 := fun h => hl ((hcond1_last t).mp h)
  show (!(k1_cond2 (grid1.coords t) == 1#1)) = true
  simp only [Bool.not_eq_true', beq_eq_false_iff_ne, ne_eq]; exact h
/-- and not written back; -/
theorem noFlush1_2 (t : Fin cfg1.N) (hl : ¬t.val % 49 = 48) : (cfg1.win 2).flush t = false := by
  cases h : (cfg1.win 2).flush t with
  | false => rfl
  | true => exact absurd ((flush1_2 t).mp h) hl
theorem noFlush1_3 (t : Fin cfg1.N) (hl : ¬t.val % 49 = 48) : (cfg1.win 3).flush t = false := by
  cases h : (cfg1.win 3).flush t with
  | false => rfl
  | true => exact absurd ((flush1_3 t).mp h) hl
/-- on it they are live. -/
theorem liveAt1_2 (t : Fin cfg1.N) (hl : t.val % 49 = 48) : cfg1.idle 2 (grid1.coords t) = false := by
  have h : k1_cond2 (grid1.coords t) = 1#1 := (hcond1_last t).mpr hl
  show (!(k1_cond2 (grid1.coords t) == 1#1)) = false
  rw [h]; rfl
theorem liveAt1_3 (t : Fin cfg1.N) (hl : t.val % 49 = 48) : cfg1.idle 3 (grid1.coords t) = false := by
  have h : k1_cond2 (grid1.coords t) = 1#1 := (hcond1_last t).mpr hl
  show (!(k1_cond2 (grid1.coords t) == 1#1)) = false
  rw [h]; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The body at any point. The inputs' memrefs hold their blocks; the point's position within its row half says
    which of the three shapes the body takes. On the first class tile the accumulators are handed over at
    whatever they hold and come back one step from the reset pair; elsewhere they are handed over at what the
    point before left and come back one step on. Off the last class tile the outputs' buffers come back as
    found; on it they come back at the accumulators' contents. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 98 := lt_of_lt_of_eq t.isLt (show cfg1.N = 98 from N_1)
  by_cases h0 : t.val % 49 = 0
  · have h1 : ¬t.val % 49 = 48 := by omega
    have hf : cond1_first (grid1.coords t) := (hcond1_first t).mpr h0
    have hl : ¬cond1_last (grid1.coords t) := fun h => h1 ((hcond1_last t).mp h)
    rw [Dat.leavesExact_idle (dat1 V c) 2 t (idleAt1_2 t h1) (noFlush1_2 t h1)]
    rw [Dat.leavesExact_idle (dat1 V c) 3 t (idleAt1_3 t h1) (noFlush1_3 t h1)]
    rw [scAt1_first V c t h0]
    by_cases hz : t.val = 0
    · rw [PhiS1_castSucc V c t, PhiS1_zero V c _ _ hz, PhiA1_eq]
      iintro ⟨⟨⟨Hst, HS0, HS1⟩, Hg⟩, Ho, ⟨%d0, H0⟩, ⟨%d1, H1⟩, ⟨%d2, H2⟩, ⟨%d3, H3⟩⟩
      iapply (sound_kernel1_A c Set.univ (grid1.coords t) hf hl _ _ _ _ _ _ _ _ _ _ _ _ (iblk1 V c 0 t) (iblk1 V c 1 t) _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [Hst HS0 HS1 Hg]
      · isplitr [Hg]
        · isplitl [Hst]; · iexact Hst
          isplitl [HS0]; · iexact HS0
          iexact HS1
        iexact Hg
      isplitl [Ho]; · iexact Ho
      isplitl [H0]; · iexact H0
      isplitl [H1]; · iexact H1
      isplitl [H2]; · iexists _; iexact H2
      iexists _; iexact H3
    · rw [PhiS1_castSucc V c t, PhiS1_pos V c _ _ hz]
      iintro ⟨⟨⟨Hst, HS0, HS1⟩, Hg⟩, Ho, ⟨%d0, H0⟩, ⟨%d1, H1⟩, ⟨%d2, H2⟩, ⟨%d3, H3⟩⟩
      iapply (sound_kernel1_A c Set.univ (grid1.coords t) hf hl _ _ _ _ _ _ _ _ _ _ _ _ (iblk1 V c 0 t) (iblk1 V c 1 t) _ _ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [Hst HS0 HS1 Hg]
      · isplitr [Hg]
        · isplitl [Hst]; · iexact Hst
          isplitl [HS0]; · iexact HS0
          iexact HS1
        iexact Hg
      isplitl [Ho]; · iexact Ho
      isplitl [H0]; · iexact H0
      isplitl [H1]; · iexact H1
      isplitl [H2]; · iexists _; iexact H2
      iexists _; iexact H3
  · have hz : t.val ≠ 0 := fun h => h0 (by rw [h])
    have hf : ¬cond1_first (grid1.coords t) := fun h => h0 ((hcond1_first t).mp h)
    rw [scAt1_next V c t h0]
    rw [PhiS1_castSucc V c t, PhiS1_pos V c _ _ hz]
    by_cases h1 : t.val % 49 = 48
    · have hl : cond1_last (grid1.coords t) := (hcond1_last t).mpr h1
      rw [show (dat1 V c).leavesExact 2 t = owns (c : Thread nD τ) (ms1_2 t) fullShare ((dat1 V c).after 2 t) from by
        unfold Dat.leavesExact; rw [liveAt1_2 t h1], after1_2, scAt1_next V c t h0]
      rw [show (dat1 V c).leavesExact 3 t = owns (c : Thread nD τ) (ms1_3 t) fullShare ((dat1 V c).after 3 t) from by
        unfold Dat.leavesExact; rw [liveAt1_3 t h1], after1_3, scAt1_next V c t h0]
      iintro ⟨⟨⟨Hst, HS0, HS1⟩, Hg⟩, Ho, ⟨%d0, H0⟩, ⟨%d1, H1⟩, ⟨%d2, H2⟩, ⟨%d3, H3⟩⟩
      iapply (sound_kernel1_C c Set.univ (grid1.coords t) hf hl _ _ _ _ _ _ _ _ _ _ _ _ (iblk1 V c 0 t) (iblk1 V c 1 t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [Hst HS0 HS1 Hg]
      · isplitr [Hg]
        · isplitl [Hst]; · iexact Hst
          isplitl [HS0]; · iexact HS0
          iexact HS1
        iexact Hg
      isplitl [Ho]; · iexact Ho
      isplitl [H0]; · iexact H0
      isplitl [H1]; · iexact H1
      isplitl [H2]; · iexact H2
      iexact H3
    · have hl : ¬cond1_last (grid1.coords t) := fun h => h1 ((hcond1_last t).mp h)
      rw [Dat.leavesExact_idle (dat1 V c) 2 t (idleAt1_2 t h1) (noFlush1_2 t h1)]
      rw [Dat.leavesExact_idle (dat1 V c) 3 t (idleAt1_3 t h1) (noFlush1_3 t h1)]
      iintro ⟨⟨⟨Hst, HS0, HS1⟩, Hg⟩, Ho, ⟨%d0, H0⟩, ⟨%d1, H1⟩, ⟨%d2, H2⟩, ⟨%d3, H3⟩⟩
      iapply (sound_kernel1_B c Set.univ (grid1.coords t) hf hl _ _ _ _ _ _ _ _ _ _ _ _ (iblk1 V c 0 t) (iblk1 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [Hst HS0 HS1 Hg]
      · isplitr [Hg]
        · isplitl [Hst]; · iexact Hst
          isplitl [HS0]; · iexact HS0
          iexact HS1
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hst, HS0, HS1⟩, Hg⟩
  isplitr [Hg]
  · isplitl [Hst]; · iexact Hst
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 98 := N_1; omega)

end Cert.KernelIdeal.Hand

end
-- ==== Proof.KI.RunData.lean ====
import proofs.«420115_j17875653886477_3_alg».proof.Proof.KI.RunCond
import proofs.«420115_j17875653886477_3_alg».proof.Proof.KI.R0
import proofs.«420115_j17875653886477_3_alg».proof.Proof.KI.R1
import Idealize.ShloMosaic.Lib.Pipeline.FrameBody
import Idealize.ShloMosaic.Lib.Pipeline.RegionsLoop
import Idealize.ShloMosaic.Lib.Pipeline.FrameSuffix

/-! The buffer contents between the program's items, with what the two kernel regions leave named: the
    distance kernel changes only its one output array (its write-backs folded), the running
    log-sum-exp kernel only its two; and both pipelines' proof data, each at its region's entry contents. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## What the two regions leave -/

/-- The distance kernel's entry contents, read at the TensorCore's references. -/
abbrev entry0V : (c : Dev nD) → (b : Ref sig .tc) → Buf (Elt F) ((c : Thread nD τ).loc b) := fun c b => V1 m c b
/-- What the distance kernel leaves in its output array: its write-backs folded. -/
def left7 (c : Dev nD) : Buf (Elt F) ((c : Thread nD τ).loc main_v7) := (dat0 (entry0V m) c).arrAt 6 cfg0.N
/-- The valuation after the distance kernel. -/
def after0V (c : Dev nD) : Valuation τ sig (Elt F) := Function.update (V1 m c) main_v7 (left7 m c)
/-- The regions' outputs as far as the second region's entry needs them. -/
def outsA : Outs (F := F) := fun _ r c => after0V m c r
/-- The running log-sum-exp kernel's entry contents. -/
abbrev entry1V : (c : Dev nD) → (b : Ref sig .tc) → Buf (Elt F) ((c : Thread nD τ).loc b) := fun c b => V8 m (outsA m) c b
/-- What it leaves in its two output arrays. -/
def leftM (c : Dev nD) : Buf (Elt F) ((c : Thread nD τ).loc main_v31_0) := (dat1 (entry1V m) c).arrAt 2 cfg1.N
def leftL (c : Dev nD) : Buf (Elt F) ((c : Thread nD τ).loc main_v31_1) := (dat1 (entry1V m) c).arrAt 3 cfg1.N
/-- The valuation after it. -/
def after1V (c : Dev nD) : Valuation τ sig (Elt F) :=
  Function.update (Function.update (V8 m (outsA m) c) main_v31_0 (leftM m c)) main_v31_1 (leftL m c)
/-- The regions' outputs, by the item they follow. -/
def outs : Outs (F := F) := fun J r c => if J = 9 then after1V m c r else after0V m c r

theorem outs_2 (c : Dev nD) : outs m 2 main_v7 c = left7 m c := by
  have h0 : outs m 2 main_v7 c = after0V m c main_v7 := by unfold outs; exact if_neg (by decide)
  have h1 : after0V m c main_v7 = left7 m c := by unfold after0V; exact Function.update_self _ _ _
  exact h0.trans h1
theorem V2_eq (c : Dev nD) : V2 m (outs m) c = after0V m c := by
  show Function.update (V1 m c) main_v7 (outs m 2 main_v7 c) = after0V m c
  rw [outs_2]; rfl
theorem V2A_eq (c : Dev nD) : V2 m (outsA m) c = after0V m c := by
  show Function.update (V1 m c) main_v7 (after0V m c main_v7) = after0V m c
  unfold after0V; rw [Function.update_self]
theorem V2_outs (c : Dev nD) : V2 m (outs m) c = V2 m (outsA m) c := (V2_eq m c).trans (V2A_eq m c).symm
theorem V8_eq (c : Dev nD) : V8 m (outs m) c = V8 m (outsA m) c :=
  congrArg (fun v : Valuation τ sig (Elt F) => StableHlo.after hostOps1_5 (StableHlo.after hostOps1_4 (StableHlo.after hostOps1_3
    (StableHlo.after hostOps1_2 (StableHlo.after hostOps1_1 (StableHlo.after hostOps1 v)))))) (V2_outs m c)
theorem outs_9M (c : Dev nD) : outs m 9 main_v31_0 c = leftM m c := by
  have hne : (Proc.devRef .tc main_v31_0 : DevRef τ sig) ≠ Proc.devRef .tc main_v31_1 := StableHlo.devRef_ne_of_ne (by decide)
  have h0 : outs m 9 main_v31_0 c = after1V m c main_v31_0 := by unfold outs; exact if_pos rfl
  have h1 : after1V m c main_v31_0 = leftM m c := by
    unfold after1V
    exact (Function.update_of_ne hne _ _).trans (Function.update_self _ _ _)
  exact h0.trans h1
theorem outs_9L (c : Dev nD) : outs m 9 main_v31_1 c = leftL m c := by
  have h0 : outs m 9 main_v31_1 c = after1V m c main_v31_1 := by unfold outs; exact if_pos rfl
  have h1 : after1V m c main_v31_1 = leftL m c := by
    unfold after1V; exact Function.update_self _ _ _
  exact h0.trans h1
theorem V9_eq (c : Dev nD) : V9 m (outs m) c = after1V m c := by
  show Function.update (Function.update (V8 m (outs m) c) main_v31_0 (outs m 9 main_v31_0 c)) main_v31_1 (outs m 9 main_v31_1 c) = after1V m c
  rw [V8_eq, outs_9M, outs_9L]; rfl

/-! ## The proof data family and what rides beside the buffers -/

/-- Both pipelines' proof data, each at its region's entry contents (a literal match on the pipeline). -/
def pdats : (p : Fin 2) → (c : Dev nD) → Dat τ (Elt F) Unit ℕ (UR sig nD τ) ℕ (cfgs p) c
  | ⟨0, _⟩ => fun c => dat0 (entry0V m) c
  | ⟨1, _⟩ => fun c => dat1 (entry1V m) c
/-- No core owes another anything: no level is assigned. -/
abbrev L0 : GSem nD τ sig → Finset Unit := fun _ => ∅
abbrev lv0 : GSem nD τ sig → Unit → ℕ := fun _ _ => 0
/-- Beside the buffers through every segment: the generator register at some state and the core owing nothing. -/
abbrev Rr (c : Dev nD) : sProp 𝕄 := iprop((∃ r, prngReg c r) ∗ ∃ W, owes (c : Thread nD τ) (0 : CellTallies nD τ sig Unit) W)

end Cert.KernelIdeal.Hand

end
-- ==== Proof.KI.R0Share.lean ====
import proofs.«420115_j17875653886477_3_alg».proof.Proof.Gen.KernelIdeal.Launch
import proofs.«420115_j17875653886477_3_alg».proof.Proof.KI.R0Q
import Idealize.ShloMosaic.Lib.Pipeline.Cells

/-! # Region 0: the arrays at entry and at exit, one array read through two windows

The first kernel's windows 0 and 1 read ONE array; windows 2 to 5 read an array each and window 6, the only
output, writes one more.  The core's unscoped buffers therefore hold SIX distinct buffers behind the seven windows.
At the region's entry the common buffer's full share is dealt to its two readers — each a half, the halves
composing to the full share — and every other window takes its own buffer whole; at the exit the two halves are
put back together.  Inputs are never written, so at the exit only the output's buffer differs from the entry. -/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open scoped Idealize.SL.RA.PCS
open Idealize.ShloMosaic.Pipeline (Dat Cfg arrRef arrBufs unscopedRest)

section Shared

variable {nD : Nat} {τ : Topo} {sig : RefSig} {Val : EltTy → Type}
variable {Ix : Type} [DecidableEq Ix] {Name : Type} [DecidableEq Name] {U : Type} [URA U] {Lvl : Type}
variable {Λ₀ : Labels}

local notation "𝕄" => MT nD τ sig Ix Val Name U Lvl

/-- A buffer's points-to at the contents a valuation gives it, read at an equal reference. -/
theorem pointsTo_ref_congr (c : Dev nD) (V : (b : Ref sig .tc) → Buf Val ((c.tc : Thread nD τ).loc b)) (q : PosShare TreeShare)
    {b b' : Ref sig .tc} (h : b = b') :
    ((((c.tc : Thread nD τ).loc b) ↦{q} V b) : sProp 𝕄) = (((c.tc : Thread nD τ).loc b') ↦{q} V b') := by
  subst h; rfl

/-- Two windows `w₀ ≠ w₁` read ONE array, every other pair of windows distinct arrays; the two readers' shares
    compose to the full share and every other window holds its array at the full share.  Then the distinct buffers
    behind the windows' arrays, each whole at the full share at the contents `V` gives it, are the windows' arrays
    at those contents: the common buffer's full share is dealt between its two readers, and put back. -/
theorem arrBufs_eq_arrays_of_pair {cfg : Cfg sig Λ₀} {c : Dev nD} (dat : Dat τ Val Ix Name U Lvl cfg c)
    (w₀ w₁ : Fin cfg.W) (hne : w₀ ≠ w₁) (heq : arrRef cfg.spec w₀ = arrRef cfg.spec w₁)
    (hinj : ∀ w w', w ≠ w₀ → w' ≠ w₀ → arrRef cfg.spec w = arrRef cfg.spec w' → w = w')
    (harr : ∀ w, (cfg.spec w).arr.IsWhole)
    (hq : fullShare ∈ dat.share w₀ ·? dat.share w₁)
    (hfull : ∀ w, w ≠ w₀ → w ≠ w₁ → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w)) :
    (arrBufs cfg.spec c V : sProp 𝕄) = dat.arrays F := by
  classical
  -- each window's summand, read at the buffer behind its array
  have hΦ : ∀ w, ((cfg.win w).arr.view.loc (c.tc : Thread nD τ) ↦[(cfg.win w).arr.view.set]{dat.share w} F w : sProp 𝕄)
      = (((c.tc : Thread nD τ).loc (arrRef cfg.spec w)) ↦{dat.share w} V (arrRef cfg.spec w)) := fun w => by
    rw [(harr w).set_eq_univ, hF]
  -- the buffers behind all the windows are those behind the windows other than `w₀`
  have himg : Finset.univ.image (arrRef cfg.spec) = (Finset.univ.erase w₀).image (arrRef cfg.spec) := by
    ext b
    constructor
    · intro hb
      obtain ⟨w, -, rfl⟩ := Finset.mem_image.mp hb
      by_cases h : w = w₀
      · exact Finset.mem_image.mpr ⟨w₁, Finset.mem_erase.mpr ⟨hne.symm, Finset.mem_univ _⟩, by rw [h, heq]⟩
      · exact Finset.mem_image.mpr ⟨w, Finset.mem_erase.mpr ⟨h, Finset.mem_univ _⟩, rfl⟩
    · intro hb
      obtain ⟨w, -, rfl⟩ := Finset.mem_image.mp hb
      exact Finset.mem_image.mpr ⟨w, Finset.mem_univ _, rfl⟩
  have hon : Set.InjOn (arrRef cfg.spec) (Finset.univ.erase w₀ : Finset (Fin cfg.W)) := fun w hw w' hw' e =>
    hinj w w' (Finset.ne_of_mem_erase (Finset.mem_coe.mp hw)) (Finset.ne_of_mem_erase (Finset.mem_coe.mp hw')) e
  have h₁ : w₁ ∈ Finset.univ.erase w₀ := Finset.mem_erase.mpr ⟨hne.symm, Finset.mem_univ _⟩
  unfold arrBufs Dat.arrays
  rw [himg, bigSep_image_of_injOn hon, bigSep_congr (fun w _ => hΦ w), bigSep_univ_split w₀, bigSep_erase h₁, bigSep_erase h₁]
  -- the common buffer's full share is the two readers' shares
  have hsh : ((((c.tc : Thread nD τ).loc (arrRef cfg.spec w₁)) ↦{fullShare} V (arrRef cfg.spec w₁)) : sProp 𝕄)
      = iprop((((c.tc : Thread nD τ).loc (arrRef cfg.spec w₁)) ↦{dat.share w₀} V (arrRef cfg.spec w₁))
          ∗ (((c.tc : Thread nD τ).loc (arrRef cfg.spec w₁)) ↦{dat.share w₁} V (arrRef cfg.spec w₁))) :=
    Entails.antisymm (pointsTo_share hq).1 (pointsTo_share hq).2
  rw [pointsTo_ref_congr c V (dat.share w₀) heq]
  have hrest : bigSep ((Finset.univ.erase w₀).erase w₁) (fun w => ((((c.tc : Thread nD τ).loc (arrRef cfg.spec w)) ↦{fullShare} V (arrRef cfg.spec w)) : sProp 𝕄))
      = bigSep ((Finset.univ.erase w₀).erase w₁) (fun w => (((c.tc : Thread nD τ).loc (arrRef cfg.spec w)) ↦{dat.share w} V (arrRef cfg.spec w))) :=
    bigSep_congr fun w hw => by
      rw [hfull w (Finset.ne_of_mem_erase (Finset.mem_of_mem_erase hw)) (Finset.ne_of_mem_erase hw)]
  rw [hrest, hsh]
  exact Entails.antisymm BI.sep_assoc BI.sep_assoc'

end Shared

section Region0

variable {F : FTy → Type} [FloatOps F] [Named F]
variable {c : Dev nD}

/-- Windows 0 and 1 read one array. -/
theorem arrRef0_zero_one : arrRef spec0 0 = arrRef spec0 1 := rfl

/-- Window 0 apart, no two windows have one array. -/
theorem arrRef0_injOff : ∀ w w' : Fin 7, w ≠ 0 → w' ≠ 0 → arrRef spec0 w = arrRef spec0 w' → w = w' := by decide

/-- The output's array is no input's. -/
theorem arrRef0_ne_out : ∀ w : Fin 7, w ≠ 6 → arrRef spec0 w ≠ arrRef spec0 6 := by decide

/-- Every window but the last is an input. -/
theorem isIn0 : ∀ w : Fin 7, w ≠ 6 → (spec0 w).isOut = false := by decide

/-- Each window holds its array at the share `q0` names: the output window's is the full share either way. -/
theorem share0 (dat : Dat τ (Elt F) Unit ℕ (UR sig nD τ) ℕ cfg0 c) (hq : dat.q = q0) (w : Fin 7) : dat.share w = q0 w := by
  unfold Dat.share; rw [hq]
  split
  · next h =>
    have hw : w = 6 := by
      by_contra hne
      rw [show (cfg0.win w).isOut = (spec0 w).isOut from rfl, isIn0 w hne] at h
      exact Bool.false_ne_true h
    subst hw; rfl
  · rfl

/-- The core's unscoped buffers are the six distinct buffers behind the windows' arrays and the rest. -/
theorem unscopedBufs_split0 (V : (b : Ref sig .tc) → Buf (Elt F) ((c : Thread nD τ).loc b)) :
    (unscopedBufs (Ix := Unit) (Name := ℕ) (U := UR sig nD τ) (Lvl := ℕ) c V : sProp _)
      = iprop(arrBufs spec0 c V ∗ unscopedRest spec0 c V) := by
  classical
  have hsub : Finset.univ.image (arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs unscopedRest arrBufs
  rw [bigSep_sdiff_split hsub]
  rfl

/-- The six buffers behind the windows' arrays, whole at the contents `V` gives them, are the seven windows' arrays
    at those contents, at the shares `q0` names. -/
theorem arrBufs0_eq (dat : Dat τ (Elt F) Unit ℕ (UR sig nD τ) ℕ cfg0 c) (hq : dat.q = q0)
    (V : (b : Ref sig .tc) → Buf (Elt F) ((c : Thread nD τ).loc b))
    (G : (w : Fin 7) → Buf (Elt F) ((cfg0.win w).arr.view.loc (c : Thread nD τ)))
    (hG : ∀ w, G w = V (arrRef spec0 w)) :
    (arrBufs spec0 c V : sProp _) = dat.arrays G :=
  arrBufs_eq_arrays_of_pair dat 0 1 (by decide) arrRef0_zero_one arrRef0_injOff arr_whole0
    (by rw [share0 dat hq 0, share0 dat hq 1]; exact q0_join)
    (fun w h0 h1 => by rw [share0 dat hq w]; exact q0_of_ne w h0 h1) V G hG

/-- ENTRY: the core's unscoped buffers at contents `V` are the region's arrays at the proof data's entry contents —
    those being read off `V` — and the unscoped rest. -/
theorem entry0 (dat : Dat τ (Elt F) Unit ℕ (UR sig nD τ) ℕ cfg0 c) (hq : dat.q = q0)
    (V : (b : Ref sig .tc) → Buf (Elt F) ((c : Thread nD τ).loc b))
    (hA : ∀ w, dat.A w = V (arrRef spec0 w)) :
    (unscopedBufs c V : sProp _) ⊢ iprop(dat.arrays (dat.arrAt · 0) ∗ unscopedRest spec0 c V) := by
  rw [unscopedBufs_split0 V, arrBufs0_eq dat hq V (dat.arrAt · 0) fun w => (show dat.arrAt w 0 = dat.A w from rfl).trans (hA w)]

/-- EXIT: the region's arrays at what the pipeline leaves and the unscoped rest at `V` are the core's unscoped buffers
    at any valuation `V'` that has the output's buffer at what the write-backs leave and agrees with `V` off it:
    the inputs are as entered. -/
theorem exit0 (dat : Dat τ (Elt F) Unit ℕ (UR sig nD τ) ℕ cfg0 c) (hq : dat.q = q0)
    (V : (b : Ref sig .tc) → Buf (Elt F) ((c : Thread nD τ).loc b))
    (hA : ∀ w, dat.A w = V (arrRef spec0 w))
    (V' : (b : Ref sig .tc) → Buf (Elt F) ((c : Thread nD τ).loc b))
    (hF : dat.arrAt 6 cfg0.N = V' (arrRef spec0 6))
    (hrest : ∀ b, b ≠ arrRef spec0 6 → V' b = V b) :
    iprop(dat.arrays (dat.arrAt · cfg0.N) ∗ unscopedRest spec0 c V) ⊢ (unscopedBufs c V' : sProp _) := by
  have hG : ∀ w : Fin 7, dat.arrAt w cfg0.N = V' (arrRef spec0 w) := fun w => by
    by_cases h : w = 6
    · subst h; exact hF
    · rw [dat.arrAt_in w (isIn0 w h) cfg0.N, hA w, hrest _ (arrRef0_ne_out w h)]
  rw [unscopedBufs_split0 V', arrBufs0_eq dat hq V' (dat.arrAt · cfg0.N) hG]
  refine sep_mono .rfl (Entails.of_eq ?_)
  unfold unscopedRest
  exact bigSep_congr fun b hb => by
    rw [hrest b fun e => (Finset.mem_sdiff.mp hb).2 (Finset.mem_image.mpr ⟨6, Finset.mem_univ _, e.symm⟩)]

end Region0

end Cert.KernelIdeal.Hand
-- ==== Proof.KI.Reg0.lean ====
import proofs.«420115_j17875653886477_3_alg».proof.Proof.KI.RunData
import proofs.«420115_j17875653886477_3_alg».proof.Proof.KI.R0Share

/-! The distance kernel's region as a segment of the program: entered from every unscoped buffer at the contents the
    first host stretch leaves, left with its one output array at its folded write-backs and every other buffer as
    entered.  Its seven windows stand on six arrays: the array two windows read is dealt between them at the entry,
    half the share each, and put back whole at the exit. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- After the region the output array holds its folded write-backs, -/
theorem exit0_out (c : Dev nD) :
    (dat0 (entry0V m) c).arrAt 6 cfg0.N = (fun b => V2 m (outs m) c b : (b : Ref sig .tc) → Buf (Elt F) ((c : Thread nD τ).loc b)) (Pipeline.arrRef spec0 6) := by
  show left7 m c = V2 m (outs m) c main_v7
  rw [V2_eq]; unfold after0V; rw [Function.update_self]

/-- and every other buffer what it held at the entry. -/
theorem exit0_rest (c : Dev nD) (b : Ref sig .tc) (hb : b ≠ Pipeline.arrRef spec0 6) :
    (fun b => V2 m (outs m) c b : (b : Ref sig .tc) → Buf (Elt F) ((c : Thread nD τ).loc b)) b = entry0V m c b := by
  show V2 m (outs m) c b = V1 m c b
  rw [V2_eq]; unfold after0V
  exact Function.update_of_ne (StableHlo.devRef_ne_of_ne hb) _ _

set_option backward.isDefEq.respectTransparency.types false in
/-- The distance kernel's region: entered from every unscoped buffer at the first stretch's valuation, left with its
    output array at its folded write-backs.  The generator register goes into the region's invariant and comes back;
    nothing is owed; the kernel has no semaphore of its own. -/
def reg0 : RegionSeg (pcfgs (F := F)) adm (pdats m) () defs₀ Variants.none L0 lv0 0 where
  win := winFacts₀0
  block_pos := block_pos0
  stage_whole := stage_whole0
  K := PEmpty
  osem k := k.elim
  ho := Pipeline.OwnSemFacts.none _
  hbody c := (body_obligation0 (entry0V m) c).loose
  hwaits := Pipeline.hwaits_of_owed_zero _ _ _ _ L0 lv0 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (entry0V m c)
  hentry c := by
    rw [Pipeline.ownSems0_none]
    have hsplit := entry0 (F := F) (c := c) (pdats m 0 c) rfl (entry0V m c) (A_eq0 (entry0V m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (F := F) (c := c) (pdats m 0 c) rfl (entry0V m c) (A_eq0 (entry0V m) c)
      (fun b => V2 m (outs m) c b) (exit0_out m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
import proofs.«420115_j17875653886477_3_alg».proof.Proof.KI.RunData

/-! The running log-sum-exp kernel's region as a segment of the program: entered from every unscoped buffer
    at the contents the host lines before it leave, left with its two output arrays at what its write-backs
    fold to and every other buffer as entered. Its arrays are split out of the unscoped buffers at entry and
    put back at exit; the generator register goes into the region's invariant and comes out; nothing is owed. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The exit contents, array by array -/

/-- The region's exit contents, read at the TensorCore's references. -/
abbrev exit1V : (c : Dev nD) → (b : Ref sig .tc) → Buf (Elt F) ((c : Thread nD τ).loc b) := fun c b => V9 m (outs m) c b

/-- A buffer that is neither output array is not written by the region, -/
theorem V9_outs_of (c : Dev nD) (b : Ref sig .tc) (h : b ∉ ([main_v31_0, main_v31_1] : List (Ref sig .tc))) :
    V9 m (outs m) c b = V8 m (outs m) c b := V9_of m (outs m) c b h
/-- and the entry contents do not depend on what the region leaves. -/
theorem V8_outs_at (c : Dev nD) (b : Ref sig .tc) :
    V8 m (outs m) c b = V8 m (outsA m) c b := congrFun (V8_eq m c) (Proc.devRef .tc b)
theorem V9_V8A_of (c : Dev nD) (b : Ref sig .tc) (h : b ∉ ([main_v31_0, main_v31_1] : List (Ref sig .tc))) :
    V9 m (outs m) c b = V8 m (outsA m) c b := (V9_outs_of m c b h).trans (V8_outs_at m c b)
/-- So such a buffer holds at exit what it held at entry. -/
theorem exit1V_of (c : Dev nD) (b : Ref sig .tc) (h : b ∉ ([main_v31_0, main_v31_1] : List (Ref sig .tc))) :
    exit1V m c b = entry1V m c b := V9_V8A_of m c b h

/-- The exit contents at the two output arrays: what the pipeline leaves in them. -/
theorem after1V_M (c : Dev nD) : after1V m c main_v31_0 = leftM m c := by
  have hne : (Proc.devRef .tc main_v31_0 : DevRef τ sig) ≠ Proc.devRef .tc main_v31_1 := StableHlo.devRef_ne_of_ne (by decide)
  unfold after1V
  exact (Function.update_of_ne hne _ _).trans (Function.update_self _ _ _)
theorem after1V_L (c : Dev nD) : after1V m c main_v31_1 = leftL m c := by
  unfold after1V; exact Function.update_self _ _ _
theorem V9_M (c : Dev nD) : V9 m (outs m) c main_v31_0 = leftM m c :=
  (congrFun (V9_eq m c) (Proc.devRef .tc main_v31_0)).trans (after1V_M m c)
theorem V9_L (c : Dev nD) : V9 m (outs m) c main_v31_1 = leftL m c :=
  (congrFun (V9_eq m c) (Proc.devRef .tc main_v31_1)).trans (after1V_L m c)

/-- At exit each of the region's arrays holds what the pipeline leaves in it: an input what it held at entry, -/
theorem hF1_0 (c : Dev nD) : (dat1 (entry1V m) c).arrAt 0 cfg1.N = V9 m (outs m) c main_v25 :=
  (((dat1 (entry1V m) c).arrAt_in 0 rfl cfg1.N).trans (A_eq1 (entry1V m) c 0)).trans (V9_V8A_of m c main_v25 (by decide)).symm
theorem hF1_1 (c : Dev nD) : (dat1 (entry1V m) c).arrAt 1 cfg1.N = V9 m (outs m) c main_v30 :=
  (((dat1 (entry1V m) c).arrAt_in 1 rfl cfg1.N).trans (A_eq1 (entry1V m) c 1)).trans (V9_V8A_of m c main_v30 (by decide)).symm
/-- an output its write-backs folded. -/
theorem hF1_2 (c : Dev nD) : (dat1 (entry1V m) c).arrAt 2 cfg1.N = V9 m (outs m) c main_v31_0 := (V9_M m c).symm
theorem hF1_3 (c : Dev nD) : (dat1 (entry1V m) c).arrAt 3 cfg1.N = V9 m (outs m) c main_v31_1 := (V9_L m c).symm
theorem hF1 (c : Dev nD) : ∀ w : Fin cfg1.W, (dat1 (entry1V m) c).arrAt w cfg1.N = exit1V m c (Pipeline.arrRef spec1 w)
  | ⟨0, _⟩ => hF1_0 m c
  | ⟨1, _⟩ => hF1_1 m c
  | ⟨2, _⟩ => hF1_2 m c
  | ⟨3, _⟩ => hF1_3 m c

/-- Every buffer that is no array of the region holds at exit what it held at entry. -/
theorem hrest1 (c : Dev nD) : ∀ b, b ∉ Finset.univ.image (Pipeline.arrRef spec1) → exit1V m c b = entry1V m c b :=
  fun b hb => exit1V_of m c b fun h => by
    simp only [List.mem_cons, List.mem_nil_iff, or_false] at h
    rcases h with rfl | rfl
    · exact hb (Finset.mem_image.mpr ⟨2, Finset.mem_univ _, rfl⟩)
    · exact hb (Finset.mem_image.mpr ⟨3, Finset.mem_univ _, rfl⟩)

/-! ## The region as a segment -/

set_option backward.isDefEq.respectTransparency.types false in
/-- The second kernel region over the thread state: entered from every unscoped buffer at the contents the host
    lines before it leave, left at those contents with the two output arrays replaced by what the pipeline
    leaves in them. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (entry1V m) c).loose
  hwaits := Pipeline.hwaits_of_owed_zero _ _ _ _ L0 lv0 1 fun _ _ => rfl
  pre c := iprop(StableHlo.held (c : Thread nD τ) (Pipeline.ucRefs τ sig) (V8 m (outs m) c) ∗ Rr c)
  post c := iprop(StableHlo.held (c : Thread nD τ) (Pipeline.ucRefs τ sig) (V9 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (entry1V m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1V m c) fun _ => rfl
    rw [Pipeline.unscopedBufs_held] at hsplit
    rw [V8_eq]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (entry1V m) c)
    unfold Pipeline.ΦA
    iintro ⟨Hp, -, Hr⟩
    isplitl [Hr]; · iexact Hr
    iexact Hp
  hout c := by
    rw [Pipeline.ownSems0_none]
    refine BIBase.Entails.trans (hout1 (entry1V m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1V m c) (exit1V m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«420115_j17875653886477_3_alg».proof.Proof.KI.Reg0
import proofs.«420115_j17875653886477_3_alg».proof.Proof.KI.Reg1

/-! The whole program's run from the two regions' segment records: every weakly fair execution
    terminates and every final unscoped buffer is the last valuation's — so the argument arrays end as
    launched, and the result buffer holds what the host stretches compute from the arguments and from
    what the two kernels left. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

variable (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main terminates, nothing faulting, and every unscoped buffer ends at the last
    valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V12 m (outs m) c b) :=
  run_cond m (Ix := Unit) (U := UR sig nD τ) (Lvl := ℕ) emb₁ () Variants.none L0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L0 lv0 fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl) (reg1 m) (fun c => .rfl) (fun c => .rfl)

/-- The frame: the four argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c)⟩) (run_all m ρ)

/-- The result buffer ends at the last valuation's contents, beside the frame. -/
theorem run_value : θ_run defs (onTc (τ := τ) (main (F := F))) ⟨m, fun _ => 0, ρ⟩ (fun r => ∀ c : Dev nD,
      r.2.mem ((c.tc : Thread nD τ).loc main_v77) = V12 m (outs m) c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v77 (by decide)),
     (h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c)⟩) (run_all m ρ)

end Cert.KernelIdeal.Hand

end
-- ==== Proof.RefAfterT.lean ====
/- THE TRIPLET STRETCH OF THE REFERENCE, read back. Its first part computes from the embeddings the matrix of pairwise
   distances; its second part, from that matrix and the labels, the batch mean of the triplet terms. Each part is read
   over ARBITRARY contents W of the buffers it finds: what it leaves in its one buffer read later is that operation's
   staged value, given that the buffers it reads hold theirs. The labels pass through the first part unchanged. -/
import proofs.«420115_j17875653886477_3_alg».proof.Proof.RefOpsCut
import proofs.«420115_j17875653886477_3_alg».proof.Proof.RefRead

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F]

variable (W : Valuation τ sig (Elt F))

set_option maxRecDepth 16384 in
set_option maxHeartbeats 16000000 in
/-- The pairwise distances, from the embeddings. -/
theorem afterT1_main_v20 :
    after opsT1 W (Proc.devRef .tc main_v20) = Read.val_main_v20 (F := F) (W (Proc.devRef .tc main_arg0)) := by
  after_results_simp <;> (try simp only [TRef.ofBuf, TRef.toBuf, cast_eq]) <;> rfl

set_option maxRecDepth 16384 in
set_option maxHeartbeats 4000000 in
/-- The first part writes no argument. -/
theorem afterT1_main_arg1 : after opsT1 W (Proc.devRef .tc main_arg1) = W (Proc.devRef .tc main_arg1) := by
  after_results_simp <;> rfl

set_option maxRecDepth 16384 in
set_option maxHeartbeats 16000000 in
/-- The mean triplet term, from the distances and the labels. -/
theorem afterT2_main_v38 (x0 : (⟨S2048x512, .f32⟩ : BufTy).Contents (Elt F))
    (h20 : W (Proc.devRef .tc main_v20) = Read.val_main_v20 (F := F) x0) :
    after opsT2 W (Proc.devRef .tc main_v38) = Read.val_main_v38 (F := F) x0 (W (Proc.devRef .tc main_arg1)) := by
  after_results_simp <;> (try simp only [TRef.ofBuf, TRef.toBuf, cast_eq]) <;> (try rw [h20]) <;> rfl

/-- **The triplet stretch** leaves the mean triplet term of the embeddings and the labels. -/
theorem afterT_main_v38 :
    after opsT W (Proc.devRef .tc main_v38)
      = Read.val_main_v38 (F := F) (W (Proc.devRef .tc main_arg0)) (W (Proc.devRef .tc main_arg1)) := by
  rw [afterT_cut, afterT2_main_v38 (after opsT1 W) (W (Proc.devRef .tc main_arg0)) (afterT1_main_v20 W), afterT1_main_arg1]

set_option maxRecDepth 16384 in
set_option maxHeartbeats 8000000 in
/-- The triplet stretch writes no argument. -/
theorem passT_main_arg0 : after opsT W (Proc.devRef .tc main_arg0) = W (Proc.devRef .tc main_arg0) := by
  after_results_simp <;> rfl

set_option maxRecDepth 16384 in
set_option maxHeartbeats 8000000 in
/-- The triplet stretch writes no argument. -/
theorem passT_main_arg1 : after opsT W (Proc.devRef .tc main_arg1) = W (Proc.devRef .tc main_arg1) := by
  after_results_simp <;> rfl

set_option maxRecDepth 16384 in
set_option maxHeartbeats 8000000 in
/-- The triplet stretch writes no argument. -/
theorem passT_main_arg2 : after opsT W (Proc.devRef .tc main_arg2) = W (Proc.devRef .tc main_arg2) := by
  after_results_simp <;> rfl

set_option maxRecDepth 16384 in
set_option maxHeartbeats 8000000 in
/-- The triplet stretch writes no argument. -/
theorem passT_main_arg3 : after opsT W (Proc.devRef .tc main_arg3) = W (Proc.devRef .tc main_arg3) := by
  after_results_simp <;> rfl

end Cert.ReferenceIdeal.RunHand

end
-- ==== Proof.RefAfterC.lean ====
/- THE CENTRE STRETCH OF THE REFERENCE, read back: from the embeddings, the labels and the class centres, the batch mean
   of the squared distance of each embedding to its label's centre — over ARBITRARY contents W of the buffers the
   stretch finds, as the staged value of its last operation. -/
import proofs.«420115_j17875653886477_3_alg».proof.Proof.RefOpsCut
import proofs.«420115_j17875653886477_3_alg».proof.Proof.RefRead

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F]

variable (W : Valuation τ sig (Elt F))

set_option maxRecDepth 16384 in
set_option maxHeartbeats 16000000 in
/-- **The centre stretch** leaves the mean centre term of the embeddings, the labels and the centres. -/
theorem afterC_main_v50 :
    after opsC W (Proc.devRef .tc main_v50)
      = Read.val_main_v50 (F := F) (W (Proc.devRef .tc main_arg0)) (W (Proc.devRef .tc main_arg1)) (W (Proc.devRef .tc main_arg3)) := by
  after_results_simp <;> (try simp only [TRef.ofBuf, TRef.toBuf, cast_eq]) <;> rfl

set_option maxRecDepth 16384 in
set_option maxHeartbeats 8000000 in
/-- The centre stretch writes no argument. -/
theorem passC_main_arg0 : after opsC W (Proc.devRef .tc main_arg0) = W (Proc.devRef .tc main_arg0) := by
  after_results_simp <;> rfl

set_option maxRecDepth 16384 in
set_option maxHeartbeats 8000000 in
/-- The centre stretch writes no argument. -/
theorem passC_main_arg1 : after opsC W (Proc.devRef .tc main_arg1) = W (Proc.devRef .tc main_arg1) := by
  after_results_simp <;> rfl

set_option maxRecDepth 16384 in
set_option maxHeartbeats 8000000 in
/-- The centre stretch writes no argument. -/
theorem passC_main_arg2 : after opsC W (Proc.devRef .tc main_arg2) = W (Proc.devRef .tc main_arg2) := by
  after_results_simp <;> rfl

set_option maxRecDepth 16384 in
set_option maxHeartbeats 8000000 in
/-- The centre stretch leaves the mean triplet term where it is. -/
theorem passC_main_v38 : after opsC W (Proc.devRef .tc main_v38) = W (Proc.devRef .tc main_v38) := by
  after_results_simp <;> rfl

end Cert.ReferenceIdeal.RunHand

end
-- ==== Proof.RefAfterL1.lean ====
/- THE FIRST THREE STRETCHES OF THE REFERENCE'S CLASSIFICATION PART, OPERATION BY OPERATION: the unit-length embeddings,
   the unit-length class weights (transposed), the logits. After each, from ANY contents of the buffers, the stretch's
   last buffer holds the stage's value of what the stretch read, and the buffers it does not write are as they were. -/
import proofs.«420115_j17875653886477_3_alg».proof.Proof.RefOpsCutL
import proofs.«420115_j17875653886477_3_alg».proof.Proof.RefRead

set_option maxRecDepth 16384

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-! ## The first three stretches -/

theorem afterFn (W : Valuation τ sig (Elt F)) :
    after (opsFn (F := F)) W (Proc.devRef .tc main_v53) = Read.val_main_v53 (F := F) (W (Proc.devRef .tc main_arg0)) := by
  unfold opsFn; after_results_simp <;> rfl

theorem afterWn (W : Valuation τ sig (Elt F)) :
    after (opsWn (F := F)) W (Proc.devRef .tc main_v57) = Read.val_main_v57 (F := F) (W (Proc.devRef .tc main_arg2)) := by
  unfold opsWn; after_results_simp <;> rfl

theorem afterLogit (W : Valuation τ sig (Elt F)) (x0 : (⟨S2048x512, .f32⟩ : BufTy).Contents (Elt F))
    (x1 : (⟨S2048, .i32⟩ : BufTy).Contents (Elt F)) (x2 : (⟨S50000x512, .f32⟩ : BufTy).Contents (Elt F))
    (h53 : W (Proc.devRef .tc main_v53) = Read.val_main_v53 (F := F) x0)
    (h57 : W (Proc.devRef .tc main_v57) = Read.val_main_v57 (F := F) x2)
    (h1 : W (Proc.devRef .tc main_arg1) = x1) :
    after (opsLogit (F := F)) W (Proc.devRef .tc main_v76) = Read.val_main_v76 (F := F) x0 x1 x2 := by
  unfold opsLogit; after_results_simp
  rw [h53, h57, h1]; rfl

/-! ## What a stretch leaves alone, where a later stretch reads it -/

theorem keepFn_arg1 (W : Valuation τ sig (Elt F)) :
    after (opsFn (F := F)) W (Proc.devRef .tc main_arg1) = W (Proc.devRef .tc main_arg1) := by
  after_results_simp

theorem keepFn_arg2 (W : Valuation τ sig (Elt F)) :
    after (opsFn (F := F)) W (Proc.devRef .tc main_arg2) = W (Proc.devRef .tc main_arg2) := by
  after_results_simp

theorem keepWn_arg1 (W : Valuation τ sig (Elt F)) :
    after (opsWn (F := F)) W (Proc.devRef .tc main_arg1) = W (Proc.devRef .tc main_arg1) := by
  after_results_simp

theorem keepWn_v53 (W : Valuation τ sig (Elt F)) :
    after (opsWn (F := F)) W (Proc.devRef .tc main_v53) = W (Proc.devRef .tc main_v53) := by
  after_results_simp

theorem keepLogit_arg1 (W : Valuation τ sig (Elt F)) :
    after (opsLogit (F := F)) W (Proc.devRef .tc main_arg1) = W (Proc.devRef .tc main_arg1) := by
  after_results_simp

end Cert.ReferenceIdeal.RunHand

end
-- ==== Proof.RefAfterL2.lean ====
/- THE END OF THE CLASSIFICATION PART OF THE REFERENCE, read back: the row-wise log-softmax of the logits, each row's
   entry at its label, and minus the batch mean of those entries. Each stretch is read over ARBITRARY contents W of the
   buffers it finds: what it leaves in its one buffer read later is that operation's staged value, given that the
   buffers it reads hold theirs. The operations of a called function carry their buffers' tensor types; moving contents
   to a buffer's own type and back changes nothing, which is used once for every value passed between two such
   operations and once, by computation, for each buffer where such an operation meets a plain one. -/
import proofs.«420115_j17875653886477_3_alg».proof.Proof.RefOpsCutL
import proofs.«420115_j17875653886477_3_alg».proof.Proof.RefRead

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F]

/-- Contents moved to a typed reference's buffer type and back are the contents. -/
theorem tref_ofBuf_toBuf {T : BufTy} (x : TRef sig T) (v : T.Contents (Elt F)) : x.ofBuf (x.toBuf v) = v := by
  obtain ⟨r, h, h2, h3⟩ := x
  subst h
  rfl

variable (W : Valuation τ sig (Elt F))

set_option maxRecDepth 16384 in
set_option maxHeartbeats 4000000 in
/-- The log-softmax stretch writes no argument. -/
theorem keepLsm_arg1 : after (opsLsm (F := F)) W (Proc.devRef .tc main_arg1) = W (Proc.devRef .tc main_arg1) := by
  after_results_simp <;> rfl

set_option maxRecDepth 16384 in
set_option maxHeartbeats 4000000 in
/-- The row-wise log-softmax of the logits: each entry less its row's maximum, less the logarithm of the row's sum of
    the exponentials of those differences. -/
theorem afterLsm (x0 : (⟨S2048x512, .f32⟩ : BufTy).Contents (Elt F)) (x1 : (⟨S2048, .i32⟩ : BufTy).Contents (Elt F))
    (x2 : (⟨S50000x512, .f32⟩ : BufTy).Contents (Elt F))
    (h76 : W (Proc.devRef .tc main_v76) = Read.val_main_v76 (F := F) x0 x1 x2) :
    after (opsLsm (F := F)) W (Proc.devRef .tc main_v77) = Read.val_main_v77 (F := F) x0 x1 x2 := by
  have e76 : ∀ v : (⟨S2048x50000, .f32⟩ : BufTy).Contents (Elt F),
      (TRef.of (T := ⟨S2048x50000, .f32⟩) main_v76).ofBuf v = v := fun _ => rfl
  have e77 : ∀ v : (⟨S2048x50000, .f32⟩ : BufTy).Contents (Elt F),
      (TRef.of (T := ⟨S2048x50000, .f32⟩) main_v77).toBuf v = v := fun _ => rfl
  after_results_simp
  simp only [tref_ofBuf_toBuf]
  rw [h76]
  simp only [e76, e77]
  rfl

set_option maxRecDepth 16384 in
set_option maxHeartbeats 4000000 in
/-- Each row's log-probability at its label (the label read as a column index, a negative one counted from the end; a
    label outside the row's range reads as not-a-number). -/
theorem afterTake (x0 : (⟨S2048x512, .f32⟩ : BufTy).Contents (Elt F)) (x1 : (⟨S2048, .i32⟩ : BufTy).Contents (Elt F))
    (x2 : (⟨S50000x512, .f32⟩ : BufTy).Contents (Elt F))
    (h77 : W (Proc.devRef .tc main_v77) = Read.val_main_v77 (F := F) x0 x1 x2)
    (h1 : W (Proc.devRef .tc main_arg1) = x1) :
    after (opsTake (F := F)) W (Proc.devRef .tc main_v79) = Read.val_main_v79 (F := F) x0 x1 x2 := by
  have e77 : ∀ v : (⟨S2048x50000, .f32⟩ : BufTy).Contents (Elt F),
      (TRef.of (T := ⟨S2048x50000, .f32⟩) main_v77).ofBuf v = v := fun _ => rfl
  have e78 : ∀ v : (⟨S2048x1, .i32⟩ : BufTy).Contents (Elt F),
      (TRef.of (T := ⟨S2048x1, .i32⟩) main_v78).ofBuf v = v := fun _ => rfl
  have e79 : ∀ v : (⟨S2048x1, .f32⟩ : BufTy).Contents (Elt F),
      (TRef.of (T := ⟨S2048x1, .f32⟩) main_v79).toBuf v = v := fun _ => rfl
  after_results_simp
  simp only [tref_ofBuf_toBuf]
  rw [h77, h1]
  simp only [e77, e78, e79]
  rfl

set_option maxRecDepth 16384 in
set_option maxHeartbeats 4000000 in
/-- Minus the batch mean of the label log-probabilities. -/
theorem afterMean (x0 : (⟨S2048x512, .f32⟩ : BufTy).Contents (Elt F)) (x1 : (⟨S2048, .i32⟩ : BufTy).Contents (Elt F))
    (x2 : (⟨S50000x512, .f32⟩ : BufTy).Contents (Elt F))
    (h79 : W (Proc.devRef .tc main_v79) = Read.val_main_v79 (F := F) x0 x1 x2) :
    after (opsMean (F := F)) W (Proc.devRef .tc main_v82) = Read.val_main_v82 (F := F) x0 x1 x2 := by
  after_results_simp
  rw [h79]
  rfl

end Cert.ReferenceIdeal.RunHand

end
-- ==== Proof.RefAfterL.lean ====
/- THE REFERENCE'S CLASSIFICATION PART, JOINED. Its six stretches in a row — the unit-length embeddings, the unit-length
   class weights, the logits, log_softmax, the entry at the label, the negated mean — leave, from ANY contents of the
   buffers, the negated mean of the label log-probabilities at its stage's value of the three arguments it reads. -/
import proofs.«420115_j17875653886477_3_alg».proof.Proof.RefAfterL1
import proofs.«420115_j17875653886477_3_alg».proof.Proof.RefAfterL2

set_option maxRecDepth 16384

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- After the classification part, from any contents, the negated mean holds its stage's value of the arguments. -/
theorem afterL_main_v82 (W : Valuation τ sig (Elt F)) :
    after (opsL (F := F)) W (Proc.devRef .tc main_v82)
      = Read.val_main_v82 (F := F) (W (Proc.devRef .tc main_arg0)) (W (Proc.devRef .tc main_arg1)) (W (Proc.devRef .tc main_arg2)) := by
  rw [opsL_cut]
  simp only [after_append]
  refine afterMean _ _ _ _ (afterTake _ _ _ _ (afterLsm _ _ _ _ (afterLogit _ _ _ _ ?_ ?_ ?_)) ?_)
  · exact (keepWn_v53 _).trans (afterFn W)
  · exact (afterWn _).trans (congrArg (Read.val_main_v57 (F := F)) (keepFn_arg2 W))
  · exact (keepWn_arg1 _).trans (keepFn_arg1 W)
  · exact (keepLsm_arg1 _).trans ((keepLogit_arg1 _).trans ((keepWn_arg1 _).trans (keepFn_arg1 W)))

end Cert.ReferenceIdeal.RunHand

end
-- ==== Proof.RefRunHand.lean ====
/- THE REFERENCE PROGRAM'S RUN, read back stretch by stretch. The reference is a straight line of 178 tensor operations:
   three groups that read only the arguments — the triplet term, the centre term, the classification term, each ending
   in one scalar — and a closing weighted sum of the three scalars. Run from any memory with zero counters it terminates,
   each buffer ending at the fold of the operations over the launch contents. The fold over the list is the folds over
   the four stretches in order; each stretch leaves in the one buffer read later the staged value of its last operation
   (one definition per operation, in terms of the values of the operations it reads), and leaves alone the scalars of
   the stretches before it and the arguments. So the result buffer ends at the last operation's staged value of the
   four arguments, and the arguments end as launched. -/
import proofs.«420115_j17875653886477_3_alg».proof.Proof.RefAfterT
import proofs.«420115_j17875653886477_3_alg».proof.Proof.RefAfterC
import proofs.«420115_j17875653886477_3_alg».proof.Proof.RefAfterL

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F]

/-! ## The closing stretch, and what passes through the classification stretch -/

section Fold
variable (W : Valuation τ sig (Elt F))

set_option maxRecDepth 16384 in
set_option maxHeartbeats 8000000 in
/-- The classification stretch leaves the mean triplet term where it is. -/
theorem passL_main_v38 : after opsL W (Proc.devRef .tc main_v38) = W (Proc.devRef .tc main_v38) := by
  after_results_simp <;> rfl

set_option maxRecDepth 16384 in
set_option maxHeartbeats 8000000 in
/-- The classification stretch leaves the mean centre term where it is. -/
theorem passL_main_v50 : after opsL W (Proc.devRef .tc main_v50) = W (Proc.devRef .tc main_v50) := by
  after_results_simp <;> rfl

set_option maxRecDepth 16384 in
set_option maxHeartbeats 8000000 in
/-- The classification stretch writes no argument. -/
theorem passL_main_arg0 : after opsL W (Proc.devRef .tc main_arg0) = W (Proc.devRef .tc main_arg0) := by
  after_results_simp <;> rfl

set_option maxRecDepth 16384 in
set_option maxHeartbeats 8000000 in
/-- The classification stretch writes no argument. -/
theorem passL_main_arg1 : after opsL W (Proc.devRef .tc main_arg1) = W (Proc.devRef .tc main_arg1) := by
  after_results_simp <;> rfl

set_option maxRecDepth 16384 in
set_option maxHeartbeats 8000000 in
/-- The classification stretch writes no argument. -/
theorem passL_main_arg2 : after opsL W (Proc.devRef .tc main_arg2) = W (Proc.devRef .tc main_arg2) := by
  after_results_simp <;> rfl

set_option maxRecDepth 16384 in
set_option maxHeartbeats 8000000 in
/-- The classification stretch writes no argument. -/
theorem passL_main_arg3 : after opsL W (Proc.devRef .tc main_arg3) = W (Proc.devRef .tc main_arg3) := by
  after_results_simp <;> rfl

set_option maxRecDepth 16384 in
set_option maxHeartbeats 8000000 in
/-- The closing stretch writes no argument. -/
theorem passTail_main_arg0 : after opsTail W (Proc.devRef .tc main_arg0) = W (Proc.devRef .tc main_arg0) := by
  after_results_simp <;> rfl

set_option maxRecDepth 16384 in
set_option maxHeartbeats 8000000 in
/-- The closing stretch writes no argument. -/
theorem passTail_main_arg1 : after opsTail W (Proc.devRef .tc main_arg1) = W (Proc.devRef .tc main_arg1) := by
  after_results_simp <;> rfl

set_option maxRecDepth 16384 in
set_option maxHeartbeats 8000000 in
/-- The closing stretch writes no argument. -/
theorem passTail_main_arg2 : after opsTail W (Proc.devRef .tc main_arg2) = W (Proc.devRef .tc main_arg2) := by
  after_results_simp <;> rfl

set_option maxRecDepth 16384 in
set_option maxHeartbeats 8000000 in
/-- The closing stretch writes no argument. -/
theorem passTail_main_arg3 : after opsTail W (Proc.devRef .tc main_arg3) = W (Proc.devRef .tc main_arg3) := by
  after_results_simp <;> rfl

set_option maxRecDepth 16384 in
set_option maxHeartbeats 8000000 in
/-- The centre stretch writes no argument. -/
theorem passC_main_arg3 : after opsC W (Proc.devRef .tc main_arg3) = W (Proc.devRef .tc main_arg3) := by
  after_results_simp <;> rfl

set_option maxRecDepth 16384 in
set_option maxHeartbeats 4000000 in
/-- The weighted sum of the three scalars. -/
theorem afterTail_main_v87 (x0 : (⟨S2048x512, .f32⟩ : BufTy).Contents (Elt F)) (x1 : (⟨S2048, .i32⟩ : BufTy).Contents (Elt F))
    (x2 x3 : (⟨S50000x512, .f32⟩ : BufTy).Contents (Elt F))
    (h38 : W (Proc.devRef .tc main_v38) = Read.val_main_v38 (F := F) x0 x1)
    (h50 : W (Proc.devRef .tc main_v50) = Read.val_main_v50 (F := F) x0 x1 x3)
    (h82 : W (Proc.devRef .tc main_v82) = Read.val_main_v82 (F := F) x0 x1 x2) :
    after opsTail W (Proc.devRef .tc main_v87) = Read.val_main_v87 (F := F) x0 x1 x2 x3 := by
  after_results_simp <;> (try rw [h38, h50, h82]) <;> rfl

/-- **The result buffer** ends at the last operation's staged value of the four arguments. -/
theorem after_main_v87 :
    after ops W (Proc.devRef .tc main_v87)
      = Read.val_main_v87 (F := F) (W (Proc.devRef .tc main_arg0)) (W (Proc.devRef .tc main_arg1))
          (W (Proc.devRef .tc main_arg2)) (W (Proc.devRef .tc main_arg3)) := by
  rw [after_cut]
  refine afterTail_main_v87 _ _ _ _ _ ?_ ?_ ?_
  · rw [passL_main_v38, passC_main_v38, afterT_main_v38]
  · rw [passL_main_v50, afterC_main_v50, passT_main_arg0, passT_main_arg1, passT_main_arg3]
  · rw [afterL_main_v82, passC_main_arg0, passC_main_arg1, passC_main_arg2, passT_main_arg0, passT_main_arg1, passT_main_arg2]

/-- No operation writes the embeddings. -/
theorem after_main_arg0 : after ops W (Proc.devRef .tc main_arg0) = W (Proc.devRef .tc main_arg0) := by
  rw [after_cut, passTail_main_arg0, passL_main_arg0, passC_main_arg0, passT_main_arg0]
/-- No operation writes the labels. -/
theorem after_main_arg1 : after ops W (Proc.devRef .tc main_arg1) = W (Proc.devRef .tc main_arg1) := by
  rw [after_cut, passTail_main_arg1, passL_main_arg1, passC_main_arg1, passT_main_arg1]
/-- No operation writes the class weights. -/
theorem after_main_arg2 : after ops W (Proc.devRef .tc main_arg2) = W (Proc.devRef .tc main_arg2) := by
  rw [after_cut, passTail_main_arg2, passL_main_arg2, passC_main_arg2, passT_main_arg2]
/-- No operation writes the class centres. -/
theorem after_main_arg3 : after ops W (Proc.devRef .tc main_arg3) = W (Proc.devRef .tc main_arg3) := by
  rw [after_cut, passTail_main_arg3, passL_main_arg3, passC_main_arg3, passT_main_arg3]

end Fold

/-! ## The run -/

/-- From any memory with zero counters every weakly fair execution of the reference terminates with the result buffer
    at the fold of the operations over the launch contents, and the arguments unchanged. -/
theorem run_after (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = after ops (launchContents m c) (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v87,
      (h c main_arg0).trans (after_main_arg0 (launchContents m c)),
      (h c main_arg1).trans (after_main_arg1 (launchContents m c)),
      (h c main_arg2).trans (after_main_arg2 (launchContents m c)),
      (h c main_arg3).trans (after_main_arg3 (launchContents m c))⟩)
    (run_seq scopedRefs_eq scopedSems_eq defs main (fun _ => ops) main_eq (fun _ => ops_sub) m ρ)

/-- The same with the result buffer at the last operation's staged value of the arguments' launch contents. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
        = Read.val_main_v87 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (after_main_v87 (launchContents m c)), (h c).2⟩) (run_after m ρ)

end Cert.ReferenceIdeal.RunHand

end
-- ==== Proof.RefFrame.lean ====
/- THE REFERENCE'S FRAME CLAIM: run from any memory with zero counters the reference terminates and its four argument
   arrays end as launched — the argument part of the reference's run read back stretch by stretch; the precondition is
   not needed for it. -/
import proofs.«420115_j17875653886477_3_alg».proof.Defs
import proofs.«420115_j17875653886477_3_alg».proof.Proof.Gen.Pre_finite_inputs
import proofs.«420115_j17875653886477_3_alg».proof.Proof.RefRunHand

noncomputable section

namespace Cert.Proof.RefClaims

open Idealize.ShloMosaic Idealize.SL.Sem

/-- The reference runs and leaves its arguments unchanged. -/
theorem frame_ri : Cert.frame_ReferenceIdeal (hReferenceIdeal := Cert.ReferenceIdeal.Gen.facts)
    (hPre_finite_inputs := Cert.Pre_finite_inputs.Gen.facts) :=
  fun m ρ _ => (θ_run _ _ _).mono (fun _ h c => (h c).2) (Cert.ReferenceIdeal.RunHand.run_after (F := Ideal) m ρ)

end Cert.Proof.RefClaims

end
-- ==== Proof.RefValGather.lean ====
/- Two index-gathering operations read at an index, the two infinite words, and a sum over a rank-1 index set.
   (1) Rows of a table [N, K] picked by a column [R, 1] of signed start indices: result row r is the table's row
       at the start index of row r, clamped into [0, N − 1].
   (2) One entry per row of a matrix [R, N], the column picked by a [R, 1, 1] array of signed start indices, the
       row shared between operand and indices: result (r, 0) is the matrix at (r, clamped start index of r). -/
import Idealize.ShloMosaic.Lib.ValueIdx
import Idealize.ShloMosaic.Lib.ValueIdxRank1
import Idealize.ShloMosaic.PureOps.Ideal.Laws

noncomputable section

open scoped BigOperators

namespace Cert.ReferenceIdeal.RefHand

open Idealize.ShloMosaic Idealize.ShloMosaic.ValueIdx

/-! ## The infinite words -/

/-- The f32 word of −∞ is the bottom of the extended reals. -/
theorem ofBits_neg_inf_f32 : Ideal.ofBits .f32 0xFF800000#32 = ⊥ := by simp [Ideal.ofBits, Ideal.ieee]
/-- The f32 word of +∞ is the top of the extended reals. -/
theorem ofBits_pos_inf_f32 : Ideal.ofBits .f32 0x7F800000#32 = ⊤ := by simp [Ideal.ofBits, Ideal.ieee]

/-! ## A sum over a rank-1 index set is the sum over its coordinate -/

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Gathers
variable {α : Type}

/-! ## Rows of a table picked by a column of start indices -/

abbrev rowDims (N K R : Nat)
    (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- Result (r, k) is the table at (start index of row r clamped into [0, N − 1], k). -/
theorem gather_rows_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowDims N K R wf) x idx (ix2 r k)
      = x (ix2 ⟨min (idx (ix2 r (0 : Fin 1))).toInt.toNat (N - 1), by omega⟩ k) := by
  unfold Host.gather
  congr 1
  funext a
  refine Fin.ext ?_
  show (rowDims N K R wf).start (ix2 r k) idx a + (rowDims N K R wf).batchCoord (ix2 r k) a
    + (rowDims N K R wf).offCoord (ix2 r k) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowDims N K R wf).startIndexMap from List.mem_singleton.mpr rfl)]
    have hsi : (rowDims N K R wf).siIdx (ix2 r k) ⟨List.idxOf (⟨0, h0⟩ : Fin 2) (rowDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, h1⟩ =>
    have hs : (rowDims N K R wf).start (ix2 r k) idx ⟨1, h1⟩ = 0 := by
      unfold GatherDims.start
      rw [dif_neg (show ¬ (⟨1, h1⟩ : Fin 2) ∈ (rowDims N K R wf).startIndexMap from
        fun h => absurd (congrArg Fin.val (List.mem_singleton.mp h)) Nat.one_ne_zero)]
    rw [hs]
    unfold GatherDims.offCoord
    rw [dif_pos (show (⟨1, h1⟩ : Fin 2) ∈ (rowDims N K R wf).sKept from (GatherDims.mem_sKept _ _).mpr
      ⟨fun h => absurd (congrArg Fin.val (List.mem_singleton.mp h)) Nat.one_ne_zero, List.not_mem_nil⟩)]
    simp only [Nat.zero_add]
    rfl

/-! ## One entry per row, the column picked by the row's start index -/

abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- Result (r, 0) is the matrix at (r, start index of row r clamped into [0, N − 1]). -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r ⟨min (idx (ix3 r (0 : Fin 1) (0 : Fin 1))).toInt.toNat (N - 1), by omega⟩) := by
  unfold Host.gather
  congr 1
  funext a
  refine Fin.ext ?_
  show (alongDims R N wf).start (ix2 r (0 : Fin 1)) idx a + (alongDims R N wf).batchCoord (ix2 r (0 : Fin 1)) a
    + (alongDims R N wf).offCoord (ix2 r (0 : Fin 1)) a = _
  match a with
  | ⟨0, h0⟩ =>
    rw [GatherDims.start_batching _ _ _ _ (show (⟨0, h0⟩ : Fin 2) ∈ (alongDims R N wf).operandBatchingDims from List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (⟨0, h0⟩ : Fin 2) ∈ (alongDims R N wf).operandBatchingDims from List.mem_singleton.mpr rfl)]
    rfl
  | ⟨1, h1⟩ =>
    rw [GatherDims.batchCoord_eq_zero _ _ _ (show ¬ (⟨1, h1⟩ : Fin 2) ∈ (alongDims R N wf).operandBatchingDims from
        fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (⟨1, h1⟩ : Fin 2) ∈ (alongDims R N wf).startIndexMap from List.mem_singleton.mpr rfl)]
    have hsi : (alongDims R N wf).siIdx (ix2 r (0 : Fin 1)) ⟨List.idxOf (⟨1, h1⟩ : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Gathers

end Cert.ReferenceIdeal.RefHand

end
-- ==== Proof.RefValFinal.lean ====
/- THE RESULT SCALAR FROM THE THREE ROW VECTORS. The reference ends with three means over the 2048 rows — of the triplet
   terms, of the centre terms and of the label log-probabilities —, each a sum from 0 divided by 2048.0, combined as
   1.0 · mean + 0.1 · mean + 0.1 · (− mean). Here that tail is read at the one index of the scalar, with the three sums
   taken over the row number. -/
import proofs.«420115_j17875653886477_3_alg».proof.Proof.RefRead
import proofs.«420115_j17875653886477_3_alg».proof.Proof.RefValGather

noncomputable section

open scoped BigOperators

namespace Cert.ReferenceIdeal.RefHand

open Cert.ReferenceIdeal Cert.ReferenceIdeal.Gen Idealize.ShloMosaic Idealize.ShloMosaic.ValueIdx

/-- A sum over the indices of a one-column array is the sum over its rows. -/
theorem sum_idx_col {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- The result scalar: 1.0 · (Σ_r triplet_r / 2048.0) + 0.1 · (Σ_r centre_r / 2048.0) + 0.1 · (−(Σ_r logprob_r / 2048.0)). -/
theorem result_of_rows (a0 : FVec Ideal S2048x512 .f32) (a1 : IVec S2048 32) (a2 a3 : FVec Ideal S50000x512 .f32) :
    Read.val_main_v87 (F := Ideal) a0 a1 a2 a3 ix0
      = (Ideal.ofBits .f32 0x3F800000#32
            * Ideal.div (0 + ∑ r : Fin 2048, Read.val_main_v36 (F := Ideal) a0 a1 (ix1 r)) (Ideal.ofBits .f32 0x45000000#32)
          + Ideal.ofBits .f32 0x3DCCCCCD#32
            * Ideal.div (0 + ∑ r : Fin 2048, Read.val_main_v48 (F := Ideal) a0 a1 a3 (ix1 r)) (Ideal.ofBits .f32 0x45000000#32))
        + Ideal.ofBits .f32 0x3DCCCCCD#32
            * (-(Ideal.div (0 + ∑ r : Fin 2048, Read.val_main_v79 (F := Ideal) a0 a1 a2 (ix2 r (0 : Fin 1)))
                (Ideal.ofBits .f32 0x45000000#32))) := by
  rw [Read.val_main_v87_apply, Read.val_main_v85_apply, Read.val_main_v86_apply, Read.val_main_v83_apply,
    Read.val_main_v84_apply, Read.val_main_v82_apply, Read.val_main_v81_apply, Read.val_main_v38_apply,
    Read.val_main_v50_apply, Read.val_main_v37_apply, Read.val_main_v49_apply, Read.val_main_v80_apply]
  simp only [Read.val_main_cst_26_apply, Read.val_main_cst_27_apply, Read.val_main_cst_28_apply,
    Read.val_main_cst_11_apply, Read.val_main_cst_15_apply, Read.val_main_cst_25_apply, Read.val_main_cst_10_apply,
    Read.val_main_cst_14_apply, Read.val_main_cst_24_apply, Ideal.addf_def, Ideal.mulf_def, Ideal.hostDivf_def,
    Ideal.hostNegf_def, Ideal.negf_def, Ideal.ofBits_def, Ideal.ofBits_zero_f32]
  rw [sum_idx1, sum_idx1, sum_idx_col]

end Cert.ReferenceIdeal.RefHand

end
-- ==== Proof.RefValSpec.lean ====
/- THE LOSS AS ROW FORMULAS over the extended reals: for 2048 embeddings x of 512 coordinates with integer labels y, class
   weights w and class centres c (50000 rows of 512 each),
     loss = 1.0 · mean_r T r + 0.1 · mean_r C r + 0.1 · (− mean_r Lp r),
   T r  the batch-hard triplet term of row r (hardest positive distance minus hardest negative distance plus the margin
        0.3, cut at 0; distances are guarded square roots of ‖x_r‖² + ‖x_j‖² − 2⟨x_r, x_j⟩ cut at 0),
   C r  the squared distance of x_r to the centre of its label,
   Lp r the log-probability of the label of row r under the softmax of the 30-scaled cosines between the unit-length
        embedding and the unit-length class weights, the label's cosine replaced by cos(θ + 0.5).
   Float literals other than zero stay the words the programs carry. No program is imported. -/
import Idealize.ShloMosaic.Lib.ValueIdx
import Idealize.ShloMosaic.PureOps.Ideal.Laws

noncomputable section

open scoped BigOperators

namespace Cert.ReferenceIdeal.RefHand

open Idealize.ShloMosaic Idealize.ShloMosaic.ValueIdx

variable (a0 : FVec Ideal ⟨2, ![2048, 512]⟩ .f32) (a1 : IVec ⟨1, ![2048]⟩ 32)
  (a2 a3 : FVec Ideal ⟨2, ![50000, 512]⟩ .f32)

/-! ## The triplet term -/

/-- ‖x_r‖²: the sum of squares of row r, from 0. -/
def sq (r : Fin 2048) : EReal := 0 + ∑ k : Fin 512, a0 (ix2 r k) * a0 (ix2 r k)

/-- The guarded square root: √d where d is positive (the root taken of 1.0 elsewhere and discarded), 0 elsewhere. -/
def gdist (d : EReal) : EReal :=
  if 0 < d then Ideal.sqrt (if 0 < d then d else Ideal.ofBits .f32 0x3F800000#32) else 0

/-- The distance between rows r and j: the guarded root of ‖x_r‖² + ‖x_j‖² − 2.0·⟨x_r, x_j⟩ cut at 0. -/
def dist (r j : Fin 2048) : EReal :=
  gdist (max ((sq a0 r + sq a0 j) - Ideal.ofBits .f32 0x40000000#32 * ∑ k : Fin 512, a0 (ix2 r k) * a0 (ix2 j k)) 0)

/-- 1 where rows r and j carry the same label, else 0. -/
def pm (r j : Fin 2048) : EReal := if a1 (ix1 r) = a1 (ix1 j) then 1 else 0

/-- The triplet term of row r: (max_j dist·pm from −∞) − (min_j (dist + 1e6·pm) from +∞) + 0.3, cut at 0. -/
def T (r : Fin 2048) : EReal :=
  max ((((Finset.univ : Finset (Fin 2048)).fold max ⊥ fun j => dist a0 r j * pm a1 r j)
      - ((Finset.univ : Finset (Fin 2048)).fold min ⊤ fun j =>
          dist a0 r j + Ideal.ofBits .f32 0x49742400#32 * pm a1 r j))
    + Ideal.ofBits .f32 0x3E99999A#32) 0

/-! ## The label of a row as a class index -/

/-- The label of row r read signed and clamped into [0, 49999]: the label itself where it is a class index. -/
def lbl (r : Fin 2048) : Fin 50000 := ⟨min (a1 (ix1 r)).toInt.toNat (50000 - 1), by omega⟩

theorem lbl_val (r : Fin 2048) (h0 : 0 ≤ (a1 (ix1 r)).toInt) (h1 : (a1 (ix1 r)).toInt < 50000) :
    (lbl a1 r).val = (a1 (ix1 r)).toNat := by
  have e := BitVec.toInt_eq_toNat_cond (a1 (ix1 r))
  show min (a1 (ix1 r)).toInt.toNat (50000 - 1) = _
  split at e <;> omega

/-- The label's word is the word of class index j exactly where j is the label's class index. -/
theorem label_eq_iff (r : Fin 2048) (h0 : 0 ≤ (a1 (ix1 r)).toInt) (h1 : (a1 (ix1 r)).toInt < 50000) (j : Fin 50000) :
    a1 (ix1 r) = BitVec.ofNat 32 j.val ↔ j = lbl a1 r := by
  have hv := lbl_val a1 r h0 h1
  have hj := j.isLt
  constructor
  · intro h
    refine Fin.ext ?_
    rw [hv, h, BitVec.toNat_ofNat]
    omega
  · intro h
    refine BitVec.eq_of_toNat_eq ?_
    rw [BitVec.toNat_ofNat, h, hv]
    have := (a1 (ix1 r)).isLt
    omega

/-! ## The centre term -/

/-- The squared distance of x_r to the centre of its label, summed from 0. -/
def C (r : Fin 2048) : EReal :=
  0 + ∑ k : Fin 512, (a0 (ix2 r k) - a3 (ix2 (lbl a1 r) k)) * (a0 (ix2 r k) - a3 (ix2 (lbl a1 r) k))

/-! ## The classification term -/

/-- The embeddings with each row divided by its Euclidean length. -/
def fn : FVec Ideal ⟨2, ![2048, 512]⟩ .f32 := fun i =>
  Ideal.div (a0 i) (Ideal.sqrt (0 + ∑ k : Fin 512, a0 (ix2 (i 0) k) * a0 (ix2 (i 0) k)))

/-- The class weights with each row divided by its Euclidean length. -/
def wn : FVec Ideal ⟨2, ![50000, 512]⟩ .f32 := fun i =>
  Ideal.div (a2 i) (Ideal.sqrt (0 + ∑ k : Fin 512, a2 (ix2 (i 0) k) * a2 (ix2 (i 0) k)))

/-- The cosine between embedding r and class j, clipped into [−0.99999988, 0.99999988]. -/
def cos (r : Fin 2048) (j : Fin 50000) : EReal :=
  min (Ideal.ofBits .f32 0x3F7FFFFE#32) (max (Ideal.ofBits .f32 0xBF7FFFFE#32)
    (∑ k : Fin 512, fn a0 (ix2 r k) * wn a2 (ix2 j k)))

/-- cos(θ + 0.5) from c = cos θ: c·cos 0.5 − √((1.0 − c²) + 1e-7)·sin 0.5. -/
def margin (c : EReal) : EReal :=
  c * Ideal.ofBits .f32 0x3F60A940#32
    - Ideal.sqrt ((Ideal.ofBits .f32 0x3F800000#32 - c * c) + Ideal.ofBits .f32 0x33D6BF95#32) * Ideal.ofBits .f32 0x3EF57744#32

/-- The logit of class j for row r: 30.0 times the cosine, the label's with the margin. -/
def logit (r : Fin 2048) (j : Fin 50000) : EReal :=
  Ideal.ofBits .f32 0x41F00000#32 * (if j = lbl a1 r then margin (cos a0 a2 r j) else cos a0 a2 r j)

/-- The row maximum of the logits, from −∞, once more against −∞. -/
def M (r : Fin 2048) : EReal :=
  max ⊥ ((Finset.univ : Finset (Fin 50000)).fold max ⊥ fun j => logit a0 a1 a2 r j)

/-- The log-probability of the label of row r. -/
def Lp (r : Fin 2048) : EReal :=
  (logit a0 a1 a2 r (lbl a1 r) - M a0 a1 a2 r)
    - Ideal.log (0 + ∑ j : Fin 50000, Ideal.exp (logit a0 a1 a2 r j - M a0 a1 a2 r))

/-! ## The loss -/

/-- 1.0 · mean T + 0.1 · mean C + 0.1 · (− mean Lp), each mean a sum from 0 divided by 2048.0. -/
def loss : EReal :=
  (Ideal.ofBits .f32 0x3F800000#32 * Ideal.div (0 + ∑ r : Fin 2048, T a0 a1 r) (Ideal.ofBits .f32 0x45000000#32)
      + Ideal.ofBits .f32 0x3DCCCCCD#32 * Ideal.div (0 + ∑ r : Fin 2048, C a0 a1 a3 r) (Ideal.ofBits .f32 0x45000000#32))
    + Ideal.ofBits .f32 0x3DCCCCCD#32 * (-(Ideal.div (0 + ∑ r : Fin 2048, Lp a0 a1 a2 r) (Ideal.ofBits .f32 0x45000000#32)))

end Cert.ReferenceIdeal.RefHand

end
-- ==== Proof.RefValT.lean ====
/- THE TRIPLET TERM OF A ROW. The reference forms the matrix of squared distances ‖x_r‖² + ‖x_j‖² − 2.0·⟨x_r, x_j⟩, cuts it
   at 0, takes guarded square roots, and per row takes the largest distance to a row of the same label (from −∞) and the
   smallest of distance + 1e6·[same label] (from +∞); the term is their difference plus 0.3, cut at 0. Each stage is read
   here at row r (and column j), down to the embeddings and labels. -/
import proofs.«420115_j17875653886477_3_alg».proof.Proof.RefRead
import proofs.«420115_j17875653886477_3_alg».proof.Proof.RefValGather
import proofs.«420115_j17875653886477_3_alg».proof.Proof.RefValSpec

noncomputable section

open scoped BigOperators

namespace Cert.ReferenceIdeal.RefHand

open Cert.ReferenceIdeal Cert.ReferenceIdeal.Gen Idealize.ShloMosaic Idealize.ShloMosaic.ValueIdx

variable (a0 : FVec Ideal S2048x512 .f32) (a1 : IVec S2048 32)

/-! ## Words under a select and a conversion -/

/-- A select on the bit of a decided proposition is the if-then-else on it. -/
theorem select_ofBool_decide {α : Type} (p : Prop) [Decidable p] (x y : α) :
    Scalar.select (BitVec.ofBool (decide p)) x y = if p then x else y := by
  by_cases h : p
  · rw [if_pos h, decide_eq_true h]; exact if_pos rfl
  · rw [if_neg h, decide_eq_false h]; exact if_neg (by decide)

/-- "Greater than" at the extended reals is the bit of the order's comparison. -/
theorem cmpf_ogt_eq (x y : EReal) :
    FloatOps.cmpf (F := Ideal) (φ := .f32) .ogt x y = BitVec.ofBool (decide (y < x)) := rfl

/-- The bit of an equality of words, converted to a float, is 1 where they are equal and 0 elsewhere. -/
theorem uitofp_cmpi_eq (x y : BitVec 32) :
    FloatOps.uitofp (F := Ideal) .f32 (IntOp.cmpi .eq x y) = if x = y then (1 : EReal) else 0 := by
  show (((BitVec.ofBool (x == y)).toNat : ℝ) : EReal) = _
  by_cases h : x = y
  · rw [if_pos h, beq_iff_eq.mpr h]; simp
  · rw [if_neg h, beq_eq_false_iff_ne.mpr h]; simp

/-! ## The squared lengths and the inner products -/

/-- The squared length of row r. -/
theorem sqnorm_row (r : Fin 2048) : Read.val_main_v1 (F := Ideal) a0 (ix1 r) = sq a0 r := by
  have e : ∀ k : Fin 512, Read.idx_main_v1 (ix1 r) k = ix2 r k := fun k => funext fun a => by
    match a with
    | ⟨0, _⟩ => rfl
    | ⟨1, _⟩ => rfl
  unfold sq
  rw [Read.val_main_v1_apply]
  simp only [Read.val_main_v0_apply, Read.val_main_cst_apply, e, Ideal.mulf_def, Ideal.ofBits_def, Ideal.ofBits_zero_f32]

/-- The inner product of rows r and j. -/
theorem gram_entry (r j : Fin 2048) :
    Read.val_main_v8 (F := Ideal) a0 (ix2 r j) = ∑ k : Fin 512, a0 (ix2 r k) * a0 (ix2 j k) := by
  have el : ∀ k : Fin 512, Read.lidx_main_v8 (ix2 r j) k = ix2 r k := fun k => funext fun a => by
    match a with
    | ⟨0, _⟩ => rfl
    | ⟨1, _⟩ => rfl
  have er : ∀ k : Fin 512, Read.idx_main_v7 (Read.ridx_main_v8 (ix2 r j) k) = ix2 j k := fun k => funext fun a => by
    match a with
    | ⟨0, _⟩ => rfl
    | ⟨1, _⟩ => rfl
  rw [Read.val_main_v8_apply]
  simp only [Read.val_main_v7_apply, el, er]

/-- The squared distance between rows r and j, cut at 0. -/
theorem sqdist_entry (r j : Fin 2048) :
    Read.val_main_v13 (F := Ideal) a0 (ix2 r j)
      = max ((sq a0 r + sq a0 j) - Ideal.ofBits .f32 0x40000000#32 * ∑ k : Fin 512, a0 (ix2 r k) * a0 (ix2 j k)) 0 := by
  have e4 : Read.idx_main_v2 (Read.idx_main_v4 (ix2 r j)) = ix1 r := funext fun a => by
    match a with
    | ⟨0, _⟩ => rfl
  have e5 : Read.idx_main_v3 (Read.idx_main_v5 (ix2 r j)) = ix1 j := funext fun a => by
    match a with
    | ⟨0, _⟩ => rfl
  rw [Read.val_main_v13_apply, Read.val_main_v11_apply, Read.val_main_v6_apply, Read.val_main_v10_apply,
    Read.val_main_v4_apply, Read.val_main_v2_apply, Read.val_main_v5_apply, Read.val_main_v3_apply, e4, e5,
    sqnorm_row, sqnorm_row, gram_entry, Read.val_main_v9_apply, Read.val_main_v12_apply,
    Read.val_main_cst_0_apply, Read.val_main_cst_1_apply]
  simp only [Ideal.maximumf_def, Ideal.subf_def, Ideal.addf_def, Ideal.mulf_def, Ideal.ofBits_def, Ideal.ofBits_zero_f32]

/-- The distance between rows r and j. -/
theorem dist_entry (r j : Fin 2048) : Read.val_main_v20 (F := Ideal) a0 (ix2 r j) = dist a0 r j := by
  unfold dist gdist
  rw [Read.val_main_v20_apply, Read.val_main_v15_apply, Read.val_main_v19_apply, Read.val_main_v18_apply,
    Read.val_main_v17_apply, sqdist_entry, Read.val_main_v14_apply, Read.val_main_v16_apply,
    Read.val_main_call0_v1_apply, Read.val_main_call0_v0_apply, Read.val_main_call1_v1_apply,
    Read.val_main_call1_v0_apply, Read.val_main_cst_2_apply, Read.val_main_cst_3_apply, Read.val_main_cst_4_apply,
    Read.val_main_cst_5_apply]
  simp only [Ideal.ofBits_def, Ideal.ofBits_zero_f32, cmpf_ogt_eq, select_ofBool_decide, Ideal.hostUnary_sqrt_def]

/-- 1 where rows r and j carry the same label, else 0. -/
theorem same_label_entry (r j : Fin 2048) : Read.val_main_v26 (F := Ideal) a1 (ix2 r j) = pm a1 r j := by
  have e3 : Read.idx_main_v21 (Read.idx_main_v23 (ix2 r j)) = ix1 r := funext fun a => by
    match a with
    | ⟨0, _⟩ => rfl
  have e4 : Read.idx_main_v22 (Read.idx_main_v24 (ix2 r j)) = ix1 j := funext fun a => by
    match a with
    | ⟨0, _⟩ => rfl
  unfold pm
  rw [Read.val_main_v26_apply, Read.val_main_v25_apply, Read.val_main_v23_apply, Read.val_main_v21_apply,
    Read.val_main_v24_apply, Read.val_main_v22_apply, e3, e4, uitofp_cmpi_eq]

/-! ## The two row reductions -/

/-- Row r of a 2048 × 2048 array with column j put back is (r, j). -/
theorem lift_row (h : S2048x2048.Reduces [1] S2048) (r : Fin 2048) (j : Fin (S2048x2048.size 1)) :
    h.lift (ix1 r) j = ix2 r (⟨j.val, j.isLt⟩ : Fin 2048) := by
  funext c; apply Fin.ext
  match c with
  | ⟨0, _⟩ => rfl
  | ⟨1, _⟩ => rfl

/-- The largest distance from row r to a row of its label, from −∞. -/
theorem hardest_positive (r : Fin 2048) :
    Read.val_main_v28 (F := Ideal) a0 a1 (ix1 r)
      = (Finset.univ : Finset (Fin 2048)).fold max ⊥ fun j => dist a0 r j * pm a1 r j := by
  have h : S2048x2048.Reduces [1] S2048 := by decide
  unfold Read.val_main_v28
  rw [Host.reduce_eq_fold_single FloatOps.maximumf _ _ reducesTo_S2048x2048_S2048_d1 h h_S_]
  have hf : (Read.val_main_v27 (F := Ideal) a0 a1 ∘ h.lift (ix1 r)) = fun j : Fin 2048 => dist a0 r j * pm a1 r j :=
    funext fun j => by
      show Read.val_main_v27 (F := Ideal) a0 a1 (h.lift (ix1 r) j) = _
      rw [lift_row h r j, Read.val_main_v27_apply, dist_entry, same_label_entry]
      rfl
  have hi : Read.val_main_cst_6 (F := Ideal) (Shape.Idx.first h_S_) = ⊥ := by
    rw [Read.val_main_cst_6_apply]; exact ofBits_neg_inf_f32
  rw [hi]
  exact congrArg (fun f => Finset.fold max (⊥ : EReal) f (Finset.univ : Finset (Fin 2048))) hf

/-- The smallest of distance + 1e6·[same label] over the rows, from +∞. -/
theorem hardest_negative (r : Fin 2048) :
    Read.val_main_v32 (F := Ideal) a0 a1 (ix1 r)
      = (Finset.univ : Finset (Fin 2048)).fold min ⊤ fun j =>
          dist a0 r j + Ideal.ofBits .f32 0x49742400#32 * pm a1 r j := by
  have h : S2048x2048.Reduces [1] S2048 := by decide
  unfold Read.val_main_v32
  rw [Host.reduce_eq_fold_single FloatOps.minimumf _ _ reducesTo_S2048x2048_S2048_d1 h h_S_]
  have hf : (Read.val_main_v31 (F := Ideal) a0 a1 ∘ h.lift (ix1 r))
      = fun j : Fin 2048 => dist a0 r j + Ideal.ofBits .f32 0x49742400#32 * pm a1 r j :=
    funext fun j => by
      show Read.val_main_v31 (F := Ideal) a0 a1 (h.lift (ix1 r) j) = _
      rw [lift_row h r j, Read.val_main_v31_apply, Read.val_main_v30_apply, Read.val_main_v29_apply,
        Read.val_main_cst_7_apply, dist_entry, same_label_entry]
      rfl
  have hi : Read.val_main_cst_8 (F := Ideal) (Shape.Idx.first h_S_) = ⊤ := by
    rw [Read.val_main_cst_8_apply]; exact ofBits_pos_inf_f32
  rw [hi]
  exact congrArg (fun f => Finset.fold min (⊤ : EReal) f (Finset.univ : Finset (Fin 2048))) hf

/-! ## The term -/

/-- THE TRIPLET TERM OF ROW r. -/
theorem triplet_row (r : Fin 2048) : Read.val_main_v36 (F := Ideal) a0 a1 (ix1 r) = T a0 a1 r := by
  unfold T
  rw [Read.val_main_v36_apply, Read.val_main_v35_apply, Read.val_main_v33_apply, hardest_positive, hardest_negative,
    Read.val_main_v34_apply, Read.val_main_cst_9_apply, Read.val_main_call2_v0_apply, Read.val_main_call2_cst_apply]
  simp only [Ideal.maximumf_def, Ideal.addf_def, Ideal.subf_def, Ideal.ofBits_def, Ideal.ofBits_zero_f32]

end Cert.ReferenceIdeal.RefHand

end
-- ==== Proof.RefValLogit.lean ====
/- THE LOGITS OF A ROW. The reference divides each embedding and each class weight by its Euclidean length, takes the 2048 ×
   50000 matrix of their inner products, clips it into [−0.99999988, 0.99999988], replaces the entry of the row's own label by
   cos(θ + 0.5) (computed as c·cos 0.5 − √((1 − c²) + 1e-7)·sin 0.5) and multiplies by 30. Each stage is read here at row r
   and class j; the row maximum log_softmax subtracts is the fold of max over the classes from −∞, once more against −∞. -/
import proofs.«420115_j17875653886477_3_alg».proof.Proof.RefRead
import proofs.«420115_j17875653886477_3_alg».proof.Proof.RefValGather
import proofs.«420115_j17875653886477_3_alg».proof.Proof.RefValSpec

noncomputable section

open scoped BigOperators

namespace Cert.ReferenceIdeal.RefHand

open Cert.ReferenceIdeal Cert.ReferenceIdeal.Gen Idealize.ShloMosaic Idealize.ShloMosaic.ValueIdx

variable (a0 : FVec Ideal S2048x512 .f32) (a1 : IVec S2048 32) (a2 : FVec Ideal S50000x512 .f32)

/-! ## Unit-length rows -/

/-- The unit-length embedding r at coordinate k. -/
theorem unit_embedding_entry (r : Fin 2048) (k : Fin 512) :
    Read.val_main_v53 (F := Ideal) a0 (ix2 r k) = fn a0 (ix2 r k) := by
  have e : ∀ k' : Fin 512,
      Read.idx_main_call3_v1 (Read.idx_main_call3_v2 (Read.idx_main_v52 (ix2 r k))) k' = ix2 r k' :=
    fun k' => funext fun a => by
      match a with
      | ⟨0, _⟩ => rfl
      | ⟨1, _⟩ => rfl
  show _ = Ideal.div (a0 (ix2 r k)) (Ideal.sqrt (0 + ∑ k' : Fin 512, a0 (ix2 r k') * a0 (ix2 r k')))
  rw [Read.val_main_v53_apply, Read.val_main_v52_apply, Read.val_main_v51_apply, Read.val_main_call3_v2_apply,
    Read.val_main_call3_v1_apply]
  simp only [e, Read.val_main_call3_v0_apply, Read.val_main_call3_cst_apply, Ideal.hostDivf_def, Ideal.hostUnary_sqrt_def,
    Ideal.mulf_def, Ideal.ofBits_def, Ideal.ofBits_zero_f32]

/-- The embeddings with each row divided by its length. -/
theorem unit_embedding : Read.val_main_v53 (F := Ideal) a0 = fn a0 := by
  funext i
  obtain ⟨p, q, rfl⟩ : ∃ (p : Fin 2048) (q : Fin 512), i = ix2 p q := ⟨i 0, i 1, eq_ix2 i⟩
  exact unit_embedding_entry a0 p q

/-- The unit-length class weight j at coordinate k. -/
theorem unit_weight_entry (j : Fin 50000) (k : Fin 512) :
    Read.val_main_v56 (F := Ideal) a2 (ix2 j k) = wn a2 (ix2 j k) := by
  have e : ∀ k' : Fin 512,
      Read.idx_main_call4_v1 (Read.idx_main_call4_v2 (Read.idx_main_v55 (ix2 j k))) k' = ix2 j k' :=
    fun k' => funext fun a => by
      match a with
      | ⟨0, _⟩ => rfl
      | ⟨1, _⟩ => rfl
  show _ = Ideal.div (a2 (ix2 j k)) (Ideal.sqrt (0 + ∑ k' : Fin 512, a2 (ix2 j k') * a2 (ix2 j k')))
  rw [Read.val_main_v56_apply, Read.val_main_v55_apply, Read.val_main_v54_apply, Read.val_main_call4_v2_apply,
    Read.val_main_call4_v1_apply]
  simp only [e, Read.val_main_call4_v0_apply, Read.val_main_call4_cst_apply, Ideal.hostDivf_def, Ideal.hostUnary_sqrt_def,
    Ideal.mulf_def, Ideal.ofBits_def, Ideal.ofBits_zero_f32]

/-- The class weights with each row divided by its length. -/
theorem unit_weight : Read.val_main_v56 (F := Ideal) a2 = wn a2 := by
  funext i
  obtain ⟨p, q, rfl⟩ : ∃ (p : Fin 50000) (q : Fin 512), i = ix2 p q := ⟨i 0, i 1, eq_ix2 i⟩
  exact unit_weight_entry a2 p q

/-! ## The clipped cosine -/

/-- The clipped cosine between embedding r and class j. -/
theorem cosine_entry (r : Fin 2048) (j : Fin 50000) :
    Read.val_main_v59 (F := Ideal) a0 a2 (ix2 r j) = cos a0 a2 r j := by
  have el : ∀ k : Fin 512, Read.lidx_main_v58 (ix2 r j) k = ix2 r k := fun k => funext fun a => by
    match a with
    | ⟨0, _⟩ => rfl
    | ⟨1, _⟩ => rfl
  have er : ∀ k : Fin 512, Read.idx_main_v57 (Read.ridx_main_v58 (ix2 r j) k) = ix2 j k := fun k => funext fun a => by
    match a with
    | ⟨0, _⟩ => rfl
    | ⟨1, _⟩ => rfl
  unfold cos
  rw [Read.val_main_v59_apply, Read.val_main_call5_v2_apply, Read.val_main_v58_apply, Read.val_main_call5_v4_apply,
    Read.val_main_call5_v3_apply, Read.val_main_call5_v1_apply, Read.val_main_call5_v0_apply,
    Read.val_main_cst_16_apply, Read.val_main_cst_17_apply]
  simp only [Read.val_main_v57_apply, el, er, unit_embedding_entry, unit_weight_entry, Ideal.minimumf_def,
    Ideal.maximumf_def, Ideal.ofBits_def]

/-! ## The margin and the scale -/

/-- "Greater than" at the extended reals is the bit of the order's comparison. -/
theorem cmpf_ogt_bit (x y : EReal) :
    FloatOps.cmpf (F := Ideal) (φ := .f32) .ogt x y = BitVec.ofBool (decide (y < x)) := rfl

/-- A select on "the float of the bit of an equality of words is positive" is the if-then-else on the equality. -/
theorem select_onehot_pos {α : Type} (x y : BitVec 32) (u v : α) :
    Scalar.select (FloatOps.cmpf (F := Ideal) (φ := .f32) .ogt
        (FloatOps.uitofp (F := Ideal) .f32 (IntOp.cmpi .eq x y)) (0 : EReal)) u v
      = if x = y then u else v := by
  have hu : FloatOps.uitofp (F := Ideal) .f32 (IntOp.cmpi .eq x y) = (((BitVec.ofBool (x == y)).toNat : ℝ) : EReal) := rfl
  rw [cmpf_ogt_bit, hu]
  by_cases h : x = y
  · rw [if_pos h, beq_iff_eq.mpr h]
    have : decide ((0 : EReal) < (((BitVec.ofBool true).toNat : ℝ) : EReal)) = true := by
      apply decide_eq_true; simp
    rw [this]; exact if_pos rfl
  · rw [if_neg h, beq_eq_false_iff_ne.mpr h]
    have : decide ((0 : EReal) < (((BitVec.ofBool false).toNat : ℝ) : EReal)) = false := by
      apply decide_eq_false; simp
    rw [this]; exact if_neg (by decide)

/-- The logit of class j for row r. -/
theorem logit_entry (r : Fin 2048) (j : Fin 50000) (h0 : 0 ≤ (a1 (ix1 r)).toInt) (h1 : (a1 (ix1 r)).toInt < 50000) :
    Read.val_main_v76 (F := Ideal) a0 a1 a2 (ix2 r j) = logit a0 a1 a2 r j := by
  have e2 : Read.idx_main_call6_v0 (Read.idx_main_call6_v2 (ix2 r j)) = ix1 r := funext fun a => by
    match a with
    | ⟨0, _⟩ => rfl
  have e3 : Read.val_main_call6_v3 (F := Ideal) (ix2 r j) = BitVec.ofNat 32 j.val := by
    rw [Read.val_main_call6_v3_apply, Read.val_main_call6_v1_apply]
  unfold logit margin
  rw [Read.val_main_v76_apply, Read.val_main_v75_apply, Read.val_main_cst_23_apply, Read.val_main_v74_apply,
    Read.val_main_v73_apply, Read.val_main_v71_apply, Read.val_main_call6_v4_apply, Read.val_main_call6_v2_apply,
    Read.val_main_call6_v0_apply, e2, e3, Read.val_main_v72_apply, Read.val_main_cst_22_apply,
    Read.val_main_v70_apply, Read.val_main_v67_apply, Read.val_main_v69_apply, Read.val_main_v65_apply,
    Read.val_main_v64_apply, Read.val_main_v62_apply, Read.val_main_v60_apply, Read.val_main_v61_apply,
    Read.val_main_v63_apply, Read.val_main_v66_apply, Read.val_main_v68_apply, Read.val_main_cst_18_apply,
    Read.val_main_cst_19_apply, Read.val_main_cst_20_apply, Read.val_main_cst_21_apply, cosine_entry]
  simp only [Ideal.ofBits_def, Ideal.ofBits_zero_f32, select_onehot_pos, Ideal.mulf_def, Ideal.subf_def, Ideal.addf_def,
    Ideal.hostUnary_sqrt_def]
  rw [if_congr (label_eq_iff a1 r h0 h1 j) rfl rfl]

/-! ## The row maximum -/

/-- Row r of a 2048 × 50000 array with class j put back is (r, j). -/
theorem lift_class (h : S2048x50000.Reduces [1] S2048) (r : Fin 2048) (j : Fin (S2048x50000.size 1)) :
    h.lift (ix1 r) j = ix2 r (⟨j.val, j.isLt⟩ : Fin 50000) := by
  funext c; apply Fin.ext
  match c with
  | ⟨0, _⟩ => rfl
  | ⟨1, _⟩ => rfl

/-- The maximum log_softmax subtracts from row r. -/
theorem rowmax_row (r : Fin 2048) (h0 : 0 ≤ (a1 (ix1 r)).toInt) (h1 : (a1 (ix1 r)).toInt < 50000) :
    Read.val_main_call8_v2 (F := Ideal) a0 a1 a2 (ix1 r) = M a0 a1 a2 r := by
  have h : S2048x50000.Reduces [1] S2048 := by decide
  have hr : Read.val_main_call8_v0 (F := Ideal) a0 a1 a2 (ix1 r)
      = (Finset.univ : Finset (Fin 50000)).fold max ⊥ fun j => logit a0 a1 a2 r j := by
    unfold Read.val_main_call8_v0
    rw [Host.reduce_eq_fold_single FloatOps.maximumf _ _ reducesTo_S2048x50000_S2048_d1 h h_S_]
    have hf : (Read.val_main_v76 (F := Ideal) a0 a1 a2 ∘ h.lift (ix1 r)) = fun j : Fin 50000 => logit a0 a1 a2 r j :=
      funext fun j => by
        show Read.val_main_v76 (F := Ideal) a0 a1 a2 (h.lift (ix1 r) j) = _
        rw [lift_class h r j, logit_entry a0 a1 a2 r _ h0 h1]
        rfl
    have hi : Read.val_main_call8_cst (F := Ideal) (Shape.Idx.first h_S_) = ⊥ := by
      rw [Read.val_main_call8_cst_apply]; exact ofBits_neg_inf_f32
    rw [hi]
    exact congrArg (fun f => Finset.fold max (⊥ : EReal) f (Finset.univ : Finset (Fin 50000))) hf
  unfold M
  rw [Read.val_main_call8_v2_apply, hr, Read.val_main_call8_v1_apply, Read.val_main_call8_cst_0_apply]
  simp only [Ideal.maximumf_def, Ideal.ofBits_def, ofBits_neg_inf_f32]

end Cert.ReferenceIdeal.RefHand

end
-- ==== Proof.RefValC.lean ====
/- THE CENTRE TERM OF A ROW. The reference picks, for each row, the centre of the row's label out of the table of 50000
   centres (a negative label would first have 50000 added; a label that is a class index is not negative), subtracts it
   from the embedding and sums the squares over the 512 coordinates, from 0. -/
import proofs.«420115_j17875653886477_3_alg».proof.Proof.RefRead
import proofs.«420115_j17875653886477_3_alg».proof.Proof.RefValGather
import proofs.«420115_j17875653886477_3_alg».proof.Proof.RefValSpec

noncomputable section

open scoped BigOperators

namespace Cert.ReferenceIdeal.RefHand

open Cert.ReferenceIdeal Cert.ReferenceIdeal.Gen Idealize.ShloMosaic Idealize.ShloMosaic.ValueIdx

variable (a0 : FVec Ideal S2048x512 .f32) (a1 : IVec S2048 32) (a3 : FVec Ideal S50000x512 .f32)

/-- A word that reads as a non-negative signed integer is not below zero. -/
theorem cmpi_slt_zero_of_nonneg (x : BitVec 32) (h : 0 ≤ x.toInt) : IntOp.cmpi .slt x 0#32 = 0#1 := by
  have hz : (0#32 : BitVec 32).toInt = 0 := by decide
  have h' : ¬ x.toInt < (0#32 : BitVec 32).toInt := by omega
  have hs : x.slt 0#32 = false := decide_eq_false h'
  show BitVec.ofBool (x.slt 0#32) = 0#1
  rw [hs]; rfl

/-- The label of row r after the "add 50000 to a negative label" select: the label itself when it is not negative. -/
theorem wrapped_label_row (r : Fin 2048) (h0 : 0 ≤ (a1 (ix1 r)).toInt) :
    Read.val_main_v43 (F := Ideal) a1 (ix1 r) = a1 (ix1 r) := by
  rw [Read.val_main_v43_apply, Read.val_main_v40_apply, Read.val_main_v39_apply, Read.val_main_c_apply,
    cmpi_slt_zero_of_nonneg _ h0, select_zero]

/-- The centre the reference subtracts from row r, at coordinate k: the centre of the row's label. -/
theorem centre_entry (r : Fin 2048) (k : Fin 512) (h0 : 0 ≤ (a1 (ix1 r)).toInt) :
    Read.val_main_v45 (F := Ideal) a1 a3 (ix2 r k) = a3 (ix2 (lbl a1 r) k) := by
  have e : Read.idx_main_v44 (ix2 r (0 : Fin 1)) = ix1 r := funext fun a => by
    match a with
    | ⟨0, _⟩ => rfl
  have hl : Read.val_main_v44 (F := Ideal) a1 (ix2 r (0 : Fin 1)) = a1 (ix1 r) := by
    rw [Read.val_main_v44_apply, e, wrapped_label_row a1 r h0]
  unfold Read.val_main_v45
  have hd : gather_S50000x512_S2048x1_S2048x512_1_0_n_n_0_1_1512
      = rowDims 50000 512 2048 Facts₀.gather_S50000x512_S2048x1_S2048x512_1_0_n_n_0_1_1512_wf := rfl
  rw [hd, gather_rows_apply (by decide)]
  exact congrArg a3 (congrArg (fun q : Fin 50000 => ix2 q k) (Fin.ext (by
    show min (Read.val_main_v44 (F := Ideal) a1 (ix2 r (0 : Fin 1))).toInt.toNat (50000 - 1) = min (a1 (ix1 r)).toInt.toNat (50000 - 1)
    rw [hl])))

/-- THE CENTRE TERM OF ROW r. -/
theorem centre_row (r : Fin 2048) (h0 : 0 ≤ (a1 (ix1 r)).toInt) :
    Read.val_main_v48 (F := Ideal) a0 a1 a3 (ix1 r) = C a0 a1 a3 r := by
  have e : ∀ k : Fin 512, Read.idx_main_v48 (ix1 r) k = ix2 r k := fun k => funext fun a => by
    match a with
    | ⟨0, _⟩ => rfl
    | ⟨1, _⟩ => rfl
  unfold C
  rw [Read.val_main_v48_apply]
  simp only [e, Read.val_main_v47_apply, Read.val_main_v46_apply, centre_entry a1 a3 r _ h0, Read.val_main_cst_13_apply,
    Ideal.mulf_def, Ideal.subf_def, Ideal.ofBits_def, Ideal.ofBits_zero_f32]

end Cert.ReferenceIdeal.RefHand

end
-- ==== Proof.RefValLp.lean ====
/- THE LABEL LOG-PROBABILITY OF A ROW. log_softmax subtracts the row maximum from the logits, then the logarithm of the
   row sum (from 0) of the exponentials; take_along_axis then reads each row at its label — a negative label would first
   have 50000 added, and a label outside [0, 49999] would read a NaN; a label that is a class index does neither. -/
import proofs.«420115_j17875653886477_3_alg».proof.Proof.RefValLogit
import proofs.«420115_j17875653886477_3_alg».proof.Proof.RefValC

set_option maxRecDepth 16384

noncomputable section

open scoped BigOperators

namespace Cert.ReferenceIdeal.RefHand

open Cert.ReferenceIdeal Cert.ReferenceIdeal.Gen Idealize.ShloMosaic Idealize.ShloMosaic.ValueIdx

variable (a0 : FVec Ideal S2048x512 .f32) (a1 : IVec S2048 32) (a2 : FVec Ideal S50000x512 .f32)

/-! ## log_softmax at an entry -/

/-- The shifted logit of class j for row r. -/
theorem shifted_entry (r : Fin 2048) (j : Fin 50000) (h0 : 0 ≤ (a1 (ix1 r)).toInt) (h1 : (a1 (ix1 r)).toInt < 50000) :
    Read.val_main_call8_v5 (F := Ideal) a0 a1 a2 (ix2 r j) = logit a0 a1 a2 r j - M a0 a1 a2 r := by
  have e : Read.idx_main_call8_v3 (Read.idx_main_call8_v4 (ix2 r j)) = ix1 r := funext fun a => by
    match a with
    | ⟨0, _⟩ => rfl
  rw [Read.val_main_call8_v5_apply, Read.val_main_call8_v4_apply, Read.val_main_call8_v3_apply, e,
    rowmax_row a0 a1 a2 r h0 h1, logit_entry a0 a1 a2 r j h0 h1]
  rfl

/-- The row sum of the exponentials of the shifted logits, from 0. -/
theorem expsum_row (r : Fin 2048) (h0 : 0 ≤ (a1 (ix1 r)).toInt) (h1 : (a1 (ix1 r)).toInt < 50000) :
    Read.val_main_call8_v7 (F := Ideal) a0 a1 a2 (ix1 r)
      = 0 + ∑ j : Fin 50000, Ideal.exp (logit a0 a1 a2 r j - M a0 a1 a2 r) := by
  have e : ∀ k : Fin 50000, Read.idx_main_call8_v7 (ix1 r) k = ix2 r k := fun k => funext fun a => by
    match a with
    | ⟨0, _⟩ => rfl
    | ⟨1, _⟩ => rfl
  rw [Read.val_main_call8_v7_apply]
  simp only [e, Read.val_main_call8_v6_apply, shifted_entry a0 a1 a2 r _ h0 h1, Read.val_main_call8_cst_1_apply,
    Ideal.hostUnary_exp_def, Ideal.ofBits_def, Ideal.ofBits_zero_f32]

/-- The log-probability of class j for row r. -/
theorem logprob_entry (r : Fin 2048) (j : Fin 50000) (h0 : 0 ≤ (a1 (ix1 r)).toInt) (h1 : (a1 (ix1 r)).toInt < 50000) :
    Read.val_main_v77 (F := Ideal) a0 a1 a2 (ix2 r j)
      = (logit a0 a1 a2 r j - M a0 a1 a2 r)
        - Ideal.log (0 + ∑ j' : Fin 50000, Ideal.exp (logit a0 a1 a2 r j' - M a0 a1 a2 r)) := by
  have e : Read.idx_main_call8_v8 (Read.idx_main_call8_v10 (ix2 r j)) = ix1 r := funext fun a => by
    match a with
    | ⟨0, _⟩ => rfl
  rw [Read.val_main_v77_apply, shifted_entry a0 a1 a2 r j h0 h1, Read.val_main_call8_v10_apply,
    Read.val_main_call8_v9_apply, Read.val_main_call8_v8_apply, e, expsum_row a0 a1 a2 r h0 h1]
  simp only [Ideal.subf_def, Ideal.hostUnary_log_def]

/-! ## take_along_axis at a row -/

/-- A word that reads as a signed integer in [0, 49999] passes the range test. -/
theorem in_range_bit (x : BitVec 32) (h0 : 0 ≤ x.toInt) (h1 : x.toInt < 50000) :
    IntOp.andi (IntOp.cmpi .sge x 0#32) (IntOp.cmpi .sle x 49999#32) = 1#1 := by
  have hz : (0#32 : BitVec 32).toInt = 0 := by decide
  have hm : (49999#32 : BitVec 32).toInt = 49999 := by decide
  have hge : (0#32 : BitVec 32).sle x = true := decide_eq_true (by omega : (0#32 : BitVec 32).toInt ≤ x.toInt)
  have hle : x.sle 49999#32 = true := decide_eq_true (by omega : x.toInt ≤ (49999#32 : BitVec 32).toInt)
  show IntOp.andi (BitVec.ofBool ((0#32 : BitVec 32).sle x)) (BitVec.ofBool (x.sle 49999#32)) = 1#1
  rw [hge, hle]; rfl

/-- The start index take_along_axis reads for row r: the label itself when it is not negative. -/
theorem start_index_row (r : Fin 2048) (h0 : 0 ≤ (a1 (ix1 r)).toInt) :
    Read.val_main_call9_v5 (F := Ideal) a1 (ix3 r (0 : Fin 1) (0 : Fin 1)) = a1 (ix1 r) := by
  have e5 : Read.idx_main_call9_v5 (ix3 r (0 : Fin 1) (0 : Fin 1)) = ix2 r (0 : Fin 1) := funext fun a => by
    match a with
    | ⟨0, _⟩ => exact Fin.ext (by show ((r.val * 1 + 0) * 1 + 0) / 1 = r.val; simp)
    | ⟨1, _⟩ => rfl
  have e8 : Read.idx_main_v78 (ix2 r (0 : Fin 1)) = ix1 r := funext fun a => by
    match a with
    | ⟨0, _⟩ => rfl
  rw [Read.val_main_call9_v5_apply, e5, Read.val_main_call9_v4_apply, Read.val_main_call9_v1_apply,
    Read.val_main_v78_apply, e8, Read.val_main_call9_v0_apply, Read.val_main_call9_c_apply,
    cmpi_slt_zero_of_nonneg _ h0, select_zero]

/-- Row r of a 2048 × 1 array with the one coordinate of the dropped unit axis put back. -/
theorem lift_unit (h : S2048x1x1.Reduces [2] S2048x1) (r : Fin 2048) (k : Fin (S2048x1x1.size 2)) :
    h.lift (ix2 r (0 : Fin 1)) k = ix3 r (0 : Fin 1) (0 : Fin 1) := by
  funext c; apply Fin.ext
  match c with
  | ⟨0, _⟩ => rfl
  | ⟨1, _⟩ => rfl
  | ⟨2, _⟩ => exact Nat.lt_one_iff.mp k.isLt

/-- The range test of row r passes. -/
theorem range_ok_row (r : Fin 2048) (h0 : 0 ≤ (a1 (ix1 r)).toInt) (h1 : (a1 (ix1 r)).toInt < 50000) :
    Read.val_main_call9_v12 (F := Ideal) a1 (ix2 r (0 : Fin 1)) = 1#1 := by
  have h : S2048x1x1.Reduces [2] S2048x1 := by decide
  unfold Read.val_main_call9_v12
  rw [Host.reduce_eq_fold_single IntOp.andi _ _ reducesTo_S2048x1x1_S2048x1_d2 h h_S_]
  have hf : (Read.val_main_call9_v11 (F := Ideal) a1 ∘ h.lift (ix2 r (0 : Fin 1))) = fun _ => 1#1 :=
    funext fun k => by
      show Read.val_main_call9_v11 (F := Ideal) a1 (h.lift (ix2 r (0 : Fin 1)) k) = _
      have e9 : Read.val_main_call9_v9 (F := Ideal) (ix3 r (0 : Fin 1) (0 : Fin 1)) = 49999#32 := by
        rw [Read.val_main_call9_v9_apply, Read.val_main_call9_v8_apply, Read.val_main_call9_c_1_apply]
      rw [lift_unit h r k, Read.val_main_call9_v11_apply, Read.val_main_call9_v7_apply, Read.val_main_call9_v10_apply,
        start_index_row a1 r h0, Read.val_main_call9_v6_apply, Read.val_main_call9_c_2_apply, e9,
        in_range_bit _ h0 h1]
  rw [hf, Read.val_main_call9_c_3_apply]
  show Finset.fold IntOp.andi (1#1) (fun _ : Fin 1 => (1#1 : BitVec 1)) (Finset.univ : Finset (Fin 1)) = 1#1
  rw [Finset.univ_unique, Finset.fold_singleton]
  rfl

/-- THE LABEL LOG-PROBABILITY OF ROW r. -/
theorem label_logprob_row (r : Fin 2048) (h0 : 0 ≤ (a1 (ix1 r)).toInt) (h1 : (a1 (ix1 r)).toInt < 50000) :
    Read.val_main_v79 (F := Ideal) a0 a1 a2 (ix2 r (0 : Fin 1)) = Lp a0 a1 a2 r := by
  have hg : Read.val_main_call9_v13 (F := Ideal) a0 a1 a2 (ix2 r (0 : Fin 1))
      = Read.val_main_v77 (F := Ideal) a0 a1 a2 (ix2 r (lbl a1 r)) := by
    unfold Read.val_main_call9_v13
    have hd : gather_S2048x50000_S2048x1x1_S2048x1_n_1_0_0_1_2_11
        = alongDims 2048 50000 Facts₀.gather_S2048x50000_S2048x1x1_S2048x1_n_1_0_0_1_2_11_wf := rfl
    rw [hd, gather_along_apply (by decide)]
    exact congrArg (Read.val_main_v77 (F := Ideal) a0 a1 a2) (congrArg (fun q : Fin 50000 => ix2 r q) (Fin.ext (by
      show min (Read.val_main_call9_v5 (F := Ideal) a1 (ix3 r (0 : Fin 1) (0 : Fin 1))).toInt.toNat (50000 - 1)
        = min (a1 (ix1 r)).toInt.toNat (50000 - 1)
      rw [start_index_row a1 r h0])))
  unfold Lp
  rw [Read.val_main_v79_apply, range_ok_row a1 r h0 h1, select_one, hg, logprob_entry a0 a1 a2 r _ h0 h1]

end Cert.ReferenceIdeal.RefHand

end
-- ==== Proof.RefValLoss.lean ====
/- THE REFERENCE IS THE LOSS. With every label a class index (0 ≤ label < 50000), the reference's result scalar is
   1.0 · mean_r T r + 0.1 · mean_r C r + 0.1 · (− mean_r Lp r) of the row formulas. -/
import proofs.«420115_j17875653886477_3_alg».proof.Proof.RefValFinal
import proofs.«420115_j17875653886477_3_alg».proof.Proof.RefValT
import proofs.«420115_j17875653886477_3_alg».proof.Proof.RefValLp

noncomputable section

open scoped BigOperators

namespace Cert.ReferenceIdeal.RefHand

open Cert.ReferenceIdeal Cert.ReferenceIdeal.Gen Idealize.ShloMosaic Idealize.ShloMosaic.ValueIdx

/-- THE REFERENCE'S RESULT IS THE LOSS OF THE ROW FORMULAS. -/
theorem reference_is_loss (a0 : FVec Ideal S2048x512 .f32) (a1 : IVec S2048 32) (a2 a3 : FVec Ideal S50000x512 .f32)
    (hlab : ∀ r : Fin 2048, 0 ≤ (a1 (ix1 r)).toInt ∧ (a1 (ix1 r)).toInt < 50000) :
    Read.val_main_v87 (F := Ideal) a0 a1 a2 a3 ix0 = loss a0 a1 a2 a3 := by
  rw [result_of_rows]
  unfold loss
  rw [Finset.sum_congr rfl (fun r _ => triplet_row a0 a1 r),
    Finset.sum_congr rfl (fun r _ => centre_row a0 a1 a3 r (hlab r).1),
    Finset.sum_congr rfl (fun r _ => label_logprob_row a0 a1 a2 r (hlab r).1 (hlab r).2)]

/-- The same, as the scalar array: every (that is, the one) index reads the loss. -/
theorem reference_is_loss_fun (a0 : FVec Ideal S2048x512 .f32) (a1 : IVec S2048 32) (a2 a3 : FVec Ideal S50000x512 .f32)
    (hlab : ∀ r : Fin 2048, 0 ≤ (a1 (ix1 r)).toInt ∧ (a1 (ix1 r)).toInt < 50000) :
    Read.val_main_v87 (F := Ideal) a0 a1 a2 a3 = fun _ => loss a0 a1 a2 a3 := by
  funext i
  obtain rfl : i = ix0 := eq_ix0 i
  exact reference_is_loss a0 a1 a2 a3 hlab

end Cert.ReferenceIdeal.RefHand

end
-- ==== Proof.PreDecode.lean ====
import proofs.«420115_j17875653886477_3_alg».proof.Pre_finite_inputs
import proofs.«420115_j17875653886477_3_alg».proof.Proof.Gen.Pre_finite_inputs
import Idealize.ShloMosaic.Lib.ReduceAll
import Idealize.ShloMosaic.Lib.ValueIdx
import Idealize.ShloMosaic.PureOps.Ideal

/-!
# The precondition, decoded

The precondition is a conjunction of five `all`s: every entry of the three float inputs has
absolute value below `+∞`, and every label is at least `0` and below `50000`.  Read at the
extended reals: every float entry is a real, every label is in `[0, 50000)`.
-/

namespace Cert.Pre_finite_inputs.Hand

open Idealize.ShloMosaic Cert.Pre_finite_inputs

instance : Subsingleton S_.Idx := ⟨fun a b => funext fun d => d.elim0⟩

/-- `|x| < +∞`, as the comparison's bit, says `x` is a real. -/
theorem real_of_abs_lt_top (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

theorem pre_decode (a0 : FVec Ideal S2048x512 .f32) (a1 : IVec S2048 32)
    (a2 a3 : FVec Ideal S50000x512 .f32)
    (h : fn (F := Ideal) a0 a1 a2 a3 = fun _ => 1#1) :
    (∀ i, ∃ r : ℝ, a0 i = (r : EReal)) ∧ (∀ i, ∃ r : ℝ, a2 i = (r : EReal)) ∧
    (∀ i, ∃ r : ℝ, a3 i = (r : EReal)) ∧
    (∀ i : S2048.Idx, 0 ≤ (a1 i).toInt ∧ (a1 i).toInt < 50000) := by
  have h0 := congrFun h ValueIdx.ix0
  dsimp only [fn, fn_part1] at h0
  obtain ⟨hv17, hv20⟩ := IntOp.andi_eq_one.1 h0
  obtain ⟨hv13, hv16⟩ := IntOp.andi_eq_one.1 hv17
  obtain ⟨hv8, hv12⟩ := IntOp.andi_eq_one.1 hv13
  obtain ⟨hv3, hv7⟩ := IntOp.andi_eq_one.1 hv8
  refine ⟨fun i => ?_, fun i => ?_, fun i => ?_, fun i => ⟨?_, ?_⟩⟩
  · exact real_of_abs_lt_top _ (Host.reduce_andi_all _ _ _ _ _ hv3 i)
  · exact real_of_abs_lt_top _ (Host.reduce_andi_all _ _ _ _ _ hv7 i)
  · exact real_of_abs_lt_top _ (Host.reduce_andi_all _ _ _ _ _ hv12 i)
  · have e := Host.reduce_andi_all _ _ _ _ _ hv16 i
    have e' : (0#32).toInt ≤ (a1 i).toInt := IntOp.cmpi_sge.1 e
    simpa using e'
  · have e := Host.reduce_andi_all _ _ _ _ _ hv20 i
    have e' : (a1 i).toInt < (50000#32).toInt := IntOp.cmpi_slt.1 e
    have hc : (50000#32 : BitVec 32).toInt = 50000 := by decide
    rw [hc] at e'; exact e'

end Cert.Pre_finite_inputs.Hand
-- ==== Proof.BridgeCore.lean ====
/- THE TWO PROGRAMS END AT ONE SCALAR, from three facts: the kernel program's run leaves its result buffer at a stated
   value of the launch memory; the reference's run leaves its result at its last stage's value of the arguments; and,
   under the precondition (every float entry a real, every label a class index), the kernel's stated value is the loss
   of the row formulas — which the reference's last stage is too. The runs and the kernel-side fact are hypotheses here. -/
import proofs.«420115_j17875653886477_3_alg».proof.Defs
import proofs.«420115_j17875653886477_3_alg».proof.Proof.Gen.KernelIdeal
import proofs.«420115_j17875653886477_3_alg».proof.Proof.RefRead
import proofs.«420115_j17875653886477_3_alg».proof.Proof.RefValLoss
import proofs.«420115_j17875653886477_3_alg».proof.Proof.PreDecode

set_option maxRecDepth 16384

noncomputable section

namespace Cert.Proof.Bridge

open Idealize.ShloMosaic Idealize.ShloMosaic.TcCoe Idealize.SL.Sem Idealize.ShloMosaic.ValueIdx

/-- The kernel program's memories and the reference's. -/
abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

/-- From the two runs and "the kernel's value is the loss", the two programs end at one scalar. -/
theorem algebraic_core
    (V : (m : KMem) → (c : Dev Cert.KernelIdeal.nD) → Buf (Elt Ideal) ((c.tc : Thread Cert.KernelIdeal.nD Cert.KernelIdeal.τ).loc Cert.KernelIdeal.main_v77))
    (hkrun : ∀ (m : KMem) (g : Dev Cert.KernelIdeal.nD → PrngReg),
      θ_run (Cert.KernelIdeal.defs (F := Ideal)) (onTc (τ := Cert.KernelIdeal.τ) (Cert.KernelIdeal.main (F := Ideal))) ⟨m, fun _ => 0, g⟩
        (fun r => ∀ c : Dev Cert.KernelIdeal.nD,
          r.2.mem ((c.tc : Thread Cert.KernelIdeal.nD Cert.KernelIdeal.τ).loc Cert.KernelIdeal.main_v77) = V m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)))
    (hrrun : ∀ (m' : RMem) (g' : Dev Cert.ReferenceIdeal.nD → PrngReg),
      θ_run (Cert.ReferenceIdeal.defs (F := Ideal)) (onTc (τ := Cert.ReferenceIdeal.τ) (Cert.ReferenceIdeal.main (F := Ideal))) ⟨m', fun _ => 0, g'⟩
        (fun r => ∀ c : Dev Cert.ReferenceIdeal.nD,
          r.2.mem ((c.tc : Thread Cert.ReferenceIdeal.nD Cert.ReferenceIdeal.τ).loc Cert.ReferenceIdeal.main_v87) = Cert.ReferenceIdeal.Read.val_main_v87 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)))
    (hk : ∀ (m : KMem) (c : Dev Cert.KernelIdeal.nD),
      Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = (fun _ => 1#1) →
      V m c = fun _ => Cert.ReferenceIdeal.RefHand.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) :
    Cert.algebraic_KernelIdeal_ReferenceIdeal := by
  intro m g m' g' hpre hagree
  refine ⟨fun c => V m c, hkrun m g, ?_⟩
  refine (θ_run (Cert.ReferenceIdeal.defs (F := Ideal)) _ _).mono (fun _ h c => ⟨(h c).1.trans ?_, (h c).2⟩) (hrrun m' g')
  rw [(hagree c).1, (hagree c).2.1, (hagree c).2.2.1, (hagree c).2.2.2]
  have hlab := (Cert.Pre_finite_inputs.Hand.pre_decode _ _ _ _ (hpre c)).2.2.2
  rw [Cert.ReferenceIdeal.RefHand.reference_is_loss_fun _ _ _ _ (fun r => hlab (ix1 r))]
  exact (hk m c (hpre c)).symm

end Cert.Proof.Bridge

end
-- ==== Proof.KI.Host2.lean ====
/- THE HOST SIDE BEFORE THE CLASSIFICATION CALL, read as values. Between the two calls the program normalises the rows
   of the embeddings x (2048 rows of 512) and of the class weights w (50000 rows of 512) to unit Euclidean length,
   narrows both to the matmul element type, and pads the weights below with 176 rows of zeros to 50176 rows (98 blocks
   of 512). Each of the two buffers the call reads is stated as that function of the launch contents of the arguments,
   for whatever the first call left in its own output (which none of these operations reads).

   Each stretch of operations is first read over ARBITRARY contents W of the buffers it finds, as a function of the
   buffers it reads; the stretches are then chained at the contents the program has there. -/
import proofs.«420115_j17875653886477_3_alg».proof.Proof.Gen.KernelIdeal.Regions
import Idealize.ShloMosaic.Lib.StableHlo.Run

set_option maxRecDepth 16384

noncomputable section

namespace Cert.KernelIdeal.ValHand

open Cert.KernelIdeal Cert.KernelIdeal.Gen
open Idealize.ShloMosaic Idealize.ShloMosaic.TcCoe Idealize.SL.Sem Idealize.ShloMosaic.StableHlo

variable {F : FTy → Type} [FloatOps F] [Named F]

variable (m : (ℓ : Loc nD τ sig) → Buf (Elt F) ℓ) (outs : Outs (F := F))

/-! ## The functions -/

/-- The Euclidean row lengths  √(Σ_k x[i,k]²)  of 2048 rows of 512, as a column. -/
def rowLenX (x : Vec F S2048x512 .f32) : Vec F S2048x1 .f32 :=
  Host.sqrt (broadcastInDim S2048x1 ![0] bcast_S2048_S2048x1_0
    (Host.reduceAdd (mulf x x) (constant (F := F) S_ .f32 0x00000000#32) reducesTo_S2048x512_S2048_d1 h_S_))

/-- Each of 2048 rows divided by its entry of a column. -/
def divRowsX (x : Vec F S2048x512 .f32) (len : Vec F S2048x1 .f32) : Vec F S2048x512 .f32 :=
  Host.divf x (broadcastInDim S2048x512 ![0, 1] bcast_S2048x1_S2048x512_0_1 len)

/-- The embeddings with each row divided by its Euclidean length. -/
def fn (x : Vec F S2048x512 .f32) : Vec F S2048x512 .f32 := divRowsX x (rowLenX x)

/-- The Euclidean row lengths  √(Σ_k w[j,k]²)  of 50000 rows of 512, as a column. -/
def rowLenW (w : Vec F S50000x512 .f32) : Vec F S50000x1 .f32 :=
  Host.sqrt (broadcastInDim S50000x1 ![0] bcast_S50000_S50000x1_0
    (Host.reduceAdd (mulf w w) (constant (F := F) S_ .f32 0x00000000#32) reducesTo_S50000x512_S50000_d1 h_S_))

/-- Each of 50000 rows divided by its entry of a column. -/
def divRowsW (w : Vec F S50000x512 .f32) (len : Vec F S50000x1 .f32) : Vec F S50000x512 .f32 :=
  Host.divf w (broadcastInDim S50000x512 ![0, 1] bcast_S50000x1_S50000x512_0_1 len)

/-- The class weights with each row divided by its Euclidean length. -/
def wn (w : Vec F S50000x512 .f32) : Vec F S50000x512 .f32 := divRowsW w (rowLenW w)

/-- 50000 narrowed rows with 176 rows of a narrowed scalar below. -/
def padRows (w : Vec F S50000x512 .bf16) (z : Vec F S_ .f32) : Vec F S50176x512 .bf16 :=
  pad S50176x512 ![0, 0] ![176, 0] ![0, 0] w (truncf .bf16 z bitsLt_bf16_f32) pads_S50000x512_S50176x512_01760_000 h_S_

/-- The narrowed unit-length class weights, with 176 rows of (narrowed) zeros below. -/
def wnPad (w : Vec F S50000x512 .f32) : Vec F S50176x512 .bf16 :=
  padRows (truncf .bf16 (wn w) bitsLt_bf16_f32) (constant (F := F) S_ .f32 0x00000000#32)

/-! ## Each stretch over arbitrary contents -/

section Stretches
variable (W : Valuation τ sig (Elt F))

theorem rowLenX_of :
    (StableHlo.after hostOps1_1 W (Proc.devRef .tc main_v22) : Vec F S2048x1 .f32)
      = rowLenX (W (Proc.devRef .tc main_arg0) : Vec F S2048x512 .f32) := by
  after_results <;> (try simp only [TRef.ofBuf, TRef.toBuf, cast_eq]) <;> rfl

theorem fnNarrow_of :
    (StableHlo.after hostOps1_2 W (Proc.devRef .tc main_v25) : Vec F S2048x512 .bf16)
      = truncf .bf16 (divRowsX (W (Proc.devRef .tc main_arg0) : Vec F S2048x512 .f32) (W (Proc.devRef .tc main_v22) : Vec F S2048x1 .f32)) bitsLt_bf16_f32 := by
  after_results <;> rfl

theorem rowLenW_of :
    (StableHlo.after hostOps1_3 W (Proc.devRef .tc main_v26) : Vec F S50000x1 .f32)
      = rowLenW (W (Proc.devRef .tc main_arg2) : Vec F S50000x512 .f32) := by
  after_results <;> (try simp only [TRef.ofBuf, TRef.toBuf, cast_eq]) <;> rfl

theorem wnNarrow_of :
    (StableHlo.after hostOps1_4 W (Proc.devRef .tc main_v29) : Vec F S50000x512 .bf16)
      = truncf .bf16 (divRowsW (W (Proc.devRef .tc main_arg2) : Vec F S50000x512 .f32) (W (Proc.devRef .tc main_v26) : Vec F S50000x1 .f32)) bitsLt_bf16_f32 := by
  after_results <;> rfl

theorem zero_of :
    (StableHlo.after hostOps1_4 W (Proc.devRef .tc main_cst_6) : Vec F S_ .f32) = constant (F := F) S_ .f32 0x00000000#32 := by
  after_results <;> rfl

theorem padded_of :
    (StableHlo.after hostOps1_5 W (Proc.devRef .tc main_v30) : Vec F S50176x512 .bf16)
      = padRows (W (Proc.devRef .tc main_v29) : Vec F S50000x512 .bf16) (W (Proc.devRef .tc main_cst_6) : Vec F S_ .f32) := by
  after_results <;> (try simp only [TRef.ofBuf, TRef.toBuf, cast_eq]) <;> rfl

end Stretches

/-! ## The arguments as the stretches find them: no stretch writes an argument, nor may the first call -/

theorem V2_main_arg0 (c : Dev nD) : V2 m outs c main_arg0 = m ((c.tc : Thread nD τ).loc main_arg0) :=
  (V2_of m outs c main_arg0 (by decide)).trans <| (V1_of m c main_arg0 (by decide)).trans rfl
theorem V3_main_arg0 (c : Dev nD) : V3 m outs c main_arg0 = m ((c.tc : Thread nD τ).loc main_arg0) :=
  (V3_of m outs c main_arg0 (by decide)).trans (V2_main_arg0 m outs c)
theorem V4_main_arg0 (c : Dev nD) : V4 m outs c main_arg0 = m ((c.tc : Thread nD τ).loc main_arg0) :=
  (V4_of m outs c main_arg0 (by decide)).trans (V3_main_arg0 m outs c)
theorem V2_main_arg2 (c : Dev nD) : V2 m outs c main_arg2 = m ((c.tc : Thread nD τ).loc main_arg2) :=
  (V2_of m outs c main_arg2 (by decide)).trans <| (V1_of m c main_arg2 (by decide)).trans rfl
theorem V5_main_arg2 (c : Dev nD) : V5 m outs c main_arg2 = m ((c.tc : Thread nD τ).loc main_arg2) :=
  (V5_of m outs c main_arg2 (by decide)).trans <| (V4_of m outs c main_arg2 (by decide)).trans <|
    (V3_of m outs c main_arg2 (by decide)).trans (V2_main_arg2 m outs c)
theorem V6_main_arg2 (c : Dev nD) : V6 m outs c main_arg2 = m ((c.tc : Thread nD τ).loc main_arg2) :=
  (V6_of m outs c main_arg2 (by decide)).trans (V5_main_arg2 m outs c)

/-! ## The embeddings' side -/

/-- The Euclidean row lengths of the embeddings, left by the callee that computes them. -/
theorem V4_main_v22 (c : Dev nD) :
    (V4 m outs c main_v22 : Vec F S2048x1 .f32) = rowLenX (m ((c.tc : Thread nD τ).loc main_arg0)) :=
  (rowLenX_of (V3 m outs c)).trans (congrArg rowLenX (V3_main_arg0 m outs c))

/-- The unit-length embeddings, narrowed, when their stretch ends. -/
theorem V5_main_v25 (c : Dev nD) :
    (V5 m outs c main_v25 : Vec F S2048x512 .bf16) = truncf .bf16 (fn (m ((c.tc : Thread nD τ).loc main_arg0))) bitsLt_bf16_f32 :=
  (fnNarrow_of (V4 m outs c)).trans
    (congrArg₂ (fun (a : Vec F S2048x512 .f32) (b : Vec F S2048x1 .f32) => truncf .bf16 (divRowsX a b) bitsLt_bf16_f32)
      (V4_main_arg0 m outs c) (V4_main_v22 m outs c))

/-- What the classification call reads as its first operand: the unit-length embeddings, narrowed. -/
theorem V8_main_v25 (c : Dev nD) :
    (V8 m outs c main_v25 : Vec F S2048x512 .bf16) = truncf .bf16 (fn (m ((c.tc : Thread nD τ).loc main_arg0))) bitsLt_bf16_f32 :=
  (V8_of m outs c main_v25 (by decide)).trans <| (V7_of m outs c main_v25 (by decide)).trans <|
    (V6_of m outs c main_v25 (by decide)).trans (V5_main_v25 m outs c)

/-! ## The class weights' side -/

/-- The Euclidean row lengths of the class weights, left by the callee that computes them. -/
theorem V6_main_v26 (c : Dev nD) :
    (V6 m outs c main_v26 : Vec F S50000x1 .f32) = rowLenW (m ((c.tc : Thread nD τ).loc main_arg2)) :=
  (rowLenW_of (V5 m outs c)).trans (congrArg rowLenW (V5_main_arg2 m outs c))

/-- The unit-length class weights, narrowed, as the padding callee finds them. -/
theorem V7_main_v29 (c : Dev nD) :
    (V7 m outs c main_v29 : Vec F S50000x512 .bf16) = truncf .bf16 (wn (m ((c.tc : Thread nD τ).loc main_arg2))) bitsLt_bf16_f32 :=
  (wnNarrow_of (V6 m outs c)).trans
    (congrArg₂ (fun (a : Vec F S50000x512 .f32) (b : Vec F S50000x1 .f32) => truncf .bf16 (divRowsW a b) bitsLt_bf16_f32)
      (V6_main_arg2 m outs c) (V6_main_v26 m outs c))

/-- The zero the padding uses. -/
theorem V7_main_cst_6 (c : Dev nD) :
    (V7 m outs c main_cst_6 : Vec F S_ .f32) = constant (F := F) S_ .f32 0x00000000#32 :=
  zero_of (V6 m outs c)

/-- What the classification call reads as its second operand: the unit-length class weights, narrowed and padded. -/
theorem V8_main_v30 (c : Dev nD) :
    (V8 m outs c main_v30 : Vec F S50176x512 .bf16) = wnPad (m ((c.tc : Thread nD τ).loc main_arg2)) :=
  (padded_of (V7 m outs c)).trans (congrArg₂ padRows (V7_main_v29 m outs c) (V7_main_cst_6 m outs c))

end Cert.KernelIdeal.ValHand

end
-- ==== Proof.KI.HostTail.lean ====
/- THE HOST SIDE AFTER THE CALLS, as functions. The program's result is the weighted sum of three losses:
     * the mean over the 2048 anchors of what the pairwise-distance call left per anchor;
     * the centre loss: the mean over the batch of  Σ_k (x[i,k] − ctr[label i, k])²;
     * the margin classification loss: per row, with c the clipped cosine between the unit-length embedding and its
       label's unit-length class weight, s·cos(θ+margin) = s·(c·cos m − √(1−c²)·sin m) replaces s·c among the logits
       whose running maximum mx and sum l of exp(logit − mx) the classification call left; the row's loss is
       mx + log(l + exp(s·cos(θ+m) − mx) − exp(s·c − mx)) − s·cos(θ+m), and the loss their mean.
   Each stretch of operations is read over ARBITRARY contents W of the buffers it finds, as a function of the buffers
   it reads. -/
import proofs.«420115_j17875653886477_3_alg».proof.Proof.Gen.KernelIdeal.Regions
import Idealize.ShloMosaic.Lib.StableHlo.Run

set_option maxRecDepth 16384

noncomputable section

namespace Cert.KernelIdeal.ValHand

open Cert.KernelIdeal Cert.KernelIdeal.Gen
open Idealize.ShloMosaic Idealize.ShloMosaic.TcCoe Idealize.SL.Sem Idealize.ShloMosaic.StableHlo

variable {F : FTy → Type} [FloatOps F] [Named F]

/-! ## The functions -/

/-- The mean of a column of 2048. -/
def meanCol (t : Vec F S2048x1 .f32) : Vec F S_ .f32 :=
  Host.divf (Host.reduceAdd t (constant (F := F) S_ .f32 0x00000000#32) reducesTo_S2048x1_S_d0_1 h_S_)
    (constant (F := F) S_ .f32 0x45000000#32)

/-- A label as a row of the class table, as a column: a negative label counts from the end (50000 is added). -/
def labelIdx (y : Vec F S2048 .i32) : Vec F S2048x1 .i32 :=
  broadcastInDim S2048x1 ![0] bcast_S2048_S2048x1_0
    ((select : Vec F S2048 .i1 → Vec F S2048 .i32 → Vec F S2048 .i32 → Vec F S2048 .i32)
      ((cmpi .slt : Vec F S2048 .i32 → Vec F S2048 .i32 → Vec F S2048 .i1) y
        (broadcastInDim S2048 ![] bcast_S_S2048 (constantI S_ 32 0#32 : Vec F S_ .i32)))
      ((addi : Vec F S2048 .i32 → Vec F S2048 .i32 → Vec F S2048 .i32) y
        (broadcastInDim S2048 ![] bcast_S_S2048 (constantI S_ 32 50000#32 : Vec F S_ .i32)))
      y)

/-- The centre loss: the batch mean of the squared distance of each embedding to its label's centre. -/
def centerLoss (x : Vec F S2048x512 .f32) (y : Vec F S2048 .i32) (ctr : Vec F S50000x512 .f32) : Vec F S_ .f32 :=
  Host.divf
    (Host.reduceAdd
      (Host.reduceAdd
        (mulf (subf x (Host.gather gather_S50000x512_S2048x1_S2048x512_1_0_n_n_0_1_1512 ctr (labelIdx y)))
          (subf x (Host.gather gather_S50000x512_S2048x1_S2048x512_1_0_n_n_0_1_1512 ctr (labelIdx y))))
        (constant (F := F) S_ .f32 0x00000000#32) reducesTo_S2048x512_S2048_d1 h_S_)
      (constant (F := F) S_ .f32 0x00000000#32) reducesTo_S2048_S_d0 h_S_)
    (constant (F := F) S_ .f32 0x45000000#32)

/-- Per row, the inner product of a narrowed embedding with its label's narrowed class weight, both widened back. -/
def targetCosOf (y : Vec F S2048 .i32) (xb : Vec F S2048x512 .bf16) (wb : Vec F S50000x512 .bf16) : Vec F S2048x1 .f32 :=
  broadcastInDim S2048x1 ![0] bcast_S2048_S2048x1_0
    (Host.reduceAdd
      (mulf (extf .f32 xb bitsLt_bf16_f32)
        (extf .f32 (Host.gather gather_S50000x512_S2048x1_S2048x512_1_0_n_n_0_1_1512 wb (labelIdx y)) bitsLt_bf16_f32))
      (constant (F := F) S_ .f32 0x00000000#32) reducesTo_S2048x512_S2048_d1 h_S_)

/-- A scalar as a column of 2048. -/
def col (v : Vec F S_ .f32) : Vec F S2048x1 .f32 := broadcastInDim S2048x1 ![] bcast_S_S2048x1 v

/-- A column clipped between two scalars. -/
def clipBetween (lo hi : Vec F S_ .f32) (t : Vec F S2048x1 .f32) : Vec F S2048x1 .f32 :=
  minimumf (col hi) (maximumf (col lo) t)

/-- s·c: the plain logit of the label's class, c the cosine and s = 30. -/
def plainLogit (c : Vec F S2048x1 .f32) : Vec F S2048x1 .f32 :=
  mulf (col (constant (F := F) S_ .f32 0x41F00000#32)) c

/-- √(max(1 − c², 0) + ε): the sine of the angle whose cosine is c. -/
def sineOf (c : Vec F S2048x1 .f32) : Vec F S2048x1 .f32 :=
  Host.sqrt (addf (maximumf (subf (col (constant (F := F) S_ .f32 0x3F800000#32)) (mulf c c))
      (col (constant (F := F) S_ .f32 0x00000000#32)))
    (col (constant (F := F) S_ .f32 0x33D6BF95#32)))

/-- s·cos(θ + margin) = s·(c·cos m − sin θ·sin m): the label's logit with the angular margin. -/
def marginLogit (c : Vec F S2048x1 .f32) : Vec F S2048x1 .f32 :=
  mulf (col (constant (F := F) S_ .f32 0x41F00000#32))
    (subf (mulf c (col (constant (F := F) S_ .f32 0x3F60A940#32)))
      (mulf (sineOf c) (col (constant (F := F) S_ .f32 0x3EF57744#32))))

/-- Per row: the log-sum-exp of the logits with the label's replaced by its margin logit, less the margin logit;
    mx the running maximum and l the running sum of exp(logit − mx) over the plain logits. -/
def arcRows (c mx l : Vec F S2048x1 .f32) : Vec F S2048x1 .f32 :=
  subf
    (addf mx (Host.log (subf (addf l (Host.exp (subf (marginLogit c) mx))) (Host.exp (subf (plainLogit c) mx)))))
    (marginLogit c)

/-- The weighted sum of the three losses: weights 1, 0.1, 0.1. -/
def total (tm cl am : Vec F S_ .f32) : Vec F S_ .f32 :=
  addf (addf (mulf (constant (F := F) S_ .f32 0x3F800000#32) tm) (mulf (constant (F := F) S_ .f32 0x3DCCCCCD#32) cl))
    (mulf (constant (F := F) S_ .f32 0x3DCCCCCD#32) am)

/-! ## Each stretch over arbitrary contents -/

section Stretches
variable (W : Valuation τ sig (Elt F))

/-- The mean of what the first call left per anchor. -/
theorem tripletMean_of :
    (StableHlo.after hostOps1 W (Proc.devRef .tc main_v9) : Vec F S_ .f32)
      = meanCol (W (Proc.devRef .tc main_v7) : Vec F S2048x1 .f32) := by
  after_results <;> rfl

set_option maxHeartbeats 4000000 in
theorem centerLoss_of :
    (StableHlo.after hostOps1 W (Proc.devRef .tc main_v21) : Vec F S_ .f32)
      = centerLoss (W (Proc.devRef .tc main_arg0) : Vec F S2048x512 .f32) (W (Proc.devRef .tc main_arg1) : Vec F S2048 .i32)
          (W (Proc.devRef .tc main_arg3) : Vec F S50000x512 .f32) := by
  after_results_simp <;> rfl

set_option maxHeartbeats 4000000 in
theorem targetCos_of :
    (StableHlo.after hostOps2 W (Proc.devRef .tc main_v43) : Vec F S2048x1 .f32)
      = targetCosOf (W (Proc.devRef .tc main_arg1) : Vec F S2048 .i32) (W (Proc.devRef .tc main_v25) : Vec F S2048x512 .bf16)
          (W (Proc.devRef .tc main_v29) : Vec F S50000x512 .bf16) := by
  after_results_simp <;> rfl

theorem clipLo_of :
    (StableHlo.after hostOps2 W (Proc.devRef .tc main_cst_10) : Vec F S_ .f32) = constant (F := F) S_ .f32 0xBF7FFFFE#32 := by
  after_results <;> rfl

theorem clipHi_of :
    (StableHlo.after hostOps2 W (Proc.devRef .tc main_cst_11) : Vec F S_ .f32) = constant (F := F) S_ .f32 0x3F7FFFFE#32 := by
  after_results <;> rfl

theorem clip_of :
    (StableHlo.after hostOps2_1 W (Proc.devRef .tc main_v44) : Vec F S2048x1 .f32)
      = clipBetween (W (Proc.devRef .tc main_cst_10) : Vec F S_ .f32) (W (Proc.devRef .tc main_cst_11) : Vec F S_ .f32)
          (W (Proc.devRef .tc main_v43) : Vec F S2048x1 .f32) := by
  after_results <;> (try simp only [TRef.ofBuf, TRef.toBuf, cast_eq]) <;> rfl

set_option maxHeartbeats 16000000 in
/-- The last stretch: the margin correction of the classification loss over the clipped cosine and what the
    classification call left, its mean, and the weighted sum with the two losses computed before. -/
theorem final_of :
    (StableHlo.after hostOps2_2 W (Proc.devRef .tc main_v77) : Vec F S_ .f32)
      = total (W (Proc.devRef .tc main_v9) : Vec F S_ .f32) (W (Proc.devRef .tc main_v21) : Vec F S_ .f32)
          (meanCol (arcRows (W (Proc.devRef .tc main_v44) : Vec F S2048x1 .f32) (W (Proc.devRef .tc main_v31_0) : Vec F S2048x1 .f32)
            (W (Proc.devRef .tc main_v31_1) : Vec F S2048x1 .f32))) := by
  after_results_simp <;> rfl

end Stretches

end Cert.KernelIdeal.ValHand

end
-- ==== Proof.KI.Host3.lean ====
/- THE PROGRAM'S RESULT as a function of the arguments and of what the two calls leave: the stretches after the calls
   chained at the contents the program has there. The first call's output enters only through its mean; the second
   call's two outputs (per row the running maximum of the logits and the running sum of their exponentials) enter
   the margin correction; everything else is a function of the arguments alone. -/
import proofs.«420115_j17875653886477_3_alg».proof.Proof.KI.Host2
import proofs.«420115_j17875653886477_3_alg».proof.Proof.KI.HostTail

set_option maxRecDepth 16384

noncomputable section

namespace Cert.KernelIdeal.ValHand

open Cert.KernelIdeal Cert.KernelIdeal.Gen
open Idealize.ShloMosaic Idealize.ShloMosaic.TcCoe Idealize.SL.Sem Idealize.ShloMosaic.StableHlo

variable {F : FTy → Type} [FloatOps F] [Named F]

variable (m : (ℓ : Loc nD τ sig) → Buf (Elt F) ℓ) (outs : Outs (F := F))

/-! ## The functions of the arguments -/

/-- Per row, the cosine between the unit-length embedding and its label's unit-length class weight, both narrowed
    to the matmul element type and widened back. -/
def targetCos (x : Vec F S2048x512 .f32) (y : Vec F S2048 .i32) (w : Vec F S50000x512 .f32) : Vec F S2048x1 .f32 :=
  targetCosOf y (truncf .bf16 (fn x) bitsLt_bf16_f32) (truncf .bf16 (wn w) bitsLt_bf16_f32)

/-- That cosine clipped to [−(1−ε), 1−ε]. -/
def clipCos (x : Vec F S2048x512 .f32) (y : Vec F S2048 .i32) (w : Vec F S50000x512 .f32) : Vec F S2048x1 .f32 :=
  clipBetween (constant (F := F) S_ .f32 0xBF7FFFFE#32) (constant (F := F) S_ .f32 0x3F7FFFFE#32) (targetCos x y w)

/-- THE RESULT: embeddings x, labels y, class weights w, centres ctr; t7 what the pairwise-distance call leaves per
    anchor, mx and l what the classification call leaves per row. -/
def tail (x : Vec F S2048x512 .f32) (y : Vec F S2048 .i32) (w ctr : Vec F S50000x512 .f32)
    (t7 mx l : Vec F S2048x1 .f32) : Vec F S_ .f32 :=
  total (meanCol t7) (centerLoss x y ctr) (meanCol (arcRows (clipCos x y w) mx l))

/-! ## What the calls leave, and the arguments, where the stretches find them -/

theorem V2_main_v7 (c : Dev nD) : V2 m outs c main_v7 = outs 2 main_v7 c :=
  Function.update_self _ _ _
theorem V2_main_arg1 (c : Dev nD) : V2 m outs c main_arg1 = m ((c.tc : Thread nD τ).loc main_arg1) :=
  (V2_of m outs c main_arg1 (by decide)).trans <| (V1_of m c main_arg1 (by decide)).trans rfl
theorem V2_main_arg3 (c : Dev nD) : V2 m outs c main_arg3 = m ((c.tc : Thread nD τ).loc main_arg3) :=
  (V2_of m outs c main_arg3 (by decide)).trans <| (V1_of m c main_arg3 (by decide)).trans rfl
theorem V9_main_arg1 (c : Dev nD) : V9 m outs c main_arg1 = m ((c.tc : Thread nD τ).loc main_arg1) :=
  (V9_of m outs c main_arg1 (by decide)).trans <| (V8_of m outs c main_arg1 (by decide)).trans <|
  (V7_of m outs c main_arg1 (by decide)).trans <| (V6_of m outs c main_arg1 (by decide)).trans <|
  (V5_of m outs c main_arg1 (by decide)).trans <| (V4_of m outs c main_arg1 (by decide)).trans <|
  (V3_of m outs c main_arg1 (by decide)).trans (V2_main_arg1 m outs c)
theorem V9_main_v31_0 (c : Dev nD) : V9 m outs c main_v31_0 = outs 9 main_v31_0 c :=
  (Function.update_of_ne (StableHlo.devRef_ne_of_ne (by decide) :
      (Proc.devRef .tc main_v31_0 : DevRef τ sig) ≠ Proc.devRef .tc main_v31_1) _ _).trans (Function.update_self _ _ _)
theorem V9_main_v31_1 (c : Dev nD) : V9 m outs c main_v31_1 = outs 9 main_v31_1 c :=
  Function.update_self _ _ _
theorem V9_main_v25 (c : Dev nD) :
    (V9 m outs c main_v25 : Vec F S2048x512 .bf16) = truncf .bf16 (fn (m ((c.tc : Thread nD τ).loc main_arg0))) bitsLt_bf16_f32 :=
  (V9_of m outs c main_v25 (by decide)).trans (V8_main_v25 m outs c)
theorem V9_main_v29 (c : Dev nD) :
    (V9 m outs c main_v29 : Vec F S50000x512 .bf16) = truncf .bf16 (wn (m ((c.tc : Thread nD τ).loc main_arg2))) bitsLt_bf16_f32 :=
  (V9_of m outs c main_v29 (by decide)).trans <| (V8_of m outs c main_v29 (by decide)).trans (V7_main_v29 m outs c)

/-! ## The stretches chained -/

/-- The mean of what the first call left, as the last stretch finds it. -/
theorem V11_main_v9 (c : Dev nD) : (V11 m outs c main_v9 : Vec F S_ .f32) = meanCol (outs 2 main_v7 c) :=
  (V11_of m outs c main_v9 (by decide)).trans <| (V10_of m outs c main_v9 (by decide)).trans <|
  (V9_of m outs c main_v9 (by decide)).trans <| (V8_of m outs c main_v9 (by decide)).trans <|
  (V7_of m outs c main_v9 (by decide)).trans <| (V6_of m outs c main_v9 (by decide)).trans <|
  (V5_of m outs c main_v9 (by decide)).trans <| (V4_of m outs c main_v9 (by decide)).trans <|
  (tripletMean_of (V2 m outs c)).trans (congrArg meanCol (V2_main_v7 m outs c))

/-- The centre loss, as the last stretch finds it. -/
theorem V11_main_v21 (c : Dev nD) :
    (V11 m outs c main_v21 : Vec F S_ .f32)
      = centerLoss (m ((c.tc : Thread nD τ).loc main_arg0)) (m ((c.tc : Thread nD τ).loc main_arg1)) (m ((c.tc : Thread nD τ).loc main_arg3)) :=
  (V11_of m outs c main_v21 (by decide)).trans <| (V10_of m outs c main_v21 (by decide)).trans <|
  (V9_of m outs c main_v21 (by decide)).trans <| (V8_of m outs c main_v21 (by decide)).trans <|
  (V7_of m outs c main_v21 (by decide)).trans <| (V6_of m outs c main_v21 (by decide)).trans <|
  (V5_of m outs c main_v21 (by decide)).trans <| (V4_of m outs c main_v21 (by decide)).trans <|
  (centerLoss_of (V2 m outs c)).trans
    (congr (congrArg₂ centerLoss (V2_main_arg0 m outs c) (V2_main_arg1 m outs c)) (V2_main_arg3 m outs c))

/-- The label's cosine, unclipped. -/
theorem V10_main_v43 (c : Dev nD) :
    (V10 m outs c main_v43 : Vec F S2048x1 .f32)
      = targetCos (m ((c.tc : Thread nD τ).loc main_arg0)) (m ((c.tc : Thread nD τ).loc main_arg1)) (m ((c.tc : Thread nD τ).loc main_arg2)) :=
  (targetCos_of (V9 m outs c)).trans
    (congr (congrArg₂ targetCosOf (V9_main_arg1 m outs c) (V9_main_v25 m outs c)) (V9_main_v29 m outs c))

/-- The label's cosine, clipped. -/
theorem V11_main_v44 (c : Dev nD) :
    (V11 m outs c main_v44 : Vec F S2048x1 .f32)
      = clipCos (m ((c.tc : Thread nD τ).loc main_arg0)) (m ((c.tc : Thread nD τ).loc main_arg1)) (m ((c.tc : Thread nD τ).loc main_arg2)) :=
  (clip_of (V10 m outs c)).trans
    (congr (congrArg₂ clipBetween (clipLo_of (V9 m outs c)) (clipHi_of (V9 m outs c))) (V10_main_v43 m outs c))

theorem V11_main_v31_0 (c : Dev nD) : V11 m outs c main_v31_0 = outs 9 main_v31_0 c :=
  (V11_of m outs c main_v31_0 (by decide)).trans <| (V10_of m outs c main_v31_0 (by decide)).trans (V9_main_v31_0 m outs c)
theorem V11_main_v31_1 (c : Dev nD) : V11 m outs c main_v31_1 = outs 9 main_v31_1 c :=
  (V11_of m outs c main_v31_1 (by decide)).trans <| (V10_of m outs c main_v31_1 (by decide)).trans (V9_main_v31_1 m outs c)

/-- THE RESULT BUFFER when @main ends. -/
theorem V12_main_v77 (c : Dev nD) :
    (V12 m outs c main_v77 : Vec F S_ .f32)
      = tail (m ((c.tc : Thread nD τ).loc main_arg0)) (m ((c.tc : Thread nD τ).loc main_arg1))
          (m ((c.tc : Thread nD τ).loc main_arg2)) (m ((c.tc : Thread nD τ).loc main_arg3))
          (outs 2 main_v7 c) (outs 9 main_v31_0 c) (outs 9 main_v31_1 c) :=
  (final_of (V11 m outs c)).trans
    (congr (congr (congrArg total (V11_main_v9 m outs c)) (V11_main_v21 m outs c))
      (congrArg meanCol
        (congr (congr (congrArg arcRows (V11_main_v44 m outs c)) (V11_main_v31_0 m outs c)) (V11_main_v31_1 m outs c))))

end Cert.KernelIdeal.ValHand

end
-- ==== Proof.KI.Arr0.lean ====
/- REGION 0, FROM BLOCKS TO THE ARRAY. The region's six input blocks at a point, read at explicit coordinates of the
   arrays the region finds; and the array of per-anchor losses after the region, row by row.

   The 2048 anchor rows are dealt to the 8 grid points in blocks of 256: point t works on rows 256 t … 256 t + 255.
   So row r is row r mod 256 of the block of point r div 256, and the loss the region leaves at row r is what the
   body computes there from that point's blocks: the anchor block of the embeddings, norms and labels, and the whole
   of the embeddings, norms and labels. Every point writes its block back, and the 8 blocks tile the column. -/
import proofs.«420115_j17875653886477_3_alg».proof.Proof.KI.R0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix2)

variable {F : FTy → Type} [FloatOps F] [Named F]
variable (V : (c : Dev nD) → (b : Ref sig .tc) → Buf (Elt F) ((c : Thread nD τ).loc b))

/-! ## The block index maps over the grid -/

/-- Where each window's block sits at point t, decided over the 8 points: the anchor windows (embeddings, norm
    column, label column) and the loss window are at block row t; the whole-array windows never move. -/
theorem blockRow0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks at explicit coordinates -/

/-- The anchor block of the embeddings at point t is rows 256 t … 256 t + 255 of the embeddings. -/
theorem iblk0_0_apply (c : Dev nD) (t : Fin cfg0.N) (x : S256x512.Idx) (k : S2048x512.Idx)
    (hk0 : (k 0).val = t.val * 256 + (x 0).val) (hk1 : (k 1).val = (x 1).val) :
    (iblk0 V c 0 t : Vec F S256x512 .bf16) x = (V c main_v4 : S2048x512.Idx → Elt F .bf16) k := by
  obtain ⟨e0, e1, -⟩ := blockRow0 t
  unfold iblk0
  rw [View.read_apply]
  show V c main_v4 _ = V c main_v4 _
  congr 1
  funext a
  apply Fin.ext
  match a with
  | ⟨0, _⟩ => show win0_0.index t 0 * 256 + 1 * (x 0).val = (k 0).val; rw [e0, hk0]; omega
  | ⟨1, _⟩ => show win0_0.index t 1 * 512 + 1 * (x 1).val = (k 1).val; rw [e1, hk1]; omega

/-- The second embeddings window holds all of the embeddings, at every point. -/
theorem iblk0_1_eq (c : Dev nD) (t : Fin cfg0.N) :
    (iblk0 V c 1 t : Vec F S2048x512 .bf16) = (V c main_v4 : S2048x512.Idx → Elt F .bf16) := by
  obtain ⟨-, -, e0, e1, -⟩ := blockRow0 t
  funext x
  unfold iblk0
  rw [View.read_apply]
  show V c main_v4 _ = V c main_v4 x
  congr 1
  funext a
  apply Fin.ext
  match a with
  | ⟨0, _⟩ => show win0_1.index t 0 * 2048 + 1 * (x 0).val = (x 0).val; rw [e0]; omega
  | ⟨1, _⟩ => show win0_1.index t 1 * 512 + 1 * (x 1).val = (x 1).val; rw [e1]; omega

/-- The anchor block of the squared norms at point t is rows 256 t … 256 t + 255 of the norm column. -/
theorem iblk0_2_apply (c : Dev nD) (t : Fin cfg0.N) (x : S256x1.Idx) (k : S2048x1.Idx)
    (hk0 : (k 0).val = t.val * 256 + (x 0).val) (hk1 : (k 1).val = (x 1).val) :
    (iblk0 V c 2 t : Vec F S256x1 .f32) x = (V c main_v3 : S2048x1.Idx → Elt F .f32) k := by
  obtain ⟨-, -, -, -, e0, e1, -⟩ := blockRow0 t
  unfold iblk0
  rw [View.read_apply]
  show V c main_v3 _ = V c main_v3 _
  congr 1
  funext a
  apply Fin.ext
  match a with
  | ⟨0, _⟩ => show win0_2.index t 0 * 256 + 1 * (x 0).val = (k 0).val; rw [e0, hk0]; omega
  | ⟨1, _⟩ => show win0_2.index t 1 * 1 + 1 * (x 1).val = (k 1).val; rw [e1, hk1]; omega

/-- The norm-row window holds all of the norm row, at every point. -/
theorem iblk0_3_eq (c : Dev nD) (t : Fin cfg0.N) :
    (iblk0 V c 3 t : Vec F S1x2048 .f32) = (V c main_v5 : S1x2048.Idx → Elt F .f32) := by
  obtain ⟨-, -, -, -, -, -, e0, e1, -⟩ := blockRow0 t
  funext x
  unfold iblk0
  rw [View.read_apply]
  show V c main_v5 _ = V c main_v5 x
  congr 1
  funext a
  apply Fin.ext
  match a with
  | ⟨0, _⟩ => show win0_3.index t 0 * 1 + 1 * (x 0).val = (x 0).val; rw [e0]; omega
  | ⟨1, _⟩ => show win0_3.index t 1 * 2048 + 1 * (x 1).val = (x 1).val; rw [e1]; omega

/-- The anchor block of the labels at point t is rows 256 t … 256 t + 255 of the label column. -/
theorem iblk0_4_apply (c : Dev nD) (t : Fin cfg0.N) (x : S256x1.Idx) (k : S2048x1.Idx)
    (hk0 : (k 0).val = t.val * 256 + (x 0).val) (hk1 : (k 1).val = (x 1).val) :
    (iblk0 V c 4 t : Vec F S256x1 .i32) x = (V c main_v0 : S2048x1.Idx → Elt F .i32) k := by
  obtain ⟨-, -, -, -, -, -, -, -, e0, e1, -⟩ := blockRow0 t
  unfold iblk0
  rw [View.read_apply]
  show V c main_v0 _ = V c main_v0 _
  congr 1
  funext a
  apply Fin.ext
  match a with
  | ⟨0, _⟩ => show win0_4.index t 0 * 256 + 1 * (x 0).val = (k 0).val; rw [e0, hk0]; omega
  | ⟨1, _⟩ => show win0_4.index t 1 * 1 + 1 * (x 1).val = (k 1).val; rw [e1, hk1]; omega

/-- The label-row window holds all of the label row, at every point. -/
theorem iblk0_5_eq (c : Dev nD) (t : Fin cfg0.N) :
    (iblk0 V c 5 t : Vec F S1x2048 .i32) = (V c main_v6 : S1x2048.Idx → Elt F .i32) := by
  obtain ⟨-, -, -, -, -, -, -, -, -, -, e0, e1, -⟩ := blockRow0 t
  funext x
  unfold iblk0
  rw [View.read_apply]
  show V c main_v6 _ = V c main_v6 x
  congr 1
  funext a
  apply Fin.ext
  match a with
  | ⟨0, _⟩ => show win0_5.index t 0 * 1 + 1 * (x 0).val = (x 0).val; rw [e0]; omega
  | ⟨1, _⟩ => show win0_5.index t 1 * 2048 + 1 * (x 1).val = (x 1).val; rw [e1]; omega

/-! ## The loss block as a plain function of the six blocks -/

theorem zeroOffsets : (![0, 0] : Fin 2 → Nat) = fun _ => 0 := funext fun a => by fin_cases a <;> rfl

/-- The body's one store is over the whole loss buffer and its loads are of whole buffers, so what it leaves is
    the margin loss of the masked distances of the six blocks themselves. -/
theorem out0_6_eq (i : grid0.Coords) (x0 : Vec F S256x512 .bf16) (x1 : Vec F S2048x512 .bf16) (x2 : Vec F S256x1 .f32)
    (x3 : Vec F S1x2048 .f32) (x4 : Vec F S256x1 .i32) (x5 : Vec F S1x2048 .i32) :
    out0_6 i x0 x1 x2 x3 x4 x5 = k0_pay1 (k0_pay2 i x0 x1 x2 x3) (k0_pay3 x4) (k0_pay4 x5) := by
  unfold out0_6
  rw [View.canon_unit_zero zeroOffsets]
  simp only [View.ld_unit_zero (S := S256x512) zeroOffsets, View.ld_unit_zero (S := S2048x512) zeroOffsets,
    View.ld_unit_zero (S := S256x1) zeroOffsets, View.ld_unit_zero (S := S1x2048) zeroOffsets]

/-- The losses of the 256 anchors of point t. -/
def lossBlock (c : Dev nD) (t : Fin cfg0.N) : Vec F S256x1 .f32 :=
  out0_6 (grid0.coords t) (iblk0 V c 0 t) (iblk0 V c 1 t) (iblk0 V c 2 t) (iblk0 V c 3 t) (iblk0 V c 4 t) (iblk0 V c 5 t)

/-- They are the margin loss of the masked distances from that point's anchor rows to all rows. -/
theorem lossBlock_eq (c : Dev nD) (t : Fin cfg0.N) :
    lossBlock V c t = k0_pay1 (k0_pay2 (grid0.coords t) (iblk0 V c 0 t) (iblk0 V c 1 t) (iblk0 V c 2 t) (iblk0 V c 3 t))
      (k0_pay3 (iblk0 V c 4 t)) (k0_pay4 (iblk0 V c 5 t)) := by
  unfold lossBlock; rw [out0_6_eq]

/-! ## Rows and the points that own them -/

/-- The point whose block holds row r: r div 256. -/
def pointOfRow (r : S2048x1.Idx) : Fin cfg0.N :=
  ⟨(r 0).val / 256, by have h := ValueIdx.idx2_lt0 r; rw [show cfg0.N = 8 from N_0]; omega⟩

/-- Where row r sits in that block: row r mod 256, the one column. -/
def rowInBlock (r : S2048x1.Idx) : S256x1.Idx :=
  ix2 ⟨(r 0).val % 256, Nat.mod_lt _ (by decide)⟩ (0 : Fin 1)

theorem pointOfRow_val (r : S2048x1.Idx) : (pointOfRow r).val = (r 0).val / 256 := rfl
theorem rowInBlock_row (r : S2048x1.Idx) : ((rowInBlock r) 0).val = (r 0).val % 256 := rfl
theorem rowInBlock_col (r : S2048x1.Idx) : (rowInBlock r) 1 = (0 : Fin 1) := rfl

/-- Row 256 t + p of the column is row p of point t's block. -/
theorem pointOfRow_eq (t : Fin cfg0.N) (j : S256x1.Idx) (r : S2048x1.Idx) (hr : (r 0).val = t.val * 256 + (j 0).val) :
    pointOfRow r = t := by
  have hj0 : (j 0).val < 256 := ValueIdx.idx2_lt0 j
  apply Fin.ext
  show (r 0).val / 256 = t.val
  omega

theorem rowInBlock_eq (t : Fin cfg0.N) (j : S256x1.Idx) (r : S2048x1.Idx) (hr : (r 0).val = t.val * 256 + (j 0).val) :
    rowInBlock r = j := by
  have hj0 : (j 0).val < 256 := ValueIdx.idx2_lt0 j
  have hj1 : (j 1).val < 1 := ValueIdx.idx2_lt1 j
  funext a
  apply Fin.ext
  match a with
  | ⟨0, _⟩ => show (r 0).val % 256 = (j 0).val; omega
  | ⟨1, _⟩ => show 0 = (j 1).val; omega

/-! ## The loss column after the region -/

/-- The per-anchor losses of all 2048 rows: row r's is computed by the point that owns it. -/
def lossAll (c : Dev nD) : S2048x1.Idx → Elt F .f32 := fun r => lossBlock V c (pointOfRow r) (rowInBlock r)

theorem lossAll_apply (c : Dev nD) (r : S2048x1.Idx) : lossAll V c r = lossBlock V c (pointOfRow r) (rowInBlock r) := rfl

/-- Read through point t's block, the loss column is that point's loss block. -/
theorem lossAll_at (c : Dev nD) (t : Fin cfg0.N) (j : S256x1.Idx) (r : S2048x1.Idx) (hr : (r 0).val = t.val * 256 + (j 0).val) :
    lossAll V c r = lossBlock V c t j := by
  rw [lossAll_apply, pointOfRow_eq t j r hr, rowInBlock_eq t j r hr]

/-- What point t writes back is its block of the loss column. -/
theorem flushed0_6_eq (c : Dev nD) (t : Fin cfg0.N) :
    (dat0 V c).flushed 6 t = ((cfg0.win 6).blk t).view.read (Elt F) (lossAll V c) := by
  obtain ⟨-, -, -, -, -, -, -, -, -, -, -, -, e0, e1⟩ := blockRow0 t
  show (cfg0.win 6).cut (grid0.coords t) ((dat0 V c).after 6 t) = _
  rw [after0_6]
  funext j
  show lossBlock V c t j = lossAll V c (((cfg0.win 6).blk t).view.emb j)
  refine (lossAll_at V c t j _ ?_).symm
  show win0_6.index t 0 * 256 + 1 * (j 0).val = t.val * 256 + (j 0).val
  rw [e0]; omega

/-- A row of the column is in point t's block iff it is one of rows 256 t … 256 t + 255. -/
theorem mem_blk0_6 (t : Fin cfg0.N) (i : S2048x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v7).slice (win0_6.rect t)).set ↔ _
  rw [View.set_slice_whole, Rect.mem_set_unit]
  exact Iff.rfl

/-- Every row is in the block of the point that owns it, and that point writes its block back. -/
theorem rows_covered0_6 (i : S2048x1.Idx) :
    ∃ t : Fin cfg0.N, (cfg0.win 6).flush t = true ∧ i ∈ ((cfg0.win 6).blk t).view.set := by
  have hi0 : (i 0).val < 2048 := ValueIdx.idx2_lt0 i
  have hi1 : (i 1).val < 1 := ValueIdx.idx2_lt1 i
  refine ⟨pointOfRow i, flush0_6 _, ?_⟩
  obtain ⟨-, -, -, -, -, -, -, -, -, -, -, -, e0, e1⟩ := blockRow0 (pointOfRow i)
  rw [mem_blk0_6]
  intro a
  match a with
  | ⟨0, _⟩ => show win0_6.index (pointOfRow i) 0 * 256 ≤ (i 0).val ∧ (i 0).val < win0_6.index (pointOfRow i) 0 * 256 + 256
              rw [e0, pointOfRow_val]; omega
  | ⟨1, _⟩ => show win0_6.index (pointOfRow i) 1 * 1 ≤ (i 1).val ∧ (i 1).val < win0_6.index (pointOfRow i) 1 * 1 + 1
              rw [e1]; omega

/-- THE LOSS COLUMN after the region's 8 points: every row at the loss its owner computed. -/
theorem arr0_6 (c : Dev nD) : (dat0 V c).arrAt 6 cfg0.N = lossAll V c :=
  (dat0 V c).arrAt_eq_of_cover 6 (lossAll V c) (fun t _ => flushed0_6_eq V c t) rows_covered0_6

/-- Row by row: the loss at row r is row r mod 256 of the margin loss of the masked distances at point r div 256. -/
theorem arr0_6_apply (c : Dev nD) (r : S2048x1.Idx) :
    (dat0 V c).arrAt 6 cfg0.N r =
      k0_pay1 (k0_pay2 (grid0.coords (pointOfRow r)) (iblk0 V c 0 (pointOfRow r)) (iblk0 V c 1 (pointOfRow r))
          (iblk0 V c 2 (pointOfRow r)) (iblk0 V c 3 (pointOfRow r)))
        (k0_pay3 (iblk0 V c 4 (pointOfRow r))) (k0_pay4 (iblk0 V c 5 (pointOfRow r))) (rowInBlock r) := by
  rw [arr0_6, lossAll_apply, lossBlock_eq]

end Cert.KernelIdeal.Hand

end
-- ==== Proof.KI.Host1.lean ====
/- THE HOST SIDE BEFORE THE PAIRWISE-DISTANCE CALL, read as values. Before the first call the program prepares, from the
   embeddings x (2048 rows of 512) and the labels (2048 integers): the embeddings narrowed to the matmul element type;
   the squared row norms  Σ_k x[i,k]²  as a column and, reshaped, as a row; the labels as a column and as a row. Each
   buffer's contents when the call is entered is stated as that function of the launch contents of the arguments. -/
import proofs.«420115_j17875653886477_3_alg».proof.Proof.Gen.KernelIdeal.Regions
import Idealize.ShloMosaic.Lib.StableHlo.Run

set_option maxRecDepth 16384

noncomputable section

namespace Cert.KernelIdeal.ValHand

open Cert.KernelIdeal Cert.KernelIdeal.Gen
open Idealize.ShloMosaic Idealize.ShloMosaic.TcCoe Idealize.SL.Sem Idealize.ShloMosaic.StableHlo

variable {F : FTy → Type} [FloatOps F] [Named F]

variable (m : (ℓ : Loc nD τ sig) → Buf (Elt F) ℓ)

/-- The squared row norms Σ_k x[i,k]² of an array of 2048 rows of 512, as a column. -/
def sqNormCol (x : Vec F S2048x512 .f32) : Vec F S2048x1 .f32 :=
  broadcastInDim S2048x1 ![0] bcast_S2048_S2048x1_0
    (Host.reduceAdd (mulf x x) (constant (F := F) S_ .f32 0x00000000#32) reducesTo_S2048x512_S2048_d1 h_S_)

/-- The labels as a column. -/
def labelCol (y : Vec F S2048 .i32) : Vec F S2048x1 .i32 :=
  fun i => shapeCast S2048x1 y shapeCasts_S2048_S2048x1 i

/-- The embeddings narrowed to the matmul operands' element type. -/
theorem V1_main_v4 (c : Dev nD) :
    (V1 m c main_v4 : Vec F S2048x512 .bf16) = truncf .bf16 (m ((c.tc : Thread nD τ).loc main_arg0)) bitsLt_bf16_f32 := by
  show StableHlo.after hostOps0 (V0 m c) (Proc.devRef .tc main_v4) = _
  after_results <;> rfl

/-- The squared row norms as a column. -/
theorem V1_main_v3 (c : Dev nD) :
    (V1 m c main_v3 : Vec F S2048x1 .f32) = sqNormCol (m ((c.tc : Thread nD τ).loc main_arg0)) := by
  show StableHlo.after hostOps0 (V0 m c) (Proc.devRef .tc main_v3) = _
  after_results <;> rfl

/-- The squared row norms as a row: the column read in row-major order. -/
theorem V1_main_v5 (c : Dev nD) :
    (V1 m c main_v5 : Vec F S1x2048 .f32)
      = fun i => shapeCast S1x2048 (sqNormCol (m ((c.tc : Thread nD τ).loc main_arg0))) shapeCasts_S2048x1_S1x2048 i := by
  show StableHlo.after hostOps0 (V0 m c) (Proc.devRef .tc main_v5) = _
  after_results <;> rfl

/-- The labels as a column. -/
theorem V1_main_v0 (c : Dev nD) :
    (V1 m c main_v0 : Vec F S2048x1 .i32) = labelCol (m ((c.tc : Thread nD τ).loc main_arg1)) := by
  show StableHlo.after hostOps0 (V0 m c) (Proc.devRef .tc main_v0) = _
  after_results <;> rfl

/-- The labels as a row: the column read in row-major order. -/
theorem V1_main_v6 (c : Dev nD) :
    (V1 m c main_v6 : Vec F S1x2048 .i32)
      = fun i => shapeCast S1x2048 (labelCol (m ((c.tc : Thread nD τ).loc main_arg1))) shapeCasts_S2048x1_S1x2048 i := by
  show StableHlo.after hostOps0 (V0 m c) (Proc.devRef .tc main_v6) = _
  after_results <;> rfl

end Cert.KernelIdeal.ValHand

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.KI.Val0Lib.lean ====
import Idealize.ShloMosaic.Lib.Pipeline.Value
import Idealize.ShloMosaic.Lib.ValueIdx
import Idealize.ShloMosaic.PureOps.Ideal.Laws

/-!
  Small readings used by the value of the triplet kernel's blocks: three operations read at an entry, a row laid along
  every row of a matrix, the diagonal test `i·256 + p = q` carried out on 32-bit words, order tests and the two infinite
  words at the extended reals, the indicator of an equality of words, and a minimum along one axis as a fold.
-/

noncomputable section

namespace Cert.KernelIdeal.ValHand

open Idealize.ShloMosaic Idealize.ShloMosaic.ValueIdx

/-! ## Operations read at an entry (each holds by definition) -/

theorem sqrt_apply {s : Shape} {φ : FTy} (a : FVec Ideal s φ) (j : s.Idx) : sqrt a j = Ideal.sqrt (a j) := rfl
theorem cmpi_apply {s : Shape} {w : ℕ} (pr : CmpIPredicate) (a b : IVec s w) (j : s.Idx) : cmpi pr a b j = IntOp.cmpi pr (a j) (b j) := rfl
theorem addi_apply {s : Shape} {w : ℕ} (a b : IVec s w) (j : s.Idx) : addi a b j = IntOp.addi (a j) (b j) := rfl

/-! ## A row laid along every row -/

/-- A `[1, b]` array broadcast to `[a, b]` reads, at `(r, c)`, the operand's one row at column `c`. -/
theorem broadcastTo_1b_ab_apply {α : Type} {a b : ℕ} (v : (⟨2, ![1, b]⟩ : Shape).Idx → α) (h : (⟨2, ![1, b]⟩ : Shape).Broadcasts ⟨2, ![a, b]⟩)
    (r : Fin a) (c : Fin b) : broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-! ## The diagonal test on 32-bit words -/

/-- For a block number below 8, a row below 256 and a column below 2048, the word comparison `i·256 + p = q` agrees with the
    comparison of the numbers: nothing wraps, every value is far below `2³²`. -/
theorem diag_word (i p q : ℕ) (hi : i < 8) (hp : p < 256) (hq : q < 2048) :
    (IntOp.cmpi .eq (IntOp.addi (Scalar.muli (BitVec.ofNat 32 i) 256#32) (BitVec.ofNat 32 p)) (BitVec.ofNat 32 q) = 1#1)
      ↔ i * 256 + p = q := by
  show (BitVec.ofBool (BitVec.ofNat 32 i * 256#32 + BitVec.ofNat 32 p == BitVec.ofNat 32 q) = 1#1) ↔ _
  have hw : BitVec.ofNat 32 i * 256#32 + BitVec.ofNat 32 p = BitVec.ofNat 32 (i * 256 + p) := by
    apply BitVec.eq_of_toNat_eq
    simp only [BitVec.toNat_add, BitVec.toNat_mul, BitVec.toNat_ofNat]
    omega
  rw [hw]
  constructor
  · intro h
    have h' : BitVec.ofNat 32 (i * 256 + p) = BitVec.ofNat 32 q := by
      by_contra hne
      rw [show (BitVec.ofNat 32 (i * 256 + p) == BitVec.ofNat 32 q) = false from by simpa using hne] at h
      exact absurd h (by decide)
    have := congrArg BitVec.toNat h'
    simp only [BitVec.toNat_ofNat] at this
    omega
  · intro h
    rw [h]
    simp

/-- So a selection on that word comparison is the `if` on the equation of numbers. -/
theorem select_diag {α : Type} (i p q : ℕ) (hi : i < 8) (hp : p < 256) (hq : q < 2048) (A B : α) :
    Scalar.select (IntOp.cmpi .eq (IntOp.addi (Scalar.muli (BitVec.ofNat 32 i) 256#32) (BitVec.ofNat 32 p)) (BitVec.ofNat 32 q)) A B
      = if i * 256 + p = q then A else B := by
  unfold Scalar.select
  by_cases h : i * 256 + p = q
  · exact (if_pos ((diag_word i p q hi hp hq).2 h)).trans (if_pos h).symm
  · exact (if_neg (fun hc => h ((diag_word i p q hi hp hq).1 hc))).trans (if_neg h).symm

/-! ## Order tests and special words at the extended reals -/

/-- A selection on the test `d > 0` of the extended reals is the `if` on that order. -/
theorem select_ogt_zero {α : Type} (d : EReal) (A B : α) :
    Scalar.select (FloatOps.cmpf (F := Ideal) (φ := .f32) .ogt d 0) A B = if 0 < d then A else B := by
  show Scalar.select (BitVec.ofBool (decide ((0 : EReal) < d))) A B = _
  unfold Scalar.select
  by_cases h : (0 : EReal) < d
  · rw [if_pos h, decide_eq_true h]; rfl
  · rw [if_neg h, decide_eq_false h]; rfl

/-- The word of `−∞`. -/
theorem ofBits_negInf_f32 : Ideal.ofBits .f32 0xFF800000#32 = ⊥ := by simp [Ideal.ofBits, Ideal.ieee]
/-- The word of `+∞`. -/
theorem ofBits_posInf_f32 : Ideal.ofBits .f32 0x7F800000#32 = ⊤ := by simp [Ideal.ofBits, Ideal.ieee]

/-- An equality test of two words, widened to a word and converted, is the indicator of the equality. -/
theorem sitofp_extui_cmpi_eq (a b : BitVec 32) :
    FloatOps.sitofp (F := Ideal) .f32 ((IntOp.cmpi .eq a b).setWidth 32) = if a = b then 1 else 0 := by
  show ((((BitVec.ofBool (a == b)).setWidth 32).toInt : ℝ) : EReal) = _
  by_cases h : a = b
  · rw [if_pos h, h, beq_self_eq_true]
    show ((((1#1 : BitVec 1).setWidth 32).toInt : ℝ) : EReal) = 1
    rw [show ((1#1 : BitVec 1).setWidth 32).toInt = 1 from by decide]
    norm_num
  · rw [if_neg h, show (a == b) = false from by simpa using h]
    show ((((0#1 : BitVec 1).setWidth 32).toInt : ℝ) : EReal) = 0
    rw [show ((0#1 : BitVec 1).setWidth 32).toInt = 0 from by decide]
    norm_num

/-! ## A minimum along one axis -/

/-- A minimum reduction over one axis, read at the extended reals: at each kept index, the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.KernelIdeal.ValHand
-- ==== Proof.KI.Val0Pay2.lean ====
import proofs.«420115_j17875653886477_3_alg».proof.Proof.Gen.KernelIdeal.Skeleton
import proofs.«420115_j17875653886477_3_alg».proof.Proof.LibColumns
import proofs.«420115_j17875653886477_3_alg».proof.Proof.KI.Val0Lib
import Idealize.ShloMosaic.Lib.Pipeline.Value
import Idealize.ShloMosaic.Lib.ValueIdx
import Idealize.ShloMosaic.PureOps.Ideal.Laws

/-!
  The distance block of the triplet kernel, read entry by entry at the extended reals.

  At grid step `i` the block holds, at row `p` and column `q`: zero on the diagonal of the full matrix
  (global row `i·256 + p` equal to column `q`), and elsewhere the guarded square root of the clamped squared
  distance `max (‖a_p‖² + ‖b_q‖² − 2·⟨a_p, b_q⟩) 0`, where the inner product is the sum over the 512 features.
-/

noncomputable section

namespace Cert.KernelIdeal.ValHand

open Cert.KernelIdeal Cert.KernelIdeal.Gen Cert.Lib.Columns Idealize.ShloMosaic Idealize.ShloMosaic.ValueIdx

/-! ## The inner products: the contraction over the feature axis -/

/-- Row axis of the left factor: the output's row. -/
theorem gram_lhs_0 (j : S256x2048.Idx) (c : dot_S256x512_S2048x512_S256x2048_1_1_0_0_n_n.contr.Idx) :
    (dot_S256x512_S2048x512_S256x2048_1_1_0_0_n_n.lhsIdx j c 0).val = (j 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
/-- Feature axis of the left factor: the summation index. -/
theorem gram_lhs_1 (j : S256x2048.Idx) (c : dot_S256x512_S2048x512_S256x2048_1_1_0_0_n_n.contr.Idx) :
    (dot_S256x512_S2048x512_S256x2048_1_1_0_0_n_n.lhsIdx j c 1).val = (c ⟨0, by decide⟩).val :=
  dot_S256x512_S2048x512_S256x2048_1_1_0_0_n_n.lhsIdx_val_of_single rfl j c
/-- Row axis of the right factor: the output's column (the right factor enters transposed). -/
theorem gram_rhs_0 (j : S256x2048.Idx) (c : dot_S256x512_S2048x512_S256x2048_1_1_0_0_n_n.contr.Idx) :
    (dot_S256x512_S2048x512_S256x2048_1_1_0_0_n_n.rhsIdx j c 0).val = (j 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
/-- Feature axis of the right factor: the summation index. -/
theorem gram_rhs_1 (j : S256x2048.Idx) (c : dot_S256x512_S2048x512_S256x2048_1_1_0_0_n_n.contr.Idx) :
    (dot_S256x512_S2048x512_S256x2048_1_1_0_0_n_n.rhsIdx j c 1).val = (c ⟨0, by decide⟩).val :=
  dot_S256x512_S2048x512_S256x2048_1_1_0_0_n_n.rhsIdx_val_of_single rfl j c

/-- The product of the row block with the transposed column block, accumulated into zeros, is at `(p, q)` the inner
    product of row `p` of the first with row `q` of the second. -/
theorem gram_apply (a : FVec Ideal S256x512 .bf16) (b : FVec Ideal S2048x512 .bf16) (p : Fin 256) (q : Fin 2048) :
    matmul (F := Ideal) dot_S256x512_S2048x512_S256x2048_1_1_0_0_n_n none a b (constant (F := Ideal) S256x2048 .f32 0x00000000#32) (ix2 p q)
      = ∑ k : Fin 512, a (ix2 p k) * b (ix2 q k) := by
  simp only [matmul]
  rw [Ideal.matmul_constant_zero_apply, ← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 p q) ((contrEquiv1 dot_S256x512_S2048x512_S256x2048_1_1_0_0_n_n 512 rfl rfl).symm k) = ix2 p k := funext fun ax => Fin.ext (by
    match ax with
    | ⟨0, _⟩ => exact gram_lhs_0 _ _
    | ⟨1, _⟩ => exact (gram_lhs_1 _ _).trans hk)
  have er : dot_S256x512_S2048x512_S256x2048_1_1_0_0_n_n.rhsIdx (ix2 p q) ((contrEquiv1 dot_S256x512_S2048x512_S256x2048_1_1_0_0_n_n 512 rfl rfl).symm k) = ix2 q k := funext fun ax => Fin.ext (by
    match ax with
    | ⟨0, _⟩ => exact gram_rhs_0 _ _
    | ⟨1, _⟩ => exact (gram_rhs_1 _ _).trans hk)
  rw [el, er]

/-! ## The block at an entry -/

/-- The row counter of the block: the row's number. -/
theorem iota_rows (p : Fin 256) (q : Fin 2048) :
    iota .tc S256x2048 32 [0] iota_S256x2048_d0_w32 (ix2 p q) = BitVec.ofNat 32 p.val :=
  iota_single_apply .tc S256x2048 32 0 iota_S256x2048_d0_w32 (ix2 p q)
/-- The column counter of the block: the column's number. -/
theorem iota_cols (p : Fin 256) (q : Fin 2048) :
    iota .tc S256x2048 32 [1] iota_S256x2048_d1_w32 (ix2 p q) = BitVec.ofNat 32 q.val :=
  iota_single_apply .tc S256x2048 32 1 iota_S256x2048_d1_w32 (ix2 p q)

/-- The guarded root: the square root where the clamped squared distance is positive (taken of `1` elsewhere, so that the
    root is only ever taken of a positive number), and zero where it is not. -/
def gdist (d : EReal) : EReal :=
  if 0 < d then Ideal.sqrt (if 0 < d then d else Ideal.ofBits .f32 0x3F800000#32) else 0

/-- The distance block at row `p`, column `q` of grid step `i`: zero on the diagonal of the full matrix, elsewhere the guarded
    root of `max (‖a_p‖² + ‖b_q‖² − 2·⟨a_p, b_q⟩) 0`. -/
theorem pay2_apply (i : grid0.Coords) (x0 : Vec Ideal S256x512 .bf16) (x1 : Vec Ideal S2048x512 .bf16) (x2 : Vec Ideal S256x1 .f32)
    (x3 : Vec Ideal S1x2048 .f32) (p : Fin 256) (q : Fin 2048) :
    k0_pay2 (F := Ideal) i x0 x1 x2 x3 (ix2 p q)
      = if (i 0).val * 256 + p.val = q.val then 0
        else gdist (max ((x2 (ix2 p (0 : Fin 1)) + x3 (ix2 (0 : Fin 1) q))
              - Ideal.ofBits .f32 0x40000000#32 * ∑ k : Fin 512, x0 (ix2 p k) * x1 (ix2 q k)) 0) := by
  have hi : (i 0).val < 8 := (i 0).isLt
  unfold k0_pay2
  simp only [select_apply, maximumf_apply, subf_apply, addf_apply, mulf_apply, broadcast_apply, cmpf_apply, sqrt_apply,
    cmpi_apply, addi_apply, shapeCast_self]
  rw [iota_rows, iota_cols, broadcastTo_a1_ab_apply, broadcastTo_1b_ab_apply, gram_apply]
  simp only [Ideal.ofBits_def, Ideal.ofBits_zero_f32]
  rw [select_diag _ _ _ hi p.isLt q.isLt, select_ogt_zero, select_ogt_zero]
  rfl

end Cert.KernelIdeal.ValHand
-- ==== Proof.KI.Val0Pay1.lean ====
import proofs.«420115_j17875653886477_3_alg».proof.Proof.Gen.KernelIdeal.Skeleton
import proofs.«420115_j17875653886477_3_alg».proof.Proof.LibColumns
import proofs.«420115_j17875653886477_3_alg».proof.Proof.KI.Val0Lib
import Idealize.ShloMosaic.Lib.Pipeline.Value
import Idealize.ShloMosaic.Lib.ValueIdx
import Idealize.ShloMosaic.PureOps.Ideal.Laws

/-!
  The column the triplet kernel stores, read row by row at the extended reals.

  From a block `d` of distances and the labels of its rows and columns: at row `p`, the hardest positive is the maximum
  over the columns of `d(p,q)·[label p = label q]` started from `−∞`, the hardest negative is the minimum over the
  columns of `d(p,q) + 10⁶·[label p = label q]` started from `+∞`, and the stored value is the hinge
  `max ((hardest positive − hardest negative) + 0.3) 0`.
-/

noncomputable section

namespace Cert.KernelIdeal.ValHand

open Cert.KernelIdeal Cert.KernelIdeal.Gen Cert.Lib.Columns Idealize.ShloMosaic Idealize.ShloMosaic.ValueIdx

/-! ## The two row reductions -/

/-- A row number with a column number inserted is the entry (row, column). -/
theorem lift_row (p : Fin 256) (q : Fin 2048) : reduces_S256x2048_S256.lift (ix1 p) q = ix2 p q :=
  funext fun ax => Fin.ext (by match ax with | ⟨0, _⟩ => rfl | ⟨1, _⟩ => rfl)

/-- The maximum along a row, started from `−∞`. -/
theorem rowMax_apply (src : FVec Ideal S256x2048 .f32) (hφ : FKind.Formats .f32)
    (hacc : (0xFF800000#32 : BitVec 32) = 0xFF800000#32) (p : Fin 256) :
    multiReduction (F := Ideal) .maximumf [1] S256 src 0xFF800000#32 reduces_S256x2048_S256 hφ hacc (ix1 p)
      = (Finset.univ : Finset (Fin 2048)).fold max ⊥ (fun q => src (ix2 p q)) := by
  refine (Ideal.multiReduction_maximumf_single src 0xFF800000#32 reduces_S256x2048_S256 hφ hacc (ix1 p)).trans ?_
  show (Finset.univ : Finset (Fin 2048)).fold max (Ideal.ofBits .f32 0xFF800000#32)
      (fun q => src (reduces_S256x2048_S256.lift (ix1 p) q)) = _
  rw [ofBits_negInf_f32]
  exact congrArg (fun f => (Finset.univ : Finset (Fin 2048)).fold max ⊥ f) (funext fun q => congrArg src (lift_row p q))

/-- The minimum along a row, started from `+∞`. -/
theorem rowMin_apply (src : FVec Ideal S256x2048 .f32) (hφ : FKind.Formats .f32)
    (hacc : (0x7F800000#32 : BitVec 32) = 0x7F800000#32) (p : Fin 256) :
    multiReduction (F := Ideal) .minimumf [1] S256 src 0x7F800000#32 reduces_S256x2048_S256 hφ hacc (ix1 p)
      = (Finset.univ : Finset (Fin 2048)).fold min ⊤ (fun q => src (ix2 p q)) := by
  refine (multiReduction_minimumf_single src 0x7F800000#32 reduces_S256x2048_S256 hφ hacc (ix1 p)).trans ?_
  show (Finset.univ : Finset (Fin 2048)).fold min (Ideal.ofBits .f32 0x7F800000#32)
      (fun q => src (reduces_S256x2048_S256.lift (ix1 p) q)) = _
  rw [ofBits_posInf_f32]
  exact congrArg (fun f => (Finset.univ : Finset (Fin 2048)).fold min ⊤ f) (funext fun q => congrArg src (lift_row p q))

/-! ## The hinge at a row -/

/-- The indicator that row `p`'s label equals column `q`'s. -/
def sameLabel (lr : IVec S256x1 32) (lc : IVec S1x2048 32) (p : Fin 256) (q : Fin 2048) : EReal :=
  if lr (ix2 p (0 : Fin 1)) = lc (ix2 (0 : Fin 1) q) then 1 else 0

/-- The stored column at row `p`: with `hardest positive = max_q d(p,q)·[same label]` from `−∞` and
    `hardest negative = min_q (d(p,q) + 10⁶·[same label])` from `+∞`, the hinge `max ((hp − hn) + 0.3) 0`. -/
theorem pay1_apply (d : FVec Ideal S256x2048 .f32) (lr : IVec S256x1 32) (lc : IVec S1x2048 32) (p : Fin 256) (u : Fin 1) :
    k0_pay1 (F := Ideal) d lr lc (ix2 p u)
      = max (((Finset.univ : Finset (Fin 2048)).fold max ⊥ (fun q => d (ix2 p q) * sameLabel lr lc p q)
              - (Finset.univ : Finset (Fin 2048)).fold min ⊤
                  (fun q => d (ix2 p q) + Ideal.ofBits .f32 0x49742400#32 * sameLabel lr lc p q))
             + Ideal.ofBits .f32 0x3E99999A#32) 0 := by
  unfold k0_pay1
  simp only [maximumf_apply, addf_apply, subf_apply, broadcast_apply]
  rw [shapeCast_a_a1_apply, shapeCast_a_a1_apply, rowMax_apply _ (Or.inl rfl) rfl p, rowMin_apply _ (Or.inl rfl) rfl p]
  simp only [mulf_apply, addf_apply, broadcast_apply, sitofp_apply, extui_apply, cmpi_apply, broadcastTo_a1_ab_apply,
    broadcastTo_1b_ab_apply, sitofp_extui_cmpi_eq, Ideal.ofBits_def, Ideal.ofBits_zero_f32]
  rfl

end Cert.KernelIdeal.ValHand
-- ==== Proof.Alg.Diag.lean ====
import Mathlib.Data.EReal.Basic
import Mathlib.Data.EReal.Operations

/-!
# The diagonal of the squared-distance matrix

`|x - x|² = |x|² + |x|² - 2 ⟨x, x⟩` with `⟨x, x⟩ = |x|² = s` a real: the difference is exactly
zero, so its maximum with zero is zero and it is not positive.
-/

namespace Cert.Alg

/-- `(s + s) - c * s = 0` for a real `s` and the real `c = 2`. -/
theorem diag_sub_eq_zero (s : ℝ) {c : ℝ} (hc : c = 2) :
    ((s : EReal) + (s : EReal)) - (c : EReal) * (s : EReal) = 0 := by
  subst hc
  rw [← EReal.coe_add, ← EReal.coe_mul, ← EReal.coe_sub, ← EReal.coe_zero]
  congr 1; ring

/-- The same with the numeral `2` of the extended reals. -/
theorem diag_sub_two (s : ℝ) : ((s : EReal) + (s : EReal)) - (2 : EReal) * (s : EReal) = 0 := by
  have h : (2 : EReal) = ((2 : ℝ) : EReal) := by norm_cast
  rw [h]; exact diag_sub_eq_zero s rfl

theorem diag_max_zero (s : ℝ) {c : ℝ} (hc : c = 2) :
    max (((s : EReal) + (s : EReal)) - (c : EReal) * (s : EReal)) 0 = 0 := by
  rw [diag_sub_eq_zero s hc, max_self]

theorem diag_not_pos (s : ℝ) {c : ℝ} (hc : c = 2) :
    ¬ (0 : EReal) < max (((s : EReal) + (s : EReal)) - (c : EReal) * (s : EReal)) 0 := by
  rw [diag_max_zero s hc]; exact lt_irrefl _

end Cert.Alg
-- ==== Proof.KI.TripRow.lean ====
/- THE TRIPLET ROW BRIDGE. The pairwise-distance call leaves, at row r of its loss column, the batch-hard triplet term
   of row r as the reference writes it: the largest distance to a row of the same label, less the smallest distance to
   a row of another label (a same-label row pushed away by 1e6), plus the margin, cut at zero.

   The call's point r div 256 holds rows 256 (r div 256) … of the embeddings, norms and labels as its anchor blocks and
   all of them as its whole-array blocks. Read at row r mod 256 its distance row is: the guarded root of
   ‖x_r‖² + ‖x_j‖² − 2⟨x_r, x_j⟩ cut at 0 for j ≠ r, and 0 at j = r, which the body forces. The reference takes the
   guarded root at j = r as well; there the argument is (s + s) − 2 s with s = ‖x_r‖² a real number, which is 0, and
   the guarded root of 0 is 0. So the two rows agree wherever the embeddings are real numbers. -/
import proofs.«420115_j17875653886477_3_alg».proof.Proof.KI.Arr0
import proofs.«420115_j17875653886477_3_alg».proof.Proof.KI.Host1
import proofs.«420115_j17875653886477_3_alg».proof.Proof.KI.Val0Pay2
import proofs.«420115_j17875653886477_3_alg».proof.Proof.KI.Val0Pay1
import proofs.«420115_j17875653886477_3_alg».proof.Proof.RefValSpec
import proofs.«420115_j17875653886477_3_alg».proof.Proof.Alg.Diag
import proofs.«420115_j17875653886477_3_alg».proof.Proof.LibColumns
import Idealize.ShloMosaic.PureOps.Ideal.Laws

set_option maxRecDepth 16384

noncomputable section

open scoped BigOperators

namespace Cert.KernelIdeal.ValHand

open Cert.KernelIdeal Cert.KernelIdeal.Gen Cert.KernelIdeal.Hand
open Idealize.ShloMosaic Idealize.ShloMosaic.TcCoe Idealize.SL.Sem Idealize.ShloMosaic.ValueIdx
open Cert.ReferenceIdeal

/-! ## Real numbers among the extended reals -/

/-- A finite sum of real numbers, summed among the extended reals, is the real sum. -/
theorem coe_sum_real {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The word the programs carry for the factor of the inner product is the real number 2. -/
theorem ofBits_two_f32 : Ideal.ofBits .f32 0x40000000#32 = (((2 : ℝ)) : EReal) := by
  simp [Ideal.ofBits, Ideal.ieee, -EReal.coe_mul]; norm_num

/-- The sum of squares of real numbers is a real number. -/
theorem sumSq_real (f : Fin 512 → EReal) (hf : ∀ k, ∃ s : ℝ, f k = (s : EReal)) :
    ∃ s : ℝ, (∑ k : Fin 512, f k * f k) = (s : EReal) := by
  choose g hg using hf
  refine ⟨∑ k : Fin 512, g k * g k, ?_⟩
  rw [← coe_sum_real]
  refine Finset.sum_congr rfl fun k _ => ?_
  rw [hg k, EReal.coe_mul]

/-! ## The reference's distance of a row to itself -/

/-- Where the embeddings are real numbers the reference's distance from row r to itself is 0: the argument of the
    guarded root is (s + s) − 2 s cut at 0 with s the row's squared norm. -/
theorem dist_self (a0 : FVec Ideal ⟨2, ![2048, 512]⟩ .f32) (hreal : ∀ i, ∃ s : ℝ, a0 i = (s : EReal)) (r : Fin 2048) :
    RefHand.dist a0 r r = 0 := by
  obtain ⟨s, hs⟩ := sumSq_real (fun k => a0 (ix2 r k)) (fun k => hreal _)
  unfold RefHand.dist RefHand.gdist RefHand.sq
  rw [hs, zero_add, ofBits_two_f32]
  exact if_neg (Cert.Alg.diag_not_pos s rfl)

/-! ## The host's columns and rows at an entry -/

/-- The squared-norm column at row r: the sum of squares of row r, from 0. -/
theorem sqNormCol_apply (x : Vec Ideal S2048x512 .f32) (r : Fin 2048) (u : Fin 1) :
    sqNormCol x (ix2 r u) = 0 + ∑ k : Fin 512, x (ix2 r k) * x (ix2 r k) := by
  unfold sqNormCol
  rw [broadcastInDim_apply ![0] bcast_S2048_S2048x1_0 _ (ix2 r u) (ix1 r) (fun a => by
    match a with
    | ⟨0, _⟩ => show r.val = if (2048 : ℕ) = 1 then 0 else r.val; rw [if_neg (by decide)])]
  show Ideal.hostReduceAdd reducesTo_S2048x512_S2048_d1 (mulf (F := Ideal) x x : S2048x512.Idx → EReal) (Ideal.ofBits .f32 0x00000000#32) (ix1 r) = _
  have hR : S2048x512.Reduces [1] S2048 := by decide
  rw [Ideal.hostReduceAdd_single reducesTo_S2048x512_S2048_d1 hR, Ideal.ofBits_zero_f32]
  refine congrArg (fun z => 0 + z) (Finset.sum_congr rfl fun k _ => ?_)
  have e : hR.lift (ix1 r) k = ix2 r k := funext fun a => Fin.ext (by
    match a with
    | ⟨0, _⟩ => rfl
    | ⟨1, _⟩ => rfl)
  rw [e]
  rfl

/-- A column of 2048 read as a row: entry (0, q) of the row is entry (q, 0) of the column. -/
theorem colAsRow_apply {α : Type} (x : S2048x1.Idx → α) (h : S2048x1.ShapeCasts S1x2048) (q : Fin 2048) :
    shapeCast S1x2048 x h (ix2 (0 : Fin 1) q) = x (ix2 q (0 : Fin 1)) :=
  shapeCast_apply x h _ _ (by
    rw [Shape.rowMajor_val_two, Shape.rowMajor_val_two]
    show q.val * 1 + 0 = 0 * 2048 + q.val
    omega)

/-! ## The call's blocks at the point that owns a row, over the contents the host leaves -/

variable (m : (ℓ : Loc nD τ sig) → Buf (Elt Ideal) ℓ)

-- the TensorCore's buffer contents when the call is entered: what the host operations before it leave
abbrev entryV : (c : Dev nD) → (b : Ref sig .tc) → Buf (Elt Ideal) ((c : Thread nD τ).loc b) := fun c b => V1 m c b

/-- The embeddings at launch. -/
abbrev embAt (c : Dev nD) : FVec Ideal ⟨2, ![2048, 512]⟩ .f32 := m ((c.tc : Thread nD τ).loc main_arg0)
/-- The labels at launch. -/
abbrev labAt (c : Dev nD) : IVec ⟨1, ![2048]⟩ 32 := m ((c.tc : Thread nD τ).loc main_arg1)

/-- The point that owns row r, -/
abbrev ownerOf (r : Fin 2048) : Fin cfg0.N := pointOfRow (ix2 r (0 : Fin 1))
/-- and the row's place in that point's block. -/
abbrev placeOf (r : Fin 2048) : Fin 256 := ⟨r.val % 256, Nat.mod_lt _ (by decide)⟩

theorem owner_place (r : Fin 2048) : r.val = (ownerOf r).val * 256 + (placeOf r).val := by
  show r.val = r.val / 256 * 256 + r.val % 256
  omega

/-- The grid has one axis, and a point's coordinate on it is the point's number. -/
theorem coords0 : ∀ t : Fin cfg0.N, (grid0.coords t 0).val = t.val :=
  (by decide +kernel : ∀ t : Fin grid0.N, (grid0.coords t 0).val = t.val)

/-- The anchor block of the embeddings holds row r at the row's place. -/
theorem anchorEmb_apply (c : Dev nD) (r : Fin 2048) (k : Fin 512) :
    (iblk0 (entryV m) c 0 (ownerOf r) : Vec Ideal S256x512 .bf16) (ix2 (placeOf r) k) = embAt m c (ix2 r k) :=
  (iblk0_0_apply (entryV m) c (ownerOf r) (ix2 (placeOf r) k) (ix2 r k) (owner_place r) rfl).trans
    (congrFun (V1_main_v4 m c) (ix2 r k))

/-- The whole-embeddings block holds every row. -/
theorem allEmb_apply (c : Dev nD) (t : Fin cfg0.N) (q : Fin 2048) (k : Fin 512) :
    (iblk0 (entryV m) c 1 t : Vec Ideal S2048x512 .bf16) (ix2 q k) = embAt m c (ix2 q k) :=
  (congrFun (iblk0_1_eq (entryV m) c t) (ix2 q k)).trans (congrFun (V1_main_v4 m c) (ix2 q k))

/-- The anchor block of the norms holds ‖x_r‖² at the row's place. -/
theorem anchorSq_apply (c : Dev nD) (r : Fin 2048) :
    (iblk0 (entryV m) c 2 (ownerOf r) : Vec Ideal S256x1 .f32) (ix2 (placeOf r) (0 : Fin 1)) = RefHand.sq (embAt m c) r :=
  (iblk0_2_apply (entryV m) c (ownerOf r) (ix2 (placeOf r) (0 : Fin 1)) (ix2 r (0 : Fin 1)) (owner_place r) rfl).trans
    ((congrFun (V1_main_v3 m c) (ix2 r (0 : Fin 1))).trans (sqNormCol_apply _ r 0))

/-- The norm row holds ‖x_q‖² at column q. -/
theorem allSq_apply (c : Dev nD) (t : Fin cfg0.N) (q : Fin 2048) :
    (iblk0 (entryV m) c 3 t : Vec Ideal S1x2048 .f32) (ix2 (0 : Fin 1) q) = RefHand.sq (embAt m c) q :=
  (congrFun (iblk0_3_eq (entryV m) c t) (ix2 (0 : Fin 1) q)).trans
    ((congrFun (V1_main_v5 m c) (ix2 (0 : Fin 1) q)).trans
      ((colAsRow_apply (sqNormCol (m ((c.tc : Thread nD τ).loc main_arg0))) shapeCasts_S2048x1_S1x2048 q).trans
        (sqNormCol_apply _ q 0)))

/-- The anchor block of the labels holds the label of row r at the row's place. -/
theorem anchorLab_apply (c : Dev nD) (r : Fin 2048) :
    (iblk0 (entryV m) c 4 (ownerOf r) : Vec Ideal S256x1 .i32) (ix2 (placeOf r) (0 : Fin 1)) = labAt m c (ix1 r) :=
  (iblk0_4_apply (entryV m) c (ownerOf r) (ix2 (placeOf r) (0 : Fin 1)) (ix2 r (0 : Fin 1)) (owner_place r) rfl).trans
    ((congrFun (V1_main_v0 m c) (ix2 r (0 : Fin 1))).trans
      (Cert.Lib.Columns.shapeCast_a_a1_apply (m ((c.tc : Thread nD τ).loc main_arg1)) shapeCasts_S2048_S2048x1 r 0))

/-- The label row holds the label of row q at column q. -/
theorem allLab_apply (c : Dev nD) (t : Fin cfg0.N) (q : Fin 2048) :
    (iblk0 (entryV m) c 5 t : Vec Ideal S1x2048 .i32) (ix2 (0 : Fin 1) q) = labAt m c (ix1 q) :=
  (congrFun (iblk0_5_eq (entryV m) c t) (ix2 (0 : Fin 1) q)).trans
    ((congrFun (V1_main_v6 m c) (ix2 (0 : Fin 1) q)).trans
      ((colAsRow_apply (labelCol (m ((c.tc : Thread nD τ).loc main_arg1))) shapeCasts_S2048x1_S1x2048 q).trans
        (Cert.Lib.Columns.shapeCast_a_a1_apply (m ((c.tc : Thread nD τ).loc main_arg1)) shapeCasts_S2048_S2048x1 q 0)))

/-! ## The distance row and the label row of row r -/

/-- The body's distance from row r to row q is the reference's: off the diagonal the same guarded root; on it the
    body's forced 0 against the reference's guarded root of (s + s) − 2 s, which is 0 for real embeddings. -/
theorem distRow (c : Dev nD) (hreal : ∀ i, ∃ s : ℝ, embAt m c i = (s : EReal)) (r q : Fin 2048) :
    k0_pay2 (F := Ideal) (grid0.coords (ownerOf r)) (iblk0 (entryV m) c 0 (ownerOf r)) (iblk0 (entryV m) c 1 (ownerOf r))
        (iblk0 (entryV m) c 2 (ownerOf r)) (iblk0 (entryV m) c 3 (ownerOf r)) (ix2 (placeOf r) q)
      = RefHand.dist (embAt m c) r q := by
  rw [pay2_apply, anchorSq_apply, allSq_apply, coords0]
  simp only [anchorEmb_apply, allEmb_apply]
  by_cases h : r = q
  · subst h
    rw [if_pos (owner_place r).symm, dist_self _ hreal]
  · rw [if_neg (fun e => h (Fin.ext ((owner_place r).trans e)))]
    rfl

/-- The body's same-label indicator of rows r and q is the reference's. -/
theorem labelRow (c : Dev nD) (r q : Fin 2048) :
    sameLabel (k0_pay3 (F := Ideal) (iblk0 (entryV m) c 4 (ownerOf r))) (k0_pay4 (F := Ideal) (iblk0 (entryV m) c 5 (ownerOf r))) (placeOf r) q
      = RefHand.pm (labAt m c) r q := by
  simp only [sameLabel, RefHand.pm, k0_pay3, k0_pay4, shapeCast_self, anchorLab_apply, allLab_apply]

/-! ## The loss column at row r -/

/-- THE TRIPLET ROW: after the pairwise-distance call its loss column holds, at row r, the reference's triplet
    term of row r, wherever the embeddings are real numbers. -/
theorem tripRow (c : Dev nD) (hreal : ∀ i, ∃ s : ℝ, embAt m c i = (s : EReal)) (r : Fin 2048) :
    (dat0 (F := Ideal) (entryV m) c).arrAt 6 cfg0.N (ix2 r (0 : Fin 1)) = RefHand.T (embAt m c) (labAt m c) r := by
  rw [arr0_6_apply]
  show k0_pay1 (F := Ideal) _ _ _ (ix2 (placeOf r) (0 : Fin 1)) = _
  rw [pay1_apply]
  unfold RefHand.T
  simp only [distRow m c hreal r, labelRow m c r]

end Cert.KernelIdeal.ValHand

end
-- ==== Proof.Alg.OnlineLSE.lean ====
import Idealize.ShloMosaic.PureOps.Ideal
import Mathlib.Data.EReal.Basic
import Mathlib.Data.EReal.Operations
import Mathlib.Analysis.SpecialFunctions.Exp
import Mathlib.Order.Interval.Finset.Nat

/-!
# The online log-sum-exp

A running pair `(m, l)` is advanced tile by tile: the running maximum absorbs the tile's
maximum, and the running sum is rescaled to the new maximum before the tile's exponentials
are added.  Every logit is a real or `⊥`; `exp ⊥ = 0`, so the `⊥` entries add nothing.
After `t` tiles the pair is the maximum of everything seen and the sum, over everything
seen, of the exponential of (entry minus that maximum).
-/

namespace Cert.Alg

open Idealize.ShloMosaic
open scoped BigOperators

variable {κ : Type} [Fintype κ]

/-- The exponential of `x - m` for a real `m`, as a real: zero at `x = ⊥`. -/
noncomputable def expShift (x : EReal) (m : ℝ) : ℝ :=
  if x = ⊥ then 0 else Real.exp (x.toReal - m)

theorem expShift_nonneg (x : EReal) (m : ℝ) : 0 ≤ expShift x m := by
  unfold expShift; split
  · exact le_rfl
  · exact (Real.exp_pos _).le

theorem expShift_coe (r m : ℝ) : expShift (r : EReal) m = Real.exp (r - m) := by
  simp [expShift]

theorem expShift_pos {x : EReal} (hx : x ≠ ⊥) (m : ℝ) : 0 < expShift x m := by
  simp [expShift, hx, Real.exp_pos]

/-- The extended exponential of a difference with a real subtrahend is the real `expShift`. -/
theorem exp_sub_coe {x : EReal} (hx : x ≠ ⊤) (m : ℝ) :
    Ideal.exp (x - (m : EReal)) = ((expShift x m : ℝ) : EReal) := by
  induction x using EReal.rec with
  | bot => simp [EReal.bot_sub, expShift]
  | top => exact absurd rfl hx
  | coe r =>
    rw [← EReal.coe_sub, Ideal.exp_coe, expShift_coe]

/-- Moving the reference point of `expShift` from `m` to `m'`. -/
theorem exp_mul_expShift (x : EReal) (m m' : ℝ) :
    Real.exp (m - m') * expShift x m = expShift x m' := by
  unfold expShift; split
  · simp
  · rw [← Real.exp_add]; congr 1; ring

theorem coe_finset_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The maximum of a tile. -/
noncomputable def tileMax (z : κ → EReal) : EReal := Finset.univ.sup z

/-- One step: absorb a tile `z` into the running pair. -/
noncomputable def lseStep (p : EReal × EReal) (z : κ → EReal) : EReal × EReal :=
  (max p.1 (tileMax z),
   Ideal.exp (p.1 - max p.1 (tileMax z)) * p.2 + ∑ j, Ideal.exp (z j - max p.1 (tileMax z)))

/-- The running pair after `t` tiles, from the start `(⊥, 0)`. -/
noncomputable def lseRun (z : ℕ → κ → EReal) : ℕ → EReal × EReal
  | 0 => (⊥, 0)
  | t + 1 => lseStep (lseRun z t) (z t)

/-- The maximum of the first `t` tiles. -/
noncomputable def seenMax (z : ℕ → κ → EReal) (t : ℕ) : EReal :=
  (Finset.range t).sup fun s => tileMax (z s)

theorem seenMax_zero (z : ℕ → κ → EReal) : seenMax z 0 = ⊥ := by simp [seenMax]

theorem seenMax_succ (z : ℕ → κ → EReal) (t : ℕ) :
    seenMax z (t + 1) = max (seenMax z t) (tileMax (z t)) := by
  unfold seenMax
  rw [Finset.range_add_one, Finset.sup_insert, max_comm]

theorem tileMax_ne_top {z : κ → EReal} (hz : ∀ j, z j ≠ ⊤) : tileMax z ≠ ⊤ := by
  unfold tileMax
  refine ne_of_lt ?_
  rw [Finset.sup_lt_iff (by simp : (⊥ : EReal) < ⊤)]
  intro j _; exact lt_top_iff_ne_top.mpr (hz j)

theorem tileMax_ne_bot {z : κ → EReal} (hz : ∃ j, z j ≠ ⊥) : tileMax z ≠ ⊥ := by
  obtain ⟨j, hj⟩ := hz
  intro h
  apply hj
  have : z j ≤ tileMax z := Finset.le_sup (f := z) (Finset.mem_univ j)
  rw [h] at this
  exact le_bot_iff.mp this

theorem le_tileMax (z : κ → EReal) (j : κ) : z j ≤ tileMax z :=
  Finset.le_sup (f := z) (Finset.mem_univ j)

theorem seenMax_ne_top {z : ℕ → κ → EReal} {t : ℕ} (hz : ∀ s < t, ∀ j, z s j ≠ ⊤) :
    seenMax z t ≠ ⊤ := by
  unfold seenMax
  refine ne_of_lt ?_
  rw [Finset.sup_lt_iff (by simp : (⊥ : EReal) < ⊤)]
  intro s hs
  exact lt_top_iff_ne_top.mpr (tileMax_ne_top (hz s (Finset.mem_range.mp hs)))

theorem seenMax_succ_ne_bot {z : ℕ → κ → EReal} {t : ℕ} (hr : ∃ j, z t j ≠ ⊥) :
    seenMax z (t + 1) ≠ ⊥ := by
  rw [seenMax_succ]
  intro h
  have : tileMax (z t) ≤ ⊥ := h ▸ le_max_right _ _
  exact tileMax_ne_bot hr (le_bot_iff.mp this)

/-- **The closed form of the online log-sum-exp.**  With every logit of the tiles `0..t` a real
    or `⊥` and a real in each of those tiles, after `t + 1` tiles the running maximum is the real
    maximum `M` of everything seen and the running sum is the real `∑ exp (z - M)` over
    everything seen. -/
theorem lseRun_succ {z : ℕ → κ → EReal} (t : ℕ) (hz : ∀ s ≤ t, ∀ j, z s j ≠ ⊤)
    (hr : ∀ s ≤ t, ∃ j, z s j ≠ ⊥) :
    lseRun z (t + 1) =
      ((((seenMax z (t + 1)).toReal : ℝ) : EReal),
       ((∑ s ∈ Finset.range (t + 1), ∑ j, expShift (z s j) (seenMax z (t + 1)).toReal : ℝ) :
          EReal)) := by
  induction t with
  | zero =>
    have hM : ((seenMax z 1).toReal : EReal) = seenMax z 1 :=
      EReal.coe_toReal (seenMax_ne_top fun s hs => hz s (Nat.lt_succ_iff.mp hs))
        (seenMax_succ_ne_bot (hr 0 le_rfl))
    have h1 : max (⊥ : EReal) (tileMax (z 0)) = seenMax z 1 := by
      rw [seenMax_succ, seenMax_zero]
    change lseStep (⊥, 0) (z 0) = _
    unfold lseStep
    simp only [h1, EReal.bot_sub, Ideal.exp_bot, mul_zero, zero_add]
    rw [Prod.mk.injEq]
    refine ⟨hM.symm, ?_⟩
    rw [Finset.sum_range_one, coe_finset_sum]
    refine Finset.sum_congr rfl fun j _ => ?_
    rw [← exp_sub_coe (hz 0 le_rfl j), hM]
  | succ t ih =>
    have hM : ((seenMax z (t + 1)).toReal : EReal) = seenMax z (t + 1) :=
      EReal.coe_toReal
        (seenMax_ne_top fun s hs => hz s (Nat.le_succ_of_le (Nat.lt_succ_iff.mp hs)))
        (seenMax_succ_ne_bot (hr t (Nat.le_succ t)))
    have hM' : ((seenMax z (t + 2)).toReal : EReal) = seenMax z (t + 2) :=
      EReal.coe_toReal (seenMax_ne_top fun s hs => hz s (Nat.lt_succ_iff.mp hs))
        (seenMax_succ_ne_bot (hr (t + 1) le_rfl))
    have h1 : max (((seenMax z (t + 1)).toReal : ℝ) : EReal) (tileMax (z (t + 1)))
        = ((seenMax z (t + 2)).toReal : ℝ) := by
      rw [hM, hM', seenMax_succ z (t + 1)]
    change lseStep (lseRun z (t + 1)) (z (t + 1)) = _
    rw [ih (fun s hs => hz s (Nat.le_succ_of_le hs)) (fun s hs => hr s (Nat.le_succ_of_le hs))]
    unfold lseStep
    simp only [h1]
    rw [Prod.mk.injEq]
    refine ⟨rfl, ?_⟩
    rw [← EReal.coe_sub, Ideal.exp_coe, ← EReal.coe_mul, Finset.mul_sum]
    rw [Finset.sum_range_succ _ (t + 1), EReal.coe_add]
    congr 1
    · congr 1
      refine Finset.sum_congr rfl fun s _ => ?_
      rw [Finset.mul_sum]
      exact Finset.sum_congr rfl fun j _ => exp_mul_expShift _ _ _
    · rw [coe_finset_sum]
      exact Finset.sum_congr rfl fun j _ => exp_sub_coe (hz _ le_rfl j) _

end Cert.Alg
-- ==== Proof.Alg.PadTiles.lean ====
import proofs.«420115_j17875653886477_3_alg».proof.Proof.Alg.OnlineLSE
import Mathlib.Data.Fintype.BigOperators
import Mathlib.Algebra.BigOperators.Fin

/-!
# The online log-sum-exp over a real family laid out in padded tiles

A family of `N` reals is laid out row-major in tiles of width `W`; the columns past the end hold
`⊥`, whose exponential is zero.  The tile-by-tile run then ends at the maximum of the family and
the sum of the exponentials of (entry minus maximum) over the family.
-/

namespace Cert.Alg

open Idealize.ShloMosaic
open scoped BigOperators

/-- The family `a` of `N` reals laid out in tiles of width `W`: tile `s`, column `q` holds entry
    `s * W + q`, and `⊥` past the end. -/
noncomputable def padTiles {N : ℕ} (a : Fin N → ℝ) (W : ℕ) : ℕ → Fin W → EReal :=
  fun s q => if h : s * W + q.val < N then ((a ⟨s * W + q.val, h⟩ : ℝ) : EReal) else ⊥

/-- The shifted exponentials of `a` along the naturals, zero past the end. -/
noncomputable def flatExp {N : ℕ} (a : Fin N → ℝ) (M : ℝ) : ℕ → ℝ :=
  fun n => if h : n < N then Real.exp (a ⟨n, h⟩ - M) else 0

/-- A sum over `T` tiles of width `W` is the sum over the first `T * W` naturals. -/
theorem sum_tiles (g : ℕ → ℝ) (W T : ℕ) :
    ∑ s ∈ Finset.range T, ∑ q : Fin W, g (s * W + q.val) = ∑ n ∈ Finset.range (T * W), g n := by
  induction T with
  | zero => simp
  | succ T ih =>
    rw [Finset.sum_range_succ, ih, Nat.succ_mul, Finset.sum_range_add,
      Fin.sum_univ_eq_sum_range (fun q => g (T * W + q)) W]

theorem expShift_padTiles {N : ℕ} (a : Fin N → ℝ) (W : ℕ) (M : ℝ) (s : ℕ) (q : Fin W) :
    expShift (padTiles a W s q) M = flatExp a M (s * W + q.val) := by
  unfold padTiles flatExp
  by_cases h : s * W + q.val < N
  · rw [dif_pos h, dif_pos h, expShift_coe]
  · rw [dif_neg h, dif_neg h]; simp [expShift]

theorem sum_flatExp {N : ℕ} (a : Fin N → ℝ) (M : ℝ) {K : ℕ} (hK : N ≤ K) :
    ∑ n ∈ Finset.range K, flatExp a M n = ∑ j, Real.exp (a j - M) := by
  rw [← Finset.sum_subset (Finset.range_subset_range.mpr hK)
      (fun n _ hn => dif_neg (fun h => hn (Finset.mem_range.mpr h))),
    ← Fin.sum_univ_eq_sum_range]
  refine Finset.sum_congr rfl fun j _ => ?_
  unfold flatExp
  rw [dif_pos j.isLt]

/-- The maximum seen over the padded tiles is the maximum of the family. -/
theorem seenMax_padTiles {N : ℕ} (a : Fin N → ℝ) {W T : ℕ} (hcover : N ≤ T * W) {M : ℝ}
    (hM : ∀ j, a j ≤ M) (hk : ∃ j, a j = M) : seenMax (padTiles a W) T = (M : EReal) := by
  apply le_antisymm
  · unfold seenMax
    refine Finset.sup_le fun s _ => ?_
    unfold tileMax
    refine Finset.sup_le fun q _ => ?_
    unfold padTiles
    by_cases h : s * W + q.val < N
    · rw [dif_pos h]; exact EReal.coe_le_coe_iff.mpr (hM _)
    · rw [dif_neg h]; exact bot_le
  · obtain ⟨j, hj⟩ := hk
    have hWpos : 0 < W := by
      rcases Nat.eq_zero_or_pos W with h | h
      · subst h; have := j.isLt; omega
      · exact h
    have hs : j.val / W < T := by
      apply Nat.div_lt_of_lt_mul
      calc j.val < N := j.isLt
        _ ≤ T * W := hcover
        _ = W * T := Nat.mul_comm _ _
    have hidx : j.val / W * W + j.val % W = j.val := by
      rw [Nat.mul_comm]; exact Nat.div_add_mod _ _
    have hlt : j.val / W * W + j.val % W < N := by rw [hidx]; exact j.isLt
    have hz : padTiles a W (j.val / W) ⟨j.val % W, Nat.mod_lt _ hWpos⟩ = (M : EReal) := by
      change (if h : j.val / W * W + j.val % W < N then
        ((a ⟨j.val / W * W + j.val % W, h⟩ : ℝ) : EReal) else ⊥) = _
      rw [dif_pos hlt]
      have : (⟨j.val / W * W + j.val % W, hlt⟩ : Fin N) = j := Fin.ext hidx
      rw [this, hj]
    rw [← hz]
    exact (le_tileMax _ _).trans
      (Finset.le_sup (f := fun s => tileMax (padTiles a W s)) (Finset.mem_range.mpr hs))

/-- **The online log-sum-exp over the padded tiles of a real family.**  With `t + 1` tiles of
    width `W` covering the `N` entries, the last tile not empty, and `M` the maximum of the
    family: the run ends at `(M, ∑ exp (a j - M))`. -/
theorem lseRun_padTiles {N : ℕ} (a : Fin N → ℝ) {W t : ℕ} (hcover : N ≤ (t + 1) * W)
    (hlast : t * W < N) {M : ℝ} (hM : ∀ j, a j ≤ M) (hk : ∃ j, a j = M) :
    lseRun (padTiles a W) (t + 1)
      = ((M : EReal), ((∑ j, Real.exp (a j - M) : ℝ) : EReal)) := by
  have hz : ∀ s ≤ t, ∀ q, padTiles a W s q ≠ ⊤ := by
    intro s _ q
    unfold padTiles
    by_cases h : s * W + q.val < N
    · rw [dif_pos h]; exact EReal.coe_ne_top _
    · rw [dif_neg h]; exact bot_ne_top
  have hWpos : 0 < W := by
    rcases Nat.eq_zero_or_pos W with h | h
    · subst h; simp at hcover; omega
    · exact h
  have hr : ∀ s ≤ t, ∃ q, padTiles a W s q ≠ ⊥ := by
    intro s hs
    refine ⟨⟨0, hWpos⟩, ?_⟩
    have h : s * W + 0 < N := by
      have := Nat.mul_le_mul_right W hs; omega
    change (if h : s * W + 0 < N then ((a ⟨s * W + 0, h⟩ : ℝ) : EReal) else ⊥) ≠ ⊥
    rw [dif_pos h]; exact EReal.coe_ne_bot _
  have hsum : ∑ s ∈ Finset.range (t + 1), ∑ q, expShift (padTiles a W s q) M
      = ∑ j, Real.exp (a j - M) := by
    rw [Finset.sum_congr rfl fun s _ =>
      Finset.sum_congr rfl fun q _ => expShift_padTiles a W M s q]
    rw [sum_tiles (flatExp a M) W (t + 1), sum_flatExp a M hcover]
  rw [lseRun_succ t hz hr, seenMax_padTiles a hcover hM hk, EReal.toReal_coe, hsum]

/-- The same with the maximum spelled `Finset.univ.sup'`. -/
theorem lseRun_padTiles_sup' {N : ℕ} (a : Fin N → ℝ) {W t : ℕ} (hcover : N ≤ (t + 1) * W)
    (hlast : t * W < N) (hne : (Finset.univ : Finset (Fin N)).Nonempty) :
    lseRun (padTiles a W) (t + 1)
      = (((Finset.univ.sup' hne a : ℝ) : EReal),
         ((∑ j, Real.exp (a j - Finset.univ.sup' hne a) : ℝ) : EReal)) := by
  refine lseRun_padTiles a hcover hlast (fun j => Finset.le_sup' a (Finset.mem_univ j)) ?_
  obtain ⟨i, _, hi⟩ := Finset.exists_mem_eq_sup' hne a
  exact ⟨i, hi.symm⟩

end Cert.Alg
-- ==== Proof.Alg.LseSwap.lean ====
import Idealize.ShloMosaic.PureOps.Ideal
import Mathlib.Data.EReal.Basic
import Mathlib.Data.EReal.Operations
import Mathlib.Analysis.SpecialFunctions.Log.Basic
import Mathlib.Algebra.BigOperators.Group.Finset.Basic

/-!
# Log-sum-exp: change of reference point, and the swap of one entry

`∑ exp (b j - m) = exp (M - m) * ∑ exp (b j - M)` for any two reals `m`, `M`: the
log-sum-exp `m + log ∑ exp (b j - m)` does not depend on the reference point.  Replacing one
entry `a k` by `a'` changes the sum by `exp (a' - m) - exp (a k - m)`.  Together: the
log-sum-exp computed at the old reference point with one term swapped, minus the new entry, is
minus the log-softmax entry of the updated family at `k`.  Also the mean of the negatives.
-/

namespace Cert.Alg

open Idealize.ShloMosaic
open scoped BigOperators

variable {ι : Type} [Fintype ι]

private theorem coe_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- Change of reference point in a sum of shifted exponentials. -/
theorem sum_exp_shift (b : ι → ℝ) (m M : ℝ) :
    ∑ j, Real.exp (b j - m) = Real.exp (M - m) * ∑ j, Real.exp (b j - M) := by
  rw [Finset.mul_sum]
  refine Finset.sum_congr rfl fun j _ => ?_
  rw [← Real.exp_add]; congr 1; ring

/-- Replacing the entry at `k` by `a'`: the sum gains the new term and loses the old. -/
theorem sum_exp_update [DecidableEq ι] (a : ι → ℝ) (k : ι) (a' m : ℝ) :
    (∑ j, Real.exp (a j - m)) + Real.exp (a' - m) - Real.exp (a k - m)
      = ∑ j, Real.exp (Function.update a k a' j - m) := by
  rw [← Finset.add_sum_erase Finset.univ (fun j => Real.exp (a j - m)) (Finset.mem_univ k),
    ← Finset.add_sum_erase Finset.univ (fun j => Real.exp (Function.update a k a' j - m))
      (Finset.mem_univ k)]
  have h : ∑ j ∈ Finset.univ.erase k, Real.exp (Function.update a k a' j - m)
      = ∑ j ∈ Finset.univ.erase k, Real.exp (a j - m) :=
    Finset.sum_congr rfl fun j hj => by
      rw [Function.update_of_ne (Finset.ne_of_mem_erase hj)]
  rw [h, Function.update_self]; ring

/-- The swapped sum is positive, and the identity of the two log-sum-exp readings, in reals.
    The reference points `m`, `M` are arbitrary reals (the maxima are one choice). -/
theorem lse_swap_real [DecidableEq ι] (a : ι → ℝ) (k : ι) (a' m M : ℝ) :
    0 < (∑ j, Real.exp (a j - m)) + Real.exp (a' - m) - Real.exp (a k - m) ∧
    m + Real.log ((∑ j, Real.exp (a j - m)) + Real.exp (a' - m) - Real.exp (a k - m)) - a'
      = -((a' - M) - Real.log (∑ j, Real.exp (Function.update a k a' j - M))) := by
  rw [sum_exp_update, sum_exp_shift _ m M]
  have hS : 0 < ∑ j, Real.exp (Function.update a k a' j - M) :=
    Finset.sum_pos (fun j _ => Real.exp_pos _) ⟨k, Finset.mem_univ k⟩
  refine ⟨mul_pos (Real.exp_pos _) hS, ?_⟩
  rw [Real.log_mul (Real.exp_pos _).ne' hS.ne', Real.log_exp]; ring

/-- The extended exponential of a difference of two reals. -/
theorem exp_coe_sub_coe (x m : ℝ) :
    Ideal.exp ((x : EReal) - (m : EReal)) = ((Real.exp (x - m) : ℝ) : EReal) := by
  rw [← EReal.coe_sub, Ideal.exp_coe]

/-- The extended logarithm of a positive real. -/
theorem log_coe_pos {r : ℝ} (hr : 0 < r) : Ideal.log (r : EReal) = ((Real.log r : ℝ) : EReal) := by
  rw [Ideal.log_coe, if_neg (not_le.mpr hr)]

/-- **The swap, in extended reals.**  Left: the running maximum `m`, the running sum `L` (a real
    sum over all classes), the label column's term swapped, the logarithm, minus the new logit.
    Right: minus the log-softmax entry at `k` of the family with entry `k` replaced. -/
theorem lse_swap [DecidableEq ι] (a : ι → ℝ) (k : ι) (a' m M : ℝ) :
    ((m : EReal) + Ideal.log (((∑ j, Real.exp (a j - m) : ℝ) : EReal)
        + Ideal.exp ((a' : EReal) - (m : EReal))
        - Ideal.exp (((a k : ℝ) : EReal) - (m : EReal)))) - (a' : EReal)
      = -(((a' : EReal) - (M : EReal))
          - Ideal.log (∑ j, Ideal.exp (((Function.update a k a' j : ℝ) : EReal) - (M : EReal)))) := by
  obtain ⟨hpos, heq⟩ := lse_swap_real a k a' m M
  have hS : 0 < ∑ j, Real.exp (Function.update a k a' j - M) :=
    Finset.sum_pos (fun j _ => Real.exp_pos _) ⟨k, Finset.mem_univ k⟩
  have hsum : (∑ j, Ideal.exp (((Function.update a k a' j : ℝ) : EReal) - (M : EReal)))
      = ((∑ j, Real.exp (Function.update a k a' j - M) : ℝ) : EReal) := by
    rw [coe_sum]; exact Finset.sum_congr rfl fun j _ => exp_coe_sub_coe _ _
  rw [hsum, exp_coe_sub_coe, exp_coe_sub_coe, ← EReal.coe_add, ← EReal.coe_sub,
    log_coe_pos hpos, log_coe_pos hS, ← EReal.coe_add, ← EReal.coe_sub, ← EReal.coe_sub,
    ← EReal.coe_sub, ← EReal.coe_neg, heq]

/-- Division by a nonzero real of a real. -/
theorem div_coe_coe (x : ℝ) {n : ℝ} (hn : n ≠ 0) :
    Ideal.div (x : EReal) (n : EReal) = ((x / n : ℝ) : EReal) := by
  rw [Ideal.div_coe hn, ← EReal.coe_mul]; congr 1; ring

/-- **The mean of the negatives is minus the mean** (sums started at zero, real entries). -/
theorem neg_mean (x : ι → ℝ) {n : ℝ} (hn : n ≠ 0) :
    -(Ideal.div (0 + ∑ i, (x i : EReal)) (n : EReal))
      = Ideal.div (0 + ∑ i, -(x i : EReal)) (n : EReal) := by
  have h1 : (∑ i, (x i : EReal)) = ((∑ i, x i : ℝ) : EReal) := (coe_sum _ _).symm
  have h2 : (∑ i, -(x i : EReal)) = ((∑ i, -x i : ℝ) : EReal) := by
    rw [coe_sum]; exact Finset.sum_congr rfl fun i _ => (EReal.coe_neg _).symm
  rw [h1, h2, zero_add, zero_add, div_coe_coe _ hn, div_coe_coe _ hn, ← EReal.coe_neg]
  congr 1
  rw [Finset.sum_neg_distrib]; ring

end Cert.Alg
-- ==== Proof.Alg.ArcRow.lean ====
import proofs.«420115_j17875653886477_3_alg».proof.Proof.Alg.PadTiles
import proofs.«420115_j17875653886477_3_alg».proof.Proof.Alg.LseSwap

/-!
# One row of the margin-softmax loss

The online log-sum-exp over the padded tiles of a row's logits, with the label column's term
swapped for the margin logit, gives minus the log-softmax entry at the label of the family with
that entry replaced.  Around it: the run depends only on the tiles it has seen; a tile entry
spelled with a validity test is the padded layout's; a fold of maxima over reals is a real.
-/

namespace Cert.Alg

open Idealize.ShloMosaic
open scoped BigOperators

/-- The run over `t` tiles depends only on the tiles below `t`. -/
theorem lseRun_congr {κ : Type} [Fintype κ] {z z' : ℕ → κ → EReal} :
    ∀ t : ℕ, (∀ s < t, z s = z' s) → lseRun z t = lseRun z' t
  | 0, _ => rfl
  | t + 1, h => by
    change lseStep (lseRun z t) (z t) = lseStep (lseRun z' t) (z' t)
    rw [lseRun_congr t (fun s hs => h s (Nat.lt_succ_of_lt hs)), h t (Nat.lt_succ_self t)]

theorem padTiles_of_lt {N : ℕ} (a : Fin N → ℝ) (W s : ℕ) (q : Fin W) (h : s * W + q.val < N) :
    padTiles a W s q = ((a ⟨s * W + q.val, h⟩ : ℝ) : EReal) := dif_pos h

theorem padTiles_of_not_lt {N : ℕ} (a : Fin N → ℝ) (W s : ℕ) (q : Fin W)
    (h : ¬ s * W + q.val < N) : padTiles a W s q = ⊥ := dif_neg h

/-- A tile entry spelled "if the column is a class then its logit else `⊥`" is the padded
    layout's, once the logit at a class is the family's real. -/
theorem ite_eq_padTiles {N : ℕ} (a : Fin N → ℝ) (W s : ℕ) (q : Fin W) (x : EReal)
    (hx : ∀ h : s * W + q.val < N, x = ((a ⟨s * W + q.val, h⟩ : ℝ) : EReal)) :
    (if s * W + q.val < N then x else ⊥) = padTiles a W s q := by
  by_cases h : s * W + q.val < N
  · rw [if_pos h, padTiles_of_lt a W s q h]; exact hx h
  · rw [if_neg h, padTiles_of_not_lt a W s q h]

/-- A left fold by `max` over reals, from a start that is not `⊤`, is a real as soon as the list
    is not empty or the start is not `⊥`. -/
theorem foldl_max_real {α : Type} (f : α → EReal) :
    ∀ (l : List α) (init : EReal), init ≠ ⊤ → (∀ n ∈ l, ∃ r : ℝ, f n = (r : EReal)) →
      (l ≠ [] ∨ init ≠ ⊥) → ∃ r : ℝ, l.foldl (fun acc n => max acc (f n)) init = (r : EReal)
  | [], init, h1, _, h3 => by
    rcases h3 with h | h
    · exact absurd rfl h
    · exact ⟨init.toReal, (EReal.coe_toReal h1 h).symm⟩
  | n :: l, init, h1, h2, _ => by
    obtain ⟨r, hr⟩ := h2 n List.mem_cons_self
    have hstep : ∃ r' : ℝ, max init (f n) = (r' : EReal) := by
      rw [hr]
      induction init using EReal.rec with
      | bot => exact ⟨r, max_eq_right bot_le⟩
      | top => exact absurd rfl h1
      | coe x => exact ⟨max x r, (EReal.coe_strictMono.monotone.map_max).symm⟩
    obtain ⟨r', hr'⟩ := hstep
    rw [List.foldl_cons, hr']
    exact foldl_max_real f l r' (EReal.coe_ne_top _)
      (fun n hn => h2 n (List.mem_cons_of_mem _ hn)) (Or.inr (EReal.coe_ne_bot _))

/-- **One row of the margin-softmax loss.**  Kernel side: the online run over the padded tiles of
    the row's logits `a` ends at `(m, l)`; the label column's term is swapped for the margin
    logit `a'`, the logarithm taken, `m` added and `a'` subtracted.  Reference side: the
    family `B` is `a` with entry `k` replaced by `a'`; its log-softmax entry at `k`, taken at any
    real reference point `ME`, negated. -/
theorem arc_row {N : ℕ} (a : Fin N → ℝ) {W t : ℕ} (hcover : N ≤ (t + 1) * W) (hlast : t * W < N)
    (k : Fin N) (a' : ℝ) {m l : EReal} (hrun : lseRun (padTiles a W) (t + 1) = (m, l))
    (B : Fin N → EReal) (hBk : B k = (a' : EReal))
    (hB : ∀ j, j ≠ k → B j = ((a j : ℝ) : EReal)) {ME : EReal} {M : ℝ} (hM : ME = (M : EReal)) :
    (m + Ideal.log ((l + Ideal.exp ((a' : EReal) - m)) - Ideal.exp (((a k : ℝ) : EReal) - m)))
        - (a' : EReal)
      = -((B k - ME) - Ideal.log (0 + ∑ j, Ideal.exp (B j - ME))) := by
  have hne : (Finset.univ : Finset (Fin N)).Nonempty := ⟨k, Finset.mem_univ k⟩
  rw [lseRun_padTiles_sup' a hcover hlast hne, Prod.mk.injEq] at hrun
  obtain ⟨rfl, rfl⟩ := hrun
  have hBu : ∀ j, B j = ((Function.update a k a' j : ℝ) : EReal) := by
    intro j
    by_cases hj : j = k
    · subst hj; rw [Function.update_self, hBk]
    · rw [Function.update_of_ne hj, hB j hj]
  have hsum : ∑ j, Ideal.exp (B j - (M : EReal))
      = ∑ j, Ideal.exp (((Function.update a k a' j : ℝ) : EReal) - (M : EReal)) :=
    Finset.sum_congr rfl fun j _ => by rw [hBu j]
  rw [zero_add, hBk, hM, hsum]
  exact lse_swap a k a' _ M

end Cert.Alg
-- ==== Proof.Alg.Guards.lean ====
import Mathlib.Data.EReal.Basic
import Mathlib.Data.EReal.Operations

/-!
# The guarded sine and the clip

For a real cosine `s` in `[-1, 1]`, `1 - s²` is nonnegative, so the guard `max (1 - s²) 0`
returns `1 - s²`.  A clip to a real interval `[lo, hi]` of any extended real is a real of that
interval.
-/

namespace Cert.Alg

/-- `1 - s * s` for reals, in the extended reals, is the coercion of the real `1 - s * s`. -/
theorem one_sub_sq_coe (s : ℝ) :
    (1 : EReal) - (s : EReal) * (s : EReal) = ((1 - s * s : ℝ) : EReal) := by
  rw [← EReal.coe_one, ← EReal.coe_mul, ← EReal.coe_sub]

theorem one_sub_sq_nonneg {s : ℝ} (h1 : -1 ≤ s) (h2 : s ≤ 1) : 0 ≤ 1 - s * s := by
  nlinarith

/-- **The guarded sine**: the guard is idle on `[-1, 1]`. -/
theorem max_one_sub_sq {s : ℝ} (h1 : -1 ≤ s) (h2 : s ≤ 1) :
    max ((1 : EReal) - (s : EReal) * (s : EReal)) 0 = (1 : EReal) - (s : EReal) * (s : EReal) := by
  apply max_eq_left
  rw [one_sub_sq_coe, ← EReal.coe_zero, EReal.coe_le_coe_iff]
  exact one_sub_sq_nonneg h1 h2

/-- **The clip** `min (max x lo) hi` of any extended real to a real interval is a real of the
    interval. -/
theorem clip_real (x : EReal) {lo hi : ℝ} (h : lo ≤ hi) :
    ∃ r : ℝ, lo ≤ r ∧ r ≤ hi ∧ min (max x (lo : EReal)) (hi : EReal) = (r : EReal) := by
  induction x using EReal.rec with
  | bot =>
    refine ⟨lo, le_rfl, h, ?_⟩
    rw [max_eq_right bot_le, min_eq_left (EReal.coe_le_coe_iff.mpr h)]
  | top =>
    refine ⟨hi, h, le_rfl, ?_⟩
    rw [max_eq_left le_top, min_eq_right le_top]
  | coe y =>
    refine ⟨min (max y lo) hi, le_min (le_max_right _ _) h, min_le_right _ _, ?_⟩
    rw [EReal.coe_strictMono.monotone.map_min, EReal.coe_strictMono.monotone.map_max]

/-- The clip of a real is the real clip. -/
theorem clip_coe (y lo hi : ℝ) :
    min (max (y : EReal) (lo : EReal)) (hi : EReal) = ((min (max y lo) hi : ℝ) : EReal) := by
  rw [EReal.coe_strictMono.monotone.map_min, EReal.coe_strictMono.monotone.map_max]

end Cert.Alg
-- ==== Proof.Alg.ArcRef.lean ====
import proofs.«420115_j17875653886477_3_alg».proof.Proof.RefValSpec
import proofs.«420115_j17875653886477_3_alg».proof.Proof.Alg.ArcRow
import proofs.«420115_j17875653886477_3_alg».proof.Proof.Alg.Guards

/-!
# A row of the classification term against the reference's row formula

The clip makes every cosine a real of `[-1, 1]` whatever the inputs, so every logit, the margin
logit and the row maximum are reals; the guard under the label's square root is idle there.  The
kernel's row value — the running pair of the online log-sum-exp with the label column's term
swapped for the margin logit — is then minus the reference's log-probability of the label.
-/

namespace Cert.Alg

open Idealize.ShloMosaic Idealize.ShloMosaic.ValueIdx Cert.ReferenceIdeal Cert.ReferenceIdeal.RefHand
open scoped BigOperators

/-! ## The literals -/

/-- The upper clip bound `1 - 2⁻²³`. -/
theorem lit_hi : Ideal.ofBits .f32 0x3F7FFFFE#32 = ((8388607 / 8388608 : ℝ) : EReal) := by
  simp [Ideal.ofBits, Ideal.ieee, -EReal.coe_mul]; norm_num

/-- The lower clip bound `-(1 - 2⁻²³)`. -/
theorem lit_lo : Ideal.ofBits .f32 0xBF7FFFFE#32 = ((-(8388607 / 8388608) : ℝ) : EReal) := by
  simp [Ideal.ofBits, Ideal.ieee, -EReal.coe_mul]; norm_num

/-- The scale `30`. -/
theorem lit_c30 : Ideal.ofBits .f32 0x41F00000#32 = ((30 : ℝ) : EReal) := by
  simp [Ideal.ofBits, Ideal.ieee, -EReal.coe_mul]; norm_num

theorem lit_one : Ideal.ofBits .f32 0x3F800000#32 = 1 := by
  simp [Ideal.ofBits, Ideal.ieee, -EReal.coe_mul]; norm_num

/-- The small positive constant under the square root. -/
theorem lit_e7 : ∃ e : ℝ, 0 < e ∧ Ideal.ofBits .f32 0x33D6BF95#32 = (e : EReal) := by
  simp [Ideal.ofBits, Ideal.ieee, -EReal.coe_mul]

/-- The cosine of the margin, a real. -/
theorem lit_cm : ∃ c : ℝ, Ideal.ofBits .f32 0x3F60A940#32 = (c : EReal) := by
  simp [Ideal.ofBits, Ideal.ieee, -EReal.coe_mul]

/-- The sine of the margin, a real. -/
theorem lit_sm : ∃ c : ℝ, Ideal.ofBits .f32 0x3EF57744#32 = (c : EReal) := by
  simp [Ideal.ofBits, Ideal.ieee, -EReal.coe_mul]

/-! ## Reals throughout -/

/-- The clip in the order `min hi (max lo x)`. -/
theorem clip_real' (x : EReal) {lo hi : ℝ} (h : lo ≤ hi) :
    ∃ r : ℝ, lo ≤ r ∧ r ≤ hi ∧ min (hi : EReal) (max (lo : EReal) x) = (r : EReal) := by
  rw [min_comm, max_comm]; exact clip_real x h

variable (a0 : FVec Ideal ⟨2, ![2048, 512]⟩ .f32) (a1 : IVec ⟨1, ![2048]⟩ 32)
  (a2 : FVec Ideal ⟨2, ![50000, 512]⟩ .f32)

/-- The clipped cosine is a real of `[-1, 1]`, whatever the inputs. -/
theorem cos_real (r : Fin 2048) (j : Fin 50000) :
    ∃ c : ℝ, -1 ≤ c ∧ c ≤ 1 ∧ RefHand.cos a0 a2 r j = (c : EReal) := by
  unfold RefHand.cos
  rw [lit_hi, lit_lo]
  obtain ⟨c, h1, h2, h3⟩ := clip_real' (∑ k : Fin 512, fn a0 (ix2 r k) * wn a2 (ix2 j k))
    (lo := -(8388607 / 8388608)) (hi := 8388607 / 8388608) (by norm_num)
  exact ⟨c, by linarith, by linarith, h3⟩

/-- The margin cosine of a real cosine of `[-1, 1]` is a real. -/
theorem margin_real {c : ℝ} (h1 : -1 ≤ c) (h2 : c ≤ 1) : ∃ x : ℝ, margin (c : EReal) = (x : EReal) := by
  obtain ⟨e, he, hE⟩ := lit_e7
  obtain ⟨cm, hcm⟩ := lit_cm
  obtain ⟨sm, hsm⟩ := lit_sm
  unfold margin
  rw [lit_one, hE, hcm, hsm, one_sub_sq_coe, ← EReal.coe_add, Ideal.sqrt_coe,
    if_neg (not_lt.mpr (by have := one_sub_sq_nonneg h1 h2; linarith)),
    ← EReal.coe_mul, ← EReal.coe_mul, ← EReal.coe_sub]
  exact ⟨_, rfl⟩

/-- The guard under the label's square root is idle: the kernel's guarded margin is the margin. -/
theorem guarded_margin {c : ℝ} (h1 : -1 ≤ c) (h2 : c ≤ 1) :
    (c : EReal) * Ideal.ofBits .f32 0x3F60A940#32
        - Ideal.sqrt (max (Ideal.ofBits .f32 0x3F800000#32 - (c : EReal) * (c : EReal)) 0
            + Ideal.ofBits .f32 0x33D6BF95#32) * Ideal.ofBits .f32 0x3EF57744#32
      = margin (c : EReal) := by
  unfold margin
  rw [lit_one, max_one_sub_sq h1 h2]

/-- Every logit is a real. -/
theorem logit_real (r : Fin 2048) (j : Fin 50000) : ∃ x : ℝ, logit a0 a1 a2 r j = (x : EReal) := by
  obtain ⟨c, h1, h2, hc⟩ := cos_real a0 a2 r j
  unfold logit
  rw [lit_c30, hc]
  by_cases hj : j = lbl a1 r
  · rw [if_pos hj]
    obtain ⟨x, hx⟩ := margin_real h1 h2
    rw [hx, ← EReal.coe_mul]; exact ⟨_, rfl⟩
  · rw [if_neg hj, ← EReal.coe_mul]; exact ⟨_, rfl⟩

/-- Off the label the logit is the scaled cosine. -/
theorem logit_of_ne (r : Fin 2048) {j : Fin 50000} (hj : j ≠ lbl a1 r) :
    logit a0 a1 a2 r j = Ideal.ofBits .f32 0x41F00000#32 * RefHand.cos a0 a2 r j := by
  unfold logit; rw [if_neg hj]

/-- At the label the logit is the scaled margin cosine. -/
theorem logit_lbl (r : Fin 2048) :
    logit a0 a1 a2 r (lbl a1 r)
      = Ideal.ofBits .f32 0x41F00000#32 * margin (RefHand.cos a0 a2 r (lbl a1 r)) := by
  unfold logit; rw [if_pos rfl]

/-- A fold of maxima from `⊥` over a nonempty family of reals is a real. -/
theorem fold_max_real {ι : Type} [DecidableEq ι] (f : ι → EReal)
    (hf : ∀ j, ∃ x : ℝ, f j = (x : EReal)) (s : Finset ι) :
    (s = ∅ ∧ s.fold max ⊥ f = ⊥) ∨ ∃ x : ℝ, s.fold max ⊥ f = (x : EReal) := by
  induction s using Finset.induction_on with
  | empty => exact Or.inl ⟨rfl, Finset.fold_empty⟩
  | insert a s ha ih =>
    right
    obtain ⟨x, hx⟩ := hf a
    rw [Finset.fold_insert ha, hx]
    rcases ih with ⟨_, h⟩ | ⟨y, hy⟩
    · rw [h]; exact ⟨x, max_eq_left bot_le⟩
    · rw [hy]; exact ⟨max x y, (EReal.coe_strictMono.monotone.map_max).symm⟩

/-- The row maximum of the reference is a real. -/
theorem M_real (r : Fin 2048) : ∃ x : ℝ, M a0 a1 a2 r = (x : EReal) := by
  unfold M
  rcases fold_max_real (fun j => logit a0 a1 a2 r j) (logit_real a0 a1 a2 r) Finset.univ with
    ⟨h, _⟩ | ⟨x, hx⟩
  · exact absurd h (Finset.univ_nonempty (α := Fin 50000)).ne_empty
  · rw [hx]; exact ⟨x, max_eq_right bot_le⟩

/-! ## The row -/

/-- **A row of the classification term.**  The running pair `(m, l)` is, at a real reference
    point `mr`, the pair `(mr, ∑ exp (a j - mr))` over the row's scaled cosines `a`; `raw` is the
    label's scaled cosine and `marg` the label's margin logit.  Then the kernel's row value is
    minus the reference's log-probability of the label. -/
theorem arc_row_ref (r : Fin 2048) (a : Fin 50000 → ℝ)
    (ha : ∀ j, ((a j : ℝ) : EReal) = Ideal.ofBits .f32 0x41F00000#32 * RefHand.cos a0 a2 r j)
    {m l : EReal} {mr : ℝ} (hm : m = (mr : EReal))
    (hl : l = ((∑ j, Real.exp (a j - mr) : ℝ) : EReal)) :
    (m + Ideal.log ((l + Ideal.exp (logit a0 a1 a2 r (lbl a1 r) - m))
        - Ideal.exp (Ideal.ofBits .f32 0x41F00000#32 * RefHand.cos a0 a2 r (lbl a1 r) - m)))
        - logit a0 a1 a2 r (lbl a1 r)
      = -(Lp a0 a1 a2 r) := by
  obtain ⟨a', ha'⟩ := logit_real a0 a1 a2 r (lbl a1 r)
  obtain ⟨Mr, hMr⟩ := M_real a0 a1 a2 r
  have hB : ∀ j, logit a0 a1 a2 r j = ((Function.update a (lbl a1 r) a' j : ℝ) : EReal) := by
    intro j
    by_cases hj : j = lbl a1 r
    · subst hj; rw [Function.update_self, ha']
    · rw [Function.update_of_ne hj, logit_of_ne a0 a1 a2 r hj, ha j]
  have hsum : ∑ j, Ideal.exp (logit a0 a1 a2 r j - (Mr : EReal))
      = ∑ j, Ideal.exp (((Function.update a (lbl a1 r) a' j : ℝ) : EReal) - (Mr : EReal)) :=
    Finset.sum_congr rfl fun j _ => by rw [hB j]
  unfold Lp
  rw [hMr, hsum, zero_add, ha', ← ha (lbl a1 r), hm, hl]
  exact lse_swap a (lbl a1 r) a' mr Mr

/-- The same from the online run over the padded tiles of the row's scaled cosines. -/
theorem arc_row_ref_run (r : Fin 2048) (a : Fin 50000 → ℝ)
    (ha : ∀ j, ((a j : ℝ) : EReal) = Ideal.ofBits .f32 0x41F00000#32 * RefHand.cos a0 a2 r j)
    {m l : EReal} (hrun : lseRun (padTiles a 1024) 49 = (m, l)) :
    (m + Ideal.log ((l + Ideal.exp (logit a0 a1 a2 r (lbl a1 r) - m))
        - Ideal.exp (Ideal.ofBits .f32 0x41F00000#32 * RefHand.cos a0 a2 r (lbl a1 r) - m)))
        - logit a0 a1 a2 r (lbl a1 r)
      = -(Lp a0 a1 a2 r) := by
  have hne : (Finset.univ : Finset (Fin 50000)).Nonempty := Finset.univ_nonempty
  rw [lseRun_padTiles_sup' a (W := 1024) (t := 48) (by norm_num) (by norm_num) hne,
    Prod.mk.injEq] at hrun
  exact arc_row_ref a0 a1 a2 r a ha hrun.1.symm hrun.2.symm

end Cert.Alg
-- ==== Proof.Alg.ArcMean.lean ====
import proofs.«420115_j17875653886477_3_alg».proof.Proof.Alg.ArcRef

/-!
# The mean over the rows of the classification term

Every row's log-probability is a real, so minus the mean of the log-probabilities is the mean of
their negatives (sums started at zero, division by the real `2048`).
-/

namespace Cert.Alg

open Idealize.ShloMosaic Idealize.ShloMosaic.ValueIdx Cert.ReferenceIdeal Cert.ReferenceIdeal.RefHand
open scoped BigOperators

/-- The mean of the negatives is minus the mean, for extended reals that are reals. -/
theorem neg_mean_of_real {ι : Type} [Fintype ι] (X : ι → EReal)
    (hX : ∀ i, ∃ x : ℝ, X i = (x : EReal)) {n : ℝ} (hn : n ≠ 0) :
    -(Ideal.div (0 + ∑ i, X i) (n : EReal)) = Ideal.div (0 + ∑ i, -(X i)) (n : EReal) := by
  choose x hx using hX
  have h1 : ∑ i, X i = ∑ i, ((x i : ℝ) : EReal) := Finset.sum_congr rfl fun i _ => hx i
  have h2 : ∑ i, -(X i) = ∑ i, -((x i : ℝ) : EReal) :=
    Finset.sum_congr rfl fun i _ => by rw [hx i]
  rw [h1, h2]
  exact neg_mean x hn

theorem lit_2048 : Ideal.ofBits .f32 0x45000000#32 = ((2048 : ℝ) : EReal) := by
  simp [Ideal.ofBits, Ideal.ieee, -EReal.coe_mul]; norm_num

variable (a0 : FVec Ideal ⟨2, ![2048, 512]⟩ .f32) (a1 : IVec ⟨1, ![2048]⟩ 32)
  (a2 : FVec Ideal ⟨2, ![50000, 512]⟩ .f32)

/-- The log-probability of the label is a real. -/
theorem Lp_real (r : Fin 2048) : ∃ x : ℝ, Lp a0 a1 a2 r = (x : EReal) := by
  obtain ⟨a', ha'⟩ := logit_real a0 a1 a2 r (lbl a1 r)
  obtain ⟨Mr, hMr⟩ := M_real a0 a1 a2 r
  choose b hb using logit_real a0 a1 a2 r
  have hS : 0 < ∑ j, Real.exp (b j - Mr) :=
    Finset.sum_pos (fun j _ => Real.exp_pos _) Finset.univ_nonempty
  have hsum : ∑ j, Ideal.exp (logit a0 a1 a2 r j - (Mr : EReal))
      = ((∑ j, Real.exp (b j - Mr) : ℝ) : EReal) := by
    rw [coe_finset_sum]
    exact Finset.sum_congr rfl fun j _ => by rw [hb j, exp_coe_sub_coe]
  unfold Lp
  rw [hMr, hsum, zero_add, ha', log_coe_pos hS, ← EReal.coe_sub, ← EReal.coe_sub]
  exact ⟨_, rfl⟩

/-- **Minus the mean of the log-probabilities is the mean of their negatives.** -/
theorem neg_mean_Lp :
    -(Ideal.div (0 + ∑ r : Fin 2048, Lp a0 a1 a2 r) (Ideal.ofBits .f32 0x45000000#32))
      = Ideal.div (0 + ∑ r : Fin 2048, -(Lp a0 a1 a2 r)) (Ideal.ofBits .f32 0x45000000#32) := by
  rw [lit_2048]
  exact neg_mean_of_real _ (Lp_real a0 a1 a2) (by norm_num)

end Cert.Alg
-- ==== Proof.KI.FinalSum.lean ====
import proofs.«420115_j17875653886477_3_alg».proof.Proof.KI.HostTail
import proofs.«420115_j17875653886477_3_alg».proof.Proof.RefValSpec
import proofs.«420115_j17875653886477_3_alg».proof.Proof.Alg.ArcMean
import Idealize.ShloMosaic.Lib.IdealHost
import Idealize.ShloMosaic.Lib.ValueIdx
import Idealize.ShloMosaic.PureOps.Ideal.Laws
import Mathlib.Algebra.BigOperators.Fin

/-!
# The final scalar

The mean of a column of 2048 is its sum from zero divided by 2048; the result is the weighted sum
`1 · mean T + 0.1 · mean C + 0.1 · mean A` of three such means.  With the per-row terms `T`, the
centre mean, and the per-row classification terms `A r = -Lp r`, it is the loss of the row
formulas: minus the mean of the log-probabilities is the mean of their negatives.
-/

namespace Cert.KernelIdeal.ValHand

open Cert.KernelIdeal Cert.KernelIdeal.Gen
open Idealize.ShloMosaic Idealize.ShloMosaic.ValueIdx
open Cert.ReferenceIdeal Cert.ReferenceIdeal.RefHand
open scoped BigOperators

theorem lit_zero : Ideal.ofBits .f32 0x00000000#32 = 0 := by simp [Ideal.ofBits, Ideal.ieee]

/-- The mean of a column, at its one index: the sum from zero over the 2048 rows, divided by 2048. -/
theorem meanCol_apply (t : Vec Ideal S2048x1 .f32) :
    meanCol t ix0
      = Ideal.div (0 + ∑ r : Fin 2048, t (ix2 r 0)) (Ideal.ofBits .f32 0x45000000#32) := by
  change Ideal.div (Ideal.hostReduceAdd reducesTo_S2048x1_S_d0_1 t (Ideal.ofBits .f32 0x00000000#32) ix0)
      (Ideal.ofBits .f32 0x45000000#32) = _
  rw [Ideal.hostReduceAdd_total reducesTo_S2048x1_S_d0_1 (fun b => b.elim0), lit_zero, sum_idx2]
  congr 2
  exact Finset.sum_congr rfl fun r _ => Fin.sum_univ_one _

/-- The weighted sum, at its one index. -/
theorem total_apply (tm cl am : Vec Ideal S_ .f32) :
    total tm cl am ix0
      = (Ideal.ofBits .f32 0x3F800000#32 * tm ix0 + Ideal.ofBits .f32 0x3DCCCCCD#32 * cl ix0)
          + Ideal.ofBits .f32 0x3DCCCCCD#32 * am ix0 := rfl

/-- **The final scalar is the loss of the row formulas.** -/
theorem total_eq_loss (a0 : FVec Ideal ⟨2, ![2048, 512]⟩ .f32) (a1 : IVec ⟨1, ![2048]⟩ 32)
    (a2 a3 : FVec Ideal ⟨2, ![50000, 512]⟩ .f32)
    (t7 ar : Vec Ideal S2048x1 .f32) (cl : Vec Ideal S_ .f32)
    (hT : ∀ r : Fin 2048, t7 (ix2 r 0) = T a0 a1 r)
    (hC : cl ix0 = Ideal.div (0 + ∑ r : Fin 2048, C a0 a1 a3 r) (Ideal.ofBits .f32 0x45000000#32))
    (hA : ∀ r : Fin 2048, ar (ix2 r 0) = -(Lp a0 a1 a2 r)) :
    total (meanCol t7) cl (meanCol ar) ix0 = loss a0 a1 a2 a3 := by
  rw [total_apply, meanCol_apply, meanCol_apply, hC,
    Finset.sum_congr rfl (fun r _ => hT r), Finset.sum_congr rfl (fun r _ => hA r),
    ← Cert.Alg.neg_mean_Lp]
  rfl

end Cert.KernelIdeal.ValHand
-- ==== Proof.KI.CenterK.lean ====
import proofs.«420115_j17875653886477_3_alg».proof.Proof.KI.HostTail
import proofs.«420115_j17875653886477_3_alg».proof.Proof.RefValSpec
import proofs.«420115_j17875653886477_3_alg».proof.Proof.RefValGather
import Idealize.ShloMosaic.Lib.Pipeline.Value
import Idealize.ShloMosaic.Lib.ValueIdx
import Idealize.ShloMosaic.PureOps.Ideal.Laws

/-!
  The centre loss of the kernel program, read as rows at the extended reals.

  For each of the 2048 anchors the program picks the centre of the anchor's label out of the table of 50000 centres,
  subtracts it from the embedding, squares, and sums over the 512 coordinates from zero; these row terms are summed from
  zero and divided by 2048. A label that is a class index is not negative, so the "add 50000 to a negative label" step
  keeps it, and the row term is the squared distance of the embedding to its label's centre.
-/

noncomputable section

open scoped BigOperators

namespace Cert.KernelIdeal.ValHand

open Cert.KernelIdeal Cert.KernelIdeal.Gen Idealize.ShloMosaic Idealize.ShloMosaic.ValueIdx
open Cert.ReferenceIdeal.RefHand (lbl rowDims gather_rows_apply sum_idx1)

/-! ## The label of a row as the kernel program computes it -/

/-- A word that reads as a non-negative integer is not below zero. -/
theorem cmpi_slt_zero_eq (w : BitVec 32) (h : 0 ≤ w.toInt) : IntOp.cmpi .slt w 0#32 = 0#1 := by
  have hz : (0#32 : BitVec 32).toInt = 0 := by decide
  have hs : w.slt 0#32 = false := decide_eq_false (by rw [hz]; omega)
  show BitVec.ofBool (w.slt 0#32) = 0#1
  rw [hs]
  rfl

/-- The class-table row of anchor `r`: a negative label would have 50000 added; a non-negative one is kept. -/
theorem labelIdx_row (y : Vec Ideal S2048 .i32) (r : Fin 2048) (h0 : 0 ≤ (y (ix1 r)).toInt) :
    labelIdx (F := Ideal) y (ix2 r (0 : Fin 1)) = y (ix1 r) := by
  unfold labelIdx
  rw [broadcastInDim_apply _ _ _ (ix2 r (0 : Fin 1)) (ix1 r) (fun a => by match a with | ⟨0, _⟩ => rfl)]
  show Scalar.select (IntOp.cmpi .slt (y (ix1 r)) 0#32) _ (y (ix1 r)) = y (ix1 r)
  rw [cmpi_slt_zero_eq _ h0, select_zero]

/-- The centre subtracted from anchor `r` at coordinate `k`: the centre of the anchor's label, the label clamped to the
    table as the row selection clamps it. -/
theorem centreOf_row (y : Vec Ideal S2048 .i32) (ctr : Vec Ideal S50000x512 .f32) (r : Fin 2048) (k : Fin 512)
    (h0 : 0 ≤ (y (ix1 r)).toInt) :
    Host.gather gather_S50000x512_S2048x1_S2048x512_1_0_n_n_0_1_1512 ctr (labelIdx (F := Ideal) y) (ix2 r k) = ctr (ix2 (lbl y r) k) := by
  have hrec : gather_S50000x512_S2048x1_S2048x512_1_0_n_n_0_1_1512 = rowDims 50000 512 2048 Facts₀.gather_S50000x512_S2048x1_S2048x512_1_0_n_n_0_1_1512_wf := rfl
  have hrow : (⟨min (labelIdx (F := Ideal) y (ix2 r (0 : Fin 1))).toInt.toNat (50000 - 1), by omega⟩ : Fin 50000) = lbl y r :=
    Fin.ext (by
      show min (labelIdx (F := Ideal) y (ix2 r (0 : Fin 1))).toInt.toNat (50000 - 1) = min (y (ix1 r)).toInt.toNat (50000 - 1)
      rw [labelIdx_row y r h0])
  rw [hrec, gather_rows_apply (by decide), hrow]

/-! ## The two sums -/

/-- The sum along a row of a 2048 × 512 matrix, from zero. -/
theorem rowSum_apply (v : FVec Ideal S2048x512 .f32) (r : Fin 2048) :
    Host.reduceAdd v (constant (F := Ideal) S_ .f32 0x00000000#32) reducesTo_S2048x512_S2048_d1 h_S_ (ix1 r)
      = 0 + ∑ k : Fin 512, v (ix2 r k) := by
  simp only [Host.reduceAdd, Ideal.hostReduceAdd_def]
  rw [Ideal.hostReduceAdd_single reducesTo_S2048x512_S2048_d1 (by decide), constant_apply, Ideal.ofBits_zero_f32]
  refine congrArg (0 + ·) (Finset.sum_congr rfl fun k _ => ?_)
  exact congrArg v (funext fun a => Fin.ext (by match a with | ⟨0, _⟩ => rfl | ⟨1, _⟩ => rfl))

/-- The sum of a vector of 2048 entries, from zero. -/
theorem colSum_apply (v : FVec Ideal S2048 .f32) :
    Host.reduceAdd v (constant (F := Ideal) S_ .f32 0x00000000#32) reducesTo_S2048_S_d0 h_S_ ix0
      = 0 + ∑ r : Fin 2048, v (ix1 r) := by
  simp only [Host.reduceAdd, Ideal.hostReduceAdd_def]
  rw [Ideal.hostReduceAdd_total reducesTo_S2048_S_d0 (fun b => b.elim0), constant_apply, Ideal.ofBits_zero_f32]
  exact congrArg (0 + ·) (sum_idx1 v)

/-! ## The centre loss -/

/-- The centre loss of the kernel program is the mean over the 2048 anchors of the squared distance of each embedding to
    the centre of its label: the sum of the row terms from zero, divided by 2048. -/
theorem centerLoss_apply (x : Vec Ideal S2048x512 .f32) (y : Vec Ideal S2048 .i32) (ctr : Vec Ideal S50000x512 .f32)
    (hlab : ∀ r : Fin 2048, 0 ≤ (y (ix1 r)).toInt) :
    centerLoss (F := Ideal) x y ctr ix0
      = Ideal.div (0 + ∑ r : Fin 2048, Cert.ReferenceIdeal.RefHand.C x y ctr r) (Ideal.ofBits .f32 0x45000000#32) := by
  unfold centerLoss
  show Ideal.div (Host.reduceAdd _ (constant (F := Ideal) S_ .f32 0x00000000#32) reducesTo_S2048_S_d0 h_S_ ix0)
      (Ideal.ofBits .f32 0x45000000#32) = _
  rw [colSum_apply]
  refine congrArg (fun s => Ideal.div (0 + s) (Ideal.ofBits .f32 0x45000000#32)) (Finset.sum_congr rfl fun r _ => ?_)
  rw [rowSum_apply]
  unfold Cert.ReferenceIdeal.RefHand.C
  refine congrArg (0 + ·) (Finset.sum_congr rfl fun k _ => ?_)
  rw [mulf_apply, subf_apply, centreOf_row y ctr r k (hlab r)]

end Cert.KernelIdeal.ValHand
-- ==== Proof.KI.ArcTailRow.lean ====
import proofs.«420115_j17875653886477_3_alg».proof.Proof.KI.Host3
import proofs.«420115_j17875653886477_3_alg».proof.Proof.RefValSpec
import proofs.«420115_j17875653886477_3_alg».proof.Proof.RefValGather
import Idealize.ShloMosaic.Lib.IdealHost
import Idealize.ShloMosaic.Lib.Pipeline.Value

/-! # The label-margin tail, row by row, over the extended reals

After the classification call the program corrects, per row, the log-sum-exp of the plain logits for
the angular margin on the label's class. This module reads that correction at one row: with `s` the
row's clipped cosine between the unit-length embedding and its label's unit-length class weight,
`mx` the running maximum and `l` the running sum the call left,
`mx + log (l + exp (marg − mx) − exp (30·s − mx)) − marg`, `marg = 30·(s·cos m − √(max (1 − s²) 0 + ε)·sin m)`;
and it reads the clipped cosine itself as the clip of `∑ₖ x̂[r,k] · ŵ[label r, k]`, the rows of the
embeddings and of the class weights divided by their Euclidean lengths. -/

set_option maxRecDepth 16384

noncomputable section

open scoped BigOperators

namespace Cert.KernelIdeal.ValHand

open Cert.KernelIdeal Cert.KernelIdeal.Gen
open Idealize.ShloMosaic Idealize.ShloMosaic.ValueIdx
open Cert.ReferenceIdeal

/-! ## Host operations at an index -/

private theorem hostSqrt_apply {s : Shape} {φ : FTy} (a : FVec Ideal s φ) (i : s.Idx) : Host.sqrt a i = Ideal.sqrt (a i) := rfl
private theorem hostExp_apply {s : Shape} {φ : FTy} (a : FVec Ideal s φ) (i : s.Idx) : Host.exp a i = Ideal.exp (a i) := rfl
private theorem hostLog_apply {s : Shape} {φ : FTy} (a : FVec Ideal s φ) (i : s.Idx) : Host.log a i = Ideal.log (a i) := rfl

/-- A scalar word as a column reads the word's value in every row. -/
private theorem colConst_apply (b : BitVec 32) (j : S2048x1.Idx) :
    col (F := Ideal) (constant (F := Ideal) S_ .f32 b) j = (Ideal.ofBits .f32 b : EReal) := rfl

/-! ## The margin correction at a row -/

/-- The label's logit with the angular margin, from its cosine `s`: 30·(s·cos m − √(max (1 − s²) 0 + ε)·sin m). -/
def marginAt (s : EReal) : EReal :=
  Ideal.ofBits .f32 0x41F00000#32 *
    (s * Ideal.ofBits .f32 0x3F60A940#32
      - Ideal.sqrt (max (Ideal.ofBits .f32 0x3F800000#32 - s * s) 0 + Ideal.ofBits .f32 0x33D6BF95#32)
          * Ideal.ofBits .f32 0x3EF57744#32)

theorem plainLogit_at (cs : Vec Ideal S2048x1 .f32) (j : S2048x1.Idx) :
    plainLogit cs j = Ideal.ofBits .f32 0x41F00000#32 * cs j := rfl

theorem marginLogit_at (cs : Vec Ideal S2048x1 .f32) (j : S2048x1.Idx) :
    marginLogit cs j = marginAt (cs j) := by
  unfold marginLogit sineOf marginAt
  simp only [mulf_apply, subf_apply, addf_apply, maximumf_apply, hostSqrt_apply, colConst_apply, Ideal.ofBits_zero_f32]

/-- **The margin correction of one row.** -/
theorem arcRows_at (cs mx l : Vec Ideal S2048x1 .f32) (j : S2048x1.Idx) :
    arcRows cs mx l j
      = (mx j + Ideal.log ((l j + Ideal.exp (marginAt (cs j) - mx j))
            - Ideal.exp (Ideal.ofBits .f32 0x41F00000#32 * cs j - mx j))) - marginAt (cs j) := by
  unfold arcRows
  simp only [subf_apply, addf_apply, hostLog_apply, hostExp_apply, marginLogit_at, plainLogit_at]

/-! ## The rows divided by their lengths -/

private theorem red2048 : S2048x512.Reduces [1] S2048 := by decide
private theorem red50000 : S50000x512.Reduces [1] S50000 := by decide

private theorem lift2048 (r : Fin 2048) (k : Fin 512) : red2048.lift (ix1 r) k = ix2 r k :=
  funext fun a => Fin.ext (by match a with | ⟨0, _⟩ => rfl | ⟨1, _⟩ => rfl)
private theorem lift50000 (r : Fin 50000) (k : Fin 512) : red50000.lift (ix1 r) k = ix2 r k :=
  funext fun a => Fin.ext (by match a with | ⟨0, _⟩ => rfl | ⟨1, _⟩ => rfl)

/-- The Euclidean length of row `r` of the embeddings. -/
theorem rowLenX_apply (x : Vec Ideal S2048x512 .f32) (r : Fin 2048) :
    rowLenX x (ix2 r (0 : Fin 1)) = Ideal.sqrt (0 + ∑ k : Fin 512, x (ix2 r k) * x (ix2 r k)) := by
  unfold rowLenX
  rw [hostSqrt_apply,
    broadcastInDim_apply ![0] bcast_S2048_S2048x1_0 _ (ix2 r (0 : Fin 1)) (ix1 r) (fun a => by match a with | ⟨0, _⟩ => rfl),
    hostReduceAdd_apply, Ideal.hostReduceAdd_single reducesTo_S2048x512_S2048_d1 red2048]
  show Ideal.sqrt (Ideal.ofBits .f32 0x00000000#32 + ∑ k : Fin 512, (mulf (F := Ideal) x x (red2048.lift (ix1 r) k) : EReal)) = _
  simp only [lift2048, mulf_apply, Ideal.ofBits_zero_f32]

/-- The Euclidean length of row `j` of the class weights. -/
theorem rowLenW_apply (w : Vec Ideal S50000x512 .f32) (j : Fin 50000) :
    rowLenW w (ix2 j (0 : Fin 1)) = Ideal.sqrt (0 + ∑ k : Fin 512, w (ix2 j k) * w (ix2 j k)) := by
  unfold rowLenW
  rw [hostSqrt_apply,
    broadcastInDim_apply ![0] bcast_S50000_S50000x1_0 _ (ix2 j (0 : Fin 1)) (ix1 j) (fun a => by match a with | ⟨0, _⟩ => rfl),
    hostReduceAdd_apply, Ideal.hostReduceAdd_single reducesTo_S50000x512_S50000_d1 red50000]
  show Ideal.sqrt (Ideal.ofBits .f32 0x00000000#32 + ∑ k : Fin 512, (mulf (F := Ideal) w w (red50000.lift (ix1 j) k) : EReal)) = _
  simp only [lift50000, mulf_apply, Ideal.ofBits_zero_f32]

/-- The unit-length embeddings, entry by entry. -/
theorem fn_apply (x : Vec Ideal S2048x512 .f32) (r : Fin 2048) (k : Fin 512) :
    fn x (ix2 r k) = RefHand.fn x (ix2 r k) := by
  unfold fn divRowsX RefHand.fn
  rw [hostDivf_apply,
    broadcastInDim_apply ![0, 1] bcast_S2048x1_S2048x512_0_1 _ (ix2 r k) (ix2 r (0 : Fin 1))
      (fun a => by match a with | ⟨0, _⟩ => rfl | ⟨1, _⟩ => rfl),
    rowLenX_apply]

/-- The unit-length class weights, entry by entry. -/
theorem wn_apply (w : Vec Ideal S50000x512 .f32) (j : Fin 50000) (k : Fin 512) :
    wn w (ix2 j k) = RefHand.wn w (ix2 j k) := by
  unfold wn divRowsW RefHand.wn
  rw [hostDivf_apply,
    broadcastInDim_apply ![0, 1] bcast_S50000x1_S50000x512_0_1 _ (ix2 j k) (ix2 j (0 : Fin 1))
      (fun a => by match a with | ⟨0, _⟩ => rfl | ⟨1, _⟩ => rfl),
    rowLenW_apply]

/-! ## The label's row of the class table -/

/-- A word that reads as a signed integer that is not negative is not below zero. -/
private theorem slt_zero_of_nonneg (x : BitVec 32) (h : 0 ≤ x.toInt) : IntOp.cmpi .slt x 0#32 = 0#1 := by
  have hz : (0#32 : BitVec 32).toInt = 0 := by decide
  have hs : x.slt 0#32 = false := decide_eq_false (by omega)
  show BitVec.ofBool (x.slt 0#32) = 0#1
  rw [hs]; rfl

/-- The label of row `r` as a row of the class table: the label itself where it is not negative. -/
theorem labelIdx_apply (y : Vec Ideal S2048 .i32) (r : Fin 2048) (h0 : 0 ≤ (y (ix1 r)).toInt) :
    labelIdx (F := Ideal) y (ix2 r (0 : Fin 1)) = y (ix1 r) := by
  unfold labelIdx
  rw [broadcastInDim_apply ![0] bcast_S2048_S2048x1_0 _ (ix2 r (0 : Fin 1)) (ix1 r) (fun a => by match a with | ⟨0, _⟩ => rfl),
    select_apply]
  show Scalar.select (IntOp.cmpi .slt (y (ix1 r)) 0#32) _ _ = _
  rw [slt_zero_of_nonneg _ h0, select_zero]

/-- The gathered row `r` of any table of 50000 rows is the row of `r`'s label. -/
theorem gather_label_entry {α : Type} (tbl : S50000x512.Idx → α) (y : Vec Ideal S2048 .i32) (r : Fin 2048) (k : Fin 512)
    (h0 : 0 ≤ (y (ix1 r)).toInt) :
    Host.gather gather_S50000x512_S2048x1_S2048x512_1_0_n_n_0_1_1512 tbl (labelIdx (F := Ideal) y) (ix2 r k)
      = tbl (ix2 (RefHand.lbl y r) k) := by
  have hd : gather_S50000x512_S2048x1_S2048x512_1_0_n_n_0_1_1512
      = RefHand.rowDims 50000 512 2048 Facts₀.gather_S50000x512_S2048x1_S2048x512_1_0_n_n_0_1_1512_wf := rfl
  rw [hd, RefHand.gather_rows_apply (by decide)]
  exact congrArg tbl (congrArg (fun q : Fin 50000 => ix2 q k) (Fin.ext (by
    show min (labelIdx (F := Ideal) y (ix2 r (0 : Fin 1))).toInt.toNat (50000 - 1) = min (y (ix1 r)).toInt.toNat (50000 - 1)
    rw [labelIdx_apply y r h0])))

/-! ## The clipped cosine of a row with its label's class -/

/-- Row `r`: the inner product of the unit-length embedding with its label's unit-length class weight. -/
theorem targetCosOf_apply (x : Vec Ideal S2048x512 .f32) (y : Vec Ideal S2048 .i32) (w : Vec Ideal S50000x512 .f32)
    (r : Fin 2048) (h0 : 0 ≤ (y (ix1 r)).toInt) :
    targetCosOf y (truncf .bf16 (fn x) bitsLt_bf16_f32) (truncf .bf16 (wn w) bitsLt_bf16_f32) (ix2 r (0 : Fin 1))
      = ∑ k : Fin 512, RefHand.fn x (ix2 r k) * RefHand.wn w (ix2 (RefHand.lbl y r) k) := by
  unfold targetCosOf
  rw [broadcastInDim_apply ![0] bcast_S2048_S2048x1_0 _ (ix2 r (0 : Fin 1)) (ix1 r) (fun a => by match a with | ⟨0, _⟩ => rfl),
    hostReduceAdd_apply, Ideal.hostReduceAdd_single reducesTo_S2048x512_S2048_d1 red2048]
  show Ideal.ofBits .f32 0x00000000#32 + ∑ k : Fin 512,
      (mulf (F := Ideal) (extf .f32 (truncf .bf16 (fn x) bitsLt_bf16_f32) bitsLt_bf16_f32)
        (extf .f32 (Host.gather gather_S50000x512_S2048x1_S2048x512_1_0_n_n_0_1_1512 (truncf .bf16 (wn w) bitsLt_bf16_f32) (labelIdx y)) bitsLt_bf16_f32)
        (red2048.lift (ix1 r) k) : EReal) = _
  rw [Ideal.ofBits_zero_f32, zero_add]
  refine Finset.sum_congr rfl fun k _ => ?_
  rw [lift2048, mulf_apply, extf_apply, extf_apply, truncf_apply, fn_apply, gather_label_entry _ y r k h0, truncf_apply, wn_apply]

/-- **The clipped cosine of row `r`** is the reference's clipped cosine of row `r` with its label's class. -/
theorem clipCos_apply (x : Vec Ideal S2048x512 .f32) (y : Vec Ideal S2048 .i32) (w : Vec Ideal S50000x512 .f32)
    (r : Fin 2048) (h0 : 0 ≤ (y (ix1 r)).toInt) (h1 : (y (ix1 r)).toInt < 50000) :
    clipCos (F := Ideal) x y w (ix2 r (0 : Fin 1)) = RefHand.cos x w r (RefHand.lbl y r) := by
  unfold clipCos targetCos clipBetween RefHand.cos
  rw [minimumf_apply, maximumf_apply, colConst_apply, colConst_apply, targetCosOf_apply x y w r h0]

/-- The row's margin correction with the clipped cosine in place. -/
theorem arcRows_clipCos_at (x : Vec Ideal S2048x512 .f32) (y : Vec Ideal S2048 .i32) (w : Vec Ideal S50000x512 .f32)
    (mx l : Vec Ideal S2048x1 .f32) (r : Fin 2048) (h0 : 0 ≤ (y (ix1 r)).toInt) (h1 : (y (ix1 r)).toInt < 50000) :
    arcRows (clipCos (F := Ideal) x y w) mx l (ix2 r (0 : Fin 1))
      = (mx (ix2 r (0 : Fin 1))
          + Ideal.log ((l (ix2 r (0 : Fin 1)) + Ideal.exp (marginAt (RefHand.cos x w r (RefHand.lbl y r)) - mx (ix2 r (0 : Fin 1))))
              - Ideal.exp (Ideal.ofBits .f32 0x41F00000#32 * RefHand.cos x w r (RefHand.lbl y r) - mx (ix2 r (0 : Fin 1)))))
        - marginAt (RefHand.cos x w r (RefHand.lbl y r)) := by
  rw [arcRows_at, clipCos_apply x y w r h0 h1]

end Cert.KernelIdeal.ValHand

end
-- ==== Proof.KI.Arr1.lean ====
import proofs.«420115_j17875653886477_3_alg».proof.Proof.KI.R1
import proofs.«420115_j17875653886477_3_alg».proof.Proof.Alg.OnlineLSE
import Idealize.ShloMosaic.Lib.Pipeline.Value
import Idealize.ShloMosaic.Lib.ValueIdx

/-! # The online log-sum-exp kernel: from the blocks to the arrays

The grid has two row halves of 1024 rows and, within each, 49 class tiles of 1024 classes; point
`t` is class tile `t % 49` of row half `t / 49`. This module reads the blocks of the two operands
at explicit coordinates (the feature block is rows `(t / 49) · 1024 …` of the feature array, the
weight block rows `(t % 49) · 1024 …` of the padded weight array), shows that the two result
arrays (running maximum, running sum) end holding, in row `r`, what the accumulators hold after
the LAST class tile of row half `r / 1024` in row `r % 1024`, and unrolls the accumulation within a
row half: position `s` is `s + 1` steps from the reset pair, which row by row is the online
log-sum-exp run over the tiles' logits once one step is known to be one step of that run. -/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F] [Named F]

-- the TensorCore's buffer contents when the region is entered
variable (V : (c : Dev nD) → (b : Ref sig .tc) → Buf (Elt F) ((c : Thread nD τ).loc b))

/-! ## The grid's arithmetic -/

/-- The grid has 98 points. -/
theorem point_lt (t : Fin cfg1.N) : t.val < 98 := lt_of_lt_of_eq t.isLt (show cfg1.N = 98 from N_1)

/-- The last class tile of the row half holding row `r` is a point of the grid. -/
theorem lastTile_lt (r : ℕ) (hr : r < 2048) : r / 1024 * 49 + 48 < cfg1.N :=
  lt_of_lt_of_eq (by omega : r / 1024 * 49 + 48 < 98) (show cfg1.N = 98 from N_1).symm

/-- Class tile `s` of row half `b` is a point of the grid. -/
theorem tile_lt (b s : ℕ) (hb : b < 2) (hs : s < 49) : b * 49 + s < cfg1.N :=
  lt_of_lt_of_eq (by omega : b * 49 + s < 98) (show cfg1.N = 98 from N_1).symm

/-- The windows' block indices, decided over the grid: the feature block and the two result blocks
    move with the row half, the weight block with the class tile; no window moves along its columns. -/
theorem blockIdx1 : ∀ t : Fin cfg1.N,
    win1_0.index t (0 : Fin 2) = t.val / 49 ∧ win1_0.index t (1 : Fin 2) = 0
    ∧ win1_1.index t (0 : Fin 2) = t.val % 49 ∧ win1_1.index t (1 : Fin 2) = 0
    ∧ win1_2.index t (0 : Fin 2) = t.val / 49 ∧ win1_2.index t (1 : Fin 2) = 0
    ∧ win1_3.index t (0 : Fin 2) = t.val / 49 ∧ win1_3.index t (1 : Fin 2) = 0 :=
  (by decide +kernel : ∀ t : Fin grid1.N, _)

/-! ## The operand blocks at explicit coordinates -/

/-- The feature array and the padded weight array as the region finds them, at their literal shapes. -/
abbrev featArr (c : Dev nD) : Vec F S2048x512 .bf16 := V c main_v25
abbrev wgtArr (c : Dev nD) : Vec F S50176x512 .bf16 := V c main_v30

/-- Row `p` of the feature block at point `t` is row `(t / 49) · 1024 + p` of the feature array. -/
theorem iblk1_0_apply (c : Dev nD) (t : Fin cfg1.N) (p : Fin 1024) (k : Fin 512) :
    iblk1 V c 0 t (ix2 p k)
      = featArr V c (ix2 (⟨t.val / 49 * 1024 + p.val, by have := point_lt t; omega⟩ : Fin 2048) k) := by
  obtain ⟨e0, e1, -⟩ := blockIdx1 t
  unfold iblk1
  rw [View.read_apply]
  show V c main_v25 _ = V c main_v25 _
  congr 1
  funext a
  apply Fin.ext
  match a with
  | ⟨0, _⟩ => show win1_0.index t (0 : Fin 2) * 1024 + 1 * p.val = t.val / 49 * 1024 + p.val; rw [e0]; omega
  | ⟨1, _⟩ => show win1_0.index t (1 : Fin 2) * 512 + 1 * k.val = k.val; rw [e1]; omega

/-- Row `q` of the weight block at point `t` is row `(t % 49) · 1024 + q` of the padded weight array. -/
theorem iblk1_1_apply (c : Dev nD) (t : Fin cfg1.N) (q : Fin 1024) (k : Fin 512) :
    iblk1 V c 1 t (ix2 q k)
      = wgtArr V c (ix2 (⟨t.val % 49 * 1024 + q.val, by omega⟩ : Fin 50176) k) := by
  obtain ⟨-, -, e0, e1, -⟩ := blockIdx1 t
  unfold iblk1
  rw [View.read_apply]
  show V c main_v30 _ = V c main_v30 _
  congr 1
  funext a
  apply Fin.ext
  match a with
  | ⟨0, _⟩ => show win1_1.index t (0 : Fin 2) * 1024 + 1 * q.val = t.val % 49 * 1024 + q.val; rw [e0]; omega
  | ⟨1, _⟩ => show win1_1.index t (1 : Fin 2) * 512 + 1 * k.val = k.val; rw [e1]; omega

/-! ## The two result arrays -/

/-- Reading the accumulators at equal positions and equal indices. -/
theorem scAt1_read_congr (c : Dev nD) {n n' : ℕ} (h : n < cfg1.N) (h' : n' < cfg1.N) (hn : n = n')
    {x x' : S1024x1.Idx} (hx : x = x') :
    (scAt1 V c n h).1 x = (scAt1 V c n' h').1 x' ∧ (scAt1 V c n h).2 x = (scAt1 V c n' h').2 x' := by
  subst hn; subst hx; exact ⟨rfl, rfl⟩

/-- What the running-maximum array ends holding: in row `r`, the running maximum after the last class
    tile of row half `r / 1024`, in row `r % 1024`. -/
def maxArr (c : Dev nD) : Vec F S2048x1 .f32 := fun i =>
  (scAt1 V c ((i 0).val / 1024 * 49 + 48) (lastTile_lt _ (idx2_lt0 i))).1
    (ix2 (⟨(i 0).val % 1024, Nat.mod_lt _ (by decide)⟩ : Fin 1024) (i 1))

/-- What the running-sum array ends holding: the same of the running sum. -/
def sumArr (c : Dev nD) : Vec F S2048x1 .f32 := fun i =>
  (scAt1 V c ((i 0).val / 1024 * 49 + 48) (lastTile_lt _ (idx2_lt0 i))).2
    (ix2 (⟨(i 0).val % 1024, Nat.mod_lt _ (by decide)⟩ : Fin 1024) (i 1))

/-- `maxArr` and `sumArr` at an index that sits at block index `x` of the block a last-tile point `n` writes. -/
theorem resArr_apply_of (c : Dev nD) (i : S2048x1.Idx) (n : ℕ) (hn : n < cfg1.N) (h48 : n % 49 = 48) (x : S1024x1.Idx)
    (h0 : (i 0).val = n / 49 * 1024 + (x 0).val) (h1 : (i 1).val = (x 1).val) :
    maxArr V c i = (scAt1 V c n hn).1 x ∧ sumArr V c i = (scAt1 V c n hn).2 x := by
  have hx0 : (x 0).val < 1024 := idx2_lt0 x
  unfold maxArr sumArr
  refine scAt1_read_congr V c _ _ (by omega) (funext fun a => Fin.ext ?_)
  match a with
  | ⟨0, _⟩ => show (i 0).val % 1024 = (x 0).val; omega
  | ⟨1, _⟩ => exact h1

/-- WHAT A LAST-TILE POINT WRITES BACK into the running-maximum array is its block of `maxArr`. -/
theorem flushed1_2_eq (c : Dev nD) (t : Fin cfg1.N) (hf : (cfg1.win 2).flush t = true) :
    (dat1 V c).flushed 2 t = ((cfg1.win 2).blk t).view.read (Elt F) (maxArr V c) := by
  have h48 : t.val % 49 = 48 := (flush1_2 t).mp hf
  obtain ⟨-, -, -, -, e0, e1, -⟩ := blockIdx1 t
  show (cfg1.win 2).cut (grid1.coords t) ((dat1 V c).after 2 t) = _
  rw [after1_2]
  funext j
  rw [View.read_apply]
  refine (resArr_apply_of V c _ t.val t.isLt h48 j ?_ ?_).1.symm
  · show win1_2.index t (0 : Fin 2) * 1024 + 1 * (j 0).val = t.val / 49 * 1024 + (j 0).val; rw [e0]; omega
  · show win1_2.index t (1 : Fin 2) * 1 + 1 * (j 1).val = (j 1).val; rw [e1]; omega

/-- The same for the running-sum array. -/
theorem flushed1_3_eq (c : Dev nD) (t : Fin cfg1.N) (hf : (cfg1.win 3).flush t = true) :
    (dat1 V c).flushed 3 t = ((cfg1.win 3).blk t).view.read (Elt F) (sumArr V c) := by
  have h48 : t.val % 49 = 48 := (flush1_3 t).mp hf
  obtain ⟨-, -, -, -, -, -, e0, e1⟩ := blockIdx1 t
  show (cfg1.win 3).cut (grid1.coords t) ((dat1 V c).after 3 t) = _
  rw [after1_3]
  funext j
  rw [View.read_apply]
  refine (resArr_apply_of V c _ t.val t.isLt h48 j ?_ ?_).2.symm
  · show win1_3.index t (0 : Fin 2) * 1024 + 1 * (j 0).val = t.val / 49 * 1024 + (j 0).val; rw [e0]; omega
  · show win1_3.index t (1 : Fin 2) * 1 + 1 * (j 1).val = (j 1).val; rw [e1]; omega

/-- The point that writes row `r` back: the last class tile of row half `r / 1024`. -/
def lastTile (i : S2048x1.Idx) : Fin cfg1.N := ⟨(i 0).val / 1024 * 49 + 48, lastTile_lt _ (idx2_lt0 i)⟩

theorem lastTile_mod (i : S2048x1.Idx) : (lastTile i).val % 49 = 48 := by
  show ((i 0).val / 1024 * 49 + 48) % 49 = 48; omega

/-- The two blocks of 1024 rows the last-tile points write tile the 2048 rows of the running-maximum array, -/
theorem cover1_2 (i : S2048x1.Idx) :
    ∃ t : Fin cfg1.N, (cfg1.win 2).flush t = true ∧ i ∈ ((cfg1.win 2).blk t).view.set := by
  have hi0 : (i 0).val < 2048 := idx2_lt0 i
  have hi1 : (i 1).val < 1 := idx2_lt1 i
  refine ⟨lastTile i, (flush1_2 _).mpr (lastTile_mod i), ?_⟩
  obtain ⟨-, -, -, -, e0, e1, -⟩ := blockIdx1 (lastTile i)
  have ev : (lastTile i).val = (i 0).val / 1024 * 49 + 48 := rfl
  show i ∈ ((View.whole main_v31_0).slice (win1_2.rect (lastTile i))).set
  rw [View.set_slice_whole, Rect.mem_set_unit]
  intro a
  match a with
  | ⟨0, _⟩ =>
    show win1_2.index (lastTile i) (0 : Fin 2) * 1024 ≤ (i 0).val ∧ (i 0).val < win1_2.index (lastTile i) (0 : Fin 2) * 1024 + 1024
    rw [e0, ev]; omega
  | ⟨1, _⟩ =>
    show win1_2.index (lastTile i) (1 : Fin 2) * 1 ≤ (i 1).val ∧ (i 1).val < win1_2.index (lastTile i) (1 : Fin 2) * 1 + 1
    rw [e1]; omega

/-- and of the running-sum array. -/
theorem cover1_3 (i : S2048x1.Idx) :
    ∃ t : Fin cfg1.N, (cfg1.win 3).flush t = true ∧ i ∈ ((cfg1.win 3).blk t).view.set := by
  have hi0 : (i 0).val < 2048 := idx2_lt0 i
  have hi1 : (i 1).val < 1 := idx2_lt1 i
  refine ⟨lastTile i, (flush1_3 _).mpr (lastTile_mod i), ?_⟩
  obtain ⟨-, -, -, -, -, -, e0, e1⟩ := blockIdx1 (lastTile i)
  have ev : (lastTile i).val = (i 0).val / 1024 * 49 + 48 := rfl
  show i ∈ ((View.whole main_v31_1).slice (win1_3.rect (lastTile i))).set
  rw [View.set_slice_whole, Rect.mem_set_unit]
  intro a
  match a with
  | ⟨0, _⟩ =>
    show win1_3.index (lastTile i) (0 : Fin 2) * 1024 ≤ (i 0).val ∧ (i 0).val < win1_3.index (lastTile i) (0 : Fin 2) * 1024 + 1024
    rw [e0, ev]; omega
  | ⟨1, _⟩ =>
    show win1_3.index (lastTile i) (1 : Fin 2) * 1 ≤ (i 1).val ∧ (i 1).val < win1_3.index (lastTile i) (1 : Fin 2) * 1 + 1
    rw [e1]; omega

/-- THE RUNNING-MAXIMUM ARRAY after the region. -/
theorem arrAt1_2 (c : Dev nD) : (dat1 V c).arrAt 2 cfg1.N = maxArr V c :=
  (dat1 V c).arrAt_eq_of_cover 2 (maxArr V c) (flushed1_2_eq V c) cover1_2

/-- THE RUNNING-SUM ARRAY after the region. -/
theorem arrAt1_3 (c : Dev nD) : (dat1 V c).arrAt 3 cfg1.N = sumArr V c :=
  (dat1 V c).arrAt_eq_of_cover 3 (sumArr V c) (flushed1_3_eq V c) cover1_3

/-- Row `r` of the running-maximum array: the running maximum after the last class tile of row half
    `r / 1024`, in row `r % 1024`. -/
theorem arr1_2 (c : Dev nD) (r : Fin 2048) :
    ((dat1 V c).arrAt 2 cfg1.N : Vec F S2048x1 .f32) (ix2 r (0 : Fin 1))
      = (scAt1 V c (r.val / 1024 * 49 + 48) (lastTile_lt r.val r.isLt)).1
          (ix2 (⟨r.val % 1024, Nat.mod_lt _ (by decide)⟩ : Fin 1024) (0 : Fin 1)) := by
  rw [arrAt1_2]; rfl

/-- Row `r` of the running-sum array. -/
theorem arr1_3 (c : Dev nD) (r : Fin 2048) :
    ((dat1 V c).arrAt 3 cfg1.N : Vec F S2048x1 .f32) (ix2 r (0 : Fin 1))
      = (scAt1 V c (r.val / 1024 * 49 + 48) (lastTile_lt r.val r.isLt)).2
          (ix2 (⟨r.val % 1024, Nat.mod_lt _ (by decide)⟩ : Fin 1024) (0 : Fin 1)) := by
  rw [arrAt1_3]; rfl

/-! ## The accumulation within a row half, unrolled -/

/-- On the first class tile of row half `b`: one step from the reset pair. -/
theorem scAt1_half_zero (c : Dev nD) (b : ℕ) (h : b * 49 < cfg1.N) :
    scAt1 V c (b * 49) h = step1 V c ⟨b * 49, h⟩ reset1 :=
  scAt1_first V c ⟨b * 49, h⟩ (Nat.mul_mod_left b 49)

/-- On class tile `s + 1` of row half `b`: one step from what class tile `s` left. -/
theorem scAt1_half_succ (c : Dev nD) (b s : ℕ) (hs : s + 1 < 49) (h : b * 49 + s + 1 < cfg1.N) :
    scAt1 V c (b * 49 + s + 1) h = step1 V c ⟨b * 49 + s + 1, h⟩ (scAt1 V c (b * 49 + s) (Nat.lt_of_succ_lt h)) :=
  (if_neg (by omega : ¬(b * 49 + s + 1) % 49 = 0)).trans rfl

end Cert.KernelIdeal.Hand

/-! ## Row by row: the online log-sum-exp run -/

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- Over the extended reals, in row `p` of row half `b`: if the reset pair is `(⊥, 0)` there and, at every
    class tile `s`, one step of the kernel on a pair that reads in row `p` as the run after `s` tiles is one step of
    the online log-sum-exp on the tile's logits `z s`, then after class tile `s` the accumulators read in row `p` as the
    run after `s + 1` tiles. -/
theorem scAt1_row_run (c : Dev nD) (b : ℕ) (p : Fin 1024) (z : ℕ → Fin 1024 → EReal)
    (hreset : ((k1_pay3 (F := Ideal) (ix2 p (0 : Fin 1)) : EReal), (k1_pay4 (F := Ideal) (ix2 p (0 : Fin 1)) : EReal)) = ((⊥ : EReal), (0 : EReal)))
    (hstep : ∀ (s : ℕ) (h : b * 49 + s < cfg1.N), s < 49 → ∀ (sm sl : Vec Ideal S1024x1 .f32),
      ((sm (ix2 p (0 : Fin 1)) : EReal), (sl (ix2 p (0 : Fin 1)) : EReal)) = Cert.Alg.lseRun z s →
      ((mNext (grid1.coords ⟨b * 49 + s, h⟩) (iblk1 V c 0 ⟨b * 49 + s, h⟩) (iblk1 V c 1 ⟨b * 49 + s, h⟩) sm (ix2 p (0 : Fin 1)) : EReal),
        (lNext (grid1.coords ⟨b * 49 + s, h⟩) (iblk1 V c 0 ⟨b * 49 + s, h⟩) (iblk1 V c 1 ⟨b * 49 + s, h⟩) sm sl (ix2 p (0 : Fin 1)) : EReal))
        = Cert.Alg.lseStep (Cert.Alg.lseRun z s) (z s)) :
    ∀ (s : ℕ) (_ : s < 49) (h : b * 49 + s < cfg1.N),
      (((scAt1 V c (b * 49 + s) h).1 (ix2 p (0 : Fin 1)) : EReal), ((scAt1 V c (b * 49 + s) h).2 (ix2 p (0 : Fin 1)) : EReal))
        = Cert.Alg.lseRun z (s + 1)
  | 0, hs, h => by
    show (((scAt1 V c (b * 49) h).1 (ix2 p (0 : Fin 1)) : EReal), ((scAt1 V c (b * 49) h).2 (ix2 p (0 : Fin 1)) : EReal)) = _
    rw [scAt1_half_zero V c b h]
    exact hstep 0 h hs (k1_pay3 (F := Ideal)) (k1_pay4 (F := Ideal)) hreset
  | s + 1, hs, h => by
    show (((scAt1 V c (b * 49 + s + 1) h).1 (ix2 p (0 : Fin 1)) : EReal), ((scAt1 V c (b * 49 + s + 1) h).2 (ix2 p (0 : Fin 1)) : EReal)) = _
    rw [scAt1_half_succ V c b s hs h]
    exact hstep (s + 1) h hs (scAt1 V c (b * 49 + s) (Nat.lt_of_succ_lt h)).1 (scAt1 V c (b * 49 + s) (Nat.lt_of_succ_lt h)).2
      (scAt1_row_run c b p z hreset hstep s (Nat.lt_of_succ_lt hs) (Nat.lt_of_succ_lt h))

/-- The logits of row `p` in class tile `s` of row half `b`, as the kernel forms them from the two operand
    blocks of that point (`⊥` past the grid, where nothing reads them). -/
def rowLogits (c : Dev nD) (b : ℕ) (p : Fin 1024) (s : ℕ) : Fin 1024 → EReal :=
  if h : b * 49 + s < cfg1.N then
    fun q => k1_pay5 (F := Ideal) (grid1.coords ⟨b * 49 + s, h⟩) (iblk1 V c 0 ⟨b * 49 + s, h⟩) (iblk1 V c 1 ⟨b * 49 + s, h⟩) (ix2 p q)
  else fun _ => ⊥

theorem rowLogits_of_lt (c : Dev nD) (b : ℕ) (p : Fin 1024) (s : ℕ) (h : b * 49 + s < cfg1.N) :
    rowLogits V c b p s
      = fun q => k1_pay5 (F := Ideal) (grid1.coords ⟨b * 49 + s, h⟩) (iblk1 V c 0 ⟨b * 49 + s, h⟩) (iblk1 V c 1 ⟨b * 49 + s, h⟩) (ix2 p q) :=
  dif_pos h

/-- With the reset pair `(⊥, 0)` in row `p` and one class tile one step of the online log-sum-exp on the tile's
    logits of the row, after class tile `s` of row half `b` the accumulators read in row `p` as the run over the
    logits of tiles `0 … s`. -/
theorem scAt1_row_lse (c : Dev nD) (b : ℕ) (p : Fin 1024)
    (hreset : ((k1_pay3 (F := Ideal) (ix2 p (0 : Fin 1)) : EReal), (k1_pay4 (F := Ideal) (ix2 p (0 : Fin 1)) : EReal)) = ((⊥ : EReal), (0 : EReal)))
    (hrow : ∀ (i : grid1.Coords) (x0 x1 : Vec Ideal S1024x512 .bf16) (sm sl : Vec Ideal S1024x1 .f32),
      ((mNext (F := Ideal) i x0 x1 sm (ix2 p (0 : Fin 1)) : EReal), (lNext (F := Ideal) i x0 x1 sm sl (ix2 p (0 : Fin 1)) : EReal))
        = Cert.Alg.lseStep ((sm (ix2 p (0 : Fin 1)) : EReal), (sl (ix2 p (0 : Fin 1)) : EReal))
            (fun q : Fin 1024 => k1_pay5 (F := Ideal) i x0 x1 (ix2 p q)))
    (s : ℕ) (hs : s < 49) (h : b * 49 + s < cfg1.N) :
    (((scAt1 V c (b * 49 + s) h).1 (ix2 p (0 : Fin 1)) : EReal), ((scAt1 V c (b * 49 + s) h).2 (ix2 p (0 : Fin 1)) : EReal))
      = Cert.Alg.lseRun (rowLogits V c b p) (s + 1) :=
  scAt1_row_run V c b p (rowLogits V c b p) hreset
    (fun s h _ sm sl hacc => by rw [hrow, hacc, rowLogits_of_lt V c b p s h]) s hs h

end Cert.KernelIdeal.Hand

end
-- ==== Proof.KI.Val1Row.lean ====
import proofs.«420115_j17875653886477_3_alg».proof.Proof.Gen.KernelIdeal.Skeleton
import proofs.«420115_j17875653886477_3_alg».proof.Proof.LibColumns
import Idealize.ShloMosaic.Lib.Pipeline.Value
import Idealize.ShloMosaic.Lib.ValueIdx
import Idealize.ShloMosaic.PureOps.Ideal.Laws

/-! # The online log-sum-exp kernel's values, row by row

Every value the second kernel stores is a column of 1024 entries, one per row of the row tile. This
module reads each of them at one row `p`, with the tile's 1024 logits of that row as the only
data: the new running maximum is the old one against the row's largest logit; the tile's
contribution to the running sum is the row's sum of exponentials of (logit − new maximum); the
old sum is rescaled by the exponential of (old maximum − new maximum). -/

set_option maxRecDepth 16384

noncomputable section

namespace Cert.KernelIdeal.ValHand

open Cert.KernelIdeal Cert.KernelIdeal.Gen
open Idealize.ShloMosaic Idealize.ShloMosaic.ValueIdx
open scoped BigOperators

/-! ## Two row reductions kept as columns -/

/-- The pattern of `-∞` is `⊥`. -/
theorem negInf_eq : Ideal.ofBits .f32 0xFF800000#32 = (⊥ : EReal) := by simp [Ideal.ofBits, Ideal.ieee]

/-- Putting the column `q` back into the row index `p` gives the entry `(p, q)`. -/
theorem rowLift (p q : Fin 1024) : reduces_S1024x1024_S1024.lift (ix1 p) q = ix2 p q :=
  funext fun a => Fin.ext (by match a with | ⟨0, _⟩ => rfl | ⟨1, _⟩ => rfl)

/-- The maximum along each row, from `-∞`, kept as a column: at row `p` the supremum of that row. -/
theorem rowMaxCol_apply (z : FVec Ideal S1024x1024 .f32) (p : Fin 1024) :
    shapeCast S1024x1 (multiReduction (F := Ideal) .maximumf [1] S1024 z 0xFF800000#32 reduces_S1024x1024_S1024 (.inl rfl) rfl)
        shapeCasts_S1024_S1024x1 (ix2 p 0)
      = Finset.univ.sup fun q : Fin 1024 => z (ix2 p q) := by
  refine (Cert.Lib.Columns.shapeCast_a_a1_apply _ _ p 0).trans ?_
  refine (Ideal.multiReduction_maximumf_single z 0xFF800000#32 reduces_S1024x1024_S1024 (.inl rfl) rfl (ix1 p)).trans ?_
  show (Finset.univ : Finset (Fin 1024)).fold max (Ideal.ofBits .f32 0xFF800000#32)
      (fun q : Fin 1024 => z (reduces_S1024x1024_S1024.lift (ix1 p) q)) = _
  simp only [rowLift, negInf_eq]
  rfl

/-- The sum along each row, kept as a column: at row `p` the sum of that row. -/
theorem rowSumCol_apply (z : FVec Ideal S1024x1024 .f32) (p : Fin 1024) :
    shapeCast S1024x1 (multiReduction (F := Ideal) .add [1] S1024 z 0x00000000#32 reduces_S1024x1024_S1024 (.inl rfl) rfl)
        shapeCasts_S1024_S1024x1 (ix2 p 0)
      = ∑ q : Fin 1024, z (ix2 p q) := by
  refine (Cert.Lib.Columns.shapeCast_a_a1_apply _ _ p 0).trans ?_
  refine (Ideal.multiReduction_add_single z 0x00000000#32 reduces_S1024x1024_S1024 (.inl rfl) rfl (ix1 p)).trans ?_
  show ∑ q : Fin 1024, z (reduces_S1024x1024_S1024.lift (ix1 p) q) = _
  simp only [rowLift]

/-! ## The stored columns at a row -/

/-- The new running maximum at row `p`: the old one against the largest logit of the row. -/
theorem newMax_apply (i : grid1.Coords) (x0 x1 : Vec Ideal S1024x512 .bf16) (sm : Vec Ideal S1024x1 .f32) (p : Fin 1024) :
    k1_pay6 (F := Ideal) i x0 x1 sm (ix2 p 0)
      = max (sm (ix2 p 0)) (Finset.univ.sup fun q : Fin 1024 => k1_pay5 (F := Ideal) i x0 x1 (ix2 p q)) := by
  unfold k1_pay6
  exact congrArg (max (sm (ix2 p 0))) (rowMaxCol_apply (k1_pay5 (F := Ideal) i x0 x1) p)

/-- The tile's contribution to the running sum at row `p`: the row's sum of exponentials of the
    logits taken relative to the new maximum. -/
theorem tileSum_apply (i : grid1.Coords) (x0 x1 : Vec Ideal S1024x512 .bf16) (sm : Vec Ideal S1024x1 .f32) (p : Fin 1024) :
    k1_pay7 (F := Ideal) i x0 x1 sm (ix2 p 0)
      = ∑ q : Fin 1024, Ideal.exp (k1_pay5 (F := Ideal) i x0 x1 (ix2 p q) - k1_pay6 (F := Ideal) i x0 x1 sm (ix2 p 0)) := by
  unfold k1_pay7
  refine (rowSumCol_apply _ p).trans ?_
  refine Finset.sum_congr rfl fun q _ => ?_
  show Ideal.exp (k1_pay5 (F := Ideal) i x0 x1 (ix2 p q)
      - broadcastTo S1024x1024 (k1_pay6 (F := Ideal) i x0 x1 sm) broadcasts_S1024x1_S1024x1024 (ix2 p q)) = _
  rw [Cert.Lib.Columns.broadcastTo_a1_ab_apply]

/-- The old running sum rescaled to the new maximum, at row `p`. -/
theorem rescaled_apply (i : grid1.Coords) (x0 x1 : Vec Ideal S1024x512 .bf16) (sm sm' sl : Vec Ideal S1024x1 .f32) (p : Fin 1024) :
    k1_pay8 (F := Ideal) i x0 x1 sm sm' sl (ix2 p 0)
      = Ideal.exp (sm' (ix2 p 0) - k1_pay6 (F := Ideal) i x0 x1 sm (ix2 p 0)) * sl (ix2 p 0) := rfl

/-- The stored running sum: the rescaled old sum plus the tile's contribution. -/
theorem sumStore_apply (a b : FVec Ideal S1024x1 .f32) (j : S1024x1.Idx) :
    k1_pay1 (F := Ideal) a b j = b j + a j := by
  unfold k1_pay1
  rw [shapeCast_self]
  rfl

/-- The stored running maximum is the new maximum itself. -/
theorem maxStore_eq (v : FVec Ideal S1024x1 .f32) : k1_pay2 (F := Ideal) v = v := by
  unfold k1_pay2
  rw [shapeCast_self]

/-- The running maximum is reset to `⊥`. -/
theorem maxReset_apply (j : S1024x1.Idx) : k1_pay3 (F := Ideal) j = (⊥ : EReal) := by
  unfold k1_pay3
  rw [shapeCast_self]
  exact negInf_eq

/-- The running sum is reset to `0`. -/
theorem sumReset_apply (j : S1024x1.Idx) : k1_pay4 (F := Ideal) j = (0 : EReal) := by
  unfold k1_pay4
  rw [shapeCast_self]
  exact Ideal.ofBits_zero_f32

end Cert.KernelIdeal.ValHand

end
-- ==== Proof.KI.Val1Step.lean ====
import proofs.«420115_j17875653886477_3_alg».proof.Proof.KI.Val1Row
import proofs.«420115_j17875653886477_3_alg».proof.Proof.KI.R1Body
import proofs.«420115_j17875653886477_3_alg».proof.Proof.Alg.OnlineLSE

/-! # One class tile is one step of the online log-sum-exp

Row by row, the pair of columns the second kernel keeps — running maximum and running sum — moves
by exactly the step of the online log-sum-exp on that row's 1024 logits of the tile; and from the
reset pair `(⊥, 0)` the tiles in turn are the run of that step. -/

set_option maxRecDepth 16384

noncomputable section

namespace Cert.KernelIdeal.ValHand

open Cert.KernelIdeal Cert.KernelIdeal.Gen
open Idealize.ShloMosaic Idealize.ShloMosaic.ValueIdx
open scoped BigOperators

/-! ## One class tile is one step of the online log-sum-exp -/

/-- **The step, row by row.** At row `p` the updated running pair is the online log-sum-exp step applied to
    the old pair at that row and the tile's 1024 logits of that row. -/
theorem step_row (i : grid1.Coords) (x0 x1 : Vec Ideal S1024x512 .bf16) (sm sl : Vec Ideal S1024x1 .f32) (p : Fin 1024) :
    (Hand.mNext (F := Ideal) i x0 x1 sm (ix2 p 0), Hand.lNext (F := Ideal) i x0 x1 sm sl (ix2 p 0))
      = Cert.Alg.lseStep (sm (ix2 p 0), sl (ix2 p 0)) (fun q : Fin 1024 => k1_pay5 (F := Ideal) i x0 x1 (ix2 p q)) := by
  unfold Hand.mNext Hand.lNext Cert.Alg.lseStep Cert.Alg.tileMax
  rw [maxStore_eq, sumStore_apply, rescaled_apply, tileSum_apply, newMax_apply]

/-! ## The class tiles in turn -/

/-- The running pair of columns after `t` class tiles, as the kernel computes it: reset at the start, then
    updated from the coordinates `c s` and the two operand blocks `a s`, `b s` of each tile `s < t`. -/
def pairAfter (c : ℕ → grid1.Coords) (a b : ℕ → Vec Ideal S1024x512 .bf16) :
    ℕ → Vec Ideal S1024x1 .f32 × Vec Ideal S1024x1 .f32
  | 0 => (k1_pay3 (F := Ideal), k1_pay4 (F := Ideal))
  | t + 1 => (Hand.mNext (F := Ideal) (c t) (a t) (b t) (pairAfter c a b t).1,
      Hand.lNext (F := Ideal) (c t) (a t) (b t) (pairAfter c a b t).1 (pairAfter c a b t).2)

/-- **The fold over the class tiles, row by row.** At row `p` the pair after `t` tiles is the online
    log-sum-exp run over the logits of that row, tile by tile, from `(⊥, 0)`. -/
theorem pairAfter_row (c : ℕ → grid1.Coords) (a b : ℕ → Vec Ideal S1024x512 .bf16) (p : Fin 1024) (t : ℕ) :
    ((pairAfter c a b t).1 (ix2 p 0), (pairAfter c a b t).2 (ix2 p 0))
      = Cert.Alg.lseRun (fun s (q : Fin 1024) => k1_pay5 (F := Ideal) (c s) (a s) (b s) (ix2 p q)) t := by
  induction t with
  | zero =>
    show (k1_pay3 (F := Ideal) (ix2 p 0), k1_pay4 (F := Ideal) (ix2 p 0)) = ((⊥ : EReal), (0 : EReal))
    rw [maxReset_apply, sumReset_apply]
  | succ t ih =>
    show (Hand.mNext (F := Ideal) (c t) (a t) (b t) (pairAfter c a b t).1 (ix2 p 0),
        Hand.lNext (F := Ideal) (c t) (a t) (b t) (pairAfter c a b t).1 (pairAfter c a b t).2 (ix2 p 0))
      = Cert.Alg.lseStep (Cert.Alg.lseRun (fun s (q : Fin 1024) => k1_pay5 (F := Ideal) (c s) (a s) (b s) (ix2 p q)) t)
          (fun q : Fin 1024 => k1_pay5 (F := Ideal) (c t) (a t) (b t) (ix2 p q))
    rw [step_row, ih]

end Cert.KernelIdeal.ValHand

end
-- ==== Proof.KI.Val1Logit.lean ====
import proofs.«420115_j17875653886477_3_alg».proof.Proof.Gen.KernelIdeal.Skeleton
import Idealize.ShloMosaic.Lib.Pipeline.Value
import Idealize.ShloMosaic.Lib.ValueIdx
import Idealize.ShloMosaic.Lib.DynamicIndex
import Idealize.ShloMosaic.PureOps.Ideal.Laws

/-! # The logits of one class tile, entry by entry

At a grid point whose class-tile coordinate is `t`, the second kernel forms a 1024 × 1024 block of
logits: entry `(p, q)` is the inner product of row `p` of the feature block with row `q` of the
weight block, clamped to `[lo, hi]` and scaled, when the class `t · 1024 + q` is one of the 50000
real classes; past them it is the masking constant, which is `⊥` on the extended reals. -/

set_option maxRecDepth 16384

noncomputable section

namespace Cert.KernelIdeal.ValHand

open Cert.KernelIdeal Cert.KernelIdeal.Gen
open Idealize.ShloMosaic Idealize.ShloMosaic.ValueIdx
open scoped BigOperators

/-! ## The class mask: a signed word comparison decoded to naturals -/

/-- For a class tile `t < 49` and a column `q < 1024` the word `t · 1024 + q` does not wrap, and the signed
    comparison against 50000 is the comparison of naturals. -/
theorem classBit (t q : Nat) (ht : t < 49) (hq : q < 1024) :
    IntOp.cmpi .slt (IntOp.addi (Scalar.muli (BitVec.ofNat 32 t) 1024#32) (BitVec.ofNat 32 q)) 50000#32
      = if t * 1024 + q < 50000 then 1#1 else 0#1 := by
  have hw : IntOp.addi (Scalar.muli (BitVec.ofNat 32 t) 1024#32) (BitVec.ofNat 32 q) = BitVec.ofNat 32 (t * 1024 + q) := by
    show BitVec.ofNat 32 t * BitVec.ofNat 32 1024 + BitVec.ofNat 32 q = _
    rw [← BitVec.ofNat_mul, ← BitVec.ofNat_add]
  have hl : (BitVec.ofNat 32 (t * 1024 + q)).toInt = ((t * 1024 + q : Nat) : Int) :=
    toInt_ofNat_of_lt (by omega)
  have hr : (50000#32 : BitVec 32).toInt = 50000 := by decide
  rw [hw]
  unfold IntOp.cmpi
  show BitVec.ofBool ((BitVec.ofNat 32 (t * 1024 + q)).slt 50000#32) = _
  by_cases h : t * 1024 + q < 50000
  · rw [if_pos h]
    have : (BitVec.ofNat 32 (t * 1024 + q)).slt 50000#32 = true := by
      rw [BitVec.slt_iff_toInt_lt, hl, hr]; omega
    rw [this]; rfl
  · rw [if_neg h]
    have : (BitVec.ofNat 32 (t * 1024 + q)).slt 50000#32 = false := by
      rw [Bool.eq_false_iff, Ne, BitVec.slt_iff_toInt_lt, hl, hr]; omega
    rw [this]; rfl

/-! ## The inner products: the matrix product read at an entry -/

theorem lhs_logit_0 (j : S1024x1024.Idx) (k : dot_S1024x512_S1024x512_S1024x1024_1_1_0_0_n_n.contr.Idx) :
    (dot_S1024x512_S1024x512_S1024x1024_1_1_0_0_n_n.lhsIdx j k 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_logit_1 (j : S1024x1024.Idx) (k : dot_S1024x512_S1024x512_S1024x1024_1_1_0_0_n_n.contr.Idx) :
    (dot_S1024x512_S1024x512_S1024x1024_1_1_0_0_n_n.lhsIdx j k 1).val = (k ⟨0, by decide⟩).val :=
  dot_S1024x512_S1024x512_S1024x1024_1_1_0_0_n_n.lhsIdx_val_of_single rfl j k
theorem rhs_logit_0 (j : S1024x1024.Idx) (k : dot_S1024x512_S1024x512_S1024x1024_1_1_0_0_n_n.contr.Idx) :
    (dot_S1024x512_S1024x512_S1024x1024_1_1_0_0_n_n.rhsIdx j k 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_logit_1 (j : S1024x1024.Idx) (k : dot_S1024x512_S1024x512_S1024x1024_1_1_0_0_n_n.contr.Idx) :
    (dot_S1024x512_S1024x512_S1024x1024_1_1_0_0_n_n.rhsIdx j k 1).val = (k ⟨0, by decide⟩).val :=
  dot_S1024x512_S1024x512_S1024x1024_1_1_0_0_n_n.rhsIdx_val_of_single rfl j k

/-- Entry `(p, q)` of the product of the feature block with the transposed weight block, accumulated into
    zero: the inner product of row `p` of the one with row `q` of the other. -/
theorem innerProduct_apply (a b : FVec Ideal S1024x512 .bf16) (p q : Fin 1024) :
    matmul (F := Ideal) dot_S1024x512_S1024x512_S1024x1024_1_1_0_0_n_n none a b (constant S1024x1024 .f32 0x00000000#32) (ix2 p q)
      = ∑ k : Fin 512, a (ix2 p k) * b (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun ax => Fin.ext (by
    match ax with
    | ⟨0, _⟩ => exact lhs_logit_0 _ _
    | ⟨1, _⟩ => exact (lhs_logit_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun ax => Fin.ext (by
    match ax with
    | ⟨0, _⟩ => exact rhs_logit_0 _ _
    | ⟨1, _⟩ => exact (rhs_logit_1 _ _).trans hk)
  rw [el, er]

/-! ## The logit -/

/-- The masking constant is `⊥` on the extended reals. -/
theorem negBig_eq : Named.named (F := Ideal) κ "neg_big" (φ := .f32) 0xFF333332#32 = (⊥ : EReal) := rfl

/-- The clamped and scaled inner product of feature row `p` with weight row `q`. -/
def scaledCos (x0 x1 : Vec Ideal S1024x512 .bf16) (p q : Fin 1024) : EReal :=
  Ideal.ofBits .f32 0x41F00000#32 *
    min (Ideal.ofBits .f32 0x3F7FFFFE#32) (max (Ideal.ofBits .f32 0xBF7FFFFE#32) (∑ k : Fin 512, x0 (ix2 p k) * x1 (ix2 q k)))

/-- **The logit at an entry.** Real classes carry the scaled clamped inner product, the padding `⊥`. -/
theorem logit_apply (i : grid1.Coords) (x0 x1 : Vec Ideal S1024x512 .bf16) (p q : Fin 1024) :
    k1_pay5 (F := Ideal) i x0 x1 (ix2 p q)
      = if (i 1).val * 1024 + q.val < 50000 then scaledCos x0 x1 p q else ⊥ := by
  unfold k1_pay5
  simp only [select_apply, mulf_apply, minimumf_apply, maximumf_apply, broadcast_apply, shapeCast_self]
  rw [innerProduct_apply]
  have hbit : cmpi CmpIPredicate.slt
        (addi (broadcast S1024x1024 (Scalar.muli (BitVec.ofNat 32 (i 1).val) 1024#32))
          (iota Kind.tc S1024x1024 32 [1] iota_S1024x1024_d1_w32))
        (broadcast S1024x1024 50000#32) (ix2 p q)
      = if (i 1).val * 1024 + q.val < 50000 then 1#1 else 0#1 := by
    show IntOp.cmpi .slt (IntOp.addi (Scalar.muli (BitVec.ofNat 32 (i 1).val) 1024#32)
      (iota Kind.tc S1024x1024 32 [1] iota_S1024x1024_d1_w32 (ix2 p q))) 50000#32 = _
    rw [iota_single_apply]
    exact classBit (i 1).val q.val (i 1).isLt q.isLt
  rw [hbit]
  by_cases h : (i 1).val * 1024 + q.val < 50000
  · rw [if_pos h, if_pos h, select_one]; rfl
  · rw [if_neg h, if_neg h, select_zero]; exact negBig_eq

end Cert.KernelIdeal.ValHand

end
-- ==== Proof.KI.Val1Closed.lean ====
import proofs.«420115_j17875653886477_3_alg».proof.Proof.KI.Val1Logit
import proofs.«420115_j17875653886477_3_alg».proof.Proof.Alg.ArcRow
import proofs.«420115_j17875653886477_3_alg».proof.Proof.Alg.Guards

/-! # A row's 49 class tiles are the padded layout of its 50000 real logits

The clamp makes every scaled cosine a real number, whatever the inner product is. So the logits
the kernel forms tile by tile for one row — the scaled cosine at the real classes, `⊥` past
them — are the row's family of 50000 real logits laid out in 49 tiles of 1024 columns, and the
online log-sum-exp run over the tiles is the run over that layout. -/

set_option maxRecDepth 16384

noncomputable section

namespace Cert.KernelIdeal.ValHand

open Cert.KernelIdeal Cert.KernelIdeal.Gen
open Idealize.ShloMosaic Idealize.ShloMosaic.ValueIdx
open scoped BigOperators

/-! ## The three constants as reals -/

theorem scale_eq : Ideal.ofBits .f32 0x41F00000#32 = ((30 : ℝ) : EReal) := by
  simp [Ideal.ofBits, Ideal.ieee, -EReal.coe_mul]; norm_num

theorem clampHi_eq : Ideal.ofBits .f32 0x3F7FFFFE#32 = ((8388607 / 8388608 : ℝ) : EReal) := by
  simp [Ideal.ofBits, Ideal.ieee, -EReal.coe_mul]; norm_num

theorem clampLo_eq : Ideal.ofBits .f32 0xBF7FFFFE#32 = ((-(8388607 / 8388608) : ℝ) : EReal) := by
  simp [Ideal.ofBits, Ideal.ieee, -EReal.coe_mul]; norm_num

/-! ## The scaled clamped value is a real -/

/-- The scaled clamp of an extended real, as the kernel and the reference both write it. -/
def scaledClamp (x : EReal) : EReal :=
  Ideal.ofBits .f32 0x41F00000#32 * min (Ideal.ofBits .f32 0x3F7FFFFE#32) (max (Ideal.ofBits .f32 0xBF7FFFFE#32) x)

/-- The scaled clamp as a real number. -/
def realLogit (x : EReal) : ℝ := (scaledClamp x).toReal

/-- Whatever `x` is — infinite too — its scaled clamp is the real `realLogit x`. -/
theorem scaledClamp_eq (x : EReal) : scaledClamp x = ((realLogit x : ℝ) : EReal) := by
  obtain ⟨r, -, -, hr⟩ := Cert.Alg.clip_real x
    (show (-(8388607 / 8388608) : ℝ) ≤ 8388607 / 8388608 by norm_num)
  have h : scaledClamp x = ((30 * r : ℝ) : EReal) := by
    unfold scaledClamp
    rw [scale_eq, clampHi_eq, clampLo_eq, min_comm, max_comm, hr, EReal.coe_mul]
  unfold realLogit
  rw [h, EReal.toReal_coe]

/-! ## The tiles of a row -/

/-- **The run over a row's tiles is the run over the padded layout of its real logits.** The class-tile
    coordinate of tile `s` is `s`; at every real class the inner product of the row with the tile's
    column is the family's `ip`. -/
theorem tiles_run (c : ℕ → grid1.Coords) (hc : ∀ s < 49, ((c s) 1).val = s)
    (a b : ℕ → Vec Ideal S1024x512 .bf16) (p : Fin 1024) (ip : Fin 50000 → EReal)
    (hip : ∀ (s : ℕ) (q : Fin 1024) (h : s * 1024 + q.val < 50000), s < 49 →
      ∑ k : Fin 512, a s (ix2 p k) * b s (ix2 q k) = ip ⟨s * 1024 + q.val, h⟩) :
    Cert.Alg.lseRun (fun s (q : Fin 1024) => k1_pay5 (F := Ideal) (c s) (a s) (b s) (ix2 p q)) 49
      = Cert.Alg.lseRun (Cert.Alg.padTiles (fun j => realLogit (ip j)) 1024) 49 := by
  refine Cert.Alg.lseRun_congr 49 fun s hs => funext fun q => ?_
  rw [logit_apply, hc s hs]
  refine Cert.Alg.ite_eq_padTiles (fun j => realLogit (ip j)) 1024 s q _ fun h => ?_
  show scaledClamp (∑ k : Fin 512, a s (ix2 p k) * b s (ix2 q k)) = _
  rw [hip s q h hs]
  exact scaledClamp_eq _

/-- The padded layout's run in closed form: the largest real logit of the row and the sum of the
    exponentials of the logits relative to it. -/
theorem padded_run_closed (lg : Fin 50000 → ℝ) :
    Cert.Alg.lseRun (Cert.Alg.padTiles lg 1024) 49
      = (((Finset.univ.sup' ⟨(0 : Fin 50000), Finset.mem_univ _⟩ lg : ℝ) : EReal),
         ((∑ j, Real.exp (lg j - Finset.univ.sup' ⟨(0 : Fin 50000), Finset.mem_univ _⟩ lg) : ℝ) : EReal)) :=
  Cert.Alg.lseRun_padTiles_sup' lg (W := 1024) (t := 48) (by norm_num) (by norm_num) _

end Cert.KernelIdeal.ValHand

end
-- ==== Proof.KI.Val1Arr.lean ====
import proofs.«420115_j17875653886477_3_alg».proof.Proof.KI.Arr1
import proofs.«420115_j17875653886477_3_alg».proof.Proof.KI.Val1Step
import proofs.«420115_j17875653886477_3_alg».proof.Proof.KI.Val1Closed

/-! # The accumulators after the last class tile, row by row

Row `r` of the 2048 rows sits in row half `r / 1024` at row `r % 1024`. After the 49 class tiles of that
row half the running maximum and the running sum read, at that row, as the online log-sum-exp run
over the padded layout of the row's 50000 real logits — the scaled clamped inner products of feature
row `r` with the 50000 weight rows — and so as the largest of them and the sum of exponentials
relative to it. -/

set_option maxRecDepth 16384

noncomputable section

namespace Cert.KernelIdeal.ValHand

open Idealize.ShloMosaic Idealize.ShloMosaic.TcCoe Idealize.ShloMosaic.ValueIdx
open Idealize.SL Idealize.SL.Sem
open Cert.KernelIdeal Cert.KernelIdeal.Gen Cert.KernelIdeal.Hand
open scoped BigOperators

variable (V : (c : Dev nD) → (b : Ref sig .tc) → Buf (Elt Ideal) ((c : Thread nD τ).loc b))

/-- The class-tile coordinate of a point of the grid. -/
theorem tileCoord : ∀ t : Fin cfg1.N, ((grid1.coords t) 1).val = t.val % 49 :=
  (by decide +kernel : ∀ t : Fin grid1.N, ((grid1.coords t) 1).val = t.val % 49)

/-- Class tile `s` of row half `b` as a point of the grid, for every pair of naturals. -/
def tilePoint (b s : ℕ) : Fin cfg1.N :=
  ⟨(b * 49 + s) % cfg1.N, Nat.mod_lt _ (lt_of_lt_of_eq (by decide : 0 < 98) (show cfg1.N = 98 from N_1).symm)⟩

theorem tilePoint_eq (b s : ℕ) (h : b * 49 + s < cfg1.N) : tilePoint b s = ⟨b * 49 + s, h⟩ :=
  Fin.ext (Nat.mod_eq_of_lt h)

theorem tilePoint_val (b s : ℕ) (hb : b < 2) (hs : s < 49) : (tilePoint b s).val = b * 49 + s :=
  Nat.mod_eq_of_lt (tile_lt b s hb hs)

/-- The inner product of feature row `r` with weight row `j`, for the 50000 real classes. -/
def rowIp (c : Dev nD) (r : Fin 2048) (j : Fin 50000) : EReal :=
  ∑ k : Fin 512, featArr V c (ix2 r k) * wgtArr V c (ix2 (⟨j.val, by omega⟩ : Fin 50176) k)

/-- Row `p` of row half `b`, which is row `r = b · 1024 + p` of the arrays: after the last class tile the
    accumulators read there as the online log-sum-exp run over the padded layout of the row's real logits. -/
theorem acc_run_of_half (c : Dev nD) (b : ℕ) (hb : b < 2) (p : Fin 1024) (h : b * 49 + 48 < cfg1.N)
    (r : Fin 2048) (hrow : r.val = b * 1024 + p.val) :
    (((scAt1 V c (b * 49 + 48) h).1 (ix2 p (0 : Fin 1)) : EReal),
     ((scAt1 V c (b * 49 + 48) h).2 (ix2 p (0 : Fin 1)) : EReal))
      = Cert.Alg.lseRun (Cert.Alg.padTiles (fun j => realLogit (rowIp V c r j)) 1024) 49 := by
  -- the tiles' coordinates and blocks, for every natural tile number
  let tileC : ℕ → grid1.Coords := fun s => grid1.coords (tilePoint b s)
  let tileA : ℕ → Vec Ideal S1024x512 .bf16 := fun s => iblk1 V c 0 (tilePoint b s)
  let tileB : ℕ → Vec Ideal S1024x512 .bf16 := fun s => iblk1 V c 1 (tilePoint b s)
  let z : ℕ → Fin 1024 → EReal := fun s q => k1_pay5 (F := Ideal) (tileC s) (tileA s) (tileB s) (ix2 p q)
  have hrun := scAt1_row_run V c b p z
    (by rw [maxReset_apply, sumReset_apply])
    (fun s h hs sm sl hpair => by
      rw [step_row, hpair, ← tilePoint_eq b s h])
    48 (by decide) h
  refine hrun.trans ?_
  refine tiles_run tileC (fun s hs => ?_) tileA tileB p (rowIp V c r) (fun s q h hs => ?_)
  · show ((grid1.coords (tilePoint b s)) 1).val = s
    rw [tileCoord, tilePoint_val b s hb hs]; omega
  · have hv := tilePoint_val b s hb hs
    have e0 : (⟨(tilePoint b s).val / 49 * 1024 + p.val, by have := point_lt (tilePoint b s); omega⟩ : Fin 2048) = r :=
      Fin.ext (by show (tilePoint b s).val / 49 * 1024 + p.val = r.val; rw [hv, hrow]; omega)
    have e1 : (⟨(tilePoint b s).val % 49 * 1024 + q.val, by omega⟩ : Fin 50176)
        = (⟨s * 1024 + q.val, by omega⟩ : Fin 50176) :=
      Fin.ext (by show (tilePoint b s).val % 49 * 1024 + q.val = s * 1024 + q.val; rw [hv]; omega)
    refine Finset.sum_congr rfl fun k _ => ?_
    have hA : (tileA s (ix2 p k) : EReal) = featArr V c (ix2 r k) := by
      show iblk1 V c 0 (tilePoint b s) (ix2 p k) = _
      rw [iblk1_0_apply, e0]
    have hB : (tileB s (ix2 q k) : EReal) = wgtArr V c (ix2 (⟨s * 1024 + q.val, by omega⟩ : Fin 50176) k) := by
      show iblk1 V c 1 (tilePoint b s) (ix2 q k) = _
      rw [iblk1_1_apply, e1]
    exact congrArg₂ (fun x y : EReal => x * y) hA hB

/-- **The accumulators at row `r` after the last class tile of its row half** are the online log-sum-exp
    run over the padded layout of the row's real logits. -/
theorem acc_row_run (c : Dev nD) (r : Fin 2048) :
    (((scAt1 V c (r.val / 1024 * 49 + 48) (lastTile_lt r.val r.isLt)).1
        (ix2 (⟨r.val % 1024, Nat.mod_lt _ (by decide)⟩ : Fin 1024) (0 : Fin 1)) : EReal),
     ((scAt1 V c (r.val / 1024 * 49 + 48) (lastTile_lt r.val r.isLt)).2
        (ix2 (⟨r.val % 1024, Nat.mod_lt _ (by decide)⟩ : Fin 1024) (0 : Fin 1)) : EReal))
      = Cert.Alg.lseRun (Cert.Alg.padTiles (fun j => realLogit (rowIp V c r j)) 1024) 49 :=
  acc_run_of_half V c (r.val / 1024) (by have := r.isLt; omega) ⟨r.val % 1024, Nat.mod_lt _ (by decide)⟩
    (lastTile_lt r.val r.isLt) r (by show r.val = r.val / 1024 * 1024 + r.val % 1024; omega)

/-- **The two result arrays at row `r`** after the region: the same run. -/
theorem result_row_run (c : Dev nD) (r : Fin 2048) :
    ((((dat1 V c).arrAt 2 cfg1.N : Vec Ideal S2048x1 .f32) (ix2 r (0 : Fin 1)) : EReal),
     (((dat1 V c).arrAt 3 cfg1.N : Vec Ideal S2048x1 .f32) (ix2 r (0 : Fin 1)) : EReal))
      = Cert.Alg.lseRun (Cert.Alg.padTiles (fun j => realLogit (rowIp V c r j)) 1024) 49 := by
  rw [arr1_2, arr1_3]
  exact acc_row_run V c r

/-- The same in closed form: the largest real logit of the row, and the sum over the 50000 classes of the
    exponentials of the logits relative to it. -/
theorem acc_row_closed (c : Dev nD) (r : Fin 2048) :
    (((scAt1 V c (r.val / 1024 * 49 + 48) (lastTile_lt r.val r.isLt)).1
        (ix2 (⟨r.val % 1024, Nat.mod_lt _ (by decide)⟩ : Fin 1024) (0 : Fin 1)) : EReal),
     ((scAt1 V c (r.val / 1024 * 49 + 48) (lastTile_lt r.val r.isLt)).2
        (ix2 (⟨r.val % 1024, Nat.mod_lt _ (by decide)⟩ : Fin 1024) (0 : Fin 1)) : EReal))
      = (((Finset.univ.sup' ⟨(0 : Fin 50000), Finset.mem_univ _⟩ (fun j => realLogit (rowIp V c r j)) : ℝ) : EReal),
         ((∑ j, Real.exp (realLogit (rowIp V c r j)
            - Finset.univ.sup' ⟨(0 : Fin 50000), Finset.mem_univ _⟩ (fun j => realLogit (rowIp V c r j))) : ℝ) : EReal)) :=
  (acc_row_run V c r).trans (padded_run_closed _)

end Cert.KernelIdeal.ValHand

end
-- ==== Proof.KI.ArcK.lean ====
/- THE MARGIN CLASSIFICATION LOSS OF ONE ROW, program against formula, over the extended reals. After the classification
   call has left, per row r, the running maximum mx_r of the 50000 scaled clipped cosines  30·clip⟨x̂_r, ŵ_j⟩  and the
   running sum  l_r = Σ_j exp(30·clip⟨x̂_r, ŵ_j⟩ − mx_r),  the program replaces the label's term by its margin form:
       mx_r + log(l_r + exp(marg_r − mx_r) − exp(30·c_r − mx_r)) − marg_r,
   c_r the label's clipped cosine and marg_r = 30·cos(θ_r + 0.5). This is minus the log-probability of the label under
   the softmax of the logits with the label's replaced by marg_r:
     * the two arrays the call leaves are the online log-sum-exp run over the padded row of real logits, and each real
       logit is 30 times the formula's clipped cosine, because what the call reads are the unit-length embeddings and
       the unit-length class weights (narrowing changes nothing over the extended reals, and the 176 padding rows are
       below the 50000 classes);
     * the label's clipped cosine is the formula's, a real of [−1, 1], where the guarded square root of the margin is
       the plain one;
     * the run's (maximum, sum) pair turns the displayed expression into minus the log-probability. -/
import proofs.«420115_j17875653886477_3_alg».proof.Proof.KI.Host3
import proofs.«420115_j17875653886477_3_alg».proof.Proof.KI.ArcTailRow
import proofs.«420115_j17875653886477_3_alg».proof.Proof.KI.Val1Arr
import proofs.«420115_j17875653886477_3_alg».proof.Proof.Alg.ArcRef
import Idealize.ShloMosaic.Lib.KernelVsHost

set_option maxRecDepth 16384

noncomputable section

open scoped BigOperators

namespace Cert.KernelIdeal.ValHand

open Cert.KernelIdeal Cert.KernelIdeal.Gen Cert.KernelIdeal.Hand
open Idealize.ShloMosaic Idealize.ShloMosaic.TcCoe Idealize.ShloMosaic.ValueIdx
open Idealize.SL Idealize.SL.Sem
open Cert.ReferenceIdeal

variable (V : (c : Dev nD) → (b : Ref sig .tc) → Buf (Elt Ideal) ((c : Thread nD τ).loc b))

/-! ## What the classification call reads, entry by entry -/

/-- The first operand is the unit-length embeddings: narrowing changes no entry over the extended reals. -/
theorem arcK_feat (c : Dev nD) (x : Vec Ideal S2048x512 .f32)
    (hfeat : (V c main_v25 : Vec Ideal S2048x512 .bf16) = truncf .bf16 (fn x) bitsLt_bf16_f32)
    (r : Fin 2048) (k : Fin 512) : featArr V c (ix2 r k) = RefHand.fn x (ix2 r k) := by
  show (V c main_v25 : Vec Ideal S2048x512 .bf16) (ix2 r k) = _
  rw [hfeat, truncf_apply, fn_apply]

/-- The second operand, at a row below 50000, is the unit-length class weights: those rows are above the padding. -/
theorem arcK_wgt (c : Dev nD) (w : Vec Ideal S50000x512 .f32)
    (hwgt : (V c main_v30 : Vec Ideal S50176x512 .bf16) = wnPad w)
    (j : Fin 50000) (k : Fin 512) :
    wgtArr V c (ix2 (⟨j.val, by omega⟩ : Fin 50176) k) = RefHand.wn w (ix2 j k) := by
  show (V c main_v30 : Vec Ideal S50176x512 .bf16) (ix2 (⟨j.val, by omega⟩ : Fin 50176) k) = _
  rw [hwgt]
  unfold wnPad padRows
  rw [pad_apply_of_inside ![0, 0] ![176, 0] ![0, 0] _ _ pads_S50000x512_S50176x512_01760_000 h_S_ _ (ix2 j k)
    (fun a => by
      match a with
      | ⟨0, _⟩ => show j.val = 0 + j.val * (0 + 1); omega
      | ⟨1, _⟩ => show k.val = 0 + k.val * (0 + 1); omega),
    truncf_apply, wn_apply]

/-- The inner product the call forms for row r and class j is the formula's. -/
theorem arcK_ip (c : Dev nD) (x : Vec Ideal S2048x512 .f32) (w : Vec Ideal S50000x512 .f32)
    (hfeat : (V c main_v25 : Vec Ideal S2048x512 .bf16) = truncf .bf16 (fn x) bitsLt_bf16_f32)
    (hwgt : (V c main_v30 : Vec Ideal S50176x512 .bf16) = wnPad w) (r : Fin 2048) (j : Fin 50000) :
    rowIp V c r j = ∑ k : Fin 512, RefHand.fn x (ix2 r k) * RefHand.wn w (ix2 j k) := by
  unfold rowIp
  exact Finset.sum_congr rfl fun k _ => by rw [arcK_feat V c x hfeat r k, arcK_wgt V c w hwgt j k]

/-- Each real logit of the row is 30 times the formula's clipped cosine. -/
theorem arcK_logit (c : Dev nD) (x : Vec Ideal S2048x512 .f32) (w : Vec Ideal S50000x512 .f32)
    (hfeat : (V c main_v25 : Vec Ideal S2048x512 .bf16) = truncf .bf16 (fn x) bitsLt_bf16_f32)
    (hwgt : (V c main_v30 : Vec Ideal S50176x512 .bf16) = wnPad w) (r : Fin 2048) (j : Fin 50000) :
    ((realLogit (rowIp V c r j) : ℝ) : EReal) = Ideal.ofBits .f32 0x41F00000#32 * RefHand.cos x w r j := by
  rw [← scaledClamp_eq, arcK_ip V c x w hfeat hwgt r j]
  rfl

/-! ## The row -/

/-- **The margin classification loss of row r, as the program computes it from what the classification call leaves,
    is minus the log-probability of the row's label.** -/
theorem arc_rows_K (c : Dev nD) (x : Vec Ideal S2048x512 .f32) (y : Vec Ideal S2048 .i32) (w : Vec Ideal S50000x512 .f32)
    (hfeat : (V c main_v25 : Vec Ideal S2048x512 .bf16) = truncf .bf16 (fn x) bitsLt_bf16_f32)
    (hwgt : (V c main_v30 : Vec Ideal S50176x512 .bf16) = wnPad w)
    (hlab : ∀ r : Fin 2048, 0 ≤ (y (ix1 r)).toInt ∧ (y (ix1 r)).toInt < 50000) (r : Fin 2048) :
    arcRows (clipCos x y w) ((dat1 V c).arrAt 2 cfg1.N : Vec Ideal S2048x1 .f32)
        ((dat1 V c).arrAt 3 cfg1.N : Vec Ideal S2048x1 .f32) (ix2 r (0 : Fin 1))
      = -(RefHand.Lp x y w r) := by
  obtain ⟨h0, h1⟩ := hlab r
  have hc : clipCos x y w (ix2 r (0 : Fin 1)) = RefHand.cos x w r (RefHand.lbl y r) := clipCos_apply x y w r h0 h1
  obtain ⟨cr, hc1, hc2, hcr⟩ := Cert.Alg.cos_real x w r (RefHand.lbl y r)
  have hm : marginAt (RefHand.cos x w r (RefHand.lbl y r)) = RefHand.logit x y w r (RefHand.lbl y r) := by
    rw [Cert.Alg.logit_lbl, hcr]
    unfold marginAt
    rw [Cert.Alg.guarded_margin hc1 hc2]
  rw [arcRows_at, hc, hm]
  exact Cert.Alg.arc_row_ref_run x y w r (fun j => realLogit (rowIp V c r j))
    (fun j => arcK_logit V c x w hfeat hwgt r j) (result_row_run V c r).symm

end Cert.KernelIdeal.ValHand

end
-- ==== Proof.KI.KernelLoss.lean ====
/- THE KERNEL PROGRAM COMPUTES THE LOSS. When @main ends its result buffer holds
     1.0 · mean_r T r + 0.1 · mean_r C r + 0.1 · (− mean_r Lp r),
   the loss of the reference's row formulas: T r what the pairwise-distance call leaves at row r, C r the centre term
   the host computes, −Lp r what the host makes of the running maximum and running sum the classification call leaves
   at row r. The inputs are finite and the labels are class indices, by the precondition. -/
import proofs.«420115_j17875653886477_3_alg».proof.Proof.KI.Host3
import proofs.«420115_j17875653886477_3_alg».proof.Proof.KI.TripRow
import proofs.«420115_j17875653886477_3_alg».proof.Proof.KI.FinalSum
import proofs.«420115_j17875653886477_3_alg».proof.Proof.KI.CenterK
import proofs.«420115_j17875653886477_3_alg».proof.Proof.PreDecode
import proofs.«420115_j17875653886477_3_alg».proof.Proof.KI.RunData
import proofs.«420115_j17875653886477_3_alg».proof.Proof.KI.ArcK

set_option maxRecDepth 16384

noncomputable section

namespace Cert.KernelIdeal.ValHand

open Cert.KernelIdeal Cert.KernelIdeal.Gen Cert.KernelIdeal.Hand
open Idealize.ShloMosaic Idealize.ShloMosaic.TcCoe Idealize.SL.Sem Idealize.ShloMosaic.ValueIdx
open Cert.ReferenceIdeal

variable (m : (ℓ : Loc nD τ sig) → Buf (Elt Ideal) ℓ)

/-- The class weights at launch. -/
abbrev wgtAt (c : Dev nD) : FVec Ideal ⟨2, ![50000, 512]⟩ .f32 := m ((c.tc : Thread nD τ).loc main_arg2)
/-- The class centres at launch. -/
abbrev ctrAt (c : Dev nD) : FVec Ideal ⟨2, ![50000, 512]⟩ .f32 := m ((c.tc : Thread nD τ).loc main_arg3)

/-- The result buffer is the loss, for ANY record of what the two calls leave that has: in the first call's output
    array, the loss column of that call's proof data at the contents the host leaves; and in the second call's two
    output arrays, a running maximum and running sum from which the host's last lines make −Lp r at every row. -/
theorem kernel_is_loss_of (outs : Outs (F := Ideal)) (c : Dev nD)
    (hpre : Cert.Pre_finite_inputs.fn (F := Ideal) (embAt m c) (labAt m c) (wgtAt m c) (ctrAt m c) = fun _ => 1#1)
    (h7 : outs 2 main_v7 c = (dat0 (F := Ideal) (entryV m) c).arrAt 6 cfg0.N)
    (harc : ∀ r : Fin 2048,
      arcRows (clipCos (embAt m c) (labAt m c) (wgtAt m c)) (outs 9 main_v31_0 c) (outs 9 main_v31_1 c) (ix2 r (0 : Fin 1))
        = -(RefHand.Lp (embAt m c) (labAt m c) (wgtAt m c) r)) :
    (V12 m outs c main_v77 : Vec Ideal S_ .f32)
      = fun _ => RefHand.loss (embAt m c) (labAt m c) (wgtAt m c) (ctrAt m c) := by
  obtain ⟨hx, hw, hctr, hlab⟩ := Cert.Pre_finite_inputs.Hand.pre_decode _ _ _ _ hpre
  rw [V12_main_v77]
  funext i
  obtain rfl : i = ix0 := Subsingleton.elim _ _
  unfold tail
  exact total_eq_loss (embAt m c) (labAt m c) (wgtAt m c) (ctrAt m c) (outs 2 main_v7 c) _ _
    (fun r => by rw [h7]; exact tripRow m c hx r)
    (centerLoss_apply (embAt m c) (labAt m c) (ctrAt m c) (fun r => (hlab (ix1 r)).1))
    harc

/-- THE KERNEL PROGRAM'S RESULT IS THE LOSS, at the record of what its two calls leave: the first call's loss column
    over the contents the host leaves before it; the second call's running maximum and running sum over the contents
    the host leaves between the calls, where the features are the narrowed unit-length embeddings and the weights the
    narrowed unit-length class weights padded with rows of zeros. -/
theorem kernel_is_loss (c : Dev nD)
    (hpre : Cert.Pre_finite_inputs.fn (F := Ideal) (embAt m c) (labAt m c) (wgtAt m c) (ctrAt m c) = fun _ => 1#1) :
    (V12 m (Hand.outs m) c main_v77 : Vec Ideal S_ .f32)
      = fun _ => RefHand.loss (embAt m c) (labAt m c) (wgtAt m c) (ctrAt m c) :=
  kernel_is_loss_of m (Hand.outs m) c hpre (outs_2 m c) (fun r => by
    rw [outs_9M, outs_9L]
    exact arc_rows_K (entry1V m) c (embAt m c) (labAt m c) (wgtAt m c) (V8_main_v25 m (outsA m) c) (V8_main_v30 m (outsA m) c)
      (fun r => (Cert.Pre_finite_inputs.Hand.pre_decode _ _ _ _ hpre).2.2.2 (ix1 r)) r)

end Cert.KernelIdeal.ValHand

end
-- ==== Proof.Bridge.lean ====
/- THE ALGEBRAIC CONJUNCT. The kernel program's run leaves its result buffer at the last valuation's contents; the
   reference's run leaves its result at its last stage's value of the arguments; under the precondition both are the
   loss of the row formulas (the reference's run and the kernel-side fact are the hypotheses of the first theorem). -/
import proofs.«420115_j17875653886477_3_alg».proof.Proof.BridgeCore
import proofs.«420115_j17875653886477_3_alg».proof.Proof.KI.Run
import proofs.«420115_j17875653886477_3_alg».proof.Proof.KI.KernelLoss
import proofs.«420115_j17875653886477_3_alg».proof.Proof.RefRunHand

set_option maxRecDepth 16384

noncomputable section

namespace Cert.Proof.Bridge

open Idealize.ShloMosaic Idealize.ShloMosaic.TcCoe Idealize.SL.Sem Idealize.ShloMosaic.ValueIdx

/-- The two programs end at one scalar, given that the kernel's last valuation holds the loss at the result. -/
theorem algebraic_of
    (hrrun : ∀ (m' : RMem) (g' : Dev Cert.ReferenceIdeal.nD → PrngReg),
      θ_run (Cert.ReferenceIdeal.defs (F := Ideal)) (onTc (τ := Cert.ReferenceIdeal.τ) (Cert.ReferenceIdeal.main (F := Ideal))) ⟨m', fun _ => 0, g'⟩
        (fun r => ∀ c : Dev Cert.ReferenceIdeal.nD,
          r.2.mem ((c.tc : Thread Cert.ReferenceIdeal.nD Cert.ReferenceIdeal.τ).loc Cert.ReferenceIdeal.main_v87) = Cert.ReferenceIdeal.Read.val_main_v87 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)))
    (hk : ∀ (m : KMem) (c : Dev Cert.KernelIdeal.nD),
      Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = (fun _ => 1#1) →
      Cert.KernelIdeal.Gen.V12 m (Cert.KernelIdeal.Hand.outs m) c Cert.KernelIdeal.main_v77
        = fun _ => Cert.ReferenceIdeal.RefHand.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) :
    Cert.algebraic_KernelIdeal_ReferenceIdeal :=
  algebraic_core (fun m c => Cert.KernelIdeal.Gen.V12 m (Cert.KernelIdeal.Hand.outs m) c Cert.KernelIdeal.main_v77)
    (fun m g => Cert.KernelIdeal.Hand.run_value (F := Ideal) m g) hrrun hk

/-- The two idealized programs, run from memories agreeing on the arguments, end with equal results: the kernel
    program's last valuation holds the loss of the row formulas at its result, and so does the reference's last stage. -/
theorem algebraic : Cert.algebraic_KernelIdeal_ReferenceIdeal :=
  algebraic_of (fun m' g' => Cert.ReferenceIdeal.RunHand.reference_run (F := Ideal) m' g')
    (fun m c hpre => Cert.KernelIdeal.ValHand.kernel_is_loss m c hpre)

end Cert.Proof.Bridge

end
-- ==== Proof.lean ====
/- The proof of `Cert.Claim`. The kernel program is two grid regions between stretches of host operations: a batch-hard
   triplet kernel over 8 row blocks, whose distance matrix shares one array between two of its windows, and a
   classification kernel over 2 × 49 blocks that carries a running row maximum and a running sum of exponentials from
   block to block. Both programs compute, for 2048 embeddings with integer labels, class weights and class centres,
     1.0 · mean_r T r + 0.1 · mean_r C r + 0.1 · (− mean_r Lp r)
   (T the triplet term of a row, C its squared distance to the centre of its label, Lp the log-probability of its label
   under the softmax of the 30-scaled margin cosines). The frames say every run terminates with the argument arrays
   unchanged; the idealization names the kernel's finite stand-in for −∞, which is −∞ on the extended reals; and at the
   extended reals, under the precondition (every float entry a real, every label a class index), the two programs end
   at the same scalar: the running maximum and running sum recombine to the row's log-sum-exp, the label's logit is
   exchanged inside it, and the row blocks tile the sums over the rows. -/
import proofs.«420115_j17875653886477_3_alg».proof.Defs
import proofs.«420115_j17875653886477_3_alg».proof.Proof.Gen.Kernel
import proofs.«420115_j17875653886477_3_alg».proof.Proof.Gen.KernelIdeal
import proofs.«420115_j17875653886477_3_alg».proof.Proof.Gen.ReferenceIdeal
import proofs.«420115_j17875653886477_3_alg».proof.Proof.Gen.Pre_finite_inputs
import proofs.«420115_j17875653886477_3_alg».proof.Proof.K.Run
import proofs.«420115_j17875653886477_3_alg».proof.Proof.KI.Run
import proofs.«420115_j17875653886477_3_alg».proof.Proof.RefFrame
import proofs.«420115_j17875653886477_3_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_all m ρ,
    fun m ρ _ => Cert.KernelIdeal.Hand.frame_all m ρ,
    Cert.Proof.RefClaims.frame_ri,
    IdealRules.named_const.statement Cert.KernelIdeal.κ "neg_big" .f32 0xFF333332#32 ⊥ rfl,
    Cert.Proof.Bridge.algebraic⟩

end Cert.Proof

end
